-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S512x256 : Shape := ⟨2, ![512, 256]⟩
abbrev S1x256 : Shape := ⟨2, ![1, 256]⟩
abbrev S16x1x256 : Shape := ⟨3, ![16, 1, 256]⟩
abbrev S16 : Shape := ⟨1, ![16]⟩
abbrev S_ : Shape := ⟨0, ![]⟩
abbrev S256 : Shape := ⟨1, ![256]⟩
abbrev S1x1x256 : Shape := ⟨3, ![1, 1, 256]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S1x256, .f32⟩
  | .local _ .vmem, ⟨1, _⟩ => ⟨S512x256, .f32⟩
  | .local _ .vmem, ⟨2, _⟩ => ⟨S16x1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v202 : Index := Scalar.indexCast v2
  let c0_136 : Index := 0#32
  let c0_137 : Index := 0#32
  ![v202.toNat, 0, 0]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_149 : BitVec 32 := 0#32
  let c0_i32_150 : BitVec 32 := 0#32
  ![v2.toNat, 0, 0]
def k0_dev16 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_139 : BitVec 32 := 1#32
  let v206 : BitVec 32 := Scalar.addi v2 c1_i32_139
  let c16_i32_140 : BitVec 32 := 16#32
  let c0_i32_141 : BitVec 32 := 0#32
  let v207 : BitVec 1 := Scalar.cmpi .eq c16_i32_140 c0_i32_141
  let c1_i32_142 : BitVec 32 := 1#32
  let v208 : BitVec 32 := Scalar.select v207 c1_i32_142 c16_i32_140
  let v209 : BitVec 32 := Scalar.remsi v206 v208
  let c0_i32_144 : BitVec 32 := 0#32
  let v211 : BitVec 1 := Scalar.cmpi .slt v209 c0_i32_144
  let c0_i32_145 : BitVec 32 := 0#32
  let v212 : BitVec 1 := Scalar.cmpi .slt v208 c0_i32_145
  let v213 : BitVec 1 := Scalar.xori v211 v212
  let c0_i32_143 : BitVec 32 := 0#32
  let v210 : BitVec 1 := Scalar.cmpi .ne v209 c0_i32_143
  let v214 : BitVec 1 := Scalar.andi v213 v210
  let v215 : BitVec 32 := Scalar.addi v209 v208
  let v216 : BitVec 32 := Scalar.select v214 v215 v209
  let c1_i32_147 : BitVec 32 := 1#32
  let v217 : BitVec 32 := Scalar.muli v216 c1_i32_147
  let v218 : BitVec 32 := Scalar.addi c0_i32_148 v217
  v218.toNat
def k0_dev17 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_153 : BitVec 32 := 2#32
  let v227 : BitVec 32 := Scalar.addi v2 c2_i32_153
  let c16_i32_154 : BitVec 32 := 16#32
  let c0_i32_155 : BitVec 32 := 0#32
  let v228 : BitVec 1 := Scalar.cmpi .eq c16_i32_154 c0_i32_155
  let c1_i32_156 : BitVec 32 := 1#32
  let v229 : BitVec 32 := Scalar.select v228 c1_i32_156 c16_i32_154
  let v230 : BitVec 32 := Scalar.remsi v227 v229
  let c0_i32_158 : BitVec 32 := 0#32
  let v232 : BitVec 1 := Scalar.cmpi .slt v230 c0_i32_158
  let c0_i32_159 : BitVec 32 := 0#32
  let v233 : BitVec 1 := Scalar.cmpi .slt v229 c0_i32_159
  let v234 : BitVec 1 := Scalar.xori v232 v233
  let c0_i32_157 : BitVec 32 := 0#32
  let v231 : BitVec 1 := Scalar.cmpi .ne v230 c0_i32_157
  let v235 : BitVec 1 := Scalar.andi v234 v231
  let v236 : BitVec 32 := Scalar.addi v230 v229
  let v237 : BitVec 32 := Scalar.select v235 v236 v230
  let c1_i32_161 : BitVec 32 := 1#32
  let v238 : BitVec 32 := Scalar.muli v237 c1_i32_161
  let v239 : BitVec 32 := Scalar.addi c0_i32_162 v238
  v239.toNat
def k0_dev18 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_167 : BitVec 32 := 3#32
  let v248 : BitVec 32 := Scalar.addi v2 c3_i32_167
  let c16_i32_168 : BitVec 32 := 16#32
  let c0_i32_169 : BitVec 32 := 0#32
  let v249 : BitVec 1 := Scalar.cmpi .eq c16_i32_168 c0_i32_169
  let c1_i32_170 : BitVec 32 := 1#32
  let v250 : BitVec 32 := Scalar.select v249 c1_i32_170 c16_i32_168
  let v251 : BitVec 32 := Scalar.remsi v248 v250
  let c0_i32_172 : BitVec 32 := 0#32
  let v253 : BitVec 1 := Scalar.cmpi .slt v251 c0_i32_172
  let c0_i32_173 : BitVec 32 := 0#32
  let v254 : BitVec 1 := Scalar.cmpi .slt v250 c0_i32_173
  let v255 : BitVec 1 := Scalar.xori v253 v254
  let c0_i32_171 : BitVec 32 := 0#32
  let v252 : BitVec 1 := Scalar.cmpi .ne v251 c0_i32_171
  let v256 : BitVec 1 := Scalar.andi v255 v252
  let v257 : BitVec 32 := Scalar.addi v251 v250
  let v258 : BitVec 32 := Scalar.select v256 v257 v251
  let c1_i32_175 : BitVec 32 := 1#32
  let v259 : BitVec 32 := Scalar.muli v258 c1_i32_175
  let v260 : BitVec 32 := Scalar.addi c0_i32_176 v259
  v260.toNat
def k0_dev19 (d0 : Dev nD) : Nat :=
  let c0_i32_190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_181 : BitVec 32 := 4#32
  let v269 : BitVec 32 := Scalar.addi v2 c4_i32_181
  let c16_i32_182 : BitVec 32 := 16#32
  let c0_i32_183 : BitVec 32 := 0#32
  let v270 : BitVec 1 := Scalar.cmpi .eq c16_i32_182 c0_i32_183
  let c1_i32_184 : BitVec 32 := 1#32
  let v271 : BitVec 32 := Scalar.select v270 c1_i32_184 c16_i32_182
  let v272 : BitVec 32 := Scalar.remsi v269 v271
  let c0_i32_186 : BitVec 32 := 0#32
  let v274 : BitVec 1 := Scalar.cmpi .slt v272 c0_i32_186
  let c0_i32_187 : BitVec 32 := 0#32
  let v275 : BitVec 1 := Scalar.cmpi .slt v271 c0_i32_187
  let v276 : BitVec 1 := Scalar.xori v274 v275
  let c0_i32_185 : BitVec 32 := 0#32
  let v273 : BitVec 1 := Scalar.cmpi .ne v272 c0_i32_185
  let v277 : BitVec 1 := Scalar.andi v276 v273
  let v278 : BitVec 32 := Scalar.addi v272 v271
  let v279 : BitVec 32 := Scalar.select v277 v278 v272
  let c1_i32_189 : BitVec 32 := 1#32
  let v280 : BitVec 32 := Scalar.muli v279 c1_i32_189
  let v281 : BitVec 32 := Scalar.addi c0_i32_190 v280
  v281.toNat
def k0_dev20 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_195 : BitVec 32 := 5#32
  let v290 : BitVec 32 := Scalar.addi v2 c5_i32_195
  let c16_i32_196 : BitVec 32 := 16#32
  let c0_i32_197 : BitVec 32 := 0#32
  let v291 : BitVec 1 := Scalar.cmpi .eq c16_i32_196 c0_i32_197
  let c1_i32_198 : BitVec 32 := 1#32
  let v292 : BitVec 32 := Scalar.select v291 c1_i32_198 c16_i32_196
  let v293 : BitVec 32 := Scalar.remsi v290 v292
  let c0_i32_200 : BitVec 32 := 0#32
  let v295 : BitVec 1 := Scalar.cmpi .slt v293 c0_i32_200
  let c0_i32_201 : BitVec 32 := 0#32
  let v296 : BitVec 1 := Scalar.cmpi .slt v292 c0_i32_201
  let v297 : BitVec 1 := Scalar.xori v295 v296
  let c0_i32_199 : BitVec 32 := 0#32
  let v294 : BitVec 1 := Scalar.cmpi .ne v293 c0_i32_199
  let v298 : BitVec 1 := Scalar.andi v297 v294
  let v299 : BitVec 32 := Scalar.addi v293 v292
  let v300 : BitVec 32 := Scalar.select v298 v299 v293
  let c1_i32_203 : BitVec 32 := 1#32
  let v301 : BitVec 32 := Scalar.muli v300 c1_i32_203
  let v302 : BitVec 32 := Scalar.addi c0_i32_204 v301
  v302.toNat
def k0_dev21 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_209 : BitVec 32 := 6#32
  let v311 : BitVec 32 := Scalar.addi v2 c6_i32_209
  let c16_i32_210 : BitVec 32 := 16#32
  let c0_i32_211 : BitVec 32 := 0#32
  let v312 : BitVec 1 := Scalar.cmpi .eq c16_i32_210 c0_i32_211
  let c1_i32_212 : BitVec 32 := 1#32
  let v313 : BitVec 32 := Scalar.select v312 c1_i32_212 c16_i32_210
  let v314 : BitVec 32 := Scalar.remsi v311 v313
  let c0_i32_214 : BitVec 32 := 0#32
  let v316 : BitVec 1 := Scalar.cmpi .slt v314 c0_i32_214
  let c0_i32_215 : BitVec 32 := 0#32
  let v317 : BitVec 1 := Scalar.cmpi .slt v313 c0_i32_215
  let v318 : BitVec 1 := Scalar.xori v316 v317
  let c0_i32_213 : BitVec 32 := 0#32
  let v315 : BitVec 1 := Scalar.cmpi .ne v314 c0_i32_213
  let v319 : BitVec 1 := Scalar.andi v318 v315
  let v320 : BitVec 32 := Scalar.addi v314 v313
  let v321 : BitVec 32 := Scalar.select v319 v320 v314
  let c1_i32_217 : BitVec 32 := 1#32
  let v322 : BitVec 32 := Scalar.muli v321 c1_i32_217
  let v323 : BitVec 32 := Scalar.addi c0_i32_218 v322
  v323.toNat
def k0_dev22 (d0 : Dev nD) : Nat :=
  let c0_i32_232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_223 : BitVec 32 := 7#32
  let v332 : BitVec 32 := Scalar.addi v2 c7_i32_223
  let c16_i32_224 : BitVec 32 := 16#32
  let c0_i32_225 : BitVec 32 := 0#32
  let v333 : BitVec 1 := Scalar.cmpi .eq c16_i32_224 c0_i32_225
  let c1_i32_226 : BitVec 32 := 1#32
  let v334 : BitVec 32 := Scalar.select v333 c1_i32_226 c16_i32_224
  let v335 : BitVec 32 := Scalar.remsi v332 v334
  let c0_i32_228 : BitVec 32 := 0#32
  let v337 : BitVec 1 := Scalar.cmpi .slt v335 c0_i32_228
  let c0_i32_229 : BitVec 32 := 0#32
  let v338 : BitVec 1 := Scalar.cmpi .slt v334 c0_i32_229
  let v339 : BitVec 1 := Scalar.xori v337 v338
  let c0_i32_227 : BitVec 32 := 0#32
  let v336 : BitVec 1 := Scalar.cmpi .ne v335 c0_i32_227
  let v340 : BitVec 1 := Scalar.andi v339 v336
  let v341 : BitVec 32 := Scalar.addi v335 v334
  let v342 : BitVec 32 := Scalar.select v340 v341 v335
  let c1_i32_231 : BitVec 32 := 1#32
  let v343 : BitVec 32 := Scalar.muli v342 c1_i32_231
  let v344 : BitVec 32 := Scalar.addi c0_i32_232 v343
  v344.toNat
def k0_dev23 (d0 : Dev nD) : Nat :=
  let c0_i32_246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_237 : BitVec 32 := 8#32
  let v353 : BitVec 32 := Scalar.addi v2 c8_i32_237
  let c16_i32_238 : BitVec 32 := 16#32
  let c0_i32_239 : BitVec 32 := 0#32
  let v354 : BitVec 1 := Scalar.cmpi .eq c16_i32_238 c0_i32_239
  let c1_i32_240 : BitVec 32 := 1#32
  let v355 : BitVec 32 := Scalar.select v354 c1_i32_240 c16_i32_238
  let v356 : BitVec 32 := Scalar.remsi v353 v355
  let c0_i32_242 : BitVec 32 := 0#32
  let v358 : BitVec 1 := Scalar.cmpi .slt v356 c0_i32_242
  let c0_i32_243 : BitVec 32 := 0#32
  let v359 : BitVec 1 := Scalar.cmpi .slt v355 c0_i32_243
  let v360 : BitVec 1 := Scalar.xori v358 v359
  let c0_i32_241 : BitVec 32 := 0#32
  let v357 : BitVec 1 := Scalar.cmpi .ne v356 c0_i32_241
  let v361 : BitVec 1 := Scalar.andi v360 v357
  let v362 : BitVec 32 := Scalar.addi v356 v355
  let v363 : BitVec 32 := Scalar.select v361 v362 v356
  let c1_i32_245 : BitVec 32 := 1#32
  let v364 : BitVec 32 := Scalar.muli v363 c1_i32_245
  let v365 : BitVec 32 := Scalar.addi c0_i32_246 v364
  v365.toNat
def k0_dev24 (d0 : Dev nD) : Nat :=
  let c0_i32_260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_251 : BitVec 32 := 9#32
  let v374 : BitVec 32 := Scalar.addi v2 c9_i32_251
  let c16_i32_252 : BitVec 32 := 16#32
  let c0_i32_253 : BitVec 32 := 0#32
  let v375 : BitVec 1 := Scalar.cmpi .eq c16_i32_252 c0_i32_253
  let c1_i32_254 : BitVec 32 := 1#32
  let v376 : BitVec 32 := Scalar.select v375 c1_i32_254 c16_i32_252
  let v377 : BitVec 32 := Scalar.remsi v374 v376
  let c0_i32_256 : BitVec 32 := 0#32
  let v379 : BitVec 1 := Scalar.cmpi .slt v377 c0_i32_256
  let c0_i32_257 : BitVec 32 := 0#32
  let v380 : BitVec 1 := Scalar.cmpi .slt v376 c0_i32_257
  let v381 : BitVec 1 := Scalar.xori v379 v380
  let c0_i32_255 : BitVec 32 := 0#32
  let v378 : BitVec 1 := Scalar.cmpi .ne v377 c0_i32_255
  let v382 : BitVec 1 := Scalar.andi v381 v378
  let v383 : BitVec 32 := Scalar.addi v377 v376
  let v384 : BitVec 32 := Scalar.select v382 v383 v377
  let c1_i32_259 : BitVec 32 := 1#32
  let v385 : BitVec 32 := Scalar.muli v384 c1_i32_259
  let v386 : BitVec 32 := Scalar.addi c0_i32_260 v385
  v386.toNat
def k0_dev25 (d0 : Dev nD) : Nat :=
  let c0_i32_274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_265 : BitVec 32 := 10#32
  let v395 : BitVec 32 := Scalar.addi v2 c10_i32_265
  let c16_i32_266 : BitVec 32 := 16#32
  let c0_i32_267 : BitVec 32 := 0#32
  let v396 : BitVec 1 := Scalar.cmpi .eq c16_i32_266 c0_i32_267
  let c1_i32_268 : BitVec 32 := 1#32
  let v397 : BitVec 32 := Scalar.select v396 c1_i32_268 c16_i32_266
  let v398 : BitVec 32 := Scalar.remsi v395 v397
  let c0_i32_270 : BitVec 32 := 0#32
  let v400 : BitVec 1 := Scalar.cmpi .slt v398 c0_i32_270
  let c0_i32_271 : BitVec 32 := 0#32
  let v401 : BitVec 1 := Scalar.cmpi .slt v397 c0_i32_271
  let v402 : BitVec 1 := Scalar.xori v400 v401
  let c0_i32_269 : BitVec 32 := 0#32
  let v399 : BitVec 1 := Scalar.cmpi .ne v398 c0_i32_269
  let v403 : BitVec 1 := Scalar.andi v402 v399
  let v404 : BitVec 32 := Scalar.addi v398 v397
  let v405 : BitVec 32 := Scalar.select v403 v404 v398
  let c1_i32_273 : BitVec 32 := 1#32
  let v406 : BitVec 32 := Scalar.muli v405 c1_i32_273
  let v407 : BitVec 32 := Scalar.addi c0_i32_274 v406
  v407.toNat
def k0_dev26 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_279 : BitVec 32 := 11#32
  let v416 : BitVec 32 := Scalar.addi v2 c11_i32_279
  let c16_i32_280 : BitVec 32 := 16#32
  let c0_i32_281 : BitVec 32 := 0#32
  let v417 : BitVec 1 := Scalar.cmpi .eq c16_i32_280 c0_i32_281
  let c1_i32_282 : BitVec 32 := 1#32
  let v418 : BitVec 32 := Scalar.select v417 c1_i32_282 c16_i32_280
  let v419 : BitVec 32 := Scalar.remsi v416 v418
  let c0_i32_284 : BitVec 32 := 0#32
  let v421 : BitVec 1 := Scalar.cmpi .slt v419 c0_i32_284
  let c0_i32_285 : BitVec 32 := 0#32
  let v422 : BitVec 1 := Scalar.cmpi .slt v418 c0_i32_285
  let v423 : BitVec 1 := Scalar.xori v421 v422
  let c0_i32_283 : BitVec 32 := 0#32
  let v420 : BitVec 1 := Scalar.cmpi .ne v419 c0_i32_283
  let v424 : BitVec 1 := Scalar.andi v423 v420
  let v425 : BitVec 32 := Scalar.addi v419 v418
  let v426 : BitVec 32 := Scalar.select v424 v425 v419
  let c1_i32_287 : BitVec 32 := 1#32
  let v427 : BitVec 32 := Scalar.muli v426 c1_i32_287
  let v428 : BitVec 32 := Scalar.addi c0_i32_288 v427
  v428.toNat
def k0_dev27 (d0 : Dev nD) : Nat :=
  let c0_i32_302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_293 : BitVec 32 := 12#32
  let v437 : BitVec 32 := Scalar.addi v2 c12_i32_293
  let c16_i32_294 : BitVec 32 := 16#32
  let c0_i32_295 : BitVec 32 := 0#32
  let v438 : BitVec 1 := Scalar.cmpi .eq c16_i32_294 c0_i32_295
  let c1_i32_296 : BitVec 32 := 1#32
  let v439 : BitVec 32 := Scalar.select v438 c1_i32_296 c16_i32_294
  let v440 : BitVec 32 := Scalar.remsi v437 v439
  let c0_i32_298 : BitVec 32 := 0#32
  let v442 : BitVec 1 := Scalar.cmpi .slt v440 c0_i32_298
  let c0_i32_299 : BitVec 32 := 0#32
  let v443 : BitVec 1 := Scalar.cmpi .slt v439 c0_i32_299
  let v444 : BitVec 1 := Scalar.xori v442 v443
  let c0_i32_297 : BitVec 32 := 0#32
  let v441 : BitVec 1 := Scalar.cmpi .ne v440 c0_i32_297
  let v445 : BitVec 1 := Scalar.andi v444 v441
  let v446 : BitVec 32 := Scalar.addi v440 v439
  let v447 : BitVec 32 := Scalar.select v445 v446 v440
  let c1_i32_301 : BitVec 32 := 1#32
  let v448 : BitVec 32 := Scalar.muli v447 c1_i32_301
  let v449 : BitVec 32 := Scalar.addi c0_i32_302 v448
  v449.toNat
def k0_dev28 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_307 : BitVec 32 := 13#32
  let v458 : BitVec 32 := Scalar.addi v2 c13_i32_307
  let c16_i32_308 : BitVec 32 := 16#32
  let c0_i32_309 : BitVec 32 := 0#32
  let v459 : BitVec 1 := Scalar.cmpi .eq c16_i32_308 c0_i32_309
  let c1_i32_310 : BitVec 32 := 1#32
  let v460 : BitVec 32 := Scalar.select v459 c1_i32_310 c16_i32_308
  let v461 : BitVec 32 := Scalar.remsi v458 v460
  let c0_i32_312 : BitVec 32 := 0#32
  let v463 : BitVec 1 := Scalar.cmpi .slt v461 c0_i32_312
  let c0_i32_313 : BitVec 32 := 0#32
  let v464 : BitVec 1 := Scalar.cmpi .slt v460 c0_i32_313
  let v465 : BitVec 1 := Scalar.xori v463 v464
  let c0_i32_311 : BitVec 32 := 0#32
  let v462 : BitVec 1 := Scalar.cmpi .ne v461 c0_i32_311
  let v466 : BitVec 1 := Scalar.andi v465 v462
  let v467 : BitVec 32 := Scalar.addi v461 v460
  let v468 : BitVec 32 := Scalar.select v466 v467 v461
  let c1_i32_315 : BitVec 32 := 1#32
  let v469 : BitVec 32 := Scalar.muli v468 c1_i32_315
  let v470 : BitVec 32 := Scalar.addi c0_i32_316 v469
  v470.toNat
def k0_dev29 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_321 : BitVec 32 := 14#32
  let v479 : BitVec 32 := Scalar.addi v2 c14_i32_321
  let c16_i32_322 : BitVec 32 := 16#32
  let c0_i32_323 : BitVec 32 := 0#32
  let v480 : BitVec 1 := Scalar.cmpi .eq c16_i32_322 c0_i32_323
  let c1_i32_324 : BitVec 32 := 1#32
  let v481 : BitVec 32 := Scalar.select v480 c1_i32_324 c16_i32_322
  let v482 : BitVec 32 := Scalar.remsi v479 v481
  let c0_i32_326 : BitVec 32 := 0#32
  let v484 : BitVec 1 := Scalar.cmpi .slt v482 c0_i32_326
  let c0_i32_327 : BitVec 32 := 0#32
  let v485 : BitVec 1 := Scalar.cmpi .slt v481 c0_i32_327
  let v486 : BitVec 1 := Scalar.xori v484 v485
  let c0_i32_325 : BitVec 32 := 0#32
  let v483 : BitVec 1 := Scalar.cmpi .ne v482 c0_i32_325
  let v487 : BitVec 1 := Scalar.andi v486 v483
  let v488 : BitVec 32 := Scalar.addi v482 v481
  let v489 : BitVec 32 := Scalar.select v487 v488 v482
  let c1_i32_329 : BitVec 32 := 1#32
  let v490 : BitVec 32 := Scalar.muli v489 c1_i32_329
  let v491 : BitVec 32 := Scalar.addi c0_i32_330 v490
  v491.toNat
def k0_dev30 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_335 : BitVec 32 := 15#32
  let v500 : BitVec 32 := Scalar.addi v2 c15_i32_335
  let c16_i32_336 : BitVec 32 := 16#32
  let c0_i32_337 : BitVec 32 := 0#32
  let v501 : BitVec 1 := Scalar.cmpi .eq c16_i32_336 c0_i32_337
  let c1_i32_338 : BitVec 32 := 1#32
  let v502 : BitVec 32 := Scalar.select v501 c1_i32_338 c16_i32_336
  let v503 : BitVec 32 := Scalar.remsi v500 v502
  let c0_i32_340 : BitVec 32 := 0#32
  let v505 : BitVec 1 := Scalar.cmpi .slt v503 c0_i32_340
  let c0_i32_341 : BitVec 32 := 0#32
  let v506 : BitVec 1 := Scalar.cmpi .slt v502 c0_i32_341
  let v507 : BitVec 1 := Scalar.xori v505 v506
  let c0_i32_339 : BitVec 32 := 0#32
  let v504 : BitVec 1 := Scalar.cmpi .ne v503 c0_i32_339
  let v508 : BitVec 1 := Scalar.andi v507 v504
  let v509 : BitVec 32 := Scalar.addi v503 v502
  let v510 : BitVec 32 := Scalar.select v508 v509 v503
  let c1_i32_343 : BitVec 32 := 1#32
  let v511 : BitVec 32 := Scalar.muli v510 c1_i32_343
  let v512 : BitVec 32 := Scalar.addi c0_i32_344 v511
  v512.toNat
def k0_off4 (d0 : Dev nD) (c1_i32_349 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v521 : BitVec 32 := Scalar.addi v2 c1_i32_349
  let c16_i32_350 : BitVec 32 := 16#32
  let c0_i32_351 : BitVec 32 := 0#32
  let v522 : BitVec 1 := Scalar.cmpi .eq c16_i32_350 c0_i32_351
  let c1_i32_352 : BitVec 32 := 1#32
  let v523 : BitVec 32 := Scalar.select v522 c1_i32_352 c16_i32_350
  let v524 : BitVec 32 := Scalar.remsi v521 v523
  let c0_i32_354 : BitVec 32 := 0#32
  let v526 : BitVec 1 := Scalar.cmpi .slt v524 c0_i32_354
  let c0_i32_355 : BitVec 32 := 0#32
  let v527 : BitVec 1 := Scalar.cmpi .slt v523 c0_i32_355
  let v528 : BitVec 1 := Scalar.xori v526 v527
  let c0_i32_353 : BitVec 32 := 0#32
  let v525 : BitVec 1 := Scalar.cmpi .ne v524 c0_i32_353
  let v529 : BitVec 1 := Scalar.andi v528 v525
  let v530 : BitVec 32 := Scalar.addi v524 v523
  let v531 : BitVec 32 := Scalar.select v529 v530 v524
  ![v531.toNat]
def k0_off5 (d0 : Dev nD) (c1_i32_349 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v521 : BitVec 32 := Scalar.addi v2 c1_i32_349
  let c16_i32_350 : BitVec 32 := 16#32
  let c0_i32_351 : BitVec 32 := 0#32
  let v522 : BitVec 1 := Scalar.cmpi .eq c16_i32_350 c0_i32_351
  let c1_i32_352 : BitVec 32 := 1#32
  let v523 : BitVec 32 := Scalar.select v522 c1_i32_352 c16_i32_350
  let v524 : BitVec 32 := Scalar.remsi v521 v523
  let c0_i32_354 : BitVec 32 := 0#32
  let v526 : BitVec 1 := Scalar.cmpi .slt v524 c0_i32_354
  let c0_i32_355 : BitVec 32 := 0#32
  let v527 : BitVec 1 := Scalar.cmpi .slt v523 c0_i32_355
  let v528 : BitVec 1 := Scalar.xori v526 v527
  let c0_i32_353 : BitVec 32 := 0#32
  let v525 : BitVec 1 := Scalar.cmpi .ne v524 c0_i32_353
  let v529 : BitVec 1 := Scalar.andi v528 v525
  let v530 : BitVec 32 := Scalar.addi v524 v523
  let v531 : BitVec 32 := Scalar.select v529 v530 v524
  let c0_i32_359 : BitVec 32 := 0#32
  let c0_i32_360 : BitVec 32 := 0#32
  ![v531.toNat, 0, 0]
abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  reduces_S512x256_S256 : S512x256.Reduces [0] S256
  shapeCasts_S256_S1x256 : S256.ShapeCasts S1x256
  h_S1x1x256 : 0 < S1x1x256.numel
  shapeCasts_S1x1x256_S1x256 : S1x1x256.ShapeCasts S1x256
  shapeCasts_S1x256_S1x1x256 : S1x256.ShapeCasts S1x1x256
  hamt_15 : (15#32 : BitVec 32).msb = false
  inb_S16_S1_1 : ∀ a, (![1] : Fin 1 → Nat) a + S1.size a ≤ S16.size a
  squeezes_S1_S_ : S1.Squeezes S_
  squeezes_S1x1x256_S1x256 : S1x1x256.Squeezes S1x256
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  inb_S16x1x256_S16x1x256_0_0_0 : ∀ a, (![0, 0, 0] : Fin 3 → Nat) a + S16x1x256.size a ≤ S16x1x256.size a
  h_S16x1x256 : 0 < S16x1x256.numel
  reduces_S16x1x256_S1x256 : S16x1x256.Reduces [0] S1x256
  inb_S1x256_S1x256_0_0 : ∀ a, (![0, 0] : Fin 2 → Nat) a + S1x256.size a ≤ S1x256.size a
  h_S1x256 : 0 < S1x256.numel
  hcc0_scratch2 : 1 + S16.numel ≤ 34
  hcc0_scratch3 : 17 + S16.numel ≤ 34
  hcc0_scratch4 : 33 + S_.numel ≤ 34
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off1_inb : ∀ d0 : Dev nD, ∀ a, (k0_off1 d0) a + S1x1x256.size a ≤ S16x1x256.size a
  k0_off2_inb : ∀ d0 : Dev nD, ∀ a, (k0_off2 d0) a + S1.size a ≤ S16.size a
  k0_off3_inb : ∀ d0 : Dev nD, ∀ a, (k0_off3 d0) a + S1x1x256.size a ≤ S16x1x256.size a
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off4_inb : ∀ d0 : Dev nD, ∀ (r : Fin 15), ∀ a, (k0_off4 d0 (BitVec.ofNat 32 (1 + r.val))) a + S1.size a ≤ S16.size a
  k0_off5_inb : ∀ d0 : Dev nD, ∀ (r : Fin 15), ∀ a, (k0_off5 d0 (BitVec.ofNat 32 (1 + r.val))) a + S1x1x256.size a ≤ S16x1x256.size a
  hstage0_0 : ∀ j, (stage0_0 j).IsWhole

variable [Facts₀]

abbrev cc0_scratch2 : DmaSems sig S16 := SemArray.consecutive 1 S16 hcc0_scratch2
abbrev cc0_scratch3 : DmaSems sig S16 := SemArray.consecutive 17 S16 hcc0_scratch3
abbrev cc0_scratch4 : DmaSems sig S_ := SemArray.consecutive 33 S_ hcc0_scratch4

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S256 : Shape := ⟨1, ![256]⟩
abbrev S1x256 : Shape := ⟨2, ![1, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S_, .f32⟩
  | .hbm, ⟨2, _⟩ => ⟨S256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S8192x256_S256_d0 : S8192x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)

variable [Facts₀]

class Facts : Prop extends Facts₀ where

variable [Facts]
-- ==== Proof.KernelIdealMean.lean ====
import proofs.«900952_g7700000000000953_dist_mean_ax0_shard0_i_m512_n256_v7x_i16_bf16_1_alg».proof.Proof.Gen.KernelIdeal
import Idealize.ShloMosaic.Lib.ValueIdx

/-!
The mathematics of the kernel, as pure functions of arrays: every device sums the 512 rows of its block of
`x` into one row of 256 numbers; the sixteen rows are gathered into a table of shape 16 × 1 × 256 on every
device; the table is summed over its sixteen rows and scaled by 2⁻¹³ = 1/8192.
-/

noncomputable section

namespace Cert.KernelIdeal.Mean

open Idealize.ShloMosaic Idealize.ShloMosaic.ValueIdx
open Cert.KernelIdeal Cert.KernelIdeal.Gen

variable {F : FTy → Type} [FloatOps F]

/-- A device's block summed over its rows, laid out as one row of the gathered table. -/
def rowSum (x : Vec F S512x256 .f32) : Vec F S1x1x256 .f32 :=
  shapeCast S1x1x256
    (shapeCast S1x256 (multiReduction .add [0] S256 x 0x00000000#32 reduces_S512x256_S256 (.inl rfl) rfl) shapeCasts_S256_S1x256)
    shapeCasts_S1x256_S1x1x256

/-- The gathered table: row `j` holds device `j`'s row sums. -/
def table (xs : Fin 16 → Vec F S512x256 .f32) : Vec F S16x1x256 .f32 :=
  fun i => rowSum (xs (i 0)) (ix3 (0 : Fin 1) (0 : Fin 1) (i 2))

/-- The result from the gathered table: its sixteen rows summed, times 2⁻¹³. -/
def outOf (t : Vec F S16x1x256 .f32) : Vec F S1x256 .f32 :=
  mulf (multiReduction .add [0] S1x256 t 0x00000000#32 reduces_S16x1x256_S1x256 (.inl rfl) rfl)
    (broadcast S1x256 (Scalar.ofBits .f32 0x39000000#32))

end Cert.KernelIdeal.Mean

end
-- ==== Proof.KernelIdealBase.lean ====
import proofs.«900952_g7700000000000953_dist_mean_ax0_shard0_i_m512_n256_v7x_i16_bf16_1_alg».proof.Proof.Gen.KernelIdeal
import proofs.«900952_g7700000000000953_dist_mean_ax0_shard0_i_m512_n256_v7x_i16_bf16_1_alg».proof.Proof.Gen.KernelIdeal.Launch
import proofs.«900952_g7700000000000953_dist_mean_ax0_shard0_i_m512_n256_v7x_i16_bf16_1_alg».proof.Proof.KernelIdealMean
import Idealize.ShloMosaic.Lib.Pipeline.Launch
import Idealize.ShloMosaic.Lib.Pipeline.Kit
import Idealize.ShloMosaic.Lib.Transfers
import Idealize.ShloMosaic.Lib.Tactic

/-!
The sixteen devices, their peers at an offset, the semaphore cells of the all-to-all exchange of row sums, and the
views of the gathered table's rows.
-/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, whose duties are named by an offset -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Peers: the device `d` places after `c` around the ring of sixteen -/

def pr (c : Dev nD) (d : Fin 16) : Dev nD := ⟨(c.val + d.val) % 16, Nat.mod_lt _ (by decide)⟩
/-- The offset that undoes `d`. -/
def ng (d : Fin 16) : Fin 16 := ⟨(16 - d.val) % 16, Nat.mod_lt _ (by decide)⟩

theorem pr_zero (c : Dev nD) : pr c 0 = c := by revert c; decide
theorem pr_ng (c : Dev nD) (d : Fin 16) : pr (pr c d) (ng d) = c := by revert c d; decide
theorem pr_ng' (c : Dev nD) (d : Fin 16) : pr (pr c (ng d)) d = c := by revert c d; decide
theorem ng_ng (d : Fin 16) : ng (ng d) = d := by revert d; decide
theorem ng_ne_zero {d : Fin 16} (h : d ≠ 0) : ng d ≠ 0 := by revert d; decide
theorem pr_ne {c : Dev nD} {d : Fin 16} (h : d ≠ 0) : pr c d ≠ c := by revert c d; decide
theorem pr_inj {c : Dev nD} {d d' : Fin 16} (h : pr c d = pr c d') : d = d' := by revert c d d'; decide
theorem pr_inj_left {c c' : Dev nD} {d : Fin 16} (h : pr c d = pr c' d) : c = c' := by revert c c' d; decide
/-- Every other device is some nonzero offset away. -/
def off (c j : Dev nD) : Fin 16 := ⟨(j.val + 16 - c.val) % 16, Nat.mod_lt _ (by decide)⟩
theorem pr_off (c j : Dev nD) : pr c (off c j) = j := by revert c j; decide
theorem off_pr (c : Dev nD) (d : Fin 16) : off c (pr c d) = d := by revert c d; decide
theorem off_ne_zero {c j : Dev nD} (h : j ≠ c) : off c j ≠ 0 := by revert c j; decide

/-- Moving every device `d` places on is a permutation of the devices. -/
def shift (d : Fin 16) : Dev nD ≃ Dev nD := ⟨fun c => pr c d, fun c => pr c (ng d), fun c => pr_ng c d, fun c => pr_ng' c d⟩

/-- The nonzero offsets. -/
abbrev nz : Finset (Fin 16) := Finset.univ.erase 0

/-! ## The buffers -/

abbrev xM : Memref sig .tc .hbm S512x256 .f32 := Memref.whole main_arg0
abbrev xvM : Memref sig .tc .vmem S512x256 .f32 := Memref.whole cc0_scratch0
abbrev commM : Memref sig .tc .vmem S16x1x256 .f32 := Memref.whole cc0_scratch1
abbrev outM : Memref sig .tc .vmem S1x256 .f32 := Memref.whole cc0_stg0_0

theorem rowInb (j : Fin 16) : ∀ a, (![j.val, 0, 0] : Fin 3 → Nat) a + S1x1x256.size a ≤ S16x1x256.size a := by
  revert j; decide

/-- Row `j` of the gathered table as a rectangle of it, -/
abbrev rowR (j : Fin 16) : Rect S16x1x256 := Rect.unit (s := S16x1x256) ![j.val, 0, 0] S1x1x256.size (rowInb j)
/-- and as the 1 × 256 buffer a transfer moves. -/
abbrev rowM (j : Fin 16) : Memref sig .tc .vmem S1x256 .f32 :=
  ((commM.slice (rowR j) (fun _ => rfl)).squeeze S1x256 squeezes_S1x1x256_S1x256)

/-! ## The semaphores and their cells -/

abbrev barS : Sem sig := (SemArray.scalar (sig.barrier 0 rfl) : Sems sig S_).sem

theorem semInb (d : Fin 16) : ∀ a, (![d.val] : Fin 1 → Nat) a + S1.size a ≤ S16.size a := by revert d; decide

/-- The send semaphore of the transfer to the peer at offset `d`; -/
abbrev sendS (d : Fin 16) : DmaSem sig :=
  ((cc0_scratch2.slice (Rect.unit (s := S16) ![d.val] S1.size (semInb d))).squeeze S_ squeezes_S1_S_).sem
/-- the receive semaphore on which device `j`'s row lands; -/
abbrev recvS (j : Fin 16) : DmaSem sig :=
  ((cc0_scratch3.slice (Rect.unit (s := S16) ![j.val] S1.size (semInb j))).squeeze S_ squeezes_S1_S_).sem
/-- the semaphore of the block's load into VMEM. -/
abbrev loadS : DmaSem sig := cc0_scratch4.sem

theorem sendS_val (d : Fin 16) : (sendS d).val = 1 + d.val := by revert d; decide
theorem recvS_val (j : Fin 16) : (recvS j).val = 17 + j.val := by revert j; decide
theorem loadS_val : (loadS : DmaSem sig).val = 33 := by decide

abbrev barCell (c : Dev nD) : GSem nD τ sig := ((c : Thread nD τ), .reg barS)
abbrev sendCell (c : Dev nD) (d : Fin 16) : GSem nD τ sig := ((c : Thread nD τ), .dma (sendS d))
abbrev recvCell (c : Dev nD) (j : Fin 16) : GSem nD τ sig := ((c : Thread nD τ), .dma (recvS j))
abbrev loadCell (c : Dev nD) : GSem nD τ sig := ((c : Thread nD τ), .dma loadS)

/-- A transfer of one row credits this many units. -/
abbrev N1 : ℕ := (rowM 0 : Memref sig .tc .vmem S1x256 .f32).view.dmaCredit
/-- The block's load credits this many. -/
abbrev NL : ℕ := (xvM : Memref sig .tc .vmem S512x256 .f32).view.dmaCredit

end Cert.KernelIdealProof

end
-- ==== Proof.KernelIdealArith.lean ====
import proofs.«900952_g7700000000000953_dist_mean_ax0_shard0_i_m512_n256_v7x_i16_bf16_1_alg».proof.Proof.KernelIdealBase

/-!
The printed device chains, offsets and semaphore slices in closed form: the device `(c + d) mod 16` is `pr c d`,
the row of the table at a printed offset is `rowM`, a printed semaphore slice is `sendS` / `recvS`.
-/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## The device chains: signal `d` and transfer `d` address the device `d` places on -/

theorem dev1_eq (c : Dev nD) : (⟨k0_dev1 c, k0_dev1_lt c⟩ : Dev nD) = pr c 1 := by revert c; decide +kernel
theorem dev2_eq (c : Dev nD) : (⟨k0_dev2 c, k0_dev2_lt c⟩ : Dev nD) = pr c 2 := by revert c; decide +kernel
theorem dev3_eq (c : Dev nD) : (⟨k0_dev3 c, k0_dev3_lt c⟩ : Dev nD) = pr c 3 := by revert c; decide +kernel
theorem dev4_eq (c : Dev nD) : (⟨k0_dev4 c, k0_dev4_lt c⟩ : Dev nD) = pr c 4 := by revert c; decide +kernel
theorem dev5_eq (c : Dev nD) : (⟨k0_dev5 c, k0_dev5_lt c⟩ : Dev nD) = pr c 5 := by revert c; decide +kernel
theorem dev6_eq (c : Dev nD) : (⟨k0_dev6 c, k0_dev6_lt c⟩ : Dev nD) = pr c 6 := by revert c; decide +kernel
theorem dev7_eq (c : Dev nD) : (⟨k0_dev7 c, k0_dev7_lt c⟩ : Dev nD) = pr c 7 := by revert c; decide +kernel
theorem dev8_eq (c : Dev nD) : (⟨k0_dev8 c, k0_dev8_lt c⟩ : Dev nD) = pr c 8 := by revert c; decide +kernel
theorem dev9_eq (c : Dev nD) : (⟨k0_dev9 c, k0_dev9_lt c⟩ : Dev nD) = pr c 9 := by revert c; decide +kernel
theorem dev10_eq (c : Dev nD) : (⟨k0_dev10 c, k0_dev10_lt c⟩ : Dev nD) = pr c 10 := by revert c; decide +kernel
theorem dev11_eq (c : Dev nD) : (⟨k0_dev11 c, k0_dev11_lt c⟩ : Dev nD) = pr c 11 := by revert c; decide +kernel
theorem dev12_eq (c : Dev nD) : (⟨k0_dev12 c, k0_dev12_lt c⟩ : Dev nD) = pr c 12 := by revert c; decide +kernel
theorem dev13_eq (c : Dev nD) : (⟨k0_dev13 c, k0_dev13_lt c⟩ : Dev nD) = pr c 13 := by revert c; decide +kernel
theorem dev14_eq (c : Dev nD) : (⟨k0_dev14 c, k0_dev14_lt c⟩ : Dev nD) = pr c 14 := by revert c; decide +kernel
theorem dev15_eq (c : Dev nD) : (⟨k0_dev15 c, k0_dev15_lt c⟩ : Dev nD) = pr c 15 := by revert c; decide +kernel
theorem dev16_eq (c : Dev nD) : (⟨k0_dev16 c, k0_dev16_lt c⟩ : Dev nD) = pr c 1 := by revert c; decide +kernel
theorem dev17_eq (c : Dev nD) : (⟨k0_dev17 c, k0_dev17_lt c⟩ : Dev nD) = pr c 2 := by revert c; decide +kernel
theorem dev18_eq (c : Dev nD) : (⟨k0_dev18 c, k0_dev18_lt c⟩ : Dev nD) = pr c 3 := by revert c; decide +kernel
theorem dev19_eq (c : Dev nD) : (⟨k0_dev19 c, k0_dev19_lt c⟩ : Dev nD) = pr c 4 := by revert c; decide +kernel
theorem dev20_eq (c : Dev nD) : (⟨k0_dev20 c, k0_dev20_lt c⟩ : Dev nD) = pr c 5 := by revert c; decide +kernel
theorem dev21_eq (c : Dev nD) : (⟨k0_dev21 c, k0_dev21_lt c⟩ : Dev nD) = pr c 6 := by revert c; decide +kernel
theorem dev22_eq (c : Dev nD) : (⟨k0_dev22 c, k0_dev22_lt c⟩ : Dev nD) = pr c 7 := by revert c; decide +kernel
theorem dev23_eq (c : Dev nD) : (⟨k0_dev23 c, k0_dev23_lt c⟩ : Dev nD) = pr c 8 := by revert c; decide +kernel
theorem dev24_eq (c : Dev nD) : (⟨k0_dev24 c, k0_dev24_lt c⟩ : Dev nD) = pr c 9 := by revert c; decide +kernel
theorem dev25_eq (c : Dev nD) : (⟨k0_dev25 c, k0_dev25_lt c⟩ : Dev nD) = pr c 10 := by revert c; decide +kernel
theorem dev26_eq (c : Dev nD) : (⟨k0_dev26 c, k0_dev26_lt c⟩ : Dev nD) = pr c 11 := by revert c; decide +kernel
theorem dev27_eq (c : Dev nD) : (⟨k0_dev27 c, k0_dev27_lt c⟩ : Dev nD) = pr c 12 := by revert c; decide +kernel
theorem dev28_eq (c : Dev nD) : (⟨k0_dev28 c, k0_dev28_lt c⟩ : Dev nD) = pr c 13 := by revert c; decide +kernel
theorem dev29_eq (c : Dev nD) : (⟨k0_dev29 c, k0_dev29_lt c⟩ : Dev nD) = pr c 14 := by revert c; decide +kernel
theorem dev30_eq (c : Dev nD) : (⟨k0_dev30 c, k0_dev30_lt c⟩ : Dev nD) = pr c 15 := by revert c; decide +kernel

/-! ## The offsets -/

theorem off4_eq : ∀ (c : Dev nD) (r : Fin 15), k0_off4 c (BitVec.ofNat 32 (1 + r.val)) = ![(pr c ⟨1 + r.val, by omega⟩).val] := by decide +kernel
theorem off5_eq : ∀ (c : Dev nD) (r : Fin 15), k0_off5 c (BitVec.ofNat 32 (1 + r.val)) = ![(pr c ⟨1 + r.val, by omega⟩).val, 0, 0] := by decide +kernel

/-- The row of the table at an offset that is `(j, 0, 0)`. -/
theorem rowM_of_off (j : Fin 16) (off : Fin 3 → Nat) (h : ∀ a, off a + S1x1x256.size a ≤ S16x1x256.size a) (hoff : off = ![j.val, 0, 0]) :
    (((commM : Memref sig .tc .vmem S16x1x256 .f32).slice (Rect.unit (s := S16x1x256) off S1x1x256.size h) (fun _ => rfl)).squeeze S1x256 squeezes_S1x1x256_S1x256)
      = rowM j := by
  subst hoff; rfl

/-- The receive semaphore at an offset that is `(j)`. -/
theorem recvS_of_off (j : Fin 16) (off : Fin 1 → Nat) (h : ∀ a, off a + S1.size a ≤ S16.size a) (hoff : off = ![j.val]) :
    ((cc0_scratch3.slice (Rect.unit (s := S16) off S1.size h)).squeeze S_ squeezes_S1_S_).sem = recvS j := by
  subst hoff; rfl

end Cert.KernelIdealProof

end
-- ==== Proof.KernelIdealSched.lean ====
import proofs.«900952_g7700000000000953_dist_mean_ax0_shard0_i_m512_n256_v7x_i16_bf16_1_alg».proof.Proof.KernelIdealBase

/-!
The protocol of the exchange, as a schedule of duties. Every device `c`:
  * starts the load of its block into VMEM (one duty of its load cell, paid by its own copy);
  * tells each of the fifteen other devices, on that device's barrier cell, that row `c` of its own table is
    theirs to write (duty `e` of device `q`'s barrier cell is paid by device `q + e` and hands over row `q`
    of device `q + e`'s table);
  * stores its block's row sums in row `c` of its table, waits for the fifteen signals, and sends row `c` to
    row `c` of every other device's table (one duty of its send cell `d`, which returns the share of row `c`
    the transfer read; one duty of the receiver's receive cell `c`, which hands the receiver row `c` holding
    device `c`'s row sums);
  * waits for the fifteen rows sent to it, sums the table, and waits for its own fifteen transfers.
-/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- Device `j`'s block of `x`. -/
def xblk (j : Dev nD) : Vec F S512x256 .f32 := m ((j : Thread nD τ).loc main_arg0)
/-- The gathered table every device ends with: row `j` is device `j`'s row sums. -/
def tbl : Vec F S16x1x256 .f32 := Mean.table (fun j : Fin 16 => xblk m j)
/-- The result on every device. -/
def outV : Vec F S1x256 .f32 := Mean.outOf (tbl m)

/-- Row `j` of device `c`'s table, held at share `q` with contents `f`. -/
def rowPts (c : Dev nD) (j : Fin 16) (q : PosShare TreeShare)
    (f : Buf (Elt F) ((rowM j : Memref sig .tc .vmem S1x256 .f32).view.loc (c : Thread nD τ))) : sProp 𝕄 :=
  (rowM j : Memref sig .tc .vmem S1x256 .f32).view.loc (c : Thread nD τ) ↦[(rowM j : Memref sig .tc .vmem S1x256 .f32).view.set]{q} f

/-! ## The schedule -/

def barPay (c : Dev nD) (e : Fin 16) : sProp 𝕄 := iprop(∃ f, rowPts (pr c e) c fullShare f)
def recvPay (c : Dev nD) (j : Fin 16) : sProp 𝕄 := rowPts c j fullShare (tbl m)
def sendPay (c : Dev nD) (d : Fin 16) : sProp 𝕄 := rowPts c c (shareTok fullShare 16 d) (tbl m)
def loadPay (c : Dev nD) : sProp 𝕄 :=
  iprop((((c : Thread nD τ).loc cc0_scratch0) ↦{fullShare} xblk m c) ∗ (((c : Thread nD τ).loc main_arg0) ↦{fullShare} xblk m c))

abbrev IsBar (g : GSem nD τ sig) : Prop := g.1.2 = .tc ∧ g.2 = .reg barS
/-- The DMA cells that see a transfer: the load cell, the send cells of the nonzero offsets, the receive cells of the other devices. -/
abbrev IsUsed (g : GSem nD τ sig) : Prop :=
  g.1.2 = .tc ∧ (g.2 = .dma loadS ∨ (∃ d : Fin 16, d ≠ 0 ∧ g.2 = .dma (sendS d)) ∨ (∃ j : Fin 16, j ≠ g.1.1 ∧ g.2 = .dma (recvS j)))

/-- What duty `e` of cell `g` hands its owner. -/
def payOf (g : GSem nD τ sig) (e : Fin 16) : sProp 𝕄 :=
  match g.2 with
  | .reg _ => barPay g.1.1 e
  | .dma s =>
    if s = loadS then loadPay m g.1.1
    else if h : 17 ≤ s.val ∧ s.val < 33 then recvPay m g.1.1 ⟨s.val - 17, by omega⟩
    else if h : 1 ≤ s.val ∧ s.val < 17 then sendPay m g.1.1 ⟨s.val - 1, by omega⟩
    else iprop(emp)

/-- One round, round 0: a barrier cell has the fifteen duties of the nonzero offsets, one unit each; a load, send or
    receive cell that sees a transfer has the one duty `0` of that transfer's credit. -/
def exRd : Rounds.Schedule (GSem nD τ sig) (Fin 16) 𝕄 where
  duties g r := if r = 0 ∧ IsBar g then nz else if r = 0 ∧ IsUsed g then {0} else ∅
  unitless _ := False
  amount g _ _ := if g.2 = .reg barS then 1 else if g.2 = .dma loadS then NL else N1
  payload g _ e := payOf m g e
  amount_pos g _ _ _ := by
    by_cases h : g.2 = .reg barS
    · rw [if_pos h]; exact Nat.one_pos
    · rw [if_neg h]
      by_cases h' : g.2 = .dma loadS
      · rw [if_pos h']; exact View.dmaCredit_pos _ (by decide)
      · rw [if_neg h']; exact View.dmaCredit_pos _ (by decide)

/-! ## What each device owes at launch; the levels -/

/-- Device `c` owes every other device's receive cell `c` a row's credit, and every other device's barrier cell one unit. -/
def owedRecv (c : Dev nD) (S : Finset (Fin 16)) : CellTallies nD τ sig Unit := ∑ d ∈ S, tallyAt (recvCell (pr c d) c) () N1
def owedSig (c : Dev nD) (S : Finset (Fin 16)) : CellTallies nD τ sig Unit := ∑ d ∈ S, tallyAt (barCell (pr c d)) () 1
def O₀ (c : Dev nD) : CellTallies nD τ sig Unit := owedRecv c nz + owedSig c nz

def L (g : GSem nD τ sig) : Finset Unit := if g.1.2 = .tc then {()} else ∅
/-- barrier cells at 1, receive cells at 2, everything else (staging, load, send) at 0. -/
def lv (g : GSem nD τ sig) (_ : Unit) : ℕ := if g.2 = .reg barS then 1 else if (∃ j : Fin 16, g.2 = .dma (recvS j)) then 2 else 0

/-! ## All the cells of the exchange, device by device -/

/-- The cells of a device: the barrier cell, then the DMA cells 1 … 33 (sixteen send, sixteen receive, the load). -/
abbrev csem (k : Fin 34) : SemLoc sig := if k.val = 0 then .reg barS else .dma ⟨k.val, k.isLt⟩
abbrev kcell (ck : Dev nD × Fin 34) : GSem nD τ sig := ((ck.1 : Thread nD τ), csem ck.2)
/-- The kernel's own (scoped) semaphores, as the launch indexes them: the DMA semaphores 1 … 33. -/
abbrev osem : Fin 33 → SemLoc sig := fun k => .dma ⟨k.val + 1, by show k.val + 1 < 34; omega⟩

/-- The indices of a device's cells. -/
abbrev kSend (d : Fin 16) : Fin 34 := ⟨1 + d.val, by omega⟩
abbrev kRecv (j : Fin 16) : Fin 34 := ⟨17 + j.val, by omega⟩
abbrev kLoad : Fin 34 := ⟨33, by omega⟩

/-! ## The ghost state of a device -/

/-- Every cell's invariant under the names the launch allocated them at, and that every cell is at round 0 or later. -/
def records (K : Dev nD × Fin 34 → ℕ) : sProp 𝕄 :=
  iprop((bigSep Finset.univ fun ck : Dev nD × Fin 34 => cellInv ER (exRd m) (K ck) (kcell ck))
    ∗ bigSep Finset.univ fun ck : Dev nD × Fin 34 => reached ER (kcell ck) 0)

instance records_persistent (K : Dev nD × Fin 34 → ℕ) : BI.Persistent (records m K) := by unfold records; infer_instance

/-- The tokens of the duties device `c` pays: at every other device's barrier cell (duty: the offset back to `c`) and
    receive cell `c`, at its own fifteen send cells and its load cell. -/
def payToks (c : Dev nD) : sProp 𝕄 :=
  iprop((bigSep nz fun d => dutyTok ER (barCell (pr c d)) 0 (ng d))
    ∗ (bigSep nz fun d => dutyTok ER (recvCell (pr c d) c) 0 (0 : Fin 16))
    ∗ (bigSep nz fun d => dutyTok ER (sendCell c d) 0 (0 : Fin 16))
    ∗ dutyTok ER (loadCell c) 0 (0 : Fin 16))

/-- What stays with device `c`: its position at round 0 of each of its cells, and the tokens of the duties it pays. -/
def linear (c : Dev nD) : sProp 𝕄 :=
  iprop((bigSep Finset.univ fun k : Fin 34 => atPos ER (kcell (c, k)) 0 (∅ : Finset (Fin 16)) 0) ∗ payToks c)

def ghost (K : Dev nD × Fin 34 → ℕ) (c : Dev nD) : sProp 𝕄 := iprop(records m K ∗ linear c)

/-- The credit the other devices owe device `c`'s cells: fifteen units on its barrier cell, a row's credit on each
    receive cell of another device. -/
def creds (c : Dev nD) : sProp 𝕄 :=
  iprop(cred (tallyAt (barCell c) () 15) ∗ bigSep (Finset.univ.erase c) fun j : Fin 16 => cred (tallyAt (recvCell c j) () N1))

/-- What device `c`'s kernel starts from besides its scratch buffers. -/
def start (c : Dev nD) : sProp 𝕄 :=
  iprop((∃ K, ghost m K c) ∗ creds c ∗ levAts L lv ∗ (((c : Thread nD τ).loc main_arg0) ↦{fullShare} xblk m c))

def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- After the point: `x` as it was, the two scratch buffers whole again, the kernel's own thirty-three cells closed at zero. -/
def Φ₁ (c : Dev nD) : sProp 𝕄 :=
  iprop((((c : Thread nD τ).loc main_arg0) ↦{fullShare} xblk m c)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ bigSep Finset.univ fun k : Fin 33 => semVal ((c : Thread nD τ), osem k) 0)

/-! ## The pipeline's proof data: one window (the result), one point -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outV m
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdealProof

end
-- ==== Proof.KernelIdealTables.lean ====
import proofs.«900952_g7700000000000953_dist_mean_ax0_shard0_i_m512_n256_v7x_i16_bf16_1_alg».proof.Proof.KernelIdealSched

/-!
The schedule's tables read cell by cell: which duties a cell has, their amounts and payloads, what a round expects;
that a wait at a cell's level is allowed under what a device still owes; a cell's invariant and its reached round 0
out of the launch's records.
-/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-! Small facts on the semaphore names: a register semaphore is no DMA semaphore, and the DMA semaphores of the
exchange are told apart by their numbers (send 1 + d, receive 17 + j, load 33). -/

theorem dma_ne_reg (q : DmaSem sig) (s : Sem sig) : (SemLoc.dma q : SemLoc sig) ≠ .reg s := fun h => by cases h

theorem sendS_ne_loadS (d : Fin 16) : (sendS d : DmaSem sig) ≠ loadS := fun h => by
  have h' := congrArg Fin.val h; rw [sendS_val, loadS_val] at h'; omega
theorem recvS_ne_loadS (j : Fin 16) : (recvS j : DmaSem sig) ≠ loadS := fun h => by
  have h' := congrArg Fin.val h; rw [recvS_val, loadS_val] at h'; omega
theorem sendS_ne_recvS (d j : Fin 16) : (sendS d : DmaSem sig) ≠ recvS j := fun h => by
  have h' := congrArg Fin.val h; rw [sendS_val, recvS_val] at h'; omega
theorem sendS_inj {d d' : Fin 16} (h : (sendS d : DmaSem sig) = sendS d') : d = d' := by
  have h' := congrArg Fin.val h; rw [sendS_val, sendS_val] at h'; exact Fin.ext (by omega)
theorem recvS_inj {j j' : Fin 16} (h : (recvS j : DmaSem sig) = recvS j') : j = j' := by
  have h' := congrArg Fin.val h; rw [recvS_val, recvS_val] at h'; exact Fin.ext (by omega)

section Tables
variable (c : Dev nD)

theorem duties_bar : (exRd (F := F) m).duties (barCell c) 0 = nz := by
  dsimp only [exRd]; exact if_pos ⟨rfl, rfl, rfl⟩
theorem duties_send {d : Fin 16} (hd : d ≠ 0) : (exRd (F := F) m).duties (sendCell c d) 0 = {0} := by
  dsimp only [exRd]; rw [if_neg (fun h => dma_ne_reg _ _ h.2.2)]; exact if_pos ⟨rfl, rfl, .inr (.inl ⟨d, hd, rfl⟩)⟩
theorem duties_recv {j : Fin 16} (hj : j ≠ c) : (exRd (F := F) m).duties (recvCell c j) 0 = {0} := by
  dsimp only [exRd]; rw [if_neg (fun h => dma_ne_reg _ _ h.2.2)]; exact if_pos ⟨rfl, rfl, .inr (.inr ⟨j, hj, rfl⟩)⟩
theorem duties_load : (exRd (F := F) m).duties (loadCell c) 0 = {0} := by
  dsimp only [exRd]; rw [if_neg (fun h => dma_ne_reg _ _ h.2.2)]; exact if_pos ⟨rfl, rfl, .inl rfl⟩
/-- The two cells of a device that see no transfer have no duty at all. -/
theorem duties_send0 (r : ℕ) : (exRd (F := F) m).duties (sendCell c 0) r = ∅ := by
  dsimp only [exRd]
  rw [if_neg (fun h => dma_ne_reg _ _ h.2.2), if_neg]
  rintro ⟨-, -, h | ⟨d, hd, h⟩ | ⟨j, -, h⟩⟩
  · exact sendS_ne_loadS 0 (SemLoc.dma.inj h)
  · exact hd (sendS_inj (SemLoc.dma.inj h)).symm
  · exact sendS_ne_recvS 0 j (SemLoc.dma.inj h)
theorem duties_recvSelf (r : ℕ) : (exRd (F := F) m).duties (recvCell c c) r = ∅ := by
  dsimp only [exRd]
  rw [if_neg (fun h => dma_ne_reg _ _ h.2.2), if_neg]
  rintro ⟨-, -, h | ⟨d, -, h⟩ | ⟨j, hj, h⟩⟩
  · exact recvS_ne_loadS c (SemLoc.dma.inj h)
  · exact sendS_ne_recvS d c (SemLoc.dma.inj h).symm
  · exact hj (recvS_inj (SemLoc.dma.inj h)).symm
theorem duties_later (g : GSem nD τ sig) : ∀ r, 1 ≤ r → (exRd (F := F) m).duties g r = ∅ :=
  fun r hr => by dsimp only [exRd]; rw [if_neg fun h => by omega, if_neg fun h => by omega]

theorem amount_bar (e : Fin 16) : (exRd (F := F) m).amount (barCell c) 0 e = 1 := by dsimp only [exRd]; exact if_pos rfl
theorem amount_send (d e : Fin 16) : (exRd (F := F) m).amount (sendCell c d) 0 e = N1 := by
  dsimp only [exRd]; rw [if_neg (dma_ne_reg _ _), if_neg (fun h => sendS_ne_loadS d (SemLoc.dma.inj h))]
theorem amount_recv (j e : Fin 16) : (exRd (F := F) m).amount (recvCell c j) 0 e = N1 := by
  dsimp only [exRd]; rw [if_neg (dma_ne_reg _ _), if_neg (fun h => recvS_ne_loadS j (SemLoc.dma.inj h))]
theorem amount_load (e : Fin 16) : (exRd (F := F) m).amount (loadCell c) 0 e = NL := by
  dsimp only [exRd]; rw [if_neg (dma_ne_reg _ _)]; exact if_pos rfl

theorem card_nz : (nz : Finset (Fin 16)).card = 15 := by decide

theorem expect_bar : (exRd (F := F) m).expect (barCell c) 0 = 15 := by
  unfold Schedule.expect Schedule.amountOf
  rw [duties_bar, Finset.sum_congr rfl fun e _ => amount_bar m c e, Finset.sum_const, card_nz, smul_eq_mul]
theorem expect_send {d : Fin 16} (hd : d ≠ 0) : (exRd (F := F) m).expect (sendCell c d) 0 = N1 := by
  unfold Schedule.expect Schedule.amountOf; rw [duties_send m c hd, Finset.sum_singleton, amount_send]
theorem expect_recv {j : Fin 16} (hj : j ≠ c) : (exRd (F := F) m).expect (recvCell c j) 0 = N1 := by
  unfold Schedule.expect Schedule.amountOf; rw [duties_recv m c hj, Finset.sum_singleton, amount_recv]
theorem expect_load : (exRd (F := F) m).expect (loadCell c) 0 = NL := by
  unfold Schedule.expect Schedule.amountOf; rw [duties_load, Finset.sum_singleton, amount_load]

theorem payload_bar (e : Fin 16) : (exRd (F := F) m).payload (barCell c) 0 e = barPay c e := by
  show payOf m (barCell c) e = _
  unfold payOf; rfl
theorem payload_send (d e : Fin 16) : (exRd (F := F) m).payload (sendCell c d) 0 e = sendPay m c d := by
  show payOf m (sendCell c d) e = _
  unfold payOf
  show (if sendS d = loadS then loadPay m c
    else if h : 17 ≤ (sendS d : DmaSem sig).val ∧ (sendS d : DmaSem sig).val < 33 then recvPay m c ⟨(sendS d : DmaSem sig).val - 17, by omega⟩
    else if h : 1 ≤ (sendS d : DmaSem sig).val ∧ (sendS d : DmaSem sig).val < 17 then sendPay m c ⟨(sendS d : DmaSem sig).val - 1, by omega⟩
    else iprop(emp)) = _
  have hv := sendS_val d
  rw [if_neg (sendS_ne_loadS d), dif_neg (by omega), dif_pos (by omega)]
  exact congrArg (sendPay m c) (Fin.ext (by show (sendS d : DmaSem sig).val - 1 = d.val; omega))
theorem payload_recv (j e : Fin 16) : (exRd (F := F) m).payload (recvCell c j) 0 e = recvPay m c j := by
  show payOf m (recvCell c j) e = _
  unfold payOf
  show (if recvS j = loadS then loadPay m c
    else if h : 17 ≤ (recvS j : DmaSem sig).val ∧ (recvS j : DmaSem sig).val < 33 then recvPay m c ⟨(recvS j : DmaSem sig).val - 17, by omega⟩
    else if h : 1 ≤ (recvS j : DmaSem sig).val ∧ (recvS j : DmaSem sig).val < 17 then sendPay m c ⟨(recvS j : DmaSem sig).val - 1, by omega⟩
    else iprop(emp)) = _
  have hv := recvS_val j
  rw [if_neg (recvS_ne_loadS j), dif_pos (by omega)]
  exact congrArg (recvPay m c) (Fin.ext (by show (recvS j : DmaSem sig).val - 17 = j.val; omega))
theorem payload_load (e : Fin 16) : (exRd (F := F) m).payload (loadCell c) 0 e = loadPay m c := by
  show payOf m (loadCell c) e = _
  unfold payOf
  show (if (loadS : DmaSem sig) = loadS then loadPay m c else _) = _
  rw [if_pos rfl]

/-- The rest of a round none of whose duties is taken: the barrier's fifteen payloads; a transfer cell's one. -/
theorem rest_bar : bigSep ((exRd (F := F) m).duties (barCell c) 0 \ ∅) (fun e => (exRd (F := F) m).payload (barCell c) 0 e)
    = bigSep nz (fun e => barPay (F := F) c e) := by
  rw [Finset.sdiff_empty, duties_bar]; exact bigSep_congr fun e _ => payload_bar m c e
theorem rest_send {d : Fin 16} (hd : d ≠ 0) :
    bigSep ((exRd (F := F) m).duties (sendCell c d) 0 \ ∅) (fun e => (exRd (F := F) m).payload (sendCell c d) 0 e) = sendPay m c d := by
  rw [Finset.sdiff_empty, duties_send m c hd, bigSep_singleton, payload_send]
theorem rest_recv {j : Fin 16} (hj : j ≠ c) :
    bigSep ((exRd (F := F) m).duties (recvCell c j) 0 \ ∅) (fun e => (exRd (F := F) m).payload (recvCell c j) 0 e) = recvPay m c j := by
  rw [Finset.sdiff_empty, duties_recv m c hj, bigSep_singleton, payload_recv]
theorem rest_load : bigSep ((exRd (F := F) m).duties (loadCell c) 0 \ ∅) (fun e => (exRd (F := F) m).payload (loadCell c) 0 e) = loadPay m c := by
  rw [Finset.sdiff_empty, duties_load, bigSep_singleton, payload_load]

instance exRd_payload_storable (g : GSem nD τ sig) (r : ℕ) (e : Fin 16) :
    BI.Storable (upEmb : UEmb _ 𝕄) ((exRd (F := F) m).payload g r e) := by
  show BI.Storable upEmb (payOf m g e)
  unfold payOf barPay recvPay sendPay loadPay rowPts
  (repeat' split) <;> infer_instance

end Tables

/-! ## The cells by their index -/

theorem kcell_bar (c : Dev nD) : kcell (c, (0 : Fin 34)) = barCell c := by
  have h : csem (0 : Fin 34) = .reg barS := by
    show (if (0 : Fin 34).val = 0 then (SemLoc.reg barS : SemLoc sig) else _) = _
    exact if_pos rfl
  exact Prod.ext rfl h
theorem kcell_send (c : Dev nD) (d : Fin 16) : kcell (c, kSend d) = sendCell c d := by
  have h : csem (kSend d) = .dma (sendS d) := by
    show (if 1 + d.val = 0 then (SemLoc.reg barS : SemLoc sig) else _) = _
    rw [if_neg (by omega)]; exact congrArg SemLoc.dma (Fin.ext (sendS_val d).symm)
  exact Prod.ext rfl h
theorem kcell_recv (c : Dev nD) (j : Fin 16) : kcell (c, kRecv j) = recvCell c j := by
  have h : csem (kRecv j) = .dma (recvS j) := by
    show (if 17 + j.val = 0 then (SemLoc.reg barS : SemLoc sig) else _) = _
    rw [if_neg (by omega)]; exact congrArg SemLoc.dma (Fin.ext (recvS_val j).symm)
  exact Prod.ext rfl h
theorem kcell_load (c : Dev nD) : kcell (c, kLoad) = loadCell c := by
  have h : csem kLoad = .dma loadS := by
    show (if 33 = 0 then (SemLoc.reg barS : SemLoc sig) else _) = _
    rw [if_neg (by omega)]; exact congrArg SemLoc.dma (Fin.ext loadS_val.symm)
  exact Prod.ext rfl h

/-- The thirty-four cell indices name thirty-four different semaphores: index 0 the register semaphore, index k > 0
    the DMA semaphore numbered k. -/
theorem csem_injective : Function.Injective (csem : Fin 34 → SemLoc sig) := by
  intro k k' h
  have h' : (if k.val = 0 then (SemLoc.reg barS : SemLoc sig) else .dma ⟨k.val, k.isLt⟩)
      = (if k'.val = 0 then (SemLoc.reg barS : SemLoc sig) else .dma ⟨k'.val, k'.isLt⟩) := h
  by_cases hk : k.val = 0 <;> by_cases hk' : k'.val = 0
  · exact Fin.ext (hk.trans hk'.symm)
  · rw [if_pos hk, if_neg hk'] at h'; exact absurd h'.symm (dma_ne_reg _ _)
  · rw [if_neg hk, if_pos hk'] at h'; exact absurd h' (dma_ne_reg _ _)
  · rw [if_neg hk, if_neg hk'] at h'; exact Fin.ext (congrArg Fin.val (SemLoc.dma.inj h'))

theorem kcell_injective : Function.Injective (kcell : Dev nD × Fin 34 → GSem nD τ sig) := by
  rintro ⟨c, k⟩ ⟨c', k'⟩ h
  have h1 : c = c' := by have := congrArg (fun g : GSem nD τ sig => g.1.1) h; exact this
  subst h1
  have h2 : csem k = csem k' := congrArg Prod.snd h
  have h3 : k = k' := csem_injective h2
  subst h3; rfl
/-- A device's own semaphore k is its cell k + 1. -/
theorem osem_eq (c : Dev nD) (k : Fin 33) : ((c : Thread nD τ), osem k) = kcell (c, ⟨k.val + 1, by omega⟩) := by
  have h : osem k = csem ⟨k.val + 1, by omega⟩ := by
    show _ = (if k.val + 1 = 0 then (SemLoc.reg barS : SemLoc sig) else _)
    rw [if_neg (by omega)]
  exact Prod.ext rfl h

theorem inv_at (K : Dev nD × Fin 34 → ℕ) (ck : Dev nD × Fin 34) : records (F := F) m K ⊢ cellInv ER (exRd m) (K ck) (kcell ck) := by
  unfold records
  have h1 : (bigSep Finset.univ fun ck : Dev nD × Fin 34 => (cellInv ER (exRd m) (K ck) (kcell ck) : sProp 𝕄))
      ⊢ cellInv ER (exRd m) (K ck) (kcell ck) := bigSep_elim (Finset.mem_univ ck)
  iintro ⟨#HI, #HR⟩
  iapply h1; iexact HI
theorem reached_at (K : Dev nD × Fin 34 → ℕ) (ck : Dev nD × Fin 34) : records (F := F) m K ⊢ reached ER (kcell ck) 0 := by
  unfold records
  have h1 : (bigSep Finset.univ fun ck : Dev nD × Fin 34 => (reached ER (kcell ck) 0 : sProp 𝕄))
      ⊢ reached ER (kcell ck) 0 := bigSep_elim (Finset.mem_univ ck)
  iintro ⟨#HI, #HR⟩
  iapply h1; iexact HR

/-! ## The levels: which waits are allowed under what is still owed -/

theorem L_of_ne (g : GSem nD τ sig) (h : g.1.2 ≠ .tc) : L g = ∅ := if_neg h
theorem L_tc (c : Dev nD) (sm : SemLoc sig) : L ((c : Thread nD τ), sm) = {()} := if_pos rfl

/-- A cell at which some row's credit is owed is a receive cell of a TensorCore; -/
theorem owedRecv_pos_cell {c : Dev nD} {S : Finset (Fin 16)} {g : GSem nD τ sig} {u : Unit} (h : 0 < owedRecv c S g u) :
    ∃ d ∈ S, g = recvCell (pr c d) c := by
  unfold owedRecv at h
  obtain ⟨d, hd, hpos⟩ := Pipeline.sum_pos_exists h
  rw [tallyAt_apply] at hpos
  by_cases hg : g = recvCell (pr c d) c ∧ u = ()
  · exact ⟨d, hd, hg.1⟩
  · rw [if_neg hg] at hpos; exact absurd hpos (Nat.lt_irrefl 0)
/-- one at which a signal is owed is a barrier cell of a TensorCore. -/
theorem owedSig_pos_cell {c : Dev nD} {T : Finset (Fin 16)} {g : GSem nD τ sig} {u : Unit} (h : 0 < owedSig c T g u) :
    ∃ d ∈ T, g = barCell (pr c d) := by
  unfold owedSig at h
  obtain ⟨d, hd, hpos⟩ := Pipeline.sum_pos_exists h
  rw [tallyAt_apply] at hpos
  by_cases hg : g = barCell (pr c d) ∧ u = ()
  · exact ⟨d, hd, hg.1⟩
  · rw [if_neg hg] at hpos; exact absurd hpos (Nat.lt_irrefl 0)

/-- Whatever of its launch debt a device still owes is owed to a barrier or a receive cell of a TensorCore. -/
theorem owed_pos {c : Dev nD} {S T : Finset (Fin 16)} {g : GSem nD τ sig} {u : Unit} (h : 0 < (owedRecv c S + owedSig c T) g u) :
    g.1.2 = .tc ∧ (g.2 = .reg barS ∨ ∃ j : Fin 16, g.2 = .dma (recvS j)) := by
  rw [Pi.add_apply, Finsupp.add_apply] at h
  rcases Nat.add_pos_iff_pos_or_pos.mp h with h1 | h1
  · obtain ⟨d, -, rfl⟩ := owedRecv_pos_cell h1
    exact ⟨rfl, .inr ⟨c, rfl⟩⟩
  · obtain ⟨d, -, rfl⟩ := owedSig_pos_cell h1
    exact ⟨rfl, .inl rfl⟩
theorem owedRecv_pos {c : Dev nD} {S : Finset (Fin 16)} {g : GSem nD τ sig} {u : Unit} (h : 0 < owedRecv c S g u) :
    g.1.2 = .tc ∧ ∃ j : Fin 16, g.2 = .dma (recvS j) := by
  obtain ⟨d, -, rfl⟩ := owedRecv_pos_cell h
  exact ⟨rfl, c, rfl⟩

/-- A wait on a DMA cell that is no receive cell (a staging cell, the load cell, a send cell) is allowed whatever of
    the launch debt is still owed; -/
theorem mayWait_low (c : Dev nD) (q : DmaSem sig) (hq : ∀ j : Fin 16, q ≠ recvS j) (S T : Finset (Fin 16)) :
    (levAts L lv : sProp 𝕄) ⊢ MayWait (c : Thread nD τ) (.dma q) () (owedRecv c S + owedSig c T) := by
  refine MayOwe.of_cut (L := L) (lev := lv) 0 (fun p hp => by rw [Finset.mem_singleton.mp hp, L_tc]; exact Finset.mem_singleton_self _)
    (fun g u hg => by
      obtain ⟨h1, -⟩ := owed_pos hg
      unfold L; rw [if_pos h1]; exact Finset.mem_singleton.mpr rfl)
    (fun p hp => by
      rw [Finset.mem_singleton.mp hp]; dsimp only [lv]
      rw [if_neg (dma_ne_reg _ _), if_neg (fun ⟨j, hj⟩ => hq j (SemLoc.dma.inj hj))])
    (fun g u hg => by
      obtain ⟨-, h2 | ⟨j, h2⟩⟩ := owed_pos hg
      · dsimp only [lv]; rw [if_pos h2]; decide
      · dsimp only [lv]; rw [h2, if_neg (dma_ne_reg _ _), if_pos ⟨j, rfl⟩]; decide)
/-- the wait on the barrier cell while only rows' credits are owed. -/
theorem mayWait_bar (c : Dev nD) (S : Finset (Fin 16)) :
    (levAts L lv : sProp 𝕄) ⊢ MayWait (c : Thread nD τ) (.reg barS) () (owedRecv c S) := by
  refine MayOwe.of_cut (L := L) (lev := lv) 1 (fun p hp => by rw [Finset.mem_singleton.mp hp, L_tc]; exact Finset.mem_singleton_self _)
    (fun g u hg => by
      obtain ⟨h1, -⟩ := owedRecv_pos hg
      unfold L; rw [if_pos h1]; exact Finset.mem_singleton.mpr rfl)
    (fun p hp => by rw [Finset.mem_singleton.mp hp]; dsimp only [lv]; rw [if_pos rfl])
    (fun g u hg => by
      obtain ⟨-, j, h2⟩ := owedRecv_pos hg
      dsimp only [lv]; rw [h2, if_neg (dma_ne_reg _ _), if_pos ⟨j, rfl⟩]; decide)

/-! ## Peeling one summand off what is owed -/

theorem owedSig_erase (c : Dev nD) {S : Finset (Fin 16)} {d : Fin 16} (hd : d ∈ S) :
    owedSig c S = owedSig c (S.erase d) + tallyAt (barCell (pr c d)) () 1 := by
  unfold owedSig; exact (Finset.sum_erase_add _ _ hd).symm
theorem owedRecv_erase (c : Dev nD) {S : Finset (Fin 16)} {d : Fin 16} (hd : d ∈ S) :
    owedRecv c S = owedRecv c (S.erase d) + tallyAt (recvCell (pr c d) c) () N1 := by
  unfold owedRecv; exact (Finset.sum_erase_add _ _ hd).symm
theorem owedSig_empty (c : Dev nD) : owedSig c ∅ = 0 := by
  unfold owedSig; exact Finset.sum_empty
theorem owedRecv_empty (c : Dev nD) : owedRecv c ∅ = 0 := by
  unfold owedRecv; exact Finset.sum_empty

end Cert.KernelIdealProof

end
-- ==== Proof.KernelIdealRows.lean ====
import proofs.«900952_g7700000000000953_dist_mean_ax0_shard0_i_m512_n256_v7x_i16_bf16_1_alg».proof.Proof.KernelIdealBase
import Idealize.ShloMosaic.Lib.Pipeline.Value
import Idealize.ShloMosaic.Lib.ValueIdx

/-!
The gathered table (16 × 1 × 256) seen row by row: holding the whole buffer is holding its sixteen rows; a row's
contents are what is read at the indices `(j, 0, l)`; what a transfer of a row, or a store of a row, leaves there.
-/

noncomputable section

namespace Cert.KernelIdealProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Every index of the table is `(j, 0, l)`. -/
theorem idx_row (i : S16x1x256.Idx) : ∃ (j : Fin 16) (l : Fin 256), i = ix3 j (0 : Fin 1) l :=
  ⟨i 0, i 2, by
    funext a
    match a with
    | ⟨0, _⟩ => rfl
    | ⟨1, _⟩ => exact Subsingleton.elim (α := Fin 1) _ _
    | ⟨2, _⟩ => rfl⟩

/-- The elements of row `j` are the indices whose first coordinate is `j`. -/
theorem mem_row (j : Fin 16) (c : Dev nD) (i : Idx ((rowM j : Memref sig .tc .vmem S1x256 .f32).view.loc (c : Thread nD τ))) :
    i ∈ (rowM j : Memref sig .tc .vmem S1x256 .f32).view.set ↔ (i 0).val = j.val := by
  have hs : (rowM j : Memref sig .tc .vmem S1x256 .f32).view.set = (rowR j).set :=
    (View.set_reshape _ _).trans (View.set_slice_whole cc0_scratch1 (rowR j))
  rw [hs, Rect.mem_set_unit]
  constructor
  · intro h
    have h0 : j.val ≤ (i 0).val ∧ (i 0).val < j.val + 1 := h 0
    omega
  · intro h a
    match a with
    | ⟨0, _⟩ =>
      show j.val ≤ (i 0).val ∧ (i 0).val < j.val + 1
      omega
    | ⟨1, _⟩ =>
      have h1 : (i 1).val < 1 := (i 1).isLt
      show 0 ≤ (i 1).val ∧ (i 1).val < 0 + 1
      omega
    | ⟨2, _⟩ =>
      have h2 : (i 2).val < 256 := (i 2).isLt
      show 0 ≤ (i 2).val ∧ (i 2).val < 0 + 256
      omega

/-- Two contents that agree on row `j` are the same thing to hold of row `j`. -/
theorem row_congr (c : Dev nD) (j : Fin 16) (q : PosShare TreeShare)
    (f g : Buf (Elt F) ((rowM j : Memref sig .tc .vmem S1x256 .f32).view.loc (c : Thread nD τ)))
    (h : ∀ l : Fin 256, f (ix3 j (0 : Fin 1) l) = g (ix3 j (0 : Fin 1) l)) :
    ((rowM j : Memref sig .tc .vmem S1x256 .f32).view.loc (c : Thread nD τ) ↦[(rowM j : Memref sig .tc .vmem S1x256 .f32).view.set]{q} f : sProp 𝕄)
      = ((rowM j : Memref sig .tc .vmem S1x256 .f32).view.loc (c : Thread nD τ) ↦[(rowM j : Memref sig .tc .vmem S1x256 .f32).view.set]{q} g) := by
  refine pointsTo_congr fun i hi => ?_
  have h0 : (i 0).val = j.val := (mem_row j c i).mp hi
  obtain ⟨j', l, rfl⟩ := idx_row i
  have hj : j' = j := Fin.ext h0
  subst hj
  exact h l

/-- Holding the whole table at a share is holding each of its sixteen rows at that share. -/
theorem comm_rows (c : Dev nD) (q : PosShare TreeShare) (f : Buf (Elt F) ((c : Thread nD τ).loc cc0_scratch1)) :
    (((c : Thread nD τ).loc cc0_scratch1) ↦{q} f : sProp 𝕄)
      ⊣⊢ bigSep Finset.univ fun j : Fin 16 =>
        ((rowM j : Memref sig .tc .vmem S1x256 .f32).view.loc (c : Thread nD τ) ↦[(rowM j : Memref sig .tc .vmem S1x256 .f32).view.set]{q} f) := by
  -- the rows' element sets, as sets of the table's indices
  let K : Fin 16 → Finset (Idx ((c : Thread nD τ).loc cc0_scratch1)) :=
    fun j => (rowM j : Memref sig .tc .vmem S1x256 .f32).view.set
  -- they are pairwise disjoint (distinct first coordinates) …
  have hdisj : ∀ t ∈ (Finset.univ : Finset (Fin 16)), ∀ t' ∈ (Finset.univ : Finset (Fin 16)), t ≠ t' →
      Disjoint (K t) (K t') := by
    intro t _ t' _ hne
    rw [Finset.disjoint_left]
    intro i hi hi'
    exact hne (Fin.ext (((mem_row t c i).mp hi).symm.trans ((mem_row t' c i).mp hi')))
  -- … and cover the table (an index is in the row its first coordinate names)
  have hcover : (Finset.univ : Finset (Idx ((c : Thread nD τ).loc cc0_scratch1))) = (Finset.univ : Finset (Fin 16)).biUnion K := by
    ext i
    simp only [Finset.mem_univ, Finset.mem_biUnion, true_and, true_iff]
    exact ⟨(i 0 : Fin 16), (mem_row (i 0 : Fin 16) c i).mpr rfl⟩
  have e := pointsTo_biUnion (ℓ := (c : Thread nD τ).loc cc0_scratch1) (Val := Elt F) (Ix := Unit) (Name := ℕ) (U := UU)
    (Lvl := ℕ) (q := q) (f := f) (Finset.univ : Finset (Fin 16)) K hdisj
  rw [← hcover] at e
  exact ⟨Entails.of_eq e, Entails.of_eq e.symm⟩

/-- Row `j`'s rectangle places its own index `(0, 0, l)` at the table's `(j, 0, l)`. -/
theorem rowR_emb (j : Fin 16) (l : Fin 256) :
    (rowR j).emb (ix3 (0 : Fin 1) (0 : Fin 1) l) = ix3 j (0 : Fin 1) l := by
  funext a
  apply Fin.ext
  rw [Rect.emb_apply]
  match a with
  | ⟨0, _⟩ => show j.val + 1 * 0 = j.val; omega
  | ⟨1, _⟩ => show 0 + 1 * 0 = 0; rfl
  | ⟨2, _⟩ => show 0 + 1 * l.val = l.val; omega

/-- The row as a 1 × 256 buffer places its index `(0, l)` at the table's `(j, 0, l)`. -/
theorem rowM_emb (j : Fin 16) (l : Fin 256) :
    (rowM j : Memref sig .tc .vmem S1x256 .f32).view.emb (ix2 (0 : Fin 1) l) = ix3 j (0 : Fin 1) l := by
  have hr : Shape.reshapeEquiv (s := (rowR j).shape) (s' := S1x256) squeezes_S1x1x256_S1x256.numel_eq
      (ix2 (0 : Fin 1) l) = ix3 (0 : Fin 1) (0 : Fin 1) l :=
    Shape.reshapeEquiv_eq_of_rowMajor _ (by
      rw [Shape.rowMajor_val_three, Shape.rowMajor_val_two]
      show (0 * 1 + 0) * 256 + l.val = 0 * 256 + l.val
      omega)
  show (rowR j).emb (Shape.reshapeEquiv (s := (rowR j).shape) (s' := S1x256) squeezes_S1x1x256_S1x256.numel_eq
      (ix2 (0 : Fin 1) l)) = _
  rw [hr]
  exact rowR_emb j l

/-- A transfer of row `j` leaves, on row `j` of the destination, row `j` of the source. -/
theorem row_landed (c c' : Dev nD) (j : Fin 16)
    (fd : Buf (Elt F) ((rowM j : Memref sig .tc .vmem S1x256 .f32).view.loc (c' : Thread nD τ)))
    (fs : Buf (Elt F) ((rowM j : Memref sig .tc .vmem S1x256 .f32).view.loc (c : Thread nD τ))) (l : Fin 256) :
    ((rowM j : Memref sig .tc .vmem S1x256 .f32).view.write (Elt F) fd ((rowM j : Memref sig .tc .vmem S1x256 .f32).view.read (Elt F) fs) Finset.univ) (ix3 j (0 : Fin 1) l)
      = fs (ix3 j (0 : Fin 1) l) := by
  have key : ∀ i, (rowM j : Memref sig .tc .vmem S1x256 .f32).view.emb (ix2 (0 : Fin 1) l) = i →
      ((rowM j : Memref sig .tc .vmem S1x256 .f32).view.write (Elt F) fd
        ((rowM j : Memref sig .tc .vmem S1x256 .f32).view.read (Elt F) fs) Finset.univ) i = fs i := by
    rintro _ rfl
    rw [View.write_emb_of_mem _ _ (Finset.mem_univ _), View.read_apply, cast_cast, cast_eq]
  exact key _ (rowM_emb j l)

/-- A store of a 1 × 1 × 256 vector at row `j` leaves the vector there. -/
theorem row_stored (c : Dev nD) (j : Fin 16) (f : Buf (Elt F) ((c : Thread nD τ).loc cc0_scratch1)) (w : Vec F S1x1x256 .f32) (l : Fin 256) :
    (((commM : Memref sig .tc .vmem S16x1x256 .f32).access (rowR j) : View sig .tc _ _ _).write (Elt F) f w Finset.univ) (ix3 j (0 : Fin 1) l)
      = w (ix3 (0 : Fin 1) (0 : Fin 1) l) := by
  have key : ∀ i, ((commM : Memref sig .tc .vmem S16x1x256 .f32).access (rowR j) : View sig .tc _ _ _).emb
        (ix3 (0 : Fin 1) (0 : Fin 1) l) = i →
      (((commM : Memref sig .tc .vmem S16x1x256 .f32).access (rowR j) : View sig .tc _ _ _).write (Elt F) f w Finset.univ) i
        = w (ix3 (0 : Fin 1) (0 : Fin 1) l) := by
    rintro _ rfl
    rw [View.write_emb_of_mem _ _ (Finset.mem_univ _), cast_eq]
  exact key _ (rowR_emb j l)

end Cert.KernelIdealProof

end
-- ==== Proof.KernelIdealStepsR.lean ====
import proofs.«900952_g7700000000000953_dist_mean_ax0_shard0_i_m512_n256_v7x_i16_bf16_1_alg».proof.Proof.KernelIdealTables
import proofs.«900952_g7700000000000953_dist_mean_ax0_shard0_i_m512_n256_v7x_i16_bf16_1_alg».proof.Proof.KernelIdealRows

/-!
The steps of a device's body that touch another device: a signal to a peer's barrier cell, the wait for the
fifteen signals, the transfer of the device's row to a peer.
-/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 34 → ℕ) (c : Dev nD)

/-- The weakest precondition of a program run by device `c`'s TensorCore. -/
abbrev WPr {α : Type} (e : Prog (TpuEff nD τ sig (Elt F) Λ₀ .tc) α) (Q : α → sProp 𝕄) : sProp 𝕄 :=
  wp frame (wpE (defs₀ (F := F)) 𝒱₀ (c : Thread nD τ) none) Set.univ e Q

/-- What the device still owes, at whatever waits it has recorded. -/
abbrev owingR (O : CellTallies nD τ sig Unit) : sProp 𝕄 := iprop(∃ W : Waits sig Unit, owes (c : Thread nD τ) O W)

/-! ## The fifteen signals -/

/-- While the signals of the offsets in `T` are still to be sent: their duty tokens, and the rows of its own table the
    device gives away with them. -/
def sigSt (T : Finset (Fin 16)) (R : sProp 𝕄) : sProp 𝕄 :=
  iprop(R ∗ records m K ∗ owingR c (owedRecv c nz + owedSig c T)
    ∗ (bigSep T fun d => dutyTok ER (barCell (pr c d)) 0 (ng d))
    ∗ (bigSep T fun d => iprop(∃ f, rowPts (F := F) c (pr c d) fullShare f)))

theorem step_signal (d : Fin 16) (hd : d ≠ 0) {n : Dev nD} (hn : n = pr c d) {a : ℕ} (ha : a = 1) {T : Finset (Fin 16)} (hdT : d ∈ T) {R : sProp 𝕄}
    {α : Type} {Q : α → sProp 𝕄} {k : PUnit → Prog (TpuEff nD τ sig (Elt F) Λ₀ .tc) α}
    (hk : sigSt m K c (T.erase d) R ⊢ WPr c (k ⟨⟩) Q) :
    sigSt m K c T R ⊢ WPr c (.op (.semSignal ((n, Proc.tc) : Thread nD τ) barS a) k) Q := by
  subst hn ha
  have hI : records (F := F) m K ⊢ cellInv ER (exRd m) (K (pr c d, 0)) (barCell (pr c d)) := by
    have h := inv_at m K (pr c d, 0); rwa [kcell_bar] at h
  have hRe : records (F := F) m K ⊢ reached ER (barCell (pr c d)) 0 := by
    have h := reached_at m K (pr c d, 0); rwa [kcell_bar] at h
  unfold sigSt owingR at hk ⊢
  iintro ⟨HR, #Hrec, ⟨%W, HO⟩, Htoks, Hrows⟩
  ihave Ht := (bigSep_pick hdT) $$ Htoks
  icases Ht with ⟨Htok, Htoks⟩
  ihave Hr := (bigSep_pick hdT) $$ Hrows
  icases Hr with ⟨⟨%f, Hrow⟩, Hrows⟩
  iapply (Rounds.wp_signal 𝒱₀ ER (exRd m) (c : Thread nD τ) none (dst := (pr c d : Thread nD τ)) (sem := barS) (r := 0) (d := ng d)
      (κ := K (pr c d, 0)) (O₀ := owedRecv c nz + owedSig c T)
      (by rw [duties_bar]; exact Finset.mem_erase.mpr ⟨ng_ne_zero hd, Finset.mem_univ _⟩) (amount_bar m (pr c d) (ng d)) ()
      (owedRecv c nz + owedSig c (T.erase d)) (by rw [owedSig_erase c hdT, add_assoc])) $$ [HO Htok Hrow]
  · isplitr; · iapply hI; iexact Hrec
    isplitl [HO]; · iexact HO
    isplitl [Htok]; · iexact Htok
    isplitl [Hrow]
    · rw [payload_bar]; unfold barPay; rw [pr_ng]
      iexists f; iexact Hrow
    · iapply hRe; iexact Hrec
  iintro HO
  iapply hk
  isplitl [HR]; · iexact HR
  isplitr; · iexact Hrec
  isplitl [HO]; · iexists W; iexact HO
  isplitl [Htoks]; · iexact Htoks
  iexact Hrows

/-! ## The wait for the fifteen signals -/

theorem step_waitBar {a : ℕ} (ha : a = 15) {R : sProp 𝕄}
    {α : Type} {Q : α → sProp 𝕄} {k : PUnit → Prog (TpuEff nD τ sig (Elt F) Λ₀ .tc) α}
    (hk : iprop(R ∗ owingR c (owedRecv c nz) ∗ atPos ER (barCell c) 1 (∅ : Finset (Fin 16)) 0
        ∗ bigSep nz (fun e => iprop(∃ f, rowPts (F := F) (pr c e) c fullShare f))) ⊢ WPr c (k ⟨⟩) Q) :
    iprop(R ∗ records m K ∗ levAts L lv ∗ cred (tallyAt (barCell c) () 15) ∗ owingR c (owedRecv c nz + owedSig c ∅)
        ∗ atPos ER (barCell c) 0 (∅ : Finset (Fin 16)) 0)
      ⊢ WPr c (.op (.semWait barS a) k) Q := by
  subst ha
  have hI : records (F := F) m K ⊢ cellInv ER (exRd m) (K (c, 0)) (barCell c) := by
    have h := inv_at m K (c, 0); rwa [kcell_bar] at h
  rw [owedSig_empty, add_zero]
  unfold owingR at hk ⊢
  iintro ⟨HR, #Hrec, #Hlev, Hc, ⟨%W, HO⟩, Hat⟩
  iapply (Rounds.wp_wait_rest_token 𝒱₀ ER (exRd m) (c : Thread nD τ) none (κ := K (c, 0)) (sm := .reg barS) (k' := 15)
      (wpE_semWait_eq 𝒱₀ (c : Thread nD τ) none Set.univ) (Set.mem_univ _) () (O := owedRecv c nz) (W := W) (R := 0) (m := 0)
      (T := (∅ : Finset (Fin 16))) (by rw [expect_bar])) $$ [Hc HO Hat]
  · isplitr; · iapply hI; iexact Hrec
    isplitl [Hc]; · iexact Hc
    isplitl [HO]; · iexact HO
    isplitr; · iapply (mayWait_bar c nz); iexact Hlev
    iexact Hat
  iintro ⟨HO, Hat, -, Hpay⟩
  ihave Hp := (Entails.of_eq (rest_bar m c)) $$ Hpay
  unfold barPay
  iapply hk
  isplitl [HR]; · iexact HR
  isplitl [HO]; · iexists (insert (SemLoc.reg barS, ()) W); iexact HO
  isplitl [Hat]; · iexact Hat
  iexact Hp

/-! ## The fifteen transfers -/

/-- While the transfers to the offsets in `S` are still to be issued: their two duty tokens each, the share of row `c`
    each reads, the peer's row `c` each writes; and the send credit of those already issued. -/
def sendSt (S : Finset (Fin 16)) (R : sProp 𝕄) : sProp 𝕄 :=
  iprop(R ∗ records m K ∗ owingR c (owedRecv c S)
    ∗ (bigSep S fun d => dutyTok ER (sendCell c d) 0 (0 : Fin 16))
    ∗ (bigSep S fun d => dutyTok ER (recvCell (pr c d) c) 0 (0 : Fin 16))
    ∗ (bigSep S fun d => rowPts c c (shareTok fullShare 16 d) (tbl m))
    ∗ (bigSep S fun d => iprop(∃ f, rowPts (F := F) (pr c d) c fullShare f))
    ∗ (bigSep (nz \ S) fun d => cred (tallyAt (sendCell c d) () N1)))

theorem step_send (d : Fin 16) (hd : d ≠ 0) {n : Dev nD} (hn : n = pr c d)
    {src : Memref sig .tc .vmem S1x256 .f32} {dst : Memref sig (Dev.tc n : Thread nD τ).2.kind .vmem S1x256 .f32}
    (hs : src = rowM c) (hdm : dst = rowM c)
    {sS sR : DmaSem sig} (hsS : sS = sendS d) (hsR : sR = recvS c) {S : Finset (Fin 16)} (hS : S ⊆ nz) (hdS : d ∈ S) {R : sProp 𝕄}
    {hsc : dst.view.ref.isScScratch = false} {h1 : src.view.WordExact} {h2 : dst.view.WordExact}
    {h3 : DmaTarget.Typed .vmem (.dma sR) (.remote (Dev.tc n : Thread nD τ) dst (.dma sS) hsc)}
    {α : Type} {Q : α → sProp 𝕄} {k : PUnit → Prog (TpuEff nD τ sig (Elt F) Λ₀ .tc) α}
    (hk : sendSt m K c (S.erase d) R ⊢ WPr c (k ⟨⟩) Q) :
    sendSt m K c S R ⊢ WPr c (.op (.enqueueDma src (.remote (Dev.tc n : Thread nD τ) dst (.dma sS) hsc) (.dma sR) h1 h2 h3) k) Q := by
  subst hn hs hdm hsS hsR
  have hI₁ : records (F := F) m K ⊢ cellInv ER (exRd m) (K (c, kSend d)) (sendCell c d) := by
    have h := inv_at m K (c, kSend d); rwa [kcell_send] at h
  have hI₂ : records (F := F) m K ⊢ cellInv ER (exRd m) (K (pr c d, kRecv c)) (recvCell (pr c d) c) := by
    have h := inv_at m K (pr c d, kRecv c); rwa [kcell_recv] at h
  have hR₁ : records (F := F) m K ⊢ reached ER (sendCell c d) 0 := by
    have h := reached_at m K (c, kSend d); rwa [kcell_send] at h
  have hR₂ : records (F := F) m K ⊢ reached ER (recvCell (pr c d) c) 0 := by
    have h := reached_at m K (pr c d, kRecv c); rwa [kcell_recv] at h
  have hset : nz \ S.erase d = insert d (nz \ S) := by
    ext x
    simp only [Finset.mem_sdiff, Finset.mem_erase, Finset.mem_insert]
    constructor
    · rintro ⟨hx, hnx⟩
      by_cases hxd : x = d
      · exact .inl hxd
      · exact .inr ⟨hx, fun h => hnx ⟨hxd, h⟩⟩
    · rintro (rfl | ⟨hx, hnx⟩)
      · exact ⟨Finset.mem_erase.mp (hS hdS), fun h => h.1 rfl⟩
      · exact ⟨hx, fun h => hnx h.2⟩
  have hnot : d ∉ nz \ S := fun h => (Finset.mem_sdiff.mp h).2 hdS
  have hcr : iprop(cred (tallyAt (sendCell c d) () N1) ∗ bigSep (nz \ S) fun e => cred (tallyAt (sendCell c e) () N1))
      ⊢ (bigSep (nz \ S.erase d) fun e => cred (tallyAt (sendCell c e) () N1) : sProp 𝕄) := by
    rw [hset, bigSep_insert hnot]; exact BI.Entails.refl _
  unfold sendSt owingR at hk ⊢
  iintro ⟨HR, #Hrec, ⟨%W, HO⟩, Hts, Htr, Hsrc, Hdst, Hcr⟩
  ihave H1 := (bigSep_pick hdS) $$ Hts
  icases H1 with ⟨Hts1, Hts⟩
  ihave H2 := (bigSep_pick hdS) $$ Htr
  icases H2 with ⟨Htr1, Htr⟩
  ihave H3 := (bigSep_pick hdS) $$ Hsrc
  icases H3 with ⟨Hsrc1, Hsrc⟩
  ihave H4 := (bigSep_pick hdS) $$ Hdst
  icases H4 with ⟨⟨%fd, Hdst1⟩, Hdst⟩
  unfold rowPts
  iapply (Rounds.wp_send_pointsTo 𝒱₀ ER (exRd m) (c : Thread nD τ) none (c' := (pr c d : Thread nD τ))
      (src := (rowM c : Memref sig .tc .vmem S1x256 .f32)) (dst := (rowM c : Memref sig .tc .vmem S1x256 .f32))
      (sS := .dma (sendS d)) (sem := .dma (recvS c)) (q := shareTok fullShare 16 d) (fs := tbl m) (fd := fd)
      (r₁ := 0) (r₂ := 0) (d₁ := (0 : Fin 16)) (d₂ := (0 : Fin 16)) (κ₁ := K (c, kSend d)) (κ₂ := K (pr c d, kRecv c))
      (by rw [duties_send m c hd]; exact Finset.mem_singleton_self _)
      (by rw [duties_recv m (pr c d) (pr_ne hd).symm]; exact Finset.mem_singleton_self _)
      () () N1 rfl (amount_send m c d 0) (amount_recv m (pr c d) c 0) (owedRecv c (S.erase d)) (owedRecv_erase c hdS) (W := W)
      (by rw [payload_send]; unfold sendPay rowPts; exact BI.Entails.refl _)
      (by
        rw [payload_recv]; unfold recvPay rowPts
        exact Entails.of_eq (row_congr (pr c d) c fullShare _ _ (fun l => row_landed c (pr c d) c fd (tbl m) l))))
    $$ [HO Hts1 Htr1 Hsrc1 Hdst1]
  · isplitr; · iapply hI₁; iexact Hrec
    isplitr; · iapply hI₂; iexact Hrec
    isplitl [Hsrc1]; · iexact Hsrc1
    isplitl [Hdst1]; · iexact Hdst1
    isplitl [HO]; · iexact HO
    isplitl [Hts1]; · iexact Hts1
    isplitr; · iapply hR₁; iexact Hrec
    isplitl [Htr1]; · iexact Htr1
    iapply hR₂; iexact Hrec
  iintro ⟨HcS, HO⟩
  iapply hk
  isplitl [HR]; · iexact HR
  isplitr; · iexact Hrec
  isplitl [HO]; · iexists W; iexact HO
  isplitl [Hts]; · iexact Hts
  isplitl [Htr]; · iexact Htr
  isplitl [Hsrc]; · iexact Hsrc
  isplitl [Hdst]; · iexact Hdst
  iapply hcr
  isplitl [HcS]; · iexact HcS
  iexact Hcr

end Cert.KernelIdealProof

end
-- ==== Proof.KernelIdealStepsL.lean ====
import proofs.«900952_g7700000000000953_dist_mean_ax0_shard0_i_m512_n256_v7x_i16_bf16_1_alg».proof.Proof.KernelIdealTables
import proofs.«900952_g7700000000000953_dist_mean_ax0_shard0_i_m512_n256_v7x_i16_bf16_1_alg».proof.Proof.KernelIdealRows

/-!
The steps of a device's body on its own buffers and cells: the load of its block, the loads and stores of its
rows, and the waits for the rows sent to it and for its own transfers.
-/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 34 → ℕ) (c : Dev nD)

/-- The weakest precondition of a program run by device `c`'s TensorCore. -/
abbrev WP {α : Type} (e : Prog (TpuEff nD τ sig (Elt F) Λ₀ .tc) α) (Q : α → sProp 𝕄) : sProp 𝕄 :=
  wp frame (wpE (defs₀ (F := F)) 𝒱₀ (c : Thread nD τ) none) Set.univ e Q

/-- What the device still owes, at whatever waits it has recorded. -/
abbrev owing (O : CellTallies nD τ sig Unit) : sProp 𝕄 := iprop(∃ W : Waits sig Unit, owes (c : Thread nD τ) O W)

abbrev xLoc : Loc nD τ sig := (c : Thread nD τ).loc main_arg0
abbrev xvLoc : Loc nD τ sig := (c : Thread nD τ).loc cc0_scratch0
abbrev commLoc : Loc nD τ sig := (c : Thread nD τ).loc cc0_scratch1
abbrev outLoc : Loc nD τ sig := (c : Thread nD τ).loc cc0_stg0_0

/-! ## The block's load into VMEM -/

theorem step_copy {R : sProp 𝕄}
    {hsrc : (xM : Memref sig .tc .hbm S512x256 .f32).view.WordExact} {hdst : (xvM : Memref sig .tc .vmem S512x256 .f32).view.WordExact}
    {hsem : DmaTarget.Typed (nD := nD) (τ := τ) (p := (c : Thread nD τ).2) .hbm (.dma loadS) (.here (xvM : Memref sig (c : Thread nD τ).2.kind .vmem S512x256 .f32))}
    {α : Type} {Q : α → sProp 𝕄} {k : PUnit → Prog (TpuEff nD τ sig (Elt F) Λ₀ .tc) α}
    (hk : iprop(R ∗ cred (tallyAt (loadCell c) () NL)) ⊢ WP c (k ⟨⟩) Q) :
    iprop(R ∗ records m K ∗ (xLoc c ↦{fullShare} xblk m c) ∗ (∃ f : Buf (Elt F) (xvLoc c), xvLoc c ↦{fullShare} f)
        ∗ dutyTok ER (loadCell c) 0 (0 : Fin 16))
      ⊢ WP c (.op (.enqueueDma (xM : Memref sig (c : Thread nD τ).2.kind .hbm S512x256 .f32) (.here (xvM : Memref sig (c : Thread nD τ).2.kind .vmem S512x256 .f32)) (.dma loadS) hsrc hdst hsem) k) Q := by
  have hI : records (F := F) m K ⊢ cellInv ER (exRd m) (K (c, kLoad)) (loadCell c) := by
    have h := inv_at m K (c, kLoad); rwa [kcell_load] at h
  have hRch : records (F := F) m K ⊢ reached ER (loadCell c) 0 := by
    have h := reached_at m K (c, kLoad); rwa [kcell_load] at h
  have hd0 : (0 : Fin 16) ∈ (exRd (F := F) m).duties (loadCell c) 0 := by
    rw [duties_load]; exact Finset.mem_singleton_self _
  -- a whole buffer's elements are all its indices
  have hx : (xLoc c ↦{fullShare} xblk m c : sProp 𝕄)
      = ((xM : Memref sig .tc .hbm S512x256 .f32).view.loc (c : Thread nD τ)
          ↦[(xM : Memref sig .tc .hbm S512x256 .f32).view.set]{fullShare} xblk m c) := by
    rw [View.set_whole]
  have hxv : ∀ g : Buf (Elt F) (xvLoc c), (xvLoc c ↦{fullShare} g : sProp 𝕄)
      = ((xvM : Memref sig .tc .vmem S512x256 .f32).view.loc (c : Thread nD τ)
          ↦[(xvM : Memref sig .tc .vmem S512x256 .f32).view.set]{fullShare} g) := by
    intro g; rw [View.set_whole]
  iintro ⟨HR, #Hrec, Hx, ⟨%fd, Hxv⟩, Htok⟩
  -- what the copy leaves in the destination: the source's contents
  have hw : (xvM : Memref sig .tc .vmem S512x256 .f32).view.write (Elt F) fd
      ((xM : Memref sig .tc .hbm S512x256 .f32).view.read (Elt F) (xblk m c)) Finset.univ = xblk m c :=
    View.write_whole_univ cc0_scratch0 fd (xblk m c)
  have hpay : iprop(((xvM : Memref sig .tc .vmem S512x256 .f32).view.loc (c : Thread nD τ)
          ↦[(xvM : Memref sig .tc .vmem S512x256 .f32).view.set]{fullShare}
            ((xvM : Memref sig .tc .vmem S512x256 .f32).view.write (Elt F) fd
              ((xM : Memref sig .tc .hbm S512x256 .f32).view.read (Elt F) (xblk m c)) Finset.univ))
        ∗ ((xM : Memref sig .tc .hbm S512x256 .f32).view.loc (c : Thread nD τ)
          ↦[(xM : Memref sig .tc .hbm S512x256 .f32).view.set]{fullShare} xblk m c))
      ⊢ (exRd (F := F) m).payload (loadCell c) 0 (0 : Fin 16) := by
    rw [payload_load, hw, ← hx, ← hxv]
    unfold loadPay
    exact .rfl
  ihave Hx' := (Entails.of_eq hx) $$ Hx
  ihave Hxv' := (Entails.of_eq (hxv fd)) $$ Hxv
  iapply (Rounds.wp_copy_pointsTo 𝒱₀ ER (exRd m) (c : Thread nD τ) none (src := xM) (dst := xvM) (sem := .dma loadS)
      (q := fullShare) (fs := xblk m c) (fd := fd) (r := 0) (d := (0 : Fin 16)) (κ := K (c, kLoad))
      hd0 () NL rfl (amount_load m c 0) hpay) $$ [Hx' Hxv' Htok]
  · isplitr; · iapply hI; iexact Hrec
    isplitl [Hx']; · iexact Hx'
    isplitl [Hxv']; · iexact Hxv'
    isplitl [Htok]; · iexact Htok
    iapply hRch; iexact Hrec
  iintro Hc
  iapply hk
  isplitl [HR]; · iexact HR
  iexact Hc

theorem step_waitLoad {S T : Finset (Fin 16)} {R : sProp 𝕄}
    {hsrc : (xM : Memref sig .tc .hbm S512x256 .f32).view.WordExact} {hdst : (xvM : Memref sig .tc .vmem S512x256 .f32).view.WordExact}
    {α : Type} {Q : α → sProp 𝕄} {k : PUnit → Prog (TpuEff nD τ sig (Elt F) Λ₀ .tc) α}
    (hk : iprop(R ∗ owing c (owedRecv c S + owedSig c T) ∗ atPos ER (loadCell c) 1 (∅ : Finset (Fin 16)) 0
        ∗ (xvLoc c ↦{fullShare} xblk m c) ∗ (xLoc c ↦{fullShare} xblk m c)) ⊢ WP c (k ⟨⟩) Q) :
    iprop(R ∗ records m K ∗ levAts L lv ∗ cred (tallyAt (loadCell c) () NL) ∗ owing c (owedRecv c S + owedSig c T)
        ∗ atPos ER (loadCell c) 0 (∅ : Finset (Fin 16)) 0)
      ⊢ WP c (.op (.waitDma2 loadS xM xvM hsrc hdst) k) Q := by
  have hI : records (F := F) m K ⊢ cellInv ER (exRd m) (K (c, kLoad)) (loadCell c) := by
    have h := inv_at m K (c, kLoad); rwa [kcell_load] at h
  iintro ⟨HR, #Hrec, Hlev, Hc, ⟨%W, HO⟩, Hat⟩
  iapply (Rounds.wp_wait_rest_token 𝒱₀ ER (exRd m) (c : Thread nD τ) none (κ := K (c, kLoad))
      (wpE_waitDma2_eq 𝒱₀ (c : Thread nD τ) none Set.univ) (Set.mem_univ _) () (O := owedRecv c S + owedSig c T) (W := W)
      (R := 0) (m := 0) (T := ∅) (by rw [Nat.zero_add, expect_load])) $$ [Hc HO Hat Hlev]
  · isplitr; · iapply hI; iexact Hrec
    isplitl [Hc]; · iexact Hc
    isplitl [HO]; · iexact HO
    isplitl [Hlev]
    · iapply (mayWait_low c loadS (fun j h => recvS_ne_loadS j h.symm) S T); iexact Hlev
    iexact Hat
  iintro ⟨HO, Hat, -, Hpay⟩
  ihave Hp := (Entails.of_eq (rest_load m c)) $$ Hpay
  unfold loadPay
  icases Hp with ⟨Hxv, Hx⟩
  iapply hk
  isplitl [HR]; · iexact HR
  isplitl [HO]; · iexists _; iexact HO
  isplitl [Hat]; · iexact Hat
  isplitl [Hxv]; · iexact Hxv
  iexact Hx

/-! ## Loads and stores -/

theorem step_loadXv {R : sProp 𝕄} {hr : ∀ a, (![0, 0] : Fin 2 → Nat) a + S512x256.size a ≤ S512x256.size a}
    {hl : (xvM : Memref sig .tc .vmem S512x256 .f32).view.LoadsAt (Rect.unit (s := S512x256) ![0, 0] S512x256.size hr).toLoadRect}
    {α : Type} {Q : α → sProp 𝕄} {k : Vec F S512x256 .f32 → Prog (TpuEff nD τ sig (Elt F) Λ₀ .tc) α}
    (hk : iprop(R ∗ (xvLoc c ↦{fullShare} xblk m c)) ⊢ WP c (k (xblk m c)) Q) :
    iprop(R ∗ (xvLoc c ↦{fullShare} xblk m c))
      ⊢ WP c (.op (.load xvM (Rect.unit (s := S512x256) ![0, 0] S512x256.size hr).toLoadRect hl) k) Q := by
  have hz : (![0, 0] : Fin 2 → Nat) = fun _ => 0 := by funext a; fin_cases a <;> rfl
  have hread : (xvM : Memref sig .tc .vmem S512x256 .f32).view.readAt (Elt F)
      (Rect.unit (s := S512x256) ![0, 0] S512x256.size hr).toLoadRect (xblk m c) = xblk m c :=
    Memref.readAt_unit_zero (Elt F) cc0_scratch0 hz hr (xblk m c)
  iintro ⟨HR, Hxv⟩
  iapply (wp_load 𝒱₀ (c : Thread nD τ) none Set.univ (m := xvM) (Finset.subset_univ _)) $$ Hxv
  iintro Hxv
  rw [hread]
  iapply hk
  isplitl [HR]; · iexact HR
  iexact Hxv

/-- The load of the device's own row before it is overwritten: whatever it reads is not used. -/
theorem step_loadRow {off : Fin 3 → Nat} (hoff : off = ![c.val, 0, 0]) {R : sProp 𝕄}
    {f : Buf (Elt F) ((rowM c : Memref sig .tc .vmem S1x256 .f32).view.loc (c : Thread nD τ))}
    {hr : ∀ a, off a + S1x1x256.size a ≤ S16x1x256.size a}
    {hl : (commM : Memref sig .tc .vmem S16x1x256 .f32).view.LoadsAt (Rect.unit (s := S16x1x256) off S1x1x256.size hr).toLoadRect}
    {α : Type} {Q : α → sProp 𝕄} {k : Vec F S1x1x256 .f32 → Prog (TpuEff nD τ sig (Elt F) Λ₀ .tc) α}
    (hk : ∀ v, iprop(R ∗ rowPts c c fullShare f) ⊢ WP c (k v) Q) :
    iprop(R ∗ rowPts c c fullShare f)
      ⊢ WP c (.op (.load commM (Rect.unit (s := S16x1x256) off S1x1x256.size hr).toLoadRect hl) k) Q := by
  subst hoff
  unfold rowPts at hk ⊢
  -- the row's elements are those of its rectangle, which are what the load reads
  have hset : (rowM c : Memref sig .tc .vmem S1x256 .f32).view.set = (rowR c).set :=
    (View.set_reshape _ _).trans (View.set_slice_whole cc0_scratch1 (rowR c))
  have hS : (commM : Memref sig .tc .vmem S16x1x256 .f32).view.setOn
      (Rect.unit (s := S16x1x256) ![c.val, 0, 0] S1x1x256.size hr).toLoadRect.set
        ⊆ (rowM c : Memref sig .tc .vmem S1x256 .f32).view.set := by
    rw [hset]
    show Finset.map (Function.Embedding.refl _) _ ⊆ _
    rw [Finset.map_refl]
  iintro ⟨HR, Hrow⟩
  iapply (wp_load 𝒱₀ (c : Thread nD τ) none Set.univ (m := commM) hS) $$ Hrow
  iintro Hrow
  iapply (hk _)
  isplitl [HR]; · iexact HR
  iexact Hrow

/-- The store of the block's row sums into the device's own row: the row then holds its row of the gathered table. -/
theorem step_storeRow {off : Fin 3 → Nat} (hoff : off = ![c.val, 0, 0]) {R : sProp 𝕄}
    {f : Buf (Elt F) ((rowM c : Memref sig .tc .vmem S1x256 .f32).view.loc (c : Thread nD τ))}
    {hr : ∀ a, off a + S1x1x256.size a ≤ S16x1x256.size a}
    {hs : ((commM : Memref sig .tc .vmem S16x1x256 .f32).access (Rect.unit (s := S16x1x256) off S1x1x256.size hr)).Stores Finset.univ}
    {hm : (Finset.univ : Finset (Rect.unit (s := S16x1x256) off S1x1x256.size hr).shape.Idx) = Finset.univ ∨ ∀ a, (Rect.unit (s := S16x1x256) off S1x1x256.size hr).stride a = 1}
    {α : Type} {Q : α → sProp 𝕄} {k : PUnit → Prog (TpuEff nD τ sig (Elt F) Λ₀ .tc) α}
    (hk : iprop(R ∗ rowPts c c fullShare (tbl m)) ⊢ WP c (k ⟨⟩) Q) :
    iprop(R ∗ rowPts c c fullShare f)
      ⊢ WP c (.op (.store commM (Rect.unit (s := S16x1x256) off S1x1x256.size hr) (Mean.rowSum (xblk m c)) Finset.univ hs hm) k) Q := by
  subst hoff
  unfold rowPts at hk ⊢
  -- the row's elements are those of its rectangle, which are what the store writes
  have hset : (rowM c : Memref sig .tc .vmem S1x256 .f32).view.set = (rowR c).set :=
    (View.set_reshape _ _).trans (View.set_slice_whole cc0_scratch1 (rowR c))
  have hS : ((commM : Memref sig .tc .vmem S16x1x256 .f32).access
      (Rect.unit (s := S16x1x256) ![c.val, 0, 0] S1x1x256.size hr)).setOn Finset.univ
        ⊆ (rowM c : Memref sig .tc .vmem S1x256 .f32).view.set := by
    rw [hset, View.setOn_univ]
    exact (View.set_slice_whole cc0_scratch1 (Rect.unit (s := S16x1x256) ![c.val, 0, 0] S1x1x256.size hr)).le
  -- after the store the row holds the block's row sums, which is its row of the gathered table
  have hcon : ((rowM c : Memref sig .tc .vmem S1x256 .f32).view.loc (c : Thread nD τ)
        ↦[(rowM c : Memref sig .tc .vmem S1x256 .f32).view.set]{fullShare}
          (((commM : Memref sig .tc .vmem S16x1x256 .f32).access
            (Rect.unit (s := S16x1x256) ![c.val, 0, 0] S1x1x256.size hr) : View sig .tc _ _ _).write (Elt F) f
              (Mean.rowSum (xblk m c)) Finset.univ) : sProp 𝕄)
      = ((rowM c : Memref sig .tc .vmem S1x256 .f32).view.loc (c : Thread nD τ)
        ↦[(rowM c : Memref sig .tc .vmem S1x256 .f32).view.set]{fullShare} tbl m) :=
    row_congr c c fullShare _ _ fun l =>
      (row_stored c c f (Mean.rowSum (xblk m c)) l).trans (by unfold tbl Mean.table; rfl)
  iintro ⟨HR, Hrow⟩
  iapply (wp_store 𝒱₀ (c : Thread nD τ) none Set.univ (m := commM)
      (r := Rect.unit (s := S16x1x256) ![c.val, 0, 0] S1x1x256.size hr) (Mk := Finset.univ) hS) $$ Hrow
  iintro Hrow
  ihave Hrow' := (Entails.of_eq hcon) $$ Hrow
  iapply hk
  isplitl [HR]; · iexact HR
  iexact Hrow'

theorem step_loadComm {q : PosShare TreeShare} {R : sProp 𝕄} {hr : ∀ a, (![0, 0, 0] : Fin 3 → Nat) a + S16x1x256.size a ≤ S16x1x256.size a}
    {hl : (commM : Memref sig .tc .vmem S16x1x256 .f32).view.LoadsAt (Rect.unit (s := S16x1x256) ![0, 0, 0] S16x1x256.size hr).toLoadRect}
    {α : Type} {Q : α → sProp 𝕄} {k : Vec F S16x1x256 .f32 → Prog (TpuEff nD τ sig (Elt F) Λ₀ .tc) α}
    (hk : iprop(R ∗ (commLoc c ↦{q} tbl m)) ⊢ WP c (k (tbl m)) Q) :
    iprop(R ∗ (commLoc c ↦{q} tbl m))
      ⊢ WP c (.op (.load commM (Rect.unit (s := S16x1x256) ![0, 0, 0] S16x1x256.size hr).toLoadRect hl) k) Q := by
  have hz : (![0, 0, 0] : Fin 3 → Nat) = fun _ => 0 := by funext a; fin_cases a <;> rfl
  have hread : (commM : Memref sig .tc .vmem S16x1x256 .f32).view.readAt (Elt F)
      (Rect.unit (s := S16x1x256) ![0, 0, 0] S16x1x256.size hr).toLoadRect (tbl m) = tbl m :=
    Memref.readAt_unit_zero (Elt F) cc0_scratch1 hz hr (tbl m)
  iintro ⟨HR, Hcomm⟩
  iapply (wp_load 𝒱₀ (c : Thread nD τ) none Set.univ (m := commM) (Finset.subset_univ _)) $$ Hcomm
  iintro Hcomm
  rw [hread]
  iapply hk
  isplitl [HR]; · iexact HR
  iexact Hcomm

theorem step_loadOut {R : sProp 𝕄} {g : Buf (Elt F) (outLoc c)} {hr : ∀ a, (![0, 0] : Fin 2 → Nat) a + S1x256.size a ≤ S1x256.size a}
    {hl : (outM : Memref sig .tc .vmem S1x256 .f32).view.LoadsAt (Rect.unit (s := S1x256) ![0, 0] S1x256.size hr).toLoadRect}
    {α : Type} {Q : α → sProp 𝕄} {k : Vec F S1x256 .f32 → Prog (TpuEff nD τ sig (Elt F) Λ₀ .tc) α}
    (hk : ∀ v, iprop(R ∗ (outLoc c ↦{fullShare} g)) ⊢ WP c (k v) Q) :
    iprop(R ∗ (outLoc c ↦{fullShare} g))
      ⊢ WP c (.op (.load outM (Rect.unit (s := S1x256) ![0, 0] S1x256.size hr).toLoadRect hl) k) Q := by
  iintro ⟨HR, Hout⟩
  iapply (wp_load 𝒱₀ (c : Thread nD τ) none Set.univ (m := outM) (Finset.subset_univ _)) $$ Hout
  iintro Hout
  iapply (hk _)
  isplitl [HR]; · iexact HR
  iexact Hout

theorem step_storeOut {R : sProp 𝕄} {g : Buf (Elt F) (outLoc c)} {hr : ∀ a, (![0, 0] : Fin 2 → Nat) a + S1x256.size a ≤ S1x256.size a}
    {hs : ((outM : Memref sig .tc .vmem S1x256 .f32).access (Rect.unit (s := S1x256) ![0, 0] S1x256.size hr)).Stores Finset.univ}
    {hm : (Finset.univ : Finset (Rect.unit (s := S1x256) ![0, 0] S1x256.size hr).shape.Idx) = Finset.univ ∨ ∀ a, (Rect.unit (s := S1x256) ![0, 0] S1x256.size hr).stride a = 1}
    {α : Type} {Q : α → sProp 𝕄} {k : PUnit → Prog (TpuEff nD τ sig (Elt F) Λ₀ .tc) α}
    (hk : iprop(R ∗ (outLoc c ↦{fullShare} outV m)) ⊢ WP c (k ⟨⟩) Q) :
    iprop(R ∗ (outLoc c ↦{fullShare} g))
      ⊢ WP c (.op (.store outM (Rect.unit (s := S1x256) ![0, 0] S1x256.size hr) (Mean.outOf (tbl m)) Finset.univ hs hm) k) Q := by
  have hz : (![0, 0] : Fin 2 → Nat) = fun _ => 0 := by funext a; fin_cases a <;> rfl
  have hwrite : ((outM : Memref sig .tc .vmem S1x256 .f32).access (Rect.unit (s := S1x256) ![0, 0] S1x256.size hr)
      : View sig .tc _ _ _).write (Elt F) g (Mean.outOf (tbl m)) Finset.univ = outV m :=
    Memref.write_access_unit_zero_univ (Elt F) cc0_stg0_0 hz hr g (Mean.outOf (tbl m))
  iintro ⟨HR, Hout⟩
  iapply (wp_store 𝒱₀ (c : Thread nD τ) none Set.univ (m := outM)
      (r := Rect.unit (s := S1x256) ![0, 0] S1x256.size hr) (Mk := Finset.univ) (Finset.subset_univ _)) $$ Hout
  iintro Hout
  rw [hwrite]
  iapply hk
  isplitl [HR]; · iexact HR
  iexact Hout

/-! ## The waits for the fifteen rows sent to the device -/

/-- While the rows of the offsets in `S` are still awaited: the credit and the position of each one's receive cell; of
    those arrived, the receive cell a round on and the row, holding its row of the gathered table. -/
def recvSt (S : Finset (Fin 16)) (R : sProp 𝕄) : sProp 𝕄 :=
  iprop(R ∗ records m K ∗ owing c 0
    ∗ (bigSep S fun d => iprop(cred (tallyAt (recvCell c (pr c d)) () N1) ∗ atPos ER (recvCell c (pr c d)) 0 (∅ : Finset (Fin 16)) 0))
    ∗ (bigSep (nz \ S) fun d => iprop(atPos ER (recvCell c (pr c d)) 1 (∅ : Finset (Fin 16)) 0 ∗ rowPts c (pr c d) fullShare (tbl m))))

theorem step_waitRecv (d : Fin 16) (hd : d ≠ 0) {sR : DmaSem sig} (hsR : sR = recvS (pr c d))
    {src dst : Memref sig .tc .vmem S1x256 .f32} (hdm : dst = rowM (pr c d))
    {S : Finset (Fin 16)} (hS : S ⊆ nz) (hdS : d ∈ S) {R : sProp 𝕄} {h1 : src.view.WordExact} {h2 : dst.view.WordExact}
    {α : Type} {Q : α → sProp 𝕄} {k : PUnit → Prog (TpuEff nD τ sig (Elt F) Λ₀ .tc) α}
    (hk : recvSt m K c (S.erase d) R ⊢ WP c (k ⟨⟩) Q) :
    recvSt m K c S R ⊢ WP c (.op (.waitDma2 sR src dst h1 h2) k) Q := by
  subst hsR hdm
  have hne : pr c d ≠ c := pr_ne hd
  have hI : records (F := F) m K ⊢ cellInv ER (exRd m) (K (c, kRecv (pr c d))) (recvCell c (pr c d)) := by
    have h := inv_at m K (c, kRecv (pr c d)); rwa [kcell_recv] at h
  have hdn : d ∉ nz \ S := fun h => (Finset.mem_sdiff.mp h).2 hdS
  have hnz : nz \ S.erase d = insert d (nz \ S) := Finset.sdiff_erase (hS hdS)
  have hins : iprop((atPos ER (recvCell c (pr c d)) 1 (∅ : Finset (Fin 16)) 0 ∗ rowPts c (pr c d) fullShare (tbl m))
        ∗ bigSep (nz \ S) fun e => iprop(atPos ER (recvCell c (pr c e)) 1 (∅ : Finset (Fin 16)) 0 ∗ rowPts c (pr c e) fullShare (tbl m)))
      ⊢ (bigSep (insert d (nz \ S)) fun e => iprop(atPos ER (recvCell c (pr c e)) 1 (∅ : Finset (Fin 16)) 0 ∗ rowPts c (pr c e) fullShare (tbl m)) : sProp 𝕄) :=
    Entails.of_eq (bigSep_insert hdn
      (Φ := fun e => (iprop(atPos ER (recvCell c (pr c e)) 1 (∅ : Finset (Fin 16)) 0 ∗ rowPts c (pr c e) fullShare (tbl m)) : sProp 𝕄))).symm
  unfold recvSt
  iintro ⟨HR, #Hrec, ⟨%W, HO⟩, Hbig, Hdone⟩
  ihave Hb := (bigSep_pick hdS) $$ Hbig
  icases Hb with ⟨⟨Hc, Hat⟩, Hrest⟩
  iapply (Rounds.wp_wait_rest_token 𝒱₀ ER (exRd m) (c : Thread nD τ) none (κ := K (c, kRecv (pr c d)))
      (wpE_waitDma2_eq 𝒱₀ (c : Thread nD τ) none Set.univ) (Set.mem_univ _) () (O := 0) (W := W) (R := 0) (m := 0) (T := ∅)
      (by rw [Nat.zero_add, expect_recv m c hne])) $$ [Hc HO Hat]
  · isplitr; · iapply hI; iexact Hrec
    isplitl [Hc]; · iexact Hc
    isplitl [HO]; · iexact HO
    isplitr; · rw [MayWait_zero]; iempintro
    iexact Hat
  iintro ⟨HO, Hat, -, Hpay⟩
  ihave Hrow := (Entails.of_eq (rest_recv m c hne)) $$ Hpay
  unfold recvPay
  iapply hk
  unfold recvSt
  rw [hnz]
  isplitl [HR]; · iexact HR
  isplitr; · iexact Hrec
  isplitl [HO]; · iexists _; iexact HO
  isplitl [Hrest]; · iexact Hrest
  iapply hins
  isplitl [Hat Hrow]
  · isplitl [Hat]; · iexact Hat
    iexact Hrow
  iexact Hdone

/-! ## The waits for the device's own fifteen transfers -/

/-- While the transfers of the offsets in `S` are still pending: the send credit and the position of each one's send
    cell; of those completed, the send cell a round on and the share of row `c` the transfer read. -/
def sentSt (S : Finset (Fin 16)) (R : sProp 𝕄) : sProp 𝕄 :=
  iprop(R ∗ records m K ∗ owing c 0
    ∗ (bigSep S fun d => iprop(cred (tallyAt (sendCell c d) () N1) ∗ atPos ER (sendCell c d) 0 (∅ : Finset (Fin 16)) 0))
    ∗ (bigSep (nz \ S) fun d => iprop(atPos ER (sendCell c d) 1 (∅ : Finset (Fin 16)) 0 ∗ rowPts c c (shareTok fullShare 16 d) (tbl m))))

theorem step_waitSend (d : Fin 16) (hd : d ≠ 0) {sS : DmaSem sig} (hsS : sS = sendS d)
    {src dst : Memref sig .tc .vmem S1x256 .f32} (hdm : dst = rowM c)
    {S : Finset (Fin 16)} (hS : S ⊆ nz) (hdS : d ∈ S) {R : sProp 𝕄} {h1 : src.view.WordExact} {h2 : dst.view.WordExact}
    {α : Type} {Q : α → sProp 𝕄} {k : PUnit → Prog (TpuEff nD τ sig (Elt F) Λ₀ .tc) α}
    (hk : sentSt m K c (S.erase d) R ⊢ WP c (k ⟨⟩) Q) :
    sentSt m K c S R ⊢ WP c (.op (.waitDma2 sS src dst h1 h2) k) Q := by
  subst hsS hdm
  have hI : records (F := F) m K ⊢ cellInv ER (exRd m) (K (c, kSend d)) (sendCell c d) := by
    have h := inv_at m K (c, kSend d); rwa [kcell_send] at h
  have hdn : d ∉ nz \ S := fun h => (Finset.mem_sdiff.mp h).2 hdS
  have hnz : nz \ S.erase d = insert d (nz \ S) := Finset.sdiff_erase (hS hdS)
  have hins : iprop((atPos ER (sendCell c d) 1 (∅ : Finset (Fin 16)) 0 ∗ rowPts c c (shareTok fullShare 16 d) (tbl m))
        ∗ bigSep (nz \ S) fun e => iprop(atPos ER (sendCell c e) 1 (∅ : Finset (Fin 16)) 0 ∗ rowPts c c (shareTok fullShare 16 e) (tbl m)))
      ⊢ (bigSep (insert d (nz \ S)) fun e => iprop(atPos ER (sendCell c e) 1 (∅ : Finset (Fin 16)) 0 ∗ rowPts c c (shareTok fullShare 16 e) (tbl m)) : sProp 𝕄) :=
    Entails.of_eq (bigSep_insert hdn
      (Φ := fun e => (iprop(atPos ER (sendCell c e) 1 (∅ : Finset (Fin 16)) 0 ∗ rowPts c c (shareTok fullShare 16 e) (tbl m)) : sProp 𝕄))).symm
  unfold sentSt
  iintro ⟨HR, #Hrec, ⟨%W, HO⟩, Hbig, Hdone⟩
  ihave Hb := (bigSep_pick hdS) $$ Hbig
  icases Hb with ⟨⟨Hc, Hat⟩, Hrest⟩
  iapply (Rounds.wp_wait_rest_token 𝒱₀ ER (exRd m) (c : Thread nD τ) none (κ := K (c, kSend d))
      (wpE_waitDma2_eq 𝒱₀ (c : Thread nD τ) none Set.univ) (Set.mem_univ _) () (O := 0) (W := W) (R := 0) (m := 0) (T := ∅)
      (by rw [Nat.zero_add, expect_send m c hd])) $$ [Hc HO Hat]
  · isplitr; · iapply hI; iexact Hrec
    isplitl [Hc]; · iexact Hc
    isplitl [HO]; · iexact HO
    isplitr; · rw [MayWait_zero]; iempintro
    iexact Hat
  iintro ⟨HO, Hat, -, Hpay⟩
  ihave Hrow := (Entails.of_eq (rest_send m c hd)) $$ Hpay
  unfold sendPay
  iapply hk
  unfold sentSt
  rw [hnz]
  isplitl [HR]; · iexact HR
  isplitr; · iexact Hrec
  isplitl [HO]; · iexists _; iexact HO
  isplitl [Hrest]; · iexact Hrest
  iapply hins
  isplitl [Hat Hrow]
  · isplitl [Hat]; · iexact Hat
    iexact Hrow
  iexact Hdone

end Cert.KernelIdealProof

end
-- ==== Proof.KernelIdealGlue.lean ====
import proofs.«900952_g7700000000000953_dist_mean_ax0_shard0_i_m512_n256_v7x_i16_bf16_1_alg».proof.Proof.KernelIdealTables
import proofs.«900952_g7700000000000953_dist_mean_ax0_shard0_i_m512_n256_v7x_i16_bf16_1_alg».proof.Proof.KernelIdealRows

/-!
Regroupings of what a device holds: the table by its rows, a row by its shares, the other devices by the offset
they are at, and a device's cells by their kind.
-/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

variable (c : Dev nD)

abbrev dropS : PosShare TreeShare := shareDrop fullShare 16
abbrev tokS (i : Fin 16) : PosShare TreeShare := shareTok fullShare 16 i

/-! ## The other devices, by the offset they are at -/

/-- A conjunction over the devices other than `c` is one over the nonzero offsets. -/
theorem bigSep_others (Φ : Fin 16 → sProp 𝕄) :
    bigSep (Finset.univ.erase c) Φ = bigSep nz (fun d => Φ (pr c d)) := by
  -- the devices other than `c` are the images of the nonzero offsets under `d ↦ c + d`
  have h : (Finset.univ.erase c : Finset (Fin 16)) = nz.map ⟨pr c, fun _ _ h => pr_inj h⟩ := by
    ext j
    rw [Finset.mem_erase, Finset.mem_map]
    constructor
    · rintro ⟨hj, -⟩
      exact ⟨off c j, Finset.mem_erase.mpr ⟨off_ne_zero hj, Finset.mem_univ _⟩, pr_off c j⟩
    · rintro ⟨d, hd, rfl⟩
      exact ⟨pr_ne (Finset.mem_erase.mp hd).1, Finset.mem_univ _⟩
  rw [h, bigSep_map]
  rfl

/-! ## The table by its rows -/

/-- The table at a share is the device's own row and the rows of the other devices, by their offset, at that share. -/
theorem rows_split (q : PosShare TreeShare) (f : Buf (Elt F) ((c : Thread nD τ).loc cc0_scratch1)) :
    ((((c : Thread nD τ).loc cc0_scratch1) ↦{q} f) : sProp 𝕄)
      ⊣⊢ iprop(rowPts c c q f ∗ bigSep nz (fun d => rowPts c (pr c d) q f)) := by
  have e : (bigSep Finset.univ (fun j : Fin 16 => rowPts c j q f) : sProp 𝕄)
      = iprop(rowPts c c q f ∗ bigSep nz (fun d => rowPts c (pr c d) q f)) := by
    rw [bigSep_univ_at _ c, bigSep_others]
  exact ⟨(comm_rows c q f).1.trans (Entails.of_eq e), (Entails.of_eq e.symm).trans (comm_rows c q f).2⟩

/-- The device's table, whole at some contents, is its own row and the rows it gives away. -/
theorem comm_give :
    iprop(∃ f : Buf (Elt F) ((c : Thread nD τ).loc cc0_scratch1), ((c : Thread nD τ).loc cc0_scratch1) ↦{fullShare} f)
      ⊢ (iprop((∃ f, rowPts (F := F) c c fullShare f) ∗ bigSep nz (fun d => iprop(∃ f, rowPts (F := F) c (pr c d) fullShare f))) : sProp 𝕄) := by
  -- each row given away, at the contents it happens to have
  have hm : ∀ f : Buf (Elt F) ((c : Thread nD τ).loc cc0_scratch1),
      (bigSep nz (fun d => rowPts c (pr c d) fullShare f) : sProp 𝕄)
        ⊢ bigSep nz (fun d => iprop(∃ f, rowPts (F := F) c (pr c d) fullShare f)) :=
    fun f => bigSep_mono fun d _ =>
      show (rowPts c (pr c d) fullShare f : sProp 𝕄) ⊢ iprop(∃ f, rowPts (F := F) c (pr c d) fullShare f) from by
        iintro H; iexists f; iexact H
  iintro ⟨%f, H⟩
  ihave H := (rows_split c fullShare f).1 $$ H
  icases H with ⟨Hc, Hr⟩
  isplitl [Hc]
  · iexists f; iexact Hc
  · iapply (hm f); iexact Hr

/-- A row held whole is held as the remainder and sixteen read shares: the first unused, the others one per transfer. -/
theorem row_tokens (j : Fin 16) (f : Buf (Elt F) ((rowM j : Memref sig .tc .vmem S1x256 .f32).view.loc (c : Thread nD τ))) :
    (rowPts c j fullShare f : sProp 𝕄)
      ⊣⊢ iprop(rowPts c j dropS f ∗ rowPts c j (tokS 0) f ∗ bigSep nz (fun d => rowPts c j (tokS d) f)) := by
  unfold rowPts
  -- the remainder and the sixteen read shares, the share of index 0 taken out of the sixteen
  have e := Idealize.ShloMosaic.Transfers.pointsTo_toks (nD := nD) (τ := τ) (sig := sig) (Ix := Unit) (Val := Elt F) (Name := ℕ)
    (U := UU) (Lvl := ℕ) (ℓ := (rowM j : Memref sig .tc .vmem S1x256 .f32).view.loc (c : Thread nD τ))
    (S := (rowM j : Memref sig .tc .vmem S1x256 .f32).view.set) (f := f) fullShare 16
  rw [bigSep_univ_at _ (0 : Fin 16)] at e
  exact e

/-- The table at the remainder share from the remainder shares of its sixteen rows: the device's own and the fifteen
    received, whose read shares are set aside. -/
theorem comm_at_drop :
    iprop(rowPts c c dropS (tbl m) ∗ bigSep nz (fun d => rowPts c (pr c d) fullShare (tbl m)))
      ⊣⊢ (iprop((((c : Thread nD τ).loc cc0_scratch1) ↦{dropS} tbl m)
          ∗ bigSep nz (fun d => iprop(rowPts c (pr c d) (tokS 0) (tbl m) ∗ bigSep nz (fun i => rowPts c (pr c d) (tokS i) (tbl m))))) : sProp 𝕄) := by
  -- every received row: its remainder, and its read shares set aside
  have hsplit : (bigSep nz (fun d => rowPts c (pr c d) fullShare (tbl m)) : sProp 𝕄)
      ⊣⊢ iprop(bigSep nz (fun d => rowPts c (pr c d) dropS (tbl m))
          ∗ bigSep nz (fun d => iprop(rowPts c (pr c d) (tokS 0) (tbl m) ∗ bigSep nz (fun i => rowPts c (pr c d) (tokS i) (tbl m))))) := by
    rw [← bigSep_sep']
    exact ⟨bigSep_mono fun d _ => (row_tokens c (pr c d) (tbl m)).1, bigSep_mono fun d _ => (row_tokens c (pr c d) (tbl m)).2⟩
  -- the sixteen remainders are the table at the remainder share
  have hr := rows_split c dropS (tbl m)
  constructor
  · iintro ⟨Hc, Hr⟩
    ihave Hr := hsplit.1 $$ Hr
    icases Hr with ⟨Hd, Ht⟩
    isplitl [Hc Hd]
    · iapply hr.2; isplitl [Hc] <;> iassumption
    · iexact Ht
  · iintro ⟨Hw, Ht⟩
    ihave Hw := hr.1 $$ Hw
    icases Hw with ⟨Hc, Hd⟩
    isplitl [Hc]; · iexact Hc
    iapply hsplit.2
    isplitl [Hd] <;> iassumption

/-- Every share of every row back: the table whole again. -/
theorem comm_whole :
    iprop(rowPts c c dropS (tbl m) ∗ rowPts c c (tokS 0) (tbl m) ∗ bigSep nz (fun d => rowPts c c (tokS d) (tbl m))
        ∗ bigSep nz (fun d => rowPts c (pr c d) fullShare (tbl m)))
      ⊢ ((((c : Thread nD τ).loc cc0_scratch1) ↦{fullShare} tbl m) : sProp 𝕄) := by
  iintro ⟨Hd, H0, Ht, Hr⟩
  iapply (rows_split c fullShare (tbl m)).2
  isplitl [Hd H0 Ht]
  · iapply (row_tokens c c (tbl m)).2
    isplitl [Hd]; · iexact Hd
    isplitl [H0] <;> iassumption
  · iexact Hr

/-! ## A device's cells by their kind -/

/-- The own semaphores by their number: semaphore `d` sends to offset `d`, semaphore `16 + j` receives from device `j`,
    semaphore 32 is the load's. -/
def oSend : Fin 16 ↪ Fin 33 := ⟨fun d => ⟨d.val, by omega⟩, fun a b h => Fin.ext (show a.val = b.val from congrArg (fun x : Fin 33 => x.val) h)⟩
def oRecv : Fin 16 ↪ Fin 33 :=
  ⟨fun j => ⟨16 + j.val, by omega⟩, fun a b h => Fin.ext (by have h' : 16 + a.val = 16 + b.val := congrArg (fun x : Fin 33 => x.val) h; omega)⟩
def oLoad : Fin 33 := ⟨32, by omega⟩
/-- Cell `k + 1` is own semaphore `k`. -/
def oSucc : Fin 33 ↪ Fin 34 :=
  ⟨fun k => ⟨k.val + 1, by omega⟩, fun a b h => Fin.ext (by have h' : a.val + 1 = b.val + 1 := congrArg (fun x : Fin 34 => x.val) h; omega)⟩

theorem osem_send (d : Fin 16) : ((c : Thread nD τ), osem (oSend d)) = sendCell c d :=
  (osem_eq c (oSend d)).trans
    ((congrArg (fun k : Fin 34 => kcell (c, k)) (Fin.ext (by show d.val + 1 = 1 + d.val; omega))).trans (kcell_send c d))
theorem osem_recv (j : Fin 16) : ((c : Thread nD τ), osem (oRecv j)) = recvCell c j :=
  (osem_eq c (oRecv j)).trans
    ((congrArg (fun k : Fin 34 => kcell (c, k)) (Fin.ext (by show 16 + j.val + 1 = 17 + j.val; omega))).trans (kcell_recv c j))
theorem osem_load : ((c : Thread nD τ), osem oLoad) = loadCell c :=
  (osem_eq c oLoad).trans
    ((congrArg (fun k : Fin 34 => kcell (c, k)) (Fin.ext (by show 32 + 1 = 33; rfl))).trans (kcell_load c))

/-- The thirty-three own semaphores are the load's, the sixteen send and the sixteen receive semaphores. -/
theorem fin33_cover : (Finset.univ : Finset (Fin 33)) = insert oLoad (Finset.univ.map oSend ∪ Finset.univ.map oRecv) := by
  ext k
  simp only [Finset.mem_univ, true_iff, Finset.mem_insert, Finset.mem_union, Finset.mem_map, true_and]
  by_cases h32 : k.val = 32
  · exact .inl (Fin.ext h32)
  by_cases h16 : k.val < 16
  · exact .inr (.inl ⟨⟨k.val, h16⟩, Fin.ext rfl⟩)
  · exact .inr (.inr ⟨⟨k.val - 16, by omega⟩, Fin.ext (by show 16 + (k.val - 16) = k.val; omega)⟩)

theorem oLoad_notMem : oLoad ∉ Finset.univ.map oSend ∪ Finset.univ.map oRecv := by
  simp only [Finset.mem_union, Finset.mem_map, Finset.mem_univ, true_and, not_or, not_exists]
  refine ⟨fun d h => ?_, fun j h => ?_⟩
  · have h' : d.val = 32 := Fin.ext_iff.mp h
    omega
  · have h' : 16 + j.val = 32 := Fin.ext_iff.mp h
    omega

theorem oSend_oRecv_disjoint : Disjoint ((Finset.univ : Finset (Fin 16)).map oSend) ((Finset.univ : Finset (Fin 16)).map oRecv) := by
  rw [Finset.disjoint_left]
  intro k hs hr
  obtain ⟨d, -, hd⟩ := Finset.mem_map.mp hs
  obtain ⟨j, -, hj⟩ := Finset.mem_map.mp hr
  have h' : d.val = 16 + j.val := Fin.ext_iff.mp (hd.trans hj.symm)
  omega

/-- A conjunction over the own semaphores, by their kind. -/
theorem own_eq (Φ : GSem nD τ sig → sProp 𝕄) :
    bigSep Finset.univ (fun k : Fin 33 => Φ ((c : Thread nD τ), osem k))
      = iprop(Φ (loadCell c) ∗ (Φ (sendCell c 0) ∗ bigSep nz (fun d => Φ (sendCell c d)))
          ∗ (Φ (recvCell c c) ∗ bigSep nz (fun d => Φ (recvCell c (pr c d))))) := by
  have hS : bigSep (Finset.univ : Finset (Fin 16)) (fun d => Φ ((c : Thread nD τ), osem (oSend d)))
      = iprop(Φ (sendCell c 0) ∗ bigSep nz (fun d => Φ (sendCell c d))) := by
    rw [bigSep_congr (Ψ := fun d => Φ (sendCell c d)) fun d _ => congrArg Φ (osem_send c d)]
    exact bigSep_univ_at _ 0
  have hR : bigSep (Finset.univ : Finset (Fin 16)) (fun j => Φ ((c : Thread nD τ), osem (oRecv j)))
      = iprop(Φ (recvCell c c) ∗ bigSep nz (fun d => Φ (recvCell c (pr c d)))) := by
    rw [bigSep_congr (Ψ := fun j => Φ (recvCell c j)) fun j _ => congrArg Φ (osem_recv c j), bigSep_univ_at _ c, bigSep_others]
  rw [fin33_cover, bigSep_insert oLoad_notMem, bigSep_union oSend_oRecv_disjoint, bigSep_map, bigSep_map, hS, hR, osem_load]
  rfl

/-- A conjunction over a device's thirty-four cells: the barrier cell, the load cell, the send cell of offset 0 and of
    the nonzero offsets, the receive cell of the device itself and of the other devices by their offset. -/
theorem cells_split (Φ : GSem nD τ sig → sProp 𝕄) :
    bigSep Finset.univ (fun k : Fin 34 => Φ (kcell (c, k)))
      ⊣⊢ iprop(Φ (barCell c) ∗ Φ (loadCell c) ∗ Φ (sendCell c 0) ∗ bigSep nz (fun d => Φ (sendCell c d))
          ∗ Φ (recvCell c c) ∗ bigSep nz (fun d => Φ (recvCell c (pr c d)))) := by
  -- cell 0 is the barrier cell, cell `k + 1` the own semaphore `k`
  have hU : (Finset.univ : Finset (Fin 34)) = insert 0 (Finset.univ.map oSucc) := by
    ext k
    simp only [Finset.mem_univ, true_iff, Finset.mem_insert, Finset.mem_map, true_and]
    by_cases h0 : k.val = 0
    · exact .inl (Fin.ext h0)
    · exact .inr ⟨⟨k.val - 1, by omega⟩, Fin.ext (by show k.val - 1 + 1 = k.val; omega)⟩
  have n0 : (0 : Fin 34) ∉ (Finset.univ : Finset (Fin 33)).map oSucc := by
    simp only [Finset.mem_map, Finset.mem_univ, true_and, not_exists]
    intro k h
    have h' : k.val + 1 = 0 := Fin.ext_iff.mp h
    omega
  have e : bigSep Finset.univ (fun k : Fin 34 => Φ (kcell (c, k)))
      = iprop(Φ (barCell c) ∗ bigSep Finset.univ (fun k : Fin 33 => Φ ((c : Thread nD τ), osem k))) := by
    rw [hU, bigSep_insert n0, bigSep_map, kcell_bar]
    exact congrArg (BI.sep (Φ (barCell c))) (bigSep_congr fun k _ => (congrArg Φ (osem_eq c k)).symm)
  rw [e, own_eq]
  constructor
  · iintro ⟨HB, HL, ⟨HS0, HS⟩, HR0, HR⟩
    isplitl [HB]; · iexact HB
    isplitl [HL]; · iexact HL
    isplitl [HS0]; · iexact HS0
    isplitl [HS]; · iexact HS
    isplitl [HR0] <;> iassumption
  · iintro ⟨HB, HL, HS0, HS, HR0, HR⟩
    isplitl [HB]; · iexact HB
    isplitl [HL]; · iexact HL
    isplitl [HS0 HS]
    · isplitl [HS0] <;> iassumption
    · isplitl [HR0] <;> iassumption

/-- The same over its thirty-three own semaphores. -/
theorem own_split (Φ : GSem nD τ sig → sProp 𝕄) :
    bigSep Finset.univ (fun k : Fin 33 => Φ ((c : Thread nD τ), osem k))
      ⊣⊢ iprop(Φ (loadCell c) ∗ Φ (sendCell c 0) ∗ bigSep nz (fun d => Φ (sendCell c d))
          ∗ Φ (recvCell c c) ∗ bigSep nz (fun d => Φ (recvCell c (pr c d)))) := by
  rw [own_eq]
  constructor
  · iintro ⟨HL, ⟨HS0, HS⟩, HR0, HR⟩
    isplitl [HL]; · iexact HL
    isplitl [HS0]; · iexact HS0
    isplitl [HS]; · iexact HS
    isplitl [HR0] <;> iassumption
  · iintro ⟨HL, HS0, HS, HR0, HR⟩
    isplitl [HL]; · iexact HL
    isplitl [HS0 HS]
    · isplitl [HS0] <;> iassumption
    · isplitl [HR0] <;> iassumption

/-! ## Closing the device's own cells -/

variable (K : Dev nD × Fin 34 → ℕ)

/-- A cell of the device, at a round from which on it has no duty and with nothing of that round taken, is closed
    by its owner, who keeps the counter at zero. -/
theorem close_at (k : Fin 34) (g : GSem nD τ sig) (hg : kcell (c, k) = g) {R : ℕ}
    (hR : ∀ r, R ≤ r → (exRd (F := F) m).duties g r = ∅) :
    iprop(records m K ∗ atPos ER g R (∅ : Finset (Fin 16)) 0) ⊢ (|={Set.univ}=> semVal g 0 : sProp 𝕄) := by
  subst hg
  iintro ⟨#HR, Hat⟩
  iapply (cell_close ER (exRd m) (κ := K (c, k)) (Set.mem_univ _) (fun h => h) hR)
  isplitr
  · iapply (inv_at m K (c, k)); iexact HR
  · iexact Hat

/-- At the end every own cell is closed: the load cell, the fifteen send cells and the fifteen receive cells a round on,
    the two cells that saw no transfer where they started; their counters, at zero, are the device's again. -/
theorem close_own :
    iprop(records m K ∗ atPos ER (loadCell c) 1 (∅ : Finset (Fin 16)) 0 ∗ atPos ER (sendCell c 0) 0 (∅ : Finset (Fin 16)) 0
        ∗ bigSep nz (fun d => atPos ER (sendCell c d) 1 (∅ : Finset (Fin 16)) 0)
        ∗ atPos ER (recvCell c c) 0 (∅ : Finset (Fin 16)) 0
        ∗ bigSep nz (fun d => atPos ER (recvCell c (pr c d)) 1 (∅ : Finset (Fin 16)) 0))
      ⊢ (|={Set.univ}=> bigSep Finset.univ fun k : Fin 33 => semVal ((c : Thread nD τ), osem k) 0 : sProp 𝕄) := by
  have e := own_eq c (fun g : GSem nD τ sig => (semVal g 0 : sProp 𝕄))
  -- the cells that saw a transfer are a round on, where no round has a duty; the two others never had one
  have hL := close_at m c K kLoad (loadCell c) (kcell_load c) (R := 1) (fun r hr => duties_later m _ r hr)
  have hS0 := close_at m c K (kSend 0) (sendCell c 0) (kcell_send c 0) (R := 0) (fun r _ => duties_send0 m c r)
  have hR0 := close_at m c K (kRecv c) (recvCell c c) (kcell_recv c c) (R := 0) (fun r _ => duties_recvSelf m c r)
  have hS : iprop(records m K ∗ bigSep nz (fun d => atPos ER (sendCell c d) 1 (∅ : Finset (Fin 16)) 0))
      ⊢ (|={Set.univ}=> bigSep nz (fun d => semVal (sendCell c d) 0) : sProp 𝕄) :=
    (bigSep_with_persistent fun d _ =>
      close_at m c K (kSend d) (sendCell c d) (kcell_send c d) (R := 1) (fun r hr => duties_later m _ r hr)).trans (bigSep_fupd _ _)
  have hR : iprop(records m K ∗ bigSep nz (fun d => atPos ER (recvCell c (pr c d)) 1 (∅ : Finset (Fin 16)) 0))
      ⊢ (|={Set.univ}=> bigSep nz (fun d => semVal (recvCell c (pr c d)) 0) : sProp 𝕄) :=
    (bigSep_with_persistent fun d _ =>
      close_at m c K (kRecv (pr c d)) (recvCell c (pr c d)) (kcell_recv c (pr c d)) (R := 1) (fun r hr => duties_later m _ r hr)).trans
      (bigSep_fupd _ _)
  refine BIBase.Entails.trans ?_ (BI.fupd_mono (Entails.of_eq e.symm))
  iintro ⟨#HR, HL, HS0, HS, HR0, HRr⟩
  imod hL $$ [HL] with HL
  · isplitr; · iexact HR
    iexact HL
  imod hS0 $$ [HS0] with HS0
  · isplitr; · iexact HR
    iexact HS0
  imod hS $$ [HS] with HS
  · isplitr; · iexact HR
    iexact HS
  imod hR0 $$ [HR0] with HR0
  · isplitr; · iexact HR
    iexact HR0
  imod hR $$ [HRr] with HRr
  · isplitr; · iexact HR
    iexact HRr
  imodintro
  isplitl [HL]; · iexact HL
  isplitl [HS0 HS]
  · isplitl [HS0] <;> iassumption
  · isplitl [HR0] <;> iassumption

end Cert.KernelIdealProof

end
-- ==== Proof.KernelIdealEnds.lean ====
import proofs.«900952_g7700000000000953_dist_mean_ax0_shard0_i_m512_n256_v7x_i16_bf16_1_alg».proof.Proof.KernelIdealGlue
import proofs.«900952_g7700000000000953_dist_mean_ax0_shard0_i_m512_n256_v7x_i16_bf16_1_alg».proof.Proof.Gen.KernelIdeal.Skeleton
import proofs.«900952_g7700000000000953_dist_mean_ax0_shard0_i_m512_n256_v7x_i16_bf16_1_alg».proof.Proof.Gen.KernelIdeal.Points

/-!
The two ends of a device's body: what the pipeline hands it, sorted into the pieces the steps take; and the
pieces the last step leaves, put back into what the pipeline takes.
-/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 34 → ℕ) (c : Dev nD)

/-- A whole buffer of device `c` holding exactly `X`. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The point of the (gridless) call. -/
abbrev t0 : Fin cfg0.N := Gen.t0_0

/-- What the device holds when its body starts, piece by piece. -/
def S0 : sProp 𝕄 :=
  iprop(records m K ∗ levAts L lv
    ∗ atPos ER (barCell c) 0 (∅ : Finset (Fin 16)) 0 ∗ atPos ER (loadCell c) 0 (∅ : Finset (Fin 16)) 0
    ∗ atPos ER (sendCell c 0) 0 (∅ : Finset (Fin 16)) 0 ∗ (bigSep nz fun d => atPos ER (sendCell c d) 0 (∅ : Finset (Fin 16)) 0)
    ∗ atPos ER (recvCell c c) 0 (∅ : Finset (Fin 16)) 0 ∗ (bigSep nz fun d => atPos ER (recvCell c (pr c d)) 0 (∅ : Finset (Fin 16)) 0)
    ∗ (bigSep nz fun d => dutyTok ER (barCell (pr c d)) 0 (ng d))
    ∗ (bigSep nz fun d => dutyTok ER (recvCell (pr c d) c) 0 (0 : Fin 16))
    ∗ (bigSep nz fun d => dutyTok ER (sendCell c d) 0 (0 : Fin 16))
    ∗ dutyTok ER (loadCell c) 0 (0 : Fin 16)
    ∗ cred (tallyAt (barCell c) () 15) ∗ (bigSep nz fun d => cred (tallyAt (recvCell c (pr c d)) () N1))
    ∗ (((c : Thread nD τ).loc main_arg0) ↦{fullShare} xblk m c)
    ∗ (∃ f : Buf (Elt F) ((c : Thread nD τ).loc cc0_scratch0), ((c : Thread nD τ).loc cc0_scratch0) ↦{fullShare} f)
    ∗ (∃ f, rowPts (F := F) c c fullShare f) ∗ (bigSep nz fun d => iprop(∃ f, rowPts (F := F) c (pr c d) fullShare f))
    ∗ (∃ W : Waits sig Unit, owes (c : Thread nD τ) (owedRecv c nz + owedSig c nz) W)
    ∗ (∃ g : Buf (Elt F) ((c : Thread nD τ).loc cc0_stg0_0), ((c : Thread nD τ).loc cc0_stg0_0) ↦{fullShare} g))

/-- What it holds after its last step. -/
def Sfin : sProp 𝕄 :=
  iprop(records m K ∗ atPos ER (loadCell c) 1 (∅ : Finset (Fin 16)) 0
    ∗ atPos ER (sendCell c 0) 0 (∅ : Finset (Fin 16)) 0 ∗ (bigSep nz fun d => atPos ER (sendCell c d) 1 (∅ : Finset (Fin 16)) 0)
    ∗ atPos ER (recvCell c c) 0 (∅ : Finset (Fin 16)) 0 ∗ (bigSep nz fun d => atPos ER (recvCell c (pr c d)) 1 (∅ : Finset (Fin 16)) 0)
    ∗ (((c : Thread nD τ).loc main_arg0) ↦{fullShare} xblk m c)
    ∗ (((c : Thread nD τ).loc cc0_scratch0) ↦{fullShare} xblk m c)
    ∗ rowPts c c dropS (tbl m) ∗ rowPts c c (tokS 0) (tbl m) ∗ (bigSep nz fun d => rowPts c c (tokS d) (tbl m))
    ∗ (bigSep nz fun d => rowPts c (pr c d) fullShare (tbl m))
    ∗ (∃ W : Waits sig Unit, owes (c : Thread nD τ) 0 W)
    ∗ (((c : Thread nD τ).loc cc0_stg0_0) ↦{fullShare} outV m))

/-- What the pipeline takes back after the point. -/
def bodyPost : sProp 𝕄 :=
  iprop(Φ₁ m c ∗ (dats m ρ 0 c).owesAt () t0.succ ∗ stg c cc0_stg0_0 (outV m))

/-- What the pipeline hands the body at the point. -/
def bodyPre : sProp 𝕄 :=
  iprop(Φ₀ m c ∗ (dats m ρ 0 c).owesAt () t0.castSucc
    ∗ (∃ d, stg c cc0_stg0_0 ((dats m ρ 0 c).before (0 : Fin 1) t0 d)))

theorem prep : bodyPre m ρ c ⊢ (iprop(∃ K, S0 m K c) : sProp 𝕄) := by
  unfold bodyPre Φ₀ start ghost linear payToks creds Dat.owesAt Pipeline.owesWithin
  rw [show (dats m ρ 0 c).owed t0.castSucc = owedRecv c nz + owedSig c nz from rfl]
  iintro ⟨⟨⟨⟨%K, #Hrec, Hpos, Htb, Htr, Hts, Htl⟩, ⟨Hcb, Hcr⟩, #Hlev, Hx⟩, Hxv, Hcomm⟩, ⟨%W, %hW, HO⟩, ⟨%d, %g, %hg, Hout⟩⟩
  ihave Hpos' := (cells_split (F := F) c (fun g => atPos ER g 0 (∅ : Finset (Fin 16)) 0)).1 $$ Hpos
  icases Hpos' with ⟨Hp1, Hp2, Hp3, Hp4, Hp5, Hp6⟩
  ihave Hcr' := (Entails.of_eq (bigSep_others (F := F) c (fun j => cred (tallyAt (recvCell c j) () N1)))) $$ Hcr
  ihave Hc := (comm_give (F := F) c) $$ Hcomm
  icases Hc with ⟨Hrow, Hrows⟩
  iexists K
  unfold S0
  isplitr; · iexact Hrec
  isplitr; · iexact Hlev
  isplitl [Hp1]; · iexact Hp1
  isplitl [Hp2]; · iexact Hp2
  isplitl [Hp3]; · iexact Hp3
  isplitl [Hp4]; · iexact Hp4
  isplitl [Hp5]; · iexact Hp5
  isplitl [Hp6]; · iexact Hp6
  isplitl [Htb]; · iexact Htb
  isplitl [Htr]; · iexact Htr
  isplitl [Hts]; · iexact Hts
  isplitl [Htl]; · iexact Htl
  isplitl [Hcb]; · iexact Hcb
  isplitl [Hcr']; · iexact Hcr'
  isplitl [Hx]; · iexact Hx
  isplitl [Hxv]; · iexact Hxv
  isplitl [Hrow]; · iexact Hrow
  isplitl [Hrows]; · iexact Hrows
  isplitl [HO]; · iexists W; iexact HO
  iexists g; iexact Hout

theorem finish : Sfin m K c ⊢ (|={Set.univ}=> bodyPost m ρ c : sProp 𝕄) := by
  unfold Sfin
  iintro ⟨#Hrec, Hl, Hs0, Hs, Hr0, Hr, Hx, Hxv, Hd, Ht0, Hts, Hrows, ⟨%W, HO⟩, Hout⟩
  imod (close_own m c K) $$ [Hl Hs0 Hs Hr0 Hr] with Hsem
  · isplitr; · iexact Hrec
    isplitl [Hl]; · iexact Hl
    isplitl [Hs0]; · iexact Hs0
    isplitl [Hs]; · iexact Hs
    isplitl [Hr0]; · iexact Hr0
    iexact Hr
  ihave Hcomm := (comm_whole m c) $$ [Hd Ht0 Hts Hrows]
  · isplitl [Hd]; · iexact Hd
    isplitl [Ht0]; · iexact Ht0
    isplitl [Hts]; · iexact Hts
    iexact Hrows
  imodintro
  unfold bodyPost Φ₁ Dat.owesAt Pipeline.owesWithin
  rw [show (dats m ρ 0 c).owed t0.succ = 0 from rfl]
  isplitl [Hx Hxv Hcomm Hsem]
  · isplitl [Hx]; · iexact Hx
    isplitl [Hxv]; · iexists (xblk m c); iexact Hxv
    isplitl [Hcomm]; · iexists (tbl m); iexact Hcomm
    iexact Hsem
  isplitl [HO]
  · iexists W; isplitr; · ipureintro; exact fun _ _ => Or.inl trivial
    iexact HO
  iexists (outV m); isplitr; · ipureintro; rfl
  iexact Hout

/-- The library's body obligation from the body stepped between the two ends. -/
theorem body_obligation_of
    (h : ∀ (K : Dev nD × Fin 34 → ℕ) (Kt : PUnit → sProp 𝕄),
      iprop(S0 m K c ∗ (bodyPost m ρ c -∗ Kt ⟨⟩))
        ⊢ wp frame (wpE (defs₀ (F := F)) 𝒱₀ (c : Thread nD τ) none) Set.univ
            (cc0_body (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4) Kt) :
    BodyObligation (dats (F := F) m ρ 0 c) (defs₀ (F := F)) 𝒱₀ () Set.univ := by
  intro t
  rw [Gen.fin_N0 t]
  rw [Gen.bigSep_W0, Gen.bigSep_W0]
  simp only [owns_whole_eq]
  show bodyPre m ρ c ⊢ wp frame (wpE (defs₀ (F := F)) 𝒱₀ (c : Thread nD τ) none) Set.univ
    (cc0_body (Memref.whole main_arg0) (Memref.isWhole_whole _) (Memref.whole cc0_stg0_0) (Memref.isWhole_whole _)
      (Memref.whole cc0_scratch0) (Memref.isWhole_whole _) (Memref.whole cc0_scratch1) (Memref.isWhole_whole _)
      cc0_scratch2 cc0_scratch3 cc0_scratch4) (fun _ => bodyPost m ρ c)
  refine (prep m ρ c).trans ?_
  iintro ⟨%K, HS⟩
  iapply (h K (fun _ => bodyPost m ρ c))
  isplitl [HS]; · iexact HS
  iintro H; iexact H

end Cert.KernelIdealProof

end
-- ==== Proof.KernelIdealBody.lean ====
import proofs.«900952_g7700000000000953_dist_mean_ax0_shard0_i_m512_n256_v7x_i16_bf16_1_alg».proof.Proof.KernelIdealArith
import proofs.«900952_g7700000000000953_dist_mean_ax0_shard0_i_m512_n256_v7x_i16_bf16_1_alg».proof.Proof.KernelIdealStepsR
import proofs.«900952_g7700000000000953_dist_mean_ax0_shard0_i_m512_n256_v7x_i16_bf16_1_alg».proof.Proof.KernelIdealStepsL
import proofs.«900952_g7700000000000953_dist_mean_ax0_shard0_i_m512_n256_v7x_i16_bf16_1_alg».proof.Proof.KernelIdealEnds

/-!
One device's kernel body, stepped from the pieces it starts with to the pieces it hands back: the block's load, the
fifteen signals, the row sums stored in its own row, the wait for the fifteen signals, the fifteen transfers of its
row, the waits for the fifteen rows sent to it, the table summed and scaled, the waits for its own transfers.
-/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 34 → ℕ) (c : Dev nD)

/-- A step proved under any frame is a step in wand form: what it takes, and what its continuation is given. -/
theorem to_wand {P P' G G' : sProp 𝕄} (h : ∀ R : sProp 𝕄, (iprop(R ∗ P') ⊢ G') → (iprop(R ∗ P) ⊢ G)) :
    P ⊢ iprop((P' -∗ G') -∗ G) := by
  iintro HP Hw
  iapply (h iprop(P' -∗ G') (by iintro ⟨Hw, HP'⟩; iapply Hw $$ HP'))
  isplitl [Hw]
  · iexact Hw
  · iexact HP

/-- The same for a step whose continuation must hold for every value read. -/
theorem to_wand_all {β : Type} {P P' G : sProp 𝕄} {G' : β → sProp 𝕄} (h : ∀ R : sProp 𝕄, (∀ v, iprop(R ∗ P') ⊢ G' v) → (iprop(R ∗ P) ⊢ G)) :
    P ⊢ iprop((∀ v, P' -∗ G' v) -∗ G) := by
  have h' : ∀ v, iprop(iprop(∀ v, P' -∗ G' v) ∗ P') ⊢ G' v := fun v => by
    iintro ⟨Hw, HP'⟩
    iapply Hw $$ %v HP'
  iintro HP Hw
  iapply (h _ h')
  isplitl [Hw]
  · iexact Hw
  · iexact HP

/-! ## The steps in wand form -/

def sigBody (T : Finset (Fin 16)) : sProp 𝕄 :=
  iprop(records m K ∗ owingR c (owedRecv c nz + owedSig c T)
    ∗ (bigSep T fun d => dutyTok ER (barCell (pr c d)) 0 (ng d))
    ∗ (bigSep T fun d => iprop(∃ f, rowPts (F := F) c (pr c d) fullShare f)))

theorem w_signal (d : Fin 16) (hd : d ≠ 0) {n : Dev nD} (hn : n = pr c d) {a : ℕ} (ha : a = 1) {T : Finset (Fin 16)} (hdT : d ∈ T)
    {α : Type} {Q : α → sProp 𝕄} {k : PUnit → Prog (TpuEff nD τ sig (Elt F) Λ₀ .tc) α} :
    sigBody m K c T ⊢ iprop((sigBody m K c (T.erase d) -∗ WP c (k ⟨⟩) Q) -∗ WP c (.op (.semSignal ((n, Proc.tc) : Thread nD τ) barS a) k) Q) :=
  to_wand fun R hk => step_signal m K c d hd hn ha hdT hk

def sendBody (S : Finset (Fin 16)) : sProp 𝕄 :=
  iprop(records m K ∗ owingR c (owedRecv c S)
    ∗ (bigSep S fun d => dutyTok ER (sendCell c d) 0 (0 : Fin 16))
    ∗ (bigSep S fun d => dutyTok ER (recvCell (pr c d) c) 0 (0 : Fin 16))
    ∗ (bigSep S fun d => rowPts c c (shareTok fullShare 16 d) (tbl m))
    ∗ (bigSep S fun d => iprop(∃ f, rowPts (F := F) (pr c d) c fullShare f))
    ∗ (bigSep (nz \ S) fun d => cred (tallyAt (sendCell c d) () N1)))

theorem w_send (d : Fin 16) (hd : d ≠ 0) {n : Dev nD} (hn : n = pr c d)
    {src : Memref sig .tc .vmem S1x256 .f32} {dst : Memref sig (Dev.tc n : Thread nD τ).2.kind .vmem S1x256 .f32}
    (hs : src = rowM c) (hdm : dst = rowM c)
    {sS sR : DmaSem sig} (hsS : sS = sendS d) (hsR : sR = recvS c) {S : Finset (Fin 16)} (hS : S ⊆ nz) (hdS : d ∈ S)
    {hsc : dst.view.ref.isScScratch = false} {h1 : src.view.WordExact} {h2 : dst.view.WordExact}
    {h3 : DmaTarget.Typed .vmem (.dma sR) (.remote (Dev.tc n : Thread nD τ) dst (.dma sS) hsc)}
    {α : Type} {Q : α → sProp 𝕄} {k : PUnit → Prog (TpuEff nD τ sig (Elt F) Λ₀ .tc) α} :
    sendBody m K c S ⊢ iprop((sendBody m K c (S.erase d) -∗ WP c (k ⟨⟩) Q)
      -∗ WP c (.op (.enqueueDma src (.remote (Dev.tc n : Thread nD τ) dst (.dma sS) hsc) (.dma sR) h1 h2 h3) k) Q) :=
  to_wand fun R hk => step_send m K c d hd hn hs hdm hsS hsR hS hdS hk

def recvBody (S : Finset (Fin 16)) : sProp 𝕄 :=
  iprop(records m K ∗ owing c 0
    ∗ (bigSep S fun d => iprop(cred (tallyAt (recvCell c (pr c d)) () N1) ∗ atPos ER (recvCell c (pr c d)) 0 (∅ : Finset (Fin 16)) 0))
    ∗ (bigSep (nz \ S) fun d => iprop(atPos ER (recvCell c (pr c d)) 1 (∅ : Finset (Fin 16)) 0 ∗ rowPts c (pr c d) fullShare (tbl m))))

theorem w_waitRecv (d : Fin 16) (hd : d ≠ 0) {sR : DmaSem sig} (hsR : sR = recvS (pr c d))
    {src dst : Memref sig .tc .vmem S1x256 .f32} (hdm : dst = rowM (pr c d))
    {S : Finset (Fin 16)} (hS : S ⊆ nz) (hdS : d ∈ S) {h1 : src.view.WordExact} {h2 : dst.view.WordExact}
    {α : Type} {Q : α → sProp 𝕄} {k : PUnit → Prog (TpuEff nD τ sig (Elt F) Λ₀ .tc) α} :
    recvBody m K c S ⊢ iprop((recvBody m K c (S.erase d) -∗ WP c (k ⟨⟩) Q) -∗ WP c (.op (.waitDma2 sR src dst h1 h2) k) Q) :=
  to_wand fun R hk => step_waitRecv m K c d hd hsR hdm hS hdS hk

def sentBody (S : Finset (Fin 16)) : sProp 𝕄 :=
  iprop(records m K ∗ owing c 0
    ∗ (bigSep S fun d => iprop(cred (tallyAt (sendCell c d) () N1) ∗ atPos ER (sendCell c d) 0 (∅ : Finset (Fin 16)) 0))
    ∗ (bigSep (nz \ S) fun d => iprop(atPos ER (sendCell c d) 1 (∅ : Finset (Fin 16)) 0 ∗ rowPts c c (shareTok fullShare 16 d) (tbl m))))

theorem w_waitSend (d : Fin 16) (hd : d ≠ 0) {sS : DmaSem sig} (hsS : sS = sendS d)
    {src dst : Memref sig .tc .vmem S1x256 .f32} (hdm : dst = rowM c)
    {S : Finset (Fin 16)} (hS : S ⊆ nz) (hdS : d ∈ S) {h1 : src.view.WordExact} {h2 : dst.view.WordExact}
    {α : Type} {Q : α → sProp 𝕄} {k : PUnit → Prog (TpuEff nD τ sig (Elt F) Λ₀ .tc) α} :
    sentBody m K c S ⊢ iprop((sentBody m K c (S.erase d) -∗ WP c (k ⟨⟩) Q) -∗ WP c (.op (.waitDma2 sS src dst h1 h2) k) Q) :=
  to_wand fun R hk => step_waitSend m K c d hd hsS hdm hS hdS hk

/-- Once every nonzero offset has been taken out, none is left. -/
theorem E15_eq : ((((((((((((((((nz).erase 1).erase 2).erase 3).erase 4).erase 5).erase 6).erase 7).erase 8).erase 9).erase 10).erase 11).erase 12).erase 13).erase 14).erase 15 : Finset (Fin 16)) = ∅ := by decide

/-! ## Between the runs of steps: the pieces regrouped -/

theorem sig_start : iprop(records m K ∗ owingR c (owedRecv c nz + owedSig c nz)
      ∗ (bigSep nz fun d => dutyTok ER (barCell (pr c d)) 0 (ng d))
      ∗ (bigSep nz fun d => iprop(∃ f, rowPts (F := F) c (pr c d) fullShare f))) ⊢ sigBody m K c nz := by
  unfold sigBody; exact .rfl

theorem sig_done : sigBody m K c ((((((((((((((((nz).erase 1).erase 2).erase 3).erase 4).erase 5).erase 6).erase 7).erase 8).erase 9).erase 10).erase 11).erase 12).erase 13).erase 14).erase 15) ⊢ owing c (owedRecv c nz + owedSig c ∅) := by
  rw [E15_eq]; unfold sigBody
  iintro ⟨-, HOw, -, -⟩
  iexact HOw

theorem send_start : iprop(records m K ∗ owingR c (owedRecv c nz)
      ∗ (bigSep nz fun d => dutyTok ER (sendCell c d) 0 (0 : Fin 16))
      ∗ (bigSep nz fun d => dutyTok ER (recvCell (pr c d) c) 0 (0 : Fin 16))
      ∗ (bigSep nz fun d => rowPts c c (shareTok fullShare 16 d) (tbl m))
      ∗ (bigSep nz fun d => iprop(∃ f, rowPts (F := F) (pr c d) c fullShare f))) ⊢ sendBody m K c nz := by
  unfold sendBody; rw [Finset.sdiff_self, bigSep_empty]
  iintro ⟨#HI, H1, H2, H3, H4, H5⟩
  iframe
  isplitl []
  · iexact HI
  · iempintro

theorem send_done : sendBody m K c ((((((((((((((((nz).erase 1).erase 2).erase 3).erase 4).erase 5).erase 6).erase 7).erase 8).erase 9).erase 10).erase 11).erase 12).erase 13).erase 14).erase 15)
    ⊢ iprop(owing c 0 ∗ bigSep nz fun d => cred (tallyAt (sendCell c d) () N1)) := by
  rw [E15_eq]; unfold sendBody; rw [Finset.sdiff_empty, owedRecv_empty]
  iintro ⟨-, HOw, -, -, -, -, HCr⟩
  iframe

theorem recv_start : iprop(records m K ∗ owing c 0
      ∗ (bigSep nz fun d => cred (tallyAt (recvCell c (pr c d)) () N1))
      ∗ (bigSep nz fun d => atPos ER (recvCell c (pr c d)) 0 (∅ : Finset (Fin 16)) 0)) ⊢ recvBody m K c nz := by
  unfold recvBody; rw [Finset.sdiff_self, bigSep_empty, bigSep_sep']
  iintro ⟨#HI, H1, H2, H3⟩
  iframe
  isplitl []
  · iexact HI
  · iempintro

theorem recv_done : recvBody m K c ((((((((((((((((nz).erase 1).erase 2).erase 3).erase 4).erase 5).erase 6).erase 7).erase 8).erase 9).erase 10).erase 11).erase 12).erase 13).erase 14).erase 15)
    ⊢ iprop(owing c 0 ∗ (bigSep nz fun d => atPos ER (recvCell c (pr c d)) 1 (∅ : Finset (Fin 16)) 0)
        ∗ bigSep nz fun d => rowPts c (pr c d) fullShare (tbl m)) := by
  rw [E15_eq]; unfold recvBody; rw [bigSep_empty, Finset.sdiff_empty, bigSep_sep']
  iintro ⟨-, HOw, -, H1, H2⟩
  iframe

theorem sent_start : iprop(records m K ∗ owing c 0
      ∗ (bigSep nz fun d => cred (tallyAt (sendCell c d) () N1))
      ∗ (bigSep nz fun d => atPos ER (sendCell c d) 0 (∅ : Finset (Fin 16)) 0)) ⊢ sentBody m K c nz := by
  unfold sentBody; rw [Finset.sdiff_self, bigSep_empty, bigSep_sep']
  iintro ⟨#HI, H1, H2, H3⟩
  iframe
  isplitl []
  · iexact HI
  · iempintro

theorem sent_done : sentBody m K c ((((((((((((((((nz).erase 1).erase 2).erase 3).erase 4).erase 5).erase 6).erase 7).erase 8).erase 9).erase 10).erase 11).erase 12).erase 13).erase 14).erase 15)
    ⊢ iprop(owing c 0 ∗ (bigSep nz fun d => atPos ER (sendCell c d) 1 (∅ : Finset (Fin 16)) 0)
        ∗ bigSep nz fun d => rowPts c c (shareTok fullShare 16 d) (tbl m)) := by
  rw [E15_eq]; unfold sentBody; rw [bigSep_empty, Finset.sdiff_empty, bigSep_sep']
  iintro ⟨-, HOw, -, H1, H2⟩
  iframe

set_option maxHeartbeats 16000000 in
set_option maxRecDepth 100000 in
theorem sound_body (Kt : PUnit → sProp 𝕄) :
    iprop(S0 m K c ∗ (bodyPost m ρ c -∗ Kt ⟨⟩))
      ⊢ wp frame (wpE (defs₀ (F := F)) 𝒱₀ (c : Thread nD τ) none) Set.univ
          (cc0_body (Memref.whole main_arg0) (Memref.isWhole_whole _) (Memref.whole cc0_stg0_0) (Memref.isWhole_whole _)
            (Memref.whole cc0_scratch0) (Memref.isWhole_whole _) (Memref.whole cc0_scratch1) (Memref.isWhole_whole _)
            cc0_scratch2 cc0_scratch3 cc0_scratch4) Kt := by
  unfold cc0_body k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27
  simp only [semSignalWord, semWaitWord, Prog.lift, Prog.bind_op, Prog.bind_ret, Prog.pure_eq_ret, wp_deviceId]
  unfold S0
  iintro ⟨⟨#HI, #HLv, HPbar, HPload, HPs0, HPsN, HPrc, HPrN, HTSig, HTRecv, HTSend, HTLoad, HCrBar, HCrRecv, HX, HXV, HRowc, HRows, HOw, HOut⟩, HK⟩
  -- the block's load is started
  iapply (to_wand fun R hk => step_copy m K c hk) $$ [HX HXV HTLoad]
  · iframe; iexact HI
  iintro HCrLoad
  -- the fifteen signals
  ihave Hsig := (sig_start m K c) $$ [HOw HTSig HRows]
  · iframe; iexact HI
  iapply (w_signal m K c 1 (by decide) (dev1_eq c) rfl (by decide)) $$ Hsig; iintro Hsig
  iapply (w_signal m K c 2 (by decide) (dev2_eq c) rfl (by decide)) $$ Hsig; iintro Hsig
  iapply (w_signal m K c 3 (by decide) (dev3_eq c) rfl (by decide)) $$ Hsig; iintro Hsig
  iapply (w_signal m K c 4 (by decide) (dev4_eq c) rfl (by decide)) $$ Hsig; iintro Hsig
  iapply (w_signal m K c 5 (by decide) (dev5_eq c) rfl (by decide)) $$ Hsig; iintro Hsig
  iapply (w_signal m K c 6 (by decide) (dev6_eq c) rfl (by decide)) $$ Hsig; iintro Hsig
  iapply (w_signal m K c 7 (by decide) (dev7_eq c) rfl (by decide)) $$ Hsig; iintro Hsig
  iapply (w_signal m K c 8 (by decide) (dev8_eq c) rfl (by decide)) $$ Hsig; iintro Hsig
  iapply (w_signal m K c 9 (by decide) (dev9_eq c) rfl (by decide)) $$ Hsig; iintro Hsig
  iapply (w_signal m K c 10 (by decide) (dev10_eq c) rfl (by decide)) $$ Hsig; iintro Hsig
  iapply (w_signal m K c 11 (by decide) (dev11_eq c) rfl (by decide)) $$ Hsig; iintro Hsig
  iapply (w_signal m K c 12 (by decide) (dev12_eq c) rfl (by decide)) $$ Hsig; iintro Hsig
  iapply (w_signal m K c 13 (by decide) (dev13_eq c) rfl (by decide)) $$ Hsig; iintro Hsig
  iapply (w_signal m K c 14 (by decide) (dev14_eq c) rfl (by decide)) $$ Hsig; iintro Hsig
  iapply (w_signal m K c 15 (by decide) (dev15_eq c) rfl (by decide)) $$ Hsig; iintro Hsig
  ihave HOw := (sig_done m K c) $$ Hsig
  -- the block has arrived
  iapply (to_wand fun R hk => step_waitLoad m K c hk) $$ [HCrLoad HOw HPload]
  · iframe; isplitl []
    · iexact HI
    · iexact HLv
  iintro ⟨HOw, HPload, HXV, HX⟩
  -- the block is read and its row sums stored in the device's own row
  iapply (to_wand fun R hk => step_loadXv m c hk) $$ HXV
  iintro HXV
  icases HRowc with ⟨%f0, HRowc⟩
  iapply (to_wand_all fun R hk => step_loadRow c (k0_off1_eq c) hk) $$ HRowc
  iintro %v0 HRowc
  iapply (to_wand fun R hk => step_storeRow m c (k0_off1_eq c) hk) $$ HRowc
  iintro HRowc
  -- the fifteen signals have arrived: every other device's row `c` is the device's to write
  iapply (to_wand fun R hk => step_waitBar m K c rfl hk) $$ [HCrBar HOw HPbar]
  · iframe; isplitl []
    · iexact HI
    · iexact HLv
  iintro ⟨HOw, HPbar, HRowsIn⟩
  -- the device's row, by shares: one for each transfer to read
  ihave Hr := (row_tokens c c (tbl m)).1 $$ HRowc
  icases Hr with ⟨HRdrop, HRtok0, HRtoks⟩
  -- the fifteen transfers of its row
  ihave Hsend := (send_start m K c) $$ [HOw HTSend HTRecv HRtoks HRowsIn]
  · iframe; iexact HI
  iapply (w_send m K c 1 (by decide) (dev16_eq c) (rowM_of_off c _ _ (k0_off3_eq c)) (rowM_of_off c _ _ (k0_off3_eq c)) rfl (recvS_of_off c _ _ (k0_off2_eq c)) (by decide) (by decide)) $$ Hsend; iintro Hsend
  iapply (w_send m K c 2 (by decide) (dev17_eq c) (rowM_of_off c _ _ (k0_off3_eq c)) (rowM_of_off c _ _ (k0_off3_eq c)) rfl (recvS_of_off c _ _ (k0_off2_eq c)) (by decide) (by decide)) $$ Hsend; iintro Hsend
  iapply (w_send m K c 3 (by decide) (dev18_eq c) (rowM_of_off c _ _ (k0_off3_eq c)) (rowM_of_off c _ _ (k0_off3_eq c)) rfl (recvS_of_off c _ _ (k0_off2_eq c)) (by decide) (by decide)) $$ Hsend; iintro Hsend
  iapply (w_send m K c 4 (by decide) (dev19_eq c) (rowM_of_off c _ _ (k0_off3_eq c)) (rowM_of_off c _ _ (k0_off3_eq c)) rfl (recvS_of_off c _ _ (k0_off2_eq c)) (by decide) (by decide)) $$ Hsend; iintro Hsend
  iapply (w_send m K c 5 (by decide) (dev20_eq c) (rowM_of_off c _ _ (k0_off3_eq c)) (rowM_of_off c _ _ (k0_off3_eq c)) rfl (recvS_of_off c _ _ (k0_off2_eq c)) (by decide) (by decide)) $$ Hsend; iintro Hsend
  iapply (w_send m K c 6 (by decide) (dev21_eq c) (rowM_of_off c _ _ (k0_off3_eq c)) (rowM_of_off c _ _ (k0_off3_eq c)) rfl (recvS_of_off c _ _ (k0_off2_eq c)) (by decide) (by decide)) $$ Hsend; iintro Hsend
  iapply (w_send m K c 7 (by decide) (dev22_eq c) (rowM_of_off c _ _ (k0_off3_eq c)) (rowM_of_off c _ _ (k0_off3_eq c)) rfl (recvS_of_off c _ _ (k0_off2_eq c)) (by decide) (by decide)) $$ Hsend; iintro Hsend
  iapply (w_send m K c 8 (by decide) (dev23_eq c) (rowM_of_off c _ _ (k0_off3_eq c)) (rowM_of_off c _ _ (k0_off3_eq c)) rfl (recvS_of_off c _ _ (k0_off2_eq c)) (by decide) (by decide)) $$ Hsend; iintro Hsend
  iapply (w_send m K c 9 (by decide) (dev24_eq c) (rowM_of_off c _ _ (k0_off3_eq c)) (rowM_of_off c _ _ (k0_off3_eq c)) rfl (recvS_of_off c _ _ (k0_off2_eq c)) (by decide) (by decide)) $$ Hsend; iintro Hsend
  iapply (w_send m K c 10 (by decide) (dev25_eq c) (rowM_of_off c _ _ (k0_off3_eq c)) (rowM_of_off c _ _ (k0_off3_eq c)) rfl (recvS_of_off c _ _ (k0_off2_eq c)) (by decide) (by decide)) $$ Hsend; iintro Hsend
  iapply (w_send m K c 11 (by decide) (dev26_eq c) (rowM_of_off c _ _ (k0_off3_eq c)) (rowM_of_off c _ _ (k0_off3_eq c)) rfl (recvS_of_off c _ _ (k0_off2_eq c)) (by decide) (by decide)) $$ Hsend; iintro Hsend
  iapply (w_send m K c 12 (by decide) (dev27_eq c) (rowM_of_off c _ _ (k0_off3_eq c)) (rowM_of_off c _ _ (k0_off3_eq c)) rfl (recvS_of_off c _ _ (k0_off2_eq c)) (by decide) (by decide)) $$ Hsend; iintro Hsend
  iapply (w_send m K c 13 (by decide) (dev28_eq c) (rowM_of_off c _ _ (k0_off3_eq c)) (rowM_of_off c _ _ (k0_off3_eq c)) rfl (recvS_of_off c _ _ (k0_off2_eq c)) (by decide) (by decide)) $$ Hsend; iintro Hsend
  iapply (w_send m K c 14 (by decide) (dev29_eq c) (rowM_of_off c _ _ (k0_off3_eq c)) (rowM_of_off c _ _ (k0_off3_eq c)) rfl (recvS_of_off c _ _ (k0_off2_eq c)) (by decide) (by decide)) $$ Hsend; iintro Hsend
  iapply (w_send m K c 15 (by decide) (dev30_eq c) (rowM_of_off c _ _ (k0_off3_eq c)) (rowM_of_off c _ _ (k0_off3_eq c)) rfl (recvS_of_off c _ _ (k0_off2_eq c)) (by decide) (by decide)) $$ Hsend; iintro Hsend
  ihave Hs := (send_done m K c) $$ Hsend
  icases Hs with ⟨HOw, HCrSend⟩
  -- the fifteen rows sent to it
  ihave Hrecv := (recv_start m K c) $$ [HOw HCrRecv HPrN]
  · iframe; iexact HI
  iapply (w_waitRecv m K c 1 (by decide) (recvS_of_off (pr c 1) _ _ (off4_eq c 0)) (rowM_of_off (pr c 1) _ _ (off5_eq c 0)) (by decide) (by decide)) $$ Hrecv; iintro Hrecv
  iapply (w_waitRecv m K c 2 (by decide) (recvS_of_off (pr c 2) _ _ (off4_eq c 1)) (rowM_of_off (pr c 2) _ _ (off5_eq c 1)) (by decide) (by decide)) $$ Hrecv; iintro Hrecv
  iapply (w_waitRecv m K c 3 (by decide) (recvS_of_off (pr c 3) _ _ (off4_eq c 2)) (rowM_of_off (pr c 3) _ _ (off5_eq c 2)) (by decide) (by decide)) $$ Hrecv; iintro Hrecv
  iapply (w_waitRecv m K c 4 (by decide) (recvS_of_off (pr c 4) _ _ (off4_eq c 3)) (rowM_of_off (pr c 4) _ _ (off5_eq c 3)) (by decide) (by decide)) $$ Hrecv; iintro Hrecv
  iapply (w_waitRecv m K c 5 (by decide) (recvS_of_off (pr c 5) _ _ (off4_eq c 4)) (rowM_of_off (pr c 5) _ _ (off5_eq c 4)) (by decide) (by decide)) $$ Hrecv; iintro Hrecv
  iapply (w_waitRecv m K c 6 (by decide) (recvS_of_off (pr c 6) _ _ (off4_eq c 5)) (rowM_of_off (pr c 6) _ _ (off5_eq c 5)) (by decide) (by decide)) $$ Hrecv; iintro Hrecv
  iapply (w_waitRecv m K c 7 (by decide) (recvS_of_off (pr c 7) _ _ (off4_eq c 6)) (rowM_of_off (pr c 7) _ _ (off5_eq c 6)) (by decide) (by decide)) $$ Hrecv; iintro Hrecv
  iapply (w_waitRecv m K c 8 (by decide) (recvS_of_off (pr c 8) _ _ (off4_eq c 7)) (rowM_of_off (pr c 8) _ _ (off5_eq c 7)) (by decide) (by decide)) $$ Hrecv; iintro Hrecv
  iapply (w_waitRecv m K c 9 (by decide) (recvS_of_off (pr c 9) _ _ (off4_eq c 8)) (rowM_of_off (pr c 9) _ _ (off5_eq c 8)) (by decide) (by decide)) $$ Hrecv; iintro Hrecv
  iapply (w_waitRecv m K c 10 (by decide) (recvS_of_off (pr c 10) _ _ (off4_eq c 9)) (rowM_of_off (pr c 10) _ _ (off5_eq c 9)) (by decide) (by decide)) $$ Hrecv; iintro Hrecv
  iapply (w_waitRecv m K c 11 (by decide) (recvS_of_off (pr c 11) _ _ (off4_eq c 10)) (rowM_of_off (pr c 11) _ _ (off5_eq c 10)) (by decide) (by decide)) $$ Hrecv; iintro Hrecv
  iapply (w_waitRecv m K c 12 (by decide) (recvS_of_off (pr c 12) _ _ (off4_eq c 11)) (rowM_of_off (pr c 12) _ _ (off5_eq c 11)) (by decide) (by decide)) $$ Hrecv; iintro Hrecv
  iapply (w_waitRecv m K c 13 (by decide) (recvS_of_off (pr c 13) _ _ (off4_eq c 12)) (rowM_of_off (pr c 13) _ _ (off5_eq c 12)) (by decide) (by decide)) $$ Hrecv; iintro Hrecv
  iapply (w_waitRecv m K c 14 (by decide) (recvS_of_off (pr c 14) _ _ (off4_eq c 13)) (rowM_of_off (pr c 14) _ _ (off5_eq c 13)) (by decide) (by decide)) $$ Hrecv; iintro Hrecv
  iapply (w_waitRecv m K c 15 (by decide) (recvS_of_off (pr c 15) _ _ (off4_eq c 14)) (rowM_of_off (pr c 15) _ _ (off5_eq c 14)) (by decide) (by decide)) $$ Hrecv; iintro Hrecv
  ihave Hs := (recv_done m K c) $$ Hrecv
  icases Hs with ⟨HOw, HPrN1, HRowsFull⟩
  -- the table is read whole, at the share no transfer holds, summed and scaled into the result
  ihave Hc := (comm_at_drop m c).1 $$ [HRdrop HRowsFull]
  · iframe
  icases Hc with ⟨HComm, HLeft⟩
  iapply (to_wand fun R hk => step_loadComm m c hk) $$ HComm
  iintro HComm
  icases HOut with ⟨%g0, HOut⟩
  iapply (to_wand_all fun R hk => step_loadOut c hk) $$ HOut
  iintro %v1 HOut
  iapply (to_wand fun R hk => step_storeOut m c hk) $$ HOut
  iintro HOut
  ihave Hc := (comm_at_drop m c).2 $$ [HComm HLeft]
  · iframe
  icases Hc with ⟨HRdrop, HRowsFull⟩
  -- its own fifteen transfers have completed
  ihave Hsent := (sent_start m K c) $$ [HOw HCrSend HPsN]
  · iframe; iexact HI
  iapply (w_waitSend m K c 1 (by decide) rfl (rowM_of_off c _ _ (k0_off3_eq c)) (by decide) (by decide)) $$ Hsent; iintro Hsent
  iapply (w_waitSend m K c 2 (by decide) rfl (rowM_of_off c _ _ (k0_off3_eq c)) (by decide) (by decide)) $$ Hsent; iintro Hsent
  iapply (w_waitSend m K c 3 (by decide) rfl (rowM_of_off c _ _ (k0_off3_eq c)) (by decide) (by decide)) $$ Hsent; iintro Hsent
  iapply (w_waitSend m K c 4 (by decide) rfl (rowM_of_off c _ _ (k0_off3_eq c)) (by decide) (by decide)) $$ Hsent; iintro Hsent
  iapply (w_waitSend m K c 5 (by decide) rfl (rowM_of_off c _ _ (k0_off3_eq c)) (by decide) (by decide)) $$ Hsent; iintro Hsent
  iapply (w_waitSend m K c 6 (by decide) rfl (rowM_of_off c _ _ (k0_off3_eq c)) (by decide) (by decide)) $$ Hsent; iintro Hsent
  iapply (w_waitSend m K c 7 (by decide) rfl (rowM_of_off c _ _ (k0_off3_eq c)) (by decide) (by decide)) $$ Hsent; iintro Hsent
  iapply (w_waitSend m K c 8 (by decide) rfl (rowM_of_off c _ _ (k0_off3_eq c)) (by decide) (by decide)) $$ Hsent; iintro Hsent
  iapply (w_waitSend m K c 9 (by decide) rfl (rowM_of_off c _ _ (k0_off3_eq c)) (by decide) (by decide)) $$ Hsent; iintro Hsent
  iapply (w_waitSend m K c 10 (by decide) rfl (rowM_of_off c _ _ (k0_off3_eq c)) (by decide) (by decide)) $$ Hsent; iintro Hsent
  iapply (w_waitSend m K c 11 (by decide) rfl (rowM_of_off c _ _ (k0_off3_eq c)) (by decide) (by decide)) $$ Hsent; iintro Hsent
  iapply (w_waitSend m K c 12 (by decide) rfl (rowM_of_off c _ _ (k0_off3_eq c)) (by decide) (by decide)) $$ Hsent; iintro Hsent
  iapply (w_waitSend m K c 13 (by decide) rfl (rowM_of_off c _ _ (k0_off3_eq c)) (by decide) (by decide)) $$ Hsent; iintro Hsent
  iapply (w_waitSend m K c 14 (by decide) rfl (rowM_of_off c _ _ (k0_off3_eq c)) (by decide) (by decide)) $$ Hsent; iintro Hsent
  iapply (w_waitSend m K c 15 (by decide) rfl (rowM_of_off c _ _ (k0_off3_eq c)) (by decide) (by decide)) $$ Hsent; iintro Hsent
  ihave Hs := (sent_done m K c) $$ Hsent
  icases Hs with ⟨HOw, HPsN1, HRtoks⟩
  -- everything is handed back
  unfold WP
  rw [wp_ret]
  imod (finish m ρ K c) $$ [HPload HPs0 HPsN1 HPrc HPrN1 HX HXV HRdrop HRtok0 HRtoks HRowsFull HOw HOut] with Hpost
  · unfold Sfin; iframe; iexact HI
  imodintro
  iapply HK
  iexact Hpost

/-- The library's body obligation on device `c`. -/
theorem body_obligation (c : Dev nD) : BodyObligation (dats (F := F) m ρ 0 c) (defs₀ (F := F)) 𝒱₀ () Set.univ :=
  body_obligation_of m ρ c fun K Kt => sound_body m ρ K c Kt

end Cert.KernelIdealProof

end
-- ==== Proof.KernelIdealLaunch.lean ====
import proofs.«900952_g7700000000000953_dist_mean_ax0_shard0_i_m512_n256_v7x_i16_bf16_1_alg».proof.Proof.KernelIdealBody
import proofs.«900952_g7700000000000953_dist_mean_ax0_shard0_i_m512_n256_v7x_i16_bf16_1_alg».proof.Proof.Gen.KernelIdeal.Launch

/-!
The launch: every device's cells funded and their invariants allocated under one update, the duty tokens dealt
to the devices that pay them, and the run of @main on the sixteen devices from the body obligation.
-/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-- What every final state satisfies: each device's result array holds the mean's row, and its block of `x` is unchanged. -/
def QC : PUnit × MemSt nD τ sig (Elt F) → Prop := fun r =>
  ∀ c : Dev nD, r.2.mem ((c : Thread nD τ).loc main_v1) = outV m
    ∧ r.2.mem ((c : Thread nD τ).loc main_arg0) = m ((c : Thread nD τ).loc main_arg0)

namespace Launch

/-! ## The cells and the tokens minted at launch -/

theorem ownSemFacts : Pipeline.OwnSemFacts cfg0.spec osem := by decide

theorem share_eq (c : Dev nD) (w : Fin cfg0.W) : (dats m ρ 0 c).share w = fullShare := by unfold Dat.share; split <;> rfl

/-- All the cells of the exchange: thirty-four a device. -/
def exCells : Finset (GSem nD τ sig) := Finset.univ.map ⟨kcell, kcell_injective⟩

/-- The tokens minted: for every device and every `e`, duty `e` of its barrier cell, duty 0 of its send cell `e` and of
    its receive cell `e`, and duty `e` of its load cell. (Those that are no duty of the schedule are never used.) -/
abbrev tokOf (x : Dev nD × Fin 16 × Fin 4) : GSem nD τ sig × ℕ × Fin 16 := match x.2.2 with
  | 0 => (barCell x.1, 0, x.2.1) | 1 => (sendCell x.1 x.2.1, 0, 0) | 2 => (recvCell x.1 x.2.1, 0, 0) | 3 => (loadCell x.1, 0, x.2.1)
/-- The semaphore and the duty of a minted token, which do not depend on the device. -/
abbrev tokPart (x : Fin 16 × Fin 4) : SemLoc sig × Fin 16 := match x.2 with
  | 0 => (.reg barS, x.1) | 1 => (.dma (sendS x.1), 0) | 2 => (.dma (recvS x.1), 0) | 3 => (.dma loadS, x.1)
theorem tokPart_injective : Function.Injective tokPart := by decide +kernel
theorem tokOf_injective : Function.Injective (tokOf : Dev nD × Fin 16 × Fin 4 → GSem nD τ sig × ℕ × Fin 16) := by
  rintro ⟨c, e, i⟩ ⟨c', e', i'⟩ h
  have h1 : c = c' := by
    have := congrArg (fun x : GSem nD τ sig × ℕ × Fin 16 => x.1.1.1) h
    fin_cases i <;> fin_cases i' <;> exact this
  subst h1
  have h2 : tokPart (e, i) = tokPart (e', i') := by
    have := congrArg (fun x : GSem nD τ sig × ℕ × Fin 16 => (x.1.2, x.2.2)) h
    fin_cases i <;> fin_cases i' <;> exact this
  have h3 := tokPart_injective h2
  cases h3; rfl
def exToks : Finset (GSem nD τ sig × ℕ × Fin 16) := Finset.univ.map ⟨tokOf, tokOf_injective⟩

def u₀ : UU :=
  (initOf (Pipeline.cells cfgs cellOf_inj) (Pipeline.launchToks cfgs cellOf_inj), initOf exCells exToks)

/-- The tokens minted for device `c`'s own cells. -/
def toks (c : Dev nD) : sProp 𝕄 :=
  iprop((bigSep Finset.univ fun e : Fin 16 => dutyTok ER (barCell c) 0 e)
    ∗ (bigSep Finset.univ fun d : Fin 16 => dutyTok ER (sendCell c d) 0 (0 : Fin 16))
    ∗ (bigSep Finset.univ fun j : Fin 16 => dutyTok ER (recvCell c j) 0 (0 : Fin 16))
    ∗ (bigSep Finset.univ fun e : Fin 16 => dutyTok ER (loadCell c) 0 e))

/-- What the launch element deals device `c`. -/
def G (c : Dev nD) : sProp 𝕄 :=
  iprop((bigSep Finset.univ fun k : Fin 34 => roundState ER (exRd m) (kcell (c, k)) 0)
    ∗ (bigSep Finset.univ fun k : Fin 34 => iprop(atPos ER (kcell (c, k)) 0 (∅ : Finset (Fin 16)) 0 ∗ reached ER (kcell (c, k)) 0)) ∗ toks c)

/-- What the global step makes of it. -/
def G' (c : Dev nD) : sProp 𝕄 := iprop(∃ K, ghost m K c)

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 34 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    refine bigSep_congr fun c _ => ?_
    rw [bigSep_univ_prod]
    simp only [bigSep_fin4]
    rw [bigSep_sep', bigSep_sep', bigSep_sep']
    rfl
  iintro HX
  imod (Rounds.fund ER (exRd m) exCells exToks) $$ HX with ⟨Hst, Hr, Hat, Htok⟩
  imodintro
  ihave Hst' := (Entails.of_eq (hX fun g => roundState ER (exRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Cell `k + 1` of a device, `k` one of its own thirty-three semaphores. -/
abbrev ksucc : Fin 33 ↪ Fin 34 := ⟨fun k => ⟨k.val + 1, by omega⟩, fun a b h => Fin.ext (by have := congrArg Fin.val h; simp only at this; omega)⟩
theorem erase_zero_eq : (Finset.univ : Finset (Fin 34)).erase 0 = Finset.univ.map ksucc := by decide
/-- A device's thirty-four cells: the barrier cell and its own thirty-three. -/
theorem bigSep_fin34 (Φ : Fin 34 → sProp 𝕄) : bigSep Finset.univ Φ = iprop(Φ 0 ∗ bigSep Finset.univ fun k : Fin 33 => Φ (ksucc k)) := by
  rw [bigSep_univ_at Φ 0, erase_zero_eq, bigSep_map]

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 34 => semVal (kcell (c, k)) 0 : sProp 𝕄) := by
  rw [unscopedSems0_eq, bigSep_fin34, kcell_bar]
  unfold Pipeline.ownSems0
  rw [bigSep_congr (s := Finset.univ) (fun (k : Fin 33) _ => congrArg (fun g => (semVal g 0 : sProp 𝕄)) (osem_eq c k))]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (exRd m) κ (kcell (c, k))))
          ∗ (bigSep Finset.univ fun k : Fin 34 => iprop(atPos ER (kcell (c, k)) 0 (∅ : Finset (Fin 16)) 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 34 => semVal (kcell (c, k)) 0) ∗ bigSep Finset.univ fun k : Fin 34 => roundState ER (exRd m) (kcell (c, k)) 0)
      ⊢ (|={Set.univ}=> bigSep Finset.univ fun k => iprop(∃ κ : ℕ, cellInv ER (exRd m) κ (kcell (c, k))) : sProp 𝕄) from by
        rw [← bigSep_sep']
        exact (bigSep_mono fun k _ => (Rounds.body_intro ER (exRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Undoing an offset is a permutation of the offsets; -/
def ngE : Fin 16 ≃ Fin 16 := ⟨ng, ng, ng_ng, ng_ng⟩
/-- the devices as the offsets from a device `c`. -/
def prE (c : Dev nD) : Fin 16 ≃ Dev nD := ⟨fun d => pr c d, fun q => off c q, fun d => off_pr c d, fun q => pr_off c q⟩

/-- The barrier tokens: duty `e` of device `q`'s barrier cell goes to the device `e` places after `q`; so device `c` gets,
    for each offset `d`, duty `ng d` of the barrier cell of the device `d` places after it. -/
theorem deal_bar : (bigSep Finset.univ fun q : Dev nD => bigSep Finset.univ fun e : Fin 16 => (dutyTok ER (barCell q) 0 e : sProp 𝕄))
    ⊢ bigSep Finset.univ fun c : Dev nD => bigSep nz fun d => dutyTok ER (barCell (pr c d)) 0 (ng d) := by
  have e1 : (bigSep Finset.univ fun q : Dev nD => bigSep Finset.univ fun e : Fin 16 => (dutyTok ER (barCell q) 0 e : sProp 𝕄))
      = bigSep Finset.univ fun c : Dev nD => bigSep Finset.univ fun d : Fin 16 => dutyTok ER (barCell (pr c d)) 0 (ng d) :=
    calc (bigSep Finset.univ fun q : Dev nD => bigSep Finset.univ fun e : Fin 16 => (dutyTok ER (barCell q) 0 e : sProp 𝕄))
        = bigSep Finset.univ fun q : Dev nD => bigSep Finset.univ fun d : Fin 16 => (dutyTok ER (barCell q) 0 (ng d) : sProp 𝕄) :=
          bigSep_congr fun q _ => bigSep_univ_equiv ngE (fun e => (dutyTok ER (barCell q) 0 e : sProp 𝕄))
      _ = bigSep Finset.univ fun d : Fin 16 => bigSep Finset.univ fun q : Dev nD => (dutyTok ER (barCell q) 0 (ng d) : sProp 𝕄) :=
          bigSep_univ_comm (fun (q : Dev nD) (d : Fin 16) => (dutyTok ER (barCell q) 0 (ng d) : sProp 𝕄))
      _ = bigSep Finset.univ fun d : Fin 16 => bigSep Finset.univ fun c : Dev nD => (dutyTok ER (barCell (pr c d)) 0 (ng d) : sProp 𝕄) :=
          bigSep_congr fun d _ => bigSep_univ_equiv (shift d) (fun q => (dutyTok ER (barCell q) 0 (ng d) : sProp 𝕄))
      _ = bigSep Finset.univ fun c : Dev nD => bigSep Finset.univ fun d : Fin 16 => (dutyTok ER (barCell (pr c d)) 0 (ng d) : sProp 𝕄) :=
          bigSep_univ_comm (fun (d : Fin 16) (c : Dev nD) => (dutyTok ER (barCell (pr c d)) 0 (ng d) : sProp 𝕄))
  rw [e1]
  exact bigSep_mono fun c _ => bigSep_subset (Finset.subset_univ _)

/-- The receive tokens: duty 0 of device `q`'s receive cell `j` goes to device `j`, from which `q` is some offset away. -/
theorem deal_recv : (bigSep Finset.univ fun q : Dev nD => bigSep Finset.univ fun j : Fin 16 => (dutyTok ER (recvCell q j) 0 (0 : Fin 16) : sProp 𝕄))
    ⊢ bigSep Finset.univ fun c : Dev nD => bigSep nz fun d => dutyTok ER (recvCell (pr c d) c) 0 (0 : Fin 16) := by
  have e1 : (bigSep Finset.univ fun q : Dev nD => bigSep Finset.univ fun j : Fin 16 => (dutyTok ER (recvCell q j) 0 (0 : Fin 16) : sProp 𝕄))
      = bigSep Finset.univ fun c : Dev nD => bigSep Finset.univ fun d : Fin 16 => dutyTok ER (recvCell (pr c d) c) 0 (0 : Fin 16) :=
    calc (bigSep Finset.univ fun q : Dev nD => bigSep Finset.univ fun j : Fin 16 => (dutyTok ER (recvCell q j) 0 (0 : Fin 16) : sProp 𝕄))
        = bigSep Finset.univ fun c : Dev nD => bigSep Finset.univ fun q : Dev nD => (dutyTok ER (recvCell q c) 0 (0 : Fin 16) : sProp 𝕄) :=
          bigSep_univ_comm (fun (q : Dev nD) (j : Dev nD) => (dutyTok ER (recvCell q j) 0 (0 : Fin 16) : sProp 𝕄))
      _ = bigSep Finset.univ fun c : Dev nD => bigSep Finset.univ fun d : Fin 16 => (dutyTok ER (recvCell (pr c d) c) 0 (0 : Fin 16) : sProp 𝕄) :=
          bigSep_congr fun c _ => bigSep_univ_equiv (prE c) (fun q => (dutyTok ER (recvCell q c) 0 (0 : Fin 16) : sProp 𝕄))
  rw [e1]
  exact bigSep_mono fun c _ => bigSep_subset (Finset.subset_univ _)

/-- The tokens dealt to the devices that pay them. -/
theorem toks_dealt : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep']
  iintro ⟨HB, HS, HR, HL⟩
  isplitl [HB]; · iapply (deal_bar (F := F)); iexact HB
  isplitl [HR]; · iapply (deal_recv (F := F)); iexact HR
  isplitl [HS]
  · iapply (show (bigSep Finset.univ fun c : Dev nD => bigSep Finset.univ fun d : Fin 16 => (dutyTok ER (sendCell c d) 0 (0 : Fin 16) : sProp 𝕄))
        ⊢ bigSep Finset.univ fun c : Dev nD => bigSep nz fun d : Fin 16 => (dutyTok ER (sendCell c d) 0 (0 : Fin 16) : sProp 𝕄) from
      bigSep_mono fun c _ => bigSep_subset (Finset.subset_univ nz))
    iexact HS
  · iapply (show (bigSep Finset.univ fun c : Dev nD => bigSep Finset.univ fun e : Fin 16 => (dutyTok ER (loadCell c) 0 e : sProp 𝕄))
        ⊢ bigSep Finset.univ fun c : Dev nD => (dutyTok ER (loadCell c) 0 (0 : Fin 16) : sProp 𝕄) from
      bigSep_mono fun c _ => bigSep_elim (Finset.mem_univ (0 : Fin 16)))
    iexact HL

theorem regroup :
    (bigSep Finset.univ fun c : Dev nD => iprop((bigSep Finset.univ fun k => iprop(∃ κ : ℕ, cellInv ER (exRd m) κ (kcell (c, k))))
          ∗ (bigSep Finset.univ fun k : Fin 34 => iprop(atPos ER (kcell (c, k)) 0 (∅ : Finset (Fin 16)) 0 ∗ reached ER (kcell (c, k)) 0)) ∗ toks c) : sProp 𝕄)
      ⊢ bigSep Finset.univ (G' m) := by
  rw [bigSep_sep', bigSep_sep', ← bigSep_univ_prod (fun ck : Dev nD × Fin 34 => iprop(∃ κ : ℕ, cellInv ER (exRd m) κ (kcell ck))),
    bigSep_congr (s := Finset.univ) (fun (c : Dev nD) _ => bigSep_sep' Finset.univ (fun k : Fin 34 => (atPos ER (kcell (c, k)) 0 (∅ : Finset (Fin 16)) 0 : sProp 𝕄)) (fun k => reached ER (kcell (c, k)) 0)),
    bigSep_sep', ← bigSep_univ_prod (fun ck : Dev nD × Fin 34 => (reached ER (kcell ck) 0 : sProp 𝕄))]
  iintro ⟨HI, ⟨Hat, #HR⟩, Htok⟩
  ihave HK := (BI.bigSep_exists_pi Finset.univ (fun (ck : Dev nD × Fin 34) (κ : ℕ) => (cellInv ER (exRd m) κ (kcell ck) : sProp 𝕄))) $$ HI
  icases HK with ⟨%K, #HI⟩
  ihave Htk := (toks_dealt (F := F)) $$ Htok
  iapply (bigSep_with_persistent (R := records m K) fun c _ => show iprop(records m K ∗ linear c) ⊢ G' m c from by
    unfold G' ghost; iintro H; iexists K; iexact H)
  isplitr
  · unfold records; isplitl; · iexact HI
    iexact HR
  · iapply (Entails.of_eq (bigSep_sep' Finset.univ (fun c : Dev nD => bigSep Finset.univ fun k : Fin 34 => (atPos ER (kcell (c, k)) 0 (∅ : Finset (Fin 16)) 0 : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem recv_ne_bar (j : Fin 16) : (SemLoc.dma (recvS j) : SemLoc sig) ≠ .reg barS := fun h => by cases h
theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {j j' : Fin 16} : Iff (recvCell a j = recvCell b j') (a = b ∧ j = j') :=
  ⟨fun h => ⟨Fin.ext (congrArg (fun g : GSem nD τ sig => g.1.1.val) h), recvS_inj (SemLoc.dma.inj (congrArg Prod.snd h))⟩, fun h => by rw [h.1, h.2]⟩

/-- What device `d` owes device `c`'s barrier cell: one unit unless it is `c` itself. -/
theorem owed_bar (d c : Dev nD) : O₀ d (barCell c) () = if d = c then 0 else 1 := by
  unfold O₀ owedRecv owedSig
  rw [Pi.add_apply, Finsupp.add_apply, Finset.sum_apply, Finsupp.finsetSum_apply, Finset.sum_apply, Finsupp.finsetSum_apply,
    Finset.sum_eq_zero (fun e _ => by rw [tallyAt_ne_cell (fun h => recv_ne_bar _ (congrArg Prod.snd h).symm)]; rfl), Nat.zero_add,
    Finset.sum_congr rfl (fun e _ => tallyAt_apply _ _ _ _ _)]
  by_cases h : d = c
  · subst h; rw [if_pos rfl]
    exact Finset.sum_eq_zero fun e he => if_neg fun h' => (pr_ne (Finset.ne_of_mem_erase he)) (bar_eq_iff.mp h'.1).symm
  · rw [if_neg h, Finset.sum_eq_single (off d c) (fun e _ hne => if_neg fun h' => hne (by rw [← off_pr d e, ← bar_eq_iff.mp h'.1]))
      (fun hn => absurd (Finset.mem_erase.mpr ⟨off_ne_zero (Ne.symm h), Finset.mem_univ _⟩) hn), pr_off, if_pos ⟨rfl, rfl⟩]

/-- What device `d` owes device `c`'s receive cell `j`, another device's: a row's credit if it is `j`. -/
theorem owed_recv (d c : Dev nD) {j : Fin 16} (hj : j ≠ c) : O₀ d (recvCell c j) () = if d = j then N1 else 0 := by
  unfold O₀ owedRecv owedSig
  rw [Pi.add_apply, Finsupp.add_apply, Finset.sum_apply, Finsupp.finsetSum_apply, Finset.sum_apply, Finsupp.finsetSum_apply,
    Finset.sum_eq_zero (s := nz) (f := fun e => (tallyAt (barCell (pr d e)) () 1 : CellTallies nD τ sig Unit) (recvCell c j) ())
      (fun e _ => by rw [tallyAt_ne_cell (fun h => recv_ne_bar _ (congrArg Prod.snd h))]; rfl), Nat.add_zero,
    Finset.sum_congr rfl (fun e _ => tallyAt_apply _ _ _ _ _)]
  by_cases h : d = j
  · subst h; rw [if_pos rfl, Finset.sum_eq_single (off d c) (fun e _ hne => if_neg fun h' => hne (by rw [← off_pr d e, ← (recv_eq_iff.mp h'.1).1]))
      (fun hn => absurd (Finset.mem_erase.mpr ⟨off_ne_zero (Ne.symm hj), Finset.mem_univ _⟩) hn), pr_off, if_pos ⟨rfl, rfl⟩]
  · rw [if_neg h]
    exact Finset.sum_eq_zero fun e _ => if_neg fun h' => h (recv_eq_iff.mp h'.1).2.symm

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) {j : Fin 16} (hj : j ≠ c) :
    tallyOn (recvCell c j) (launchCredit (Pipeline.owing O₀) 0 (recvCell c j)) = (tallyAt (recvCell c j) () N1 : CellTallies nD τ sig Unit) := by
  unfold tallyAt; refine congrArg _ (Finsupp.ext fun u => ?_); cases u
  rw [Pipeline.launchCredit_owing, Finsupp.single_eq_same, Finset.sum_congr rfl fun d _ => owed_recv d c hj,
    Finset.sum_ite_eq' Finset.univ j fun _ => N1, if_pos (Finset.mem_univ _)]

theorem creds_intro (c : Dev nD) : (Pipeline.launchCred O₀ c : sProp 𝕄) ⊢ creds c := by
  unfold Pipeline.launchCred creds
  rw [bigSep_univ_at _ (SemLoc.reg barS), launch_bar]
  refine sep_mono_right ?_
  have hsub : (Finset.univ.erase c).map ⟨fun j : Fin 16 => (SemLoc.dma (recvS j) : SemLoc sig), fun a b h => recvS_inj (SemLoc.dma.inj h)⟩
      ⊆ Finset.univ.erase (SemLoc.reg barS : SemLoc sig) := fun sm h => by
    obtain ⟨j, -, rfl⟩ := Finset.mem_map.mp h
    exact Finset.mem_erase.mpr ⟨recv_ne_bar j, Finset.mem_univ _⟩
  refine (bigSep_subset hsub).trans ?_
  rw [bigSep_map]
  exact Entails.of_eq (bigSep_congr fun j hj => by
    show cred (tallyOn (recvCell c j) (launchCredit (Pipeline.owing O₀) 0 (recvCell c j))) = _
    rw [launch_recv c (Finset.ne_of_mem_erase hj)])

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H0, H1⟩
  isplitl [Hs]; · iexact Hs
  isplitl [H0]; · iexact H0
  iexact H1

theorem phi1_exit (c : Dev nD) :
    (dats m ρ 0 c).Φ (Fin.last cfg0.N) ⊢ iprop((((c : Thread nD τ).loc main_arg0) ↦{fullShare} xblk m c) ∗ Pipeline.ownSems0 osem c ∗ Pipeline.scopedRest cfg0.spec c) := by
  rw [show (dats m ρ 0 c).Φ (Fin.last cfg0.N) = Φ₁ m c from rfl, scopedRest0_eq]
  unfold Φ₁ Pipeline.ownSems0
  iintro ⟨Hx, H0, H1, Hs⟩
  isplitl [Hx]; · iexact Hx
  isplitl [Hs]; · iexact Hs
  isplitl [H0]; · iexact H0
  iexact H1

theorem stageSem_val : ∀ (w : Fin cfg0.W) (s : Fin ((cfg0.win w).nbuf)), ((cfg0.win w).sem s : DmaSem sig).val = 0 := by decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (fun j h => by
        have h1 := congrArg Fin.val h
        have h0 : (((cfgs 0).win w).sem s).val = 0 := stageSem_val w s
        rw [recvS_val, h0] at h1; omega) nz nz
    · show _ ⊢ MayWait (c : Thread nD τ) _ () 0
      rw [MayWait_zero]; iintro -; iempintro

/-- The result array after the one point's write-back is the result. -/
theorem final_out (c : Dev nD) : (dats m ρ 0 c).arrAt (0 : Fin 1) cfg0.N = outV m := by
  have h := (dats m ρ 0 c).arrAt_succ (0 : Fin 1) t0_0
  rw [flush0_0 t0_0, if_pos rfl] at h
  refine h.trans ?_
  exact Memref.write_access_unit_zero_univ (Elt F) main_v1 (funext fun a => Nat.zero_mul _) _ _ _

end Launch

open Launch

set_option maxRecDepth 8000 in
/-- At the compiled mesh of sixteen devices, for any float values, from any memory with zero counters: every weakly fair
    execution of @main terminates, nothing faulting, and every final state has each device's result at `outV` and its
    block of `x` unchanged. -/
theorem run_main : θ_run defs (onTc (τ := τ) (main (F := F))) (s₀ m ρ) (QC m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => iprop(((c : Thread nD τ).loc main_arg0) ↦{fullShare} xblk m c)) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := fun c s' => by
      iintro ⟨Hx, -, HSI⟩
      icombine HSI Hx gives %hx
      imodintro
      isplitr; · ipureintro; exact Buf.eq_of_forall_mem_univ hx
      iexact HSI)
    (hQ := fun s h c => ⟨((h c).1 0).trans (final_out m ρ c), (h c).2.2⟩)

end Cert.KernelIdealProof

end
-- ==== Proof.KernelMean.lean ====
import proofs.«900952_g7700000000000953_dist_mean_ax0_shard0_i_m512_n256_v7x_i16_bf16_1_alg».proof.Proof.Gen.Kernel
import Idealize.ShloMosaic.Lib.ValueIdx

/-!
The mathematics of the kernel, as pure functions of arrays: every device sums the 512 rows of its block of
`x` into one row of 256 numbers; the sixteen rows are gathered into a table of shape 16 × 1 × 256 on every
device; the table is summed over its sixteen rows and scaled by 2⁻¹³ = 1/8192.
-/

noncomputable section

namespace Cert.Kernel.Mean

open Idealize.ShloMosaic Idealize.ShloMosaic.ValueIdx
open Cert.Kernel Cert.Kernel.Gen

variable {F : FTy → Type} [FloatOps F]

/-- A device's block summed over its rows, laid out as one row of the gathered table. -/
def rowSum (x : Vec F S512x256 .f32) : Vec F S1x1x256 .f32 :=
  shapeCast S1x1x256
    (shapeCast S1x256 (multiReduction .add [0] S256 x 0x00000000#32 reduces_S512x256_S256 (.inl rfl) rfl) shapeCasts_S256_S1x256)
    shapeCasts_S1x256_S1x1x256

/-- The gathered table: row `j` holds device `j`'s row sums. -/
def table (xs : Fin 16 → Vec F S512x256 .f32) : Vec F S16x1x256 .f32 :=
  fun i => rowSum (xs (i 0)) (ix3 (0 : Fin 1) (0 : Fin 1) (i 2))

/-- The result from the gathered table: its sixteen rows summed, times 2⁻¹³. -/
def outOf (t : Vec F S16x1x256 .f32) : Vec F S1x256 .f32 :=
  mulf (multiReduction .add [0] S1x256 t 0x00000000#32 reduces_S16x1x256_S1x256 (.inl rfl) rfl)
    (broadcast S1x256 (Scalar.ofBits .f32 0x39000000#32))

end Cert.Kernel.Mean

end
-- ==== Proof.KernelBase.lean ====
import proofs.«900952_g7700000000000953_dist_mean_ax0_shard0_i_m512_n256_v7x_i16_bf16_1_alg».proof.Proof.Gen.Kernel
import proofs.«900952_g7700000000000953_dist_mean_ax0_shard0_i_m512_n256_v7x_i16_bf16_1_alg».proof.Proof.Gen.Kernel.Launch
import proofs.«900952_g7700000000000953_dist_mean_ax0_shard0_i_m512_n256_v7x_i16_bf16_1_alg».proof.Proof.KernelMean
import Idealize.ShloMosaic.Lib.Pipeline.Launch
import Idealize.ShloMosaic.Lib.Pipeline.Kit
import Idealize.ShloMosaic.Lib.Transfers
import Idealize.ShloMosaic.Lib.Tactic

/-!
The sixteen devices, their peers at an offset, the semaphore cells of the all-to-all exchange of row sums, and the
views of the gathered table's rows.
-/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, whose duties are named by an offset -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Peers: the device `d` places after `c` around the ring of sixteen -/

def pr (c : Dev nD) (d : Fin 16) : Dev nD := ⟨(c.val + d.val) % 16, Nat.mod_lt _ (by decide)⟩
/-- The offset that undoes `d`. -/
def ng (d : Fin 16) : Fin 16 := ⟨(16 - d.val) % 16, Nat.mod_lt _ (by decide)⟩

theorem pr_zero (c : Dev nD) : pr c 0 = c := by revert c; decide
theorem pr_ng (c : Dev nD) (d : Fin 16) : pr (pr c d) (ng d) = c := by revert c d; decide
theorem pr_ng' (c : Dev nD) (d : Fin 16) : pr (pr c (ng d)) d = c := by revert c d; decide
theorem ng_ng (d : Fin 16) : ng (ng d) = d := by revert d; decide
theorem ng_ne_zero {d : Fin 16} (h : d ≠ 0) : ng d ≠ 0 := by revert d; decide
theorem pr_ne {c : Dev nD} {d : Fin 16} (h : d ≠ 0) : pr c d ≠ c := by revert c d; decide
theorem pr_inj {c : Dev nD} {d d' : Fin 16} (h : pr c d = pr c d') : d = d' := by revert c d d'; decide
theorem pr_inj_left {c c' : Dev nD} {d : Fin 16} (h : pr c d = pr c' d) : c = c' := by revert c c' d; decide
/-- Every other device is some nonzero offset away. -/
def off (c j : Dev nD) : Fin 16 := ⟨(j.val + 16 - c.val) % 16, Nat.mod_lt _ (by decide)⟩
theorem pr_off (c j : Dev nD) : pr c (off c j) = j := by revert c j; decide
theorem off_pr (c : Dev nD) (d : Fin 16) : off c (pr c d) = d := by revert c d; decide
theorem off_ne_zero {c j : Dev nD} (h : j ≠ c) : off c j ≠ 0 := by revert c j; decide

/-- Moving every device `d` places on is a permutation of the devices. -/
def shift (d : Fin 16) : Dev nD ≃ Dev nD := ⟨fun c => pr c d, fun c => pr c (ng d), fun c => pr_ng c d, fun c => pr_ng' c d⟩

/-- The nonzero offsets. -/
abbrev nz : Finset (Fin 16) := Finset.univ.erase 0

/-! ## The buffers -/

abbrev xM : Memref sig .tc .hbm S512x256 .f32 := Memref.whole main_arg0
abbrev xvM : Memref sig .tc .vmem S512x256 .f32 := Memref.whole cc0_scratch0
abbrev commM : Memref sig .tc .vmem S16x1x256 .f32 := Memref.whole cc0_scratch1
abbrev outM : Memref sig .tc .vmem S1x256 .f32 := Memref.whole cc0_stg0_0

theorem rowInb (j : Fin 16) : ∀ a, (![j.val, 0, 0] : Fin 3 → Nat) a + S1x1x256.size a ≤ S16x1x256.size a := by
  revert j; decide

/-- Row `j` of the gathered table as a rectangle of it, -/
abbrev rowR (j : Fin 16) : Rect S16x1x256 := Rect.unit (s := S16x1x256) ![j.val, 0, 0] S1x1x256.size (rowInb j)
/-- and as the 1 × 256 buffer a transfer moves. -/
abbrev rowM (j : Fin 16) : Memref sig .tc .vmem S1x256 .f32 :=
  ((commM.slice (rowR j) (fun _ => rfl)).squeeze S1x256 squeezes_S1x1x256_S1x256)

/-! ## The semaphores and their cells -/

abbrev barS : Sem sig := (SemArray.scalar (sig.barrier 0 rfl) : Sems sig S_).sem

theorem semInb (d : Fin 16) : ∀ a, (![d.val] : Fin 1 → Nat) a + S1.size a ≤ S16.size a := by revert d; decide

/-- The send semaphore of the transfer to the peer at offset `d`; -/
abbrev sendS (d : Fin 16) : DmaSem sig :=
  ((cc0_scratch2.slice (Rect.unit (s := S16) ![d.val] S1.size (semInb d))).squeeze S_ squeezes_S1_S_).sem
/-- the receive semaphore on which device `j`'s row lands; -/
abbrev recvS (j : Fin 16) : DmaSem sig :=
  ((cc0_scratch3.slice (Rect.unit (s := S16) ![j.val] S1.size (semInb j))).squeeze S_ squeezes_S1_S_).sem
/-- the semaphore of the block's load into VMEM. -/
abbrev loadS : DmaSem sig := cc0_scratch4.sem

theorem sendS_val (d : Fin 16) : (sendS d).val = 1 + d.val := by revert d; decide
theorem recvS_val (j : Fin 16) : (recvS j).val = 17 + j.val := by revert j; decide
theorem loadS_val : (loadS : DmaSem sig).val = 33 := by decide

abbrev barCell (c : Dev nD) : GSem nD τ sig := ((c : Thread nD τ), .reg barS)
abbrev sendCell (c : Dev nD) (d : Fin 16) : GSem nD τ sig := ((c : Thread nD τ), .dma (sendS d))
abbrev recvCell (c : Dev nD) (j : Fin 16) : GSem nD τ sig := ((c : Thread nD τ), .dma (recvS j))
abbrev loadCell (c : Dev nD) : GSem nD τ sig := ((c : Thread nD τ), .dma loadS)

/-- A transfer of one row credits this many units. -/
abbrev N1 : ℕ := (rowM 0 : Memref sig .tc .vmem S1x256 .f32).view.dmaCredit
/-- The block's load credits this many. -/
abbrev NL : ℕ := (xvM : Memref sig .tc .vmem S512x256 .f32).view.dmaCredit

end Cert.KernelProof

end
-- ==== Proof.KernelArith.lean ====
import proofs.«900952_g7700000000000953_dist_mean_ax0_shard0_i_m512_n256_v7x_i16_bf16_1_alg».proof.Proof.KernelBase

/-!
The printed device chains, offsets and semaphore slices in closed form: the device `(c + d) mod 16` is `pr c d`,
the row of the table at a printed offset is `rowM`, a printed semaphore slice is `sendS` / `recvS`.
-/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## The device chains: signal `d` and transfer `d` address the device `d` places on -/

theorem dev1_eq (c : Dev nD) : (⟨k0_dev1 c, k0_dev1_lt c⟩ : Dev nD) = pr c 1 := by revert c; decide +kernel
theorem dev2_eq (c : Dev nD) : (⟨k0_dev2 c, k0_dev2_lt c⟩ : Dev nD) = pr c 2 := by revert c; decide +kernel
theorem dev3_eq (c : Dev nD) : (⟨k0_dev3 c, k0_dev3_lt c⟩ : Dev nD) = pr c 3 := by revert c; decide +kernel
theorem dev4_eq (c : Dev nD) : (⟨k0_dev4 c, k0_dev4_lt c⟩ : Dev nD) = pr c 4 := by revert c; decide +kernel
theorem dev5_eq (c : Dev nD) : (⟨k0_dev5 c, k0_dev5_lt c⟩ : Dev nD) = pr c 5 := by revert c; decide +kernel
theorem dev6_eq (c : Dev nD) : (⟨k0_dev6 c, k0_dev6_lt c⟩ : Dev nD) = pr c 6 := by revert c; decide +kernel
theorem dev7_eq (c : Dev nD) : (⟨k0_dev7 c, k0_dev7_lt c⟩ : Dev nD) = pr c 7 := by revert c; decide +kernel
theorem dev8_eq (c : Dev nD) : (⟨k0_dev8 c, k0_dev8_lt c⟩ : Dev nD) = pr c 8 := by revert c; decide +kernel
theorem dev9_eq (c : Dev nD) : (⟨k0_dev9 c, k0_dev9_lt c⟩ : Dev nD) = pr c 9 := by revert c; decide +kernel
theorem dev10_eq (c : Dev nD) : (⟨k0_dev10 c, k0_dev10_lt c⟩ : Dev nD) = pr c 10 := by revert c; decide +kernel
theorem dev11_eq (c : Dev nD) : (⟨k0_dev11 c, k0_dev11_lt c⟩ : Dev nD) = pr c 11 := by revert c; decide +kernel
theorem dev12_eq (c : Dev nD) : (⟨k0_dev12 c, k0_dev12_lt c⟩ : Dev nD) = pr c 12 := by revert c; decide +kernel
theorem dev13_eq (c : Dev nD) : (⟨k0_dev13 c, k0_dev13_lt c⟩ : Dev nD) = pr c 13 := by revert c; decide +kernel
theorem dev14_eq (c : Dev nD) : (⟨k0_dev14 c, k0_dev14_lt c⟩ : Dev nD) = pr c 14 := by revert c; decide +kernel
theorem dev15_eq (c : Dev nD) : (⟨k0_dev15 c, k0_dev15_lt c⟩ : Dev nD) = pr c 15 := by revert c; decide +kernel
theorem dev16_eq (c : Dev nD) : (⟨k0_dev16 c, k0_dev16_lt c⟩ : Dev nD) = pr c 1 := by revert c; decide +kernel
theorem dev17_eq (c : Dev nD) : (⟨k0_dev17 c, k0_dev17_lt c⟩ : Dev nD) = pr c 2 := by revert c; decide +kernel
theorem dev18_eq (c : Dev nD) : (⟨k0_dev18 c, k0_dev18_lt c⟩ : Dev nD) = pr c 3 := by revert c; decide +kernel
theorem dev19_eq (c : Dev nD) : (⟨k0_dev19 c, k0_dev19_lt c⟩ : Dev nD) = pr c 4 := by revert c; decide +kernel
theorem dev20_eq (c : Dev nD) : (⟨k0_dev20 c, k0_dev20_lt c⟩ : Dev nD) = pr c 5 := by revert c; decide +kernel
theorem dev21_eq (c : Dev nD) : (⟨k0_dev21 c, k0_dev21_lt c⟩ : Dev nD) = pr c 6 := by revert c; decide +kernel
theorem dev22_eq (c : Dev nD) : (⟨k0_dev22 c, k0_dev22_lt c⟩ : Dev nD) = pr c 7 := by revert c; decide +kernel
theorem dev23_eq (c : Dev nD) : (⟨k0_dev23 c, k0_dev23_lt c⟩ : Dev nD) = pr c 8 := by revert c; decide +kernel
theorem dev24_eq (c : Dev nD) : (⟨k0_dev24 c, k0_dev24_lt c⟩ : Dev nD) = pr c 9 := by revert c; decide +kernel
theorem dev25_eq (c : Dev nD) : (⟨k0_dev25 c, k0_dev25_lt c⟩ : Dev nD) = pr c 10 := by revert c; decide +kernel
theorem dev26_eq (c : Dev nD) : (⟨k0_dev26 c, k0_dev26_lt c⟩ : Dev nD) = pr c 11 := by revert c; decide +kernel
theorem dev27_eq (c : Dev nD) : (⟨k0_dev27 c, k0_dev27_lt c⟩ : Dev nD) = pr c 12 := by revert c; decide +kernel
theorem dev28_eq (c : Dev nD) : (⟨k0_dev28 c, k0_dev28_lt c⟩ : Dev nD) = pr c 13 := by revert c; decide +kernel
theorem dev29_eq (c : Dev nD) : (⟨k0_dev29 c, k0_dev29_lt c⟩ : Dev nD) = pr c 14 := by revert c; decide +kernel
theorem dev30_eq (c : Dev nD) : (⟨k0_dev30 c, k0_dev30_lt c⟩ : Dev nD) = pr c 15 := by revert c; decide +kernel

/-! ## The offsets -/

theorem off4_eq : ∀ (c : Dev nD) (r : Fin 15), k0_off4 c (BitVec.ofNat 32 (1 + r.val)) = ![(pr c ⟨1 + r.val, by omega⟩).val] := by decide +kernel
theorem off5_eq : ∀ (c : Dev nD) (r : Fin 15), k0_off5 c (BitVec.ofNat 32 (1 + r.val)) = ![(pr c ⟨1 + r.val, by omega⟩).val, 0, 0] := by decide +kernel

/-- The row of the table at an offset that is `(j, 0, 0)`. -/
theorem rowM_of_off (j : Fin 16) (off : Fin 3 → Nat) (h : ∀ a, off a + S1x1x256.size a ≤ S16x1x256.size a) (hoff : off = ![j.val, 0, 0]) :
    (((commM : Memref sig .tc .vmem S16x1x256 .f32).slice (Rect.unit (s := S16x1x256) off S1x1x256.size h) (fun _ => rfl)).squeeze S1x256 squeezes_S1x1x256_S1x256)
      = rowM j := by
  subst hoff; rfl

/-- The receive semaphore at an offset that is `(j)`. -/
theorem recvS_of_off (j : Fin 16) (off : Fin 1 → Nat) (h : ∀ a, off a + S1.size a ≤ S16.size a) (hoff : off = ![j.val]) :
    ((cc0_scratch3.slice (Rect.unit (s := S16) off S1.size h)).squeeze S_ squeezes_S1_S_).sem = recvS j := by
  subst hoff; rfl

end Cert.KernelProof

end
-- ==== Proof.KernelSched.lean ====
import proofs.«900952_g7700000000000953_dist_mean_ax0_shard0_i_m512_n256_v7x_i16_bf16_1_alg».proof.Proof.KernelBase

/-!
The protocol of the exchange, as a schedule of duties. Every device `c`:
  * starts the load of its block into VMEM (one duty of its load cell, paid by its own copy);
  * tells each of the fifteen other devices, on that device's barrier cell, that row `c` of its own table is
    theirs to write (duty `e` of device `q`'s barrier cell is paid by device `q + e` and hands over row `q`
    of device `q + e`'s table);
  * stores its block's row sums in row `c` of its table, waits for the fifteen signals, and sends row `c` to
    row `c` of every other device's table (one duty of its send cell `d`, which returns the share of row `c`
    the transfer read; one duty of the receiver's receive cell `c`, which hands the receiver row `c` holding
    device `c`'s row sums);
  * waits for the fifteen rows sent to it, sums the table, and waits for its own fifteen transfers.
-/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- Device `j`'s block of `x`. -/
def xblk (j : Dev nD) : Vec F S512x256 .f32 := m ((j : Thread nD τ).loc main_arg0)
/-- The gathered table every device ends with: row `j` is device `j`'s row sums. -/
def tbl : Vec F S16x1x256 .f32 := Mean.table (fun j : Fin 16 => xblk m j)
/-- The result on every device. -/
def outV : Vec F S1x256 .f32 := Mean.outOf (tbl m)

/-- Row `j` of device `c`'s table, held at share `q` with contents `f`. -/
def rowPts (c : Dev nD) (j : Fin 16) (q : PosShare TreeShare)
    (f : Buf (Elt F) ((rowM j : Memref sig .tc .vmem S1x256 .f32).view.loc (c : Thread nD τ))) : sProp 𝕄 :=
  (rowM j : Memref sig .tc .vmem S1x256 .f32).view.loc (c : Thread nD τ) ↦[(rowM j : Memref sig .tc .vmem S1x256 .f32).view.set]{q} f

/-! ## The schedule -/

def barPay (c : Dev nD) (e : Fin 16) : sProp 𝕄 := iprop(∃ f, rowPts (pr c e) c fullShare f)
def recvPay (c : Dev nD) (j : Fin 16) : sProp 𝕄 := rowPts c j fullShare (tbl m)
def sendPay (c : Dev nD) (d : Fin 16) : sProp 𝕄 := rowPts c c (shareTok fullShare 16 d) (tbl m)
def loadPay (c : Dev nD) : sProp 𝕄 :=
  iprop((((c : Thread nD τ).loc cc0_scratch0) ↦{fullShare} xblk m c) ∗ (((c : Thread nD τ).loc main_arg0) ↦{fullShare} xblk m c))

abbrev IsBar (g : GSem nD τ sig) : Prop := g.1.2 = .tc ∧ g.2 = .reg barS
/-- The DMA cells that see a transfer: the load cell, the send cells of the nonzero offsets, the receive cells of the other devices. -/
abbrev IsUsed (g : GSem nD τ sig) : Prop :=
  g.1.2 = .tc ∧ (g.2 = .dma loadS ∨ (∃ d : Fin 16, d ≠ 0 ∧ g.2 = .dma (sendS d)) ∨ (∃ j : Fin 16, j ≠ g.1.1 ∧ g.2 = .dma (recvS j)))

/-- What duty `e` of cell `g` hands its owner. -/
def payOf (g : GSem nD τ sig) (e : Fin 16) : sProp 𝕄 :=
  match g.2 with
  | .reg _ => barPay g.1.1 e
  | .dma s =>
    if s = loadS then loadPay m g.1.1
    else if h : 17 ≤ s.val ∧ s.val < 33 then recvPay m g.1.1 ⟨s.val - 17, by omega⟩
    else if h : 1 ≤ s.val ∧ s.val < 17 then sendPay m g.1.1 ⟨s.val - 1, by omega⟩
    else iprop(emp)

/-- One round, round 0: a barrier cell has the fifteen duties of the nonzero offsets, one unit each; a load, send or
    receive cell that sees a transfer has the one duty `0` of that transfer's credit. -/
def exRd : Rounds.Schedule (GSem nD τ sig) (Fin 16) 𝕄 where
  duties g r := if r = 0 ∧ IsBar g then nz else if r = 0 ∧ IsUsed g then {0} else ∅
  unitless _ := False
  amount g _ _ := if g.2 = .reg barS then 1 else if g.2 = .dma loadS then NL else N1
  payload g _ e := payOf m g e
  amount_pos g _ _ _ := by
    by_cases h : g.2 = .reg barS
    · rw [if_pos h]; exact Nat.one_pos
    · rw [if_neg h]
      by_cases h' : g.2 = .dma loadS
      · rw [if_pos h']; exact View.dmaCredit_pos _ (by decide)
      · rw [if_neg h']; exact View.dmaCredit_pos _ (by decide)

/-! ## What each device owes at launch; the levels -/

/-- Device `c` owes every other device's receive cell `c` a row's credit, and every other device's barrier cell one unit. -/
def owedRecv (c : Dev nD) (S : Finset (Fin 16)) : CellTallies nD τ sig Unit := ∑ d ∈ S, tallyAt (recvCell (pr c d) c) () N1
def owedSig (c : Dev nD) (S : Finset (Fin 16)) : CellTallies nD τ sig Unit := ∑ d ∈ S, tallyAt (barCell (pr c d)) () 1
def O₀ (c : Dev nD) : CellTallies nD τ sig Unit := owedRecv c nz + owedSig c nz

def L (g : GSem nD τ sig) : Finset Unit := if g.1.2 = .tc then {()} else ∅
/-- barrier cells at 1, receive cells at 2, everything else (staging, load, send) at 0. -/
def lv (g : GSem nD τ sig) (_ : Unit) : ℕ := if g.2 = .reg barS then 1 else if (∃ j : Fin 16, g.2 = .dma (recvS j)) then 2 else 0

/-! ## All the cells of the exchange, device by device -/

/-- The cells of a device: the barrier cell, then the DMA cells 1 … 33 (sixteen send, sixteen receive, the load). -/
abbrev csem (k : Fin 34) : SemLoc sig := if k.val = 0 then .reg barS else .dma ⟨k.val, k.isLt⟩
abbrev kcell (ck : Dev nD × Fin 34) : GSem nD τ sig := ((ck.1 : Thread nD τ), csem ck.2)
/-- The kernel's own (scoped) semaphores, as the launch indexes them: the DMA semaphores 1 … 33. -/
abbrev osem : Fin 33 → SemLoc sig := fun k => .dma ⟨k.val + 1, by show k.val + 1 < 34; omega⟩

/-- The indices of a device's cells. -/
abbrev kSend (d : Fin 16) : Fin 34 := ⟨1 + d.val, by omega⟩
abbrev kRecv (j : Fin 16) : Fin 34 := ⟨17 + j.val, by omega⟩
abbrev kLoad : Fin 34 := ⟨33, by omega⟩

/-! ## The ghost state of a device -/

/-- Every cell's invariant under the names the launch allocated them at, and that every cell is at round 0 or later. -/
def records (K : Dev nD × Fin 34 → ℕ) : sProp 𝕄 :=
  iprop((bigSep Finset.univ fun ck : Dev nD × Fin 34 => cellInv ER (exRd m) (K ck) (kcell ck))
    ∗ bigSep Finset.univ fun ck : Dev nD × Fin 34 => reached ER (kcell ck) 0)

instance records_persistent (K : Dev nD × Fin 34 → ℕ) : BI.Persistent (records m K) := by unfold records; infer_instance

/-- The tokens of the duties device `c` pays: at every other device's barrier cell (duty: the offset back to `c`) and
    receive cell `c`, at its own fifteen send cells and its load cell. -/
def payToks (c : Dev nD) : sProp 𝕄 :=
  iprop((bigSep nz fun d => dutyTok ER (barCell (pr c d)) 0 (ng d))
    ∗ (bigSep nz fun d => dutyTok ER (recvCell (pr c d) c) 0 (0 : Fin 16))
    ∗ (bigSep nz fun d => dutyTok ER (sendCell c d) 0 (0 : Fin 16))
    ∗ dutyTok ER (loadCell c) 0 (0 : Fin 16))

/-- What stays with device `c`: its position at round 0 of each of its cells, and the tokens of the duties it pays. -/
def linear (c : Dev nD) : sProp 𝕄 :=
  iprop((bigSep Finset.univ fun k : Fin 34 => atPos ER (kcell (c, k)) 0 (∅ : Finset (Fin 16)) 0) ∗ payToks c)

def ghost (K : Dev nD × Fin 34 → ℕ) (c : Dev nD) : sProp 𝕄 := iprop(records m K ∗ linear c)

/-- The credit the other devices owe device `c`'s cells: fifteen units on its barrier cell, a row's credit on each
    receive cell of another device. -/
def creds (c : Dev nD) : sProp 𝕄 :=
  iprop(cred (tallyAt (barCell c) () 15) ∗ bigSep (Finset.univ.erase c) fun j : Fin 16 => cred (tallyAt (recvCell c j) () N1))

/-- What device `c`'s kernel starts from besides its scratch buffers. -/
def start (c : Dev nD) : sProp 𝕄 :=
  iprop((∃ K, ghost m K c) ∗ creds c ∗ levAts L lv ∗ (((c : Thread nD τ).loc main_arg0) ↦{fullShare} xblk m c))

def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- After the point: `x` as it was, the two scratch buffers whole again, the kernel's own thirty-three cells closed at zero. -/
def Φ₁ (c : Dev nD) : sProp 𝕄 :=
  iprop((((c : Thread nD τ).loc main_arg0) ↦{fullShare} xblk m c)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ bigSep Finset.univ fun k : Fin 33 => semVal ((c : Thread nD τ), osem k) 0)

/-! ## The pipeline's proof data: one window (the result), one point -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outV m
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelProof

end
-- ==== Proof.KernelTables.lean ====
import proofs.«900952_g7700000000000953_dist_mean_ax0_shard0_i_m512_n256_v7x_i16_bf16_1_alg».proof.Proof.KernelSched

/-!
The schedule's tables read cell by cell: which duties a cell has, their amounts and payloads, what a round expects;
that a wait at a cell's level is allowed under what a device still owes; a cell's invariant and its reached round 0
out of the launch's records.
-/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-! Small facts on the semaphore names: a register semaphore is no DMA semaphore, and the DMA semaphores of the
exchange are told apart by their numbers (send 1 + d, receive 17 + j, load 33). -/

theorem dma_ne_reg (q : DmaSem sig) (s : Sem sig) : (SemLoc.dma q : SemLoc sig) ≠ .reg s := fun h => by cases h

theorem sendS_ne_loadS (d : Fin 16) : (sendS d : DmaSem sig) ≠ loadS := fun h => by
  have h' := congrArg Fin.val h; rw [sendS_val, loadS_val] at h'; omega
theorem recvS_ne_loadS (j : Fin 16) : (recvS j : DmaSem sig) ≠ loadS := fun h => by
  have h' := congrArg Fin.val h; rw [recvS_val, loadS_val] at h'; omega
theorem sendS_ne_recvS (d j : Fin 16) : (sendS d : DmaSem sig) ≠ recvS j := fun h => by
  have h' := congrArg Fin.val h; rw [sendS_val, recvS_val] at h'; omega
theorem sendS_inj {d d' : Fin 16} (h : (sendS d : DmaSem sig) = sendS d') : d = d' := by
  have h' := congrArg Fin.val h; rw [sendS_val, sendS_val] at h'; exact Fin.ext (by omega)
theorem recvS_inj {j j' : Fin 16} (h : (recvS j : DmaSem sig) = recvS j') : j = j' := by
  have h' := congrArg Fin.val h; rw [recvS_val, recvS_val] at h'; exact Fin.ext (by omega)

section Tables
variable (c : Dev nD)

theorem duties_bar : (exRd (F := F) m).duties (barCell c) 0 = nz := by
  dsimp only [exRd]; exact if_pos ⟨rfl, rfl, rfl⟩
theorem duties_send {d : Fin 16} (hd : d ≠ 0) : (exRd (F := F) m).duties (sendCell c d) 0 = {0} := by
  dsimp only [exRd]; rw [if_neg (fun h => dma_ne_reg _ _ h.2.2)]; exact if_pos ⟨rfl, rfl, .inr (.inl ⟨d, hd, rfl⟩)⟩
theorem duties_recv {j : Fin 16} (hj : j ≠ c) : (exRd (F := F) m).duties (recvCell c j) 0 = {0} := by
  dsimp only [exRd]; rw [if_neg (fun h => dma_ne_reg _ _ h.2.2)]; exact if_pos ⟨rfl, rfl, .inr (.inr ⟨j, hj, rfl⟩)⟩
theorem duties_load : (exRd (F := F) m).duties (loadCell c) 0 = {0} := by
  dsimp only [exRd]; rw [if_neg (fun h => dma_ne_reg _ _ h.2.2)]; exact if_pos ⟨rfl, rfl, .inl rfl⟩
/-- The two cells of a device that see no transfer have no duty at all. -/
theorem duties_send0 (r : ℕ) : (exRd (F := F) m).duties (sendCell c 0) r = ∅ := by
  dsimp only [exRd]
  rw [if_neg (fun h => dma_ne_reg _ _ h.2.2), if_neg]
  rintro ⟨-, -, h | ⟨d, hd, h⟩ | ⟨j, -, h⟩⟩
  · exact sendS_ne_loadS 0 (SemLoc.dma.inj h)
  · exact hd (sendS_inj (SemLoc.dma.inj h)).symm
  · exact sendS_ne_recvS 0 j (SemLoc.dma.inj h)
theorem duties_recvSelf (r : ℕ) : (exRd (F := F) m).duties (recvCell c c) r = ∅ := by
  dsimp only [exRd]
  rw [if_neg (fun h => dma_ne_reg _ _ h.2.2), if_neg]
  rintro ⟨-, -, h | ⟨d, -, h⟩ | ⟨j, hj, h⟩⟩
  · exact recvS_ne_loadS c (SemLoc.dma.inj h)
  · exact sendS_ne_recvS d c (SemLoc.dma.inj h).symm
  · exact hj (recvS_inj (SemLoc.dma.inj h)).symm
theorem duties_later (g : GSem nD τ sig) : ∀ r, 1 ≤ r → (exRd (F := F) m).duties g r = ∅ :=
  fun r hr => by dsimp only [exRd]; rw [if_neg fun h => by omega, if_neg fun h => by omega]

theorem amount_bar (e : Fin 16) : (exRd (F := F) m).amount (barCell c) 0 e = 1 := by dsimp only [exRd]; exact if_pos rfl
theorem amount_send (d e : Fin 16) : (exRd (F := F) m).amount (sendCell c d) 0 e = N1 := by
  dsimp only [exRd]; rw [if_neg (dma_ne_reg _ _), if_neg (fun h => sendS_ne_loadS d (SemLoc.dma.inj h))]
theorem amount_recv (j e : Fin 16) : (exRd (F := F) m).amount (recvCell c j) 0 e = N1 := by
  dsimp only [exRd]; rw [if_neg (dma_ne_reg _ _), if_neg (fun h => recvS_ne_loadS j (SemLoc.dma.inj h))]
theorem amount_load (e : Fin 16) : (exRd (F := F) m).amount (loadCell c) 0 e = NL := by
  dsimp only [exRd]; rw [if_neg (dma_ne_reg _ _)]; exact if_pos rfl

theorem card_nz : (nz : Finset (Fin 16)).card = 15 := by decide

theorem expect_bar : (exRd (F := F) m).expect (barCell c) 0 = 15 := by
  unfold Schedule.expect Schedule.amountOf
  rw [duties_bar, Finset.sum_congr rfl fun e _ => amount_bar m c e, Finset.sum_const, card_nz, smul_eq_mul]
theorem expect_send {d : Fin 16} (hd : d ≠ 0) : (exRd (F := F) m).expect (sendCell c d) 0 = N1 := by
  unfold Schedule.expect Schedule.amountOf; rw [duties_send m c hd, Finset.sum_singleton, amount_send]
theorem expect_recv {j : Fin 16} (hj : j ≠ c) : (exRd (F := F) m).expect (recvCell c j) 0 = N1 := by
  unfold Schedule.expect Schedule.amountOf; rw [duties_recv m c hj, Finset.sum_singleton, amount_recv]
theorem expect_load : (exRd (F := F) m).expect (loadCell c) 0 = NL := by
  unfold Schedule.expect Schedule.amountOf; rw [duties_load, Finset.sum_singleton, amount_load]

theorem payload_bar (e : Fin 16) : (exRd (F := F) m).payload (barCell c) 0 e = barPay c e := by
  show payOf m (barCell c) e = _
  unfold payOf; rfl
theorem payload_send (d e : Fin 16) : (exRd (F := F) m).payload (sendCell c d) 0 e = sendPay m c d := by
  show payOf m (sendCell c d) e = _
  unfold payOf
  show (if sendS d = loadS then loadPay m c
    else if h : 17 ≤ (sendS d : DmaSem sig).val ∧ (sendS d : DmaSem sig).val < 33 then recvPay m c ⟨(sendS d : DmaSem sig).val - 17, by omega⟩
    else if h : 1 ≤ (sendS d : DmaSem sig).val ∧ (sendS d : DmaSem sig).val < 17 then sendPay m c ⟨(sendS d : DmaSem sig).val - 1, by omega⟩
    else iprop(emp)) = _
  have hv := sendS_val d
  rw [if_neg (sendS_ne_loadS d), dif_neg (by omega), dif_pos (by omega)]
  exact congrArg (sendPay m c) (Fin.ext (by show (sendS d : DmaSem sig).val - 1 = d.val; omega))
theorem payload_recv (j e : Fin 16) : (exRd (F := F) m).payload (recvCell c j) 0 e = recvPay m c j := by
  show payOf m (recvCell c j) e = _
  unfold payOf
  show (if recvS j = loadS then loadPay m c
    else if h : 17 ≤ (recvS j : DmaSem sig).val ∧ (recvS j : DmaSem sig).val < 33 then recvPay m c ⟨(recvS j : DmaSem sig).val - 17, by omega⟩
    else if h : 1 ≤ (recvS j : DmaSem sig).val ∧ (recvS j : DmaSem sig).val < 17 then sendPay m c ⟨(recvS j : DmaSem sig).val - 1, by omega⟩
    else iprop(emp)) = _
  have hv := recvS_val j
  rw [if_neg (recvS_ne_loadS j), dif_pos (by omega)]
  exact congrArg (recvPay m c) (Fin.ext (by show (recvS j : DmaSem sig).val - 17 = j.val; omega))
theorem payload_load (e : Fin 16) : (exRd (F := F) m).payload (loadCell c) 0 e = loadPay m c := by
  show payOf m (loadCell c) e = _
  unfold payOf
  show (if (loadS : DmaSem sig) = loadS then loadPay m c else _) = _
  rw [if_pos rfl]

/-- The rest of a round none of whose duties is taken: the barrier's fifteen payloads; a transfer cell's one. -/
theorem rest_bar : bigSep ((exRd (F := F) m).duties (barCell c) 0 \ ∅) (fun e => (exRd (F := F) m).payload (barCell c) 0 e)
    = bigSep nz (fun e => barPay (F := F) c e) := by
  rw [Finset.sdiff_empty, duties_bar]; exact bigSep_congr fun e _ => payload_bar m c e
theorem rest_send {d : Fin 16} (hd : d ≠ 0) :
    bigSep ((exRd (F := F) m).duties (sendCell c d) 0 \ ∅) (fun e => (exRd (F := F) m).payload (sendCell c d) 0 e) = sendPay m c d := by
  rw [Finset.sdiff_empty, duties_send m c hd, bigSep_singleton, payload_send]
theorem rest_recv {j : Fin 16} (hj : j ≠ c) :
    bigSep ((exRd (F := F) m).duties (recvCell c j) 0 \ ∅) (fun e => (exRd (F := F) m).payload (recvCell c j) 0 e) = recvPay m c j := by
  rw [Finset.sdiff_empty, duties_recv m c hj, bigSep_singleton, payload_recv]
theorem rest_load : bigSep ((exRd (F := F) m).duties (loadCell c) 0 \ ∅) (fun e => (exRd (F := F) m).payload (loadCell c) 0 e) = loadPay m c := by
  rw [Finset.sdiff_empty, duties_load, bigSep_singleton, payload_load]

instance exRd_payload_storable (g : GSem nD τ sig) (r : ℕ) (e : Fin 16) :
    BI.Storable (upEmb : UEmb _ 𝕄) ((exRd (F := F) m).payload g r e) := by
  show BI.Storable upEmb (payOf m g e)
  unfold payOf barPay recvPay sendPay loadPay rowPts
  (repeat' split) <;> infer_instance

end Tables

/-! ## The cells by their index -/

theorem kcell_bar (c : Dev nD) : kcell (c, (0 : Fin 34)) = barCell c := by
  have h : csem (0 : Fin 34) = .reg barS := by
    show (if (0 : Fin 34).val = 0 then (SemLoc.reg barS : SemLoc sig) else _) = _
    exact if_pos rfl
  exact Prod.ext rfl h
theorem kcell_send (c : Dev nD) (d : Fin 16) : kcell (c, kSend d) = sendCell c d := by
  have h : csem (kSend d) = .dma (sendS d) := by
    show (if 1 + d.val = 0 then (SemLoc.reg barS : SemLoc sig) else _) = _
    rw [if_neg (by omega)]; exact congrArg SemLoc.dma (Fin.ext (sendS_val d).symm)
  exact Prod.ext rfl h
theorem kcell_recv (c : Dev nD) (j : Fin 16) : kcell (c, kRecv j) = recvCell c j := by
  have h : csem (kRecv j) = .dma (recvS j) := by
    show (if 17 + j.val = 0 then (SemLoc.reg barS : SemLoc sig) else _) = _
    rw [if_neg (by omega)]; exact congrArg SemLoc.dma (Fin.ext (recvS_val j).symm)
  exact Prod.ext rfl h
theorem kcell_load (c : Dev nD) : kcell (c, kLoad) = loadCell c := by
  have h : csem kLoad = .dma loadS := by
    show (if 33 = 0 then (SemLoc.reg barS : SemLoc sig) else _) = _
    rw [if_neg (by omega)]; exact congrArg SemLoc.dma (Fin.ext loadS_val.symm)
  exact Prod.ext rfl h

/-- The thirty-four cell indices name thirty-four different semaphores: index 0 the register semaphore, index k > 0
    the DMA semaphore numbered k. -/
theorem csem_injective : Function.Injective (csem : Fin 34 → SemLoc sig) := by
  intro k k' h
  have h' : (if k.val = 0 then (SemLoc.reg barS : SemLoc sig) else .dma ⟨k.val, k.isLt⟩)
      = (if k'.val = 0 then (SemLoc.reg barS : SemLoc sig) else .dma ⟨k'.val, k'.isLt⟩) := h
  by_cases hk : k.val = 0 <;> by_cases hk' : k'.val = 0
  · exact Fin.ext (hk.trans hk'.symm)
  · rw [if_pos hk, if_neg hk'] at h'; exact absurd h'.symm (dma_ne_reg _ _)
  · rw [if_neg hk, if_pos hk'] at h'; exact absurd h' (dma_ne_reg _ _)
  · rw [if_neg hk, if_neg hk'] at h'; exact Fin.ext (congrArg Fin.val (SemLoc.dma.inj h'))

theorem kcell_injective : Function.Injective (kcell : Dev nD × Fin 34 → GSem nD τ sig) := by
  rintro ⟨c, k⟩ ⟨c', k'⟩ h
  have h1 : c = c' := by have := congrArg (fun g : GSem nD τ sig => g.1.1) h; exact this
  subst h1
  have h2 : csem k = csem k' := congrArg Prod.snd h
  have h3 : k = k' := csem_injective h2
  subst h3; rfl
/-- A device's own semaphore k is its cell k + 1. -/
theorem osem_eq (c : Dev nD) (k : Fin 33) : ((c : Thread nD τ), osem k) = kcell (c, ⟨k.val + 1, by omega⟩) := by
  have h : osem k = csem ⟨k.val + 1, by omega⟩ := by
    show _ = (if k.val + 1 = 0 then (SemLoc.reg barS : SemLoc sig) else _)
    rw [if_neg (by omega)]
  exact Prod.ext rfl h

theorem inv_at (K : Dev nD × Fin 34 → ℕ) (ck : Dev nD × Fin 34) : records (F := F) m K ⊢ cellInv ER (exRd m) (K ck) (kcell ck) := by
  unfold records
  have h1 : (bigSep Finset.univ fun ck : Dev nD × Fin 34 => (cellInv ER (exRd m) (K ck) (kcell ck) : sProp 𝕄))
      ⊢ cellInv ER (exRd m) (K ck) (kcell ck) := bigSep_elim (Finset.mem_univ ck)
  iintro ⟨#HI, #HR⟩
  iapply h1; iexact HI
theorem reached_at (K : Dev nD × Fin 34 → ℕ) (ck : Dev nD × Fin 34) : records (F := F) m K ⊢ reached ER (kcell ck) 0 := by
  unfold records
  have h1 : (bigSep Finset.univ fun ck : Dev nD × Fin 34 => (reached ER (kcell ck) 0 : sProp 𝕄))
      ⊢ reached ER (kcell ck) 0 := bigSep_elim (Finset.mem_univ ck)
  iintro ⟨#HI, #HR⟩
  iapply h1; iexact HR

/-! ## The levels: which waits are allowed under what is still owed -/

theorem L_of_ne (g : GSem nD τ sig) (h : g.1.2 ≠ .tc) : L g = ∅ := if_neg h
theorem L_tc (c : Dev nD) (sm : SemLoc sig) : L ((c : Thread nD τ), sm) = {()} := if_pos rfl

/-- A cell at which some row's credit is owed is a receive cell of a TensorCore; -/
theorem owedRecv_pos_cell {c : Dev nD} {S : Finset (Fin 16)} {g : GSem nD τ sig} {u : Unit} (h : 0 < owedRecv c S g u) :
    ∃ d ∈ S, g = recvCell (pr c d) c := by
  unfold owedRecv at h
  obtain ⟨d, hd, hpos⟩ := Pipeline.sum_pos_exists h
  rw [tallyAt_apply] at hpos
  by_cases hg : g = recvCell (pr c d) c ∧ u = ()
  · exact ⟨d, hd, hg.1⟩
  · rw [if_neg hg] at hpos; exact absurd hpos (Nat.lt_irrefl 0)
/-- one at which a signal is owed is a barrier cell of a TensorCore. -/
theorem owedSig_pos_cell {c : Dev nD} {T : Finset (Fin 16)} {g : GSem nD τ sig} {u : Unit} (h : 0 < owedSig c T g u) :
    ∃ d ∈ T, g = barCell (pr c d) := by
  unfold owedSig at h
  obtain ⟨d, hd, hpos⟩ := Pipeline.sum_pos_exists h
  rw [tallyAt_apply] at hpos
  by_cases hg : g = barCell (pr c d) ∧ u = ()
  · exact ⟨d, hd, hg.1⟩
  · rw [if_neg hg] at hpos; exact absurd hpos (Nat.lt_irrefl 0)

/-- Whatever of its launch debt a device still owes is owed to a barrier or a receive cell of a TensorCore. -/
theorem owed_pos {c : Dev nD} {S T : Finset (Fin 16)} {g : GSem nD τ sig} {u : Unit} (h : 0 < (owedRecv c S + owedSig c T) g u) :
    g.1.2 = .tc ∧ (g.2 = .reg barS ∨ ∃ j : Fin 16, g.2 = .dma (recvS j)) := by
  rw [Pi.add_apply, Finsupp.add_apply] at h
  rcases Nat.add_pos_iff_pos_or_pos.mp h with h1 | h1
  · obtain ⟨d, -, rfl⟩ := owedRecv_pos_cell h1
    exact ⟨rfl, .inr ⟨c, rfl⟩⟩
  · obtain ⟨d, -, rfl⟩ := owedSig_pos_cell h1
    exact ⟨rfl, .inl rfl⟩
theorem owedRecv_pos {c : Dev nD} {S : Finset (Fin 16)} {g : GSem nD τ sig} {u : Unit} (h : 0 < owedRecv c S g u) :
    g.1.2 = .tc ∧ ∃ j : Fin 16, g.2 = .dma (recvS j) := by
  obtain ⟨d, -, rfl⟩ := owedRecv_pos_cell h
  exact ⟨rfl, c, rfl⟩

/-- A wait on a DMA cell that is no receive cell (a staging cell, the load cell, a send cell) is allowed whatever of
    the launch debt is still owed; -/
theorem mayWait_low (c : Dev nD) (q : DmaSem sig) (hq : ∀ j : Fin 16, q ≠ recvS j) (S T : Finset (Fin 16)) :
    (levAts L lv : sProp 𝕄) ⊢ MayWait (c : Thread nD τ) (.dma q) () (owedRecv c S + owedSig c T) := by
  refine MayOwe.of_cut (L := L) (lev := lv) 0 (fun p hp => by rw [Finset.mem_singleton.mp hp, L_tc]; exact Finset.mem_singleton_self _)
    (fun g u hg => by
      obtain ⟨h1, -⟩ := owed_pos hg
      unfold L; rw [if_pos h1]; exact Finset.mem_singleton.mpr rfl)
    (fun p hp => by
      rw [Finset.mem_singleton.mp hp]; dsimp only [lv]
      rw [if_neg (dma_ne_reg _ _), if_neg (fun ⟨j, hj⟩ => hq j (SemLoc.dma.inj hj))])
    (fun g u hg => by
      obtain ⟨-, h2 | ⟨j, h2⟩⟩ := owed_pos hg
      · dsimp only [lv]; rw [if_pos h2]; decide
      · dsimp only [lv]; rw [h2, if_neg (dma_ne_reg _ _), if_pos ⟨j, rfl⟩]; decide)
/-- the wait on the barrier cell while only rows' credits are owed. -/
theorem mayWait_bar (c : Dev nD) (S : Finset (Fin 16)) :
    (levAts L lv : sProp 𝕄) ⊢ MayWait (c : Thread nD τ) (.reg barS) () (owedRecv c S) := by
  refine MayOwe.of_cut (L := L) (lev := lv) 1 (fun p hp => by rw [Finset.mem_singleton.mp hp, L_tc]; exact Finset.mem_singleton_self _)
    (fun g u hg => by
      obtain ⟨h1, -⟩ := owedRecv_pos hg
      unfold L; rw [if_pos h1]; exact Finset.mem_singleton.mpr rfl)
    (fun p hp => by rw [Finset.mem_singleton.mp hp]; dsimp only [lv]; rw [if_pos rfl])
    (fun g u hg => by
      obtain ⟨-, j, h2⟩ := owedRecv_pos hg
      dsimp only [lv]; rw [h2, if_neg (dma_ne_reg _ _), if_pos ⟨j, rfl⟩]; decide)

/-! ## Peeling one summand off what is owed -/

theorem owedSig_erase (c : Dev nD) {S : Finset (Fin 16)} {d : Fin 16} (hd : d ∈ S) :
    owedSig c S = owedSig c (S.erase d) + tallyAt (barCell (pr c d)) () 1 := by
  unfold owedSig; exact (Finset.sum_erase_add _ _ hd).symm
theorem owedRecv_erase (c : Dev nD) {S : Finset (Fin 16)} {d : Fin 16} (hd : d ∈ S) :
    owedRecv c S = owedRecv c (S.erase d) + tallyAt (recvCell (pr c d) c) () N1 := by
  unfold owedRecv; exact (Finset.sum_erase_add _ _ hd).symm
theorem owedSig_empty (c : Dev nD) : owedSig c ∅ = 0 := by
  unfold owedSig; exact Finset.sum_empty
theorem owedRecv_empty (c : Dev nD) : owedRecv c ∅ = 0 := by
  unfold owedRecv; exact Finset.sum_empty

end Cert.KernelProof

end
-- ==== Proof.KernelRows.lean ====
import proofs.«900952_g7700000000000953_dist_mean_ax0_shard0_i_m512_n256_v7x_i16_bf16_1_alg».proof.Proof.KernelBase
import Idealize.ShloMosaic.Lib.Pipeline.Value
import Idealize.ShloMosaic.Lib.ValueIdx

/-!
The gathered table (16 × 1 × 256) seen row by row: holding the whole buffer is holding its sixteen rows; a row's
contents are what is read at the indices `(j, 0, l)`; what a transfer of a row, or a store of a row, leaves there.
-/

noncomputable section

namespace Cert.KernelProof

open Cert.Kernel Cert.Kernel.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Every index of the table is `(j, 0, l)`. -/
theorem idx_row (i : S16x1x256.Idx) : ∃ (j : Fin 16) (l : Fin 256), i = ix3 j (0 : Fin 1) l :=
  ⟨i 0, i 2, by
    funext a
    match a with
    | ⟨0, _⟩ => rfl
    | ⟨1, _⟩ => exact Subsingleton.elim (α := Fin 1) _ _
    | ⟨2, _⟩ => rfl⟩

/-- The elements of row `j` are the indices whose first coordinate is `j`. -/
theorem mem_row (j : Fin 16) (c : Dev nD) (i : Idx ((rowM j : Memref sig .tc .vmem S1x256 .f32).view.loc (c : Thread nD τ))) :
    i ∈ (rowM j : Memref sig .tc .vmem S1x256 .f32).view.set ↔ (i 0).val = j.val := by
  have hs : (rowM j : Memref sig .tc .vmem S1x256 .f32).view.set = (rowR j).set :=
    (View.set_reshape _ _).trans (View.set_slice_whole cc0_scratch1 (rowR j))
  rw [hs, Rect.mem_set_unit]
  constructor
  · intro h
    have h0 : j.val ≤ (i 0).val ∧ (i 0).val < j.val + 1 := h 0
    omega
  · intro h a
    match a with
    | ⟨0, _⟩ =>
      show j.val ≤ (i 0).val ∧ (i 0).val < j.val + 1
      omega
    | ⟨1, _⟩ =>
      have h1 : (i 1).val < 1 := (i 1).isLt
      show 0 ≤ (i 1).val ∧ (i 1).val < 0 + 1
      omega
    | ⟨2, _⟩ =>
      have h2 : (i 2).val < 256 := (i 2).isLt
      show 0 ≤ (i 2).val ∧ (i 2).val < 0 + 256
      omega

/-- Two contents that agree on row `j` are the same thing to hold of row `j`. -/
theorem row_congr (c : Dev nD) (j : Fin 16) (q : PosShare TreeShare)
    (f g : Buf (Elt F) ((rowM j : Memref sig .tc .vmem S1x256 .f32).view.loc (c : Thread nD τ)))
    (h : ∀ l : Fin 256, f (ix3 j (0 : Fin 1) l) = g (ix3 j (0 : Fin 1) l)) :
    ((rowM j : Memref sig .tc .vmem S1x256 .f32).view.loc (c : Thread nD τ) ↦[(rowM j : Memref sig .tc .vmem S1x256 .f32).view.set]{q} f : sProp 𝕄)
      = ((rowM j : Memref sig .tc .vmem S1x256 .f32).view.loc (c : Thread nD τ) ↦[(rowM j : Memref sig .tc .vmem S1x256 .f32).view.set]{q} g) := by
  refine pointsTo_congr fun i hi => ?_
  have h0 : (i 0).val = j.val := (mem_row j c i).mp hi
  obtain ⟨j', l, rfl⟩ := idx_row i
  have hj : j' = j := Fin.ext h0
  subst hj
  exact h l

/-- Holding the whole table at a share is holding each of its sixteen rows at that share. -/
theorem comm_rows (c : Dev nD) (q : PosShare TreeShare) (f : Buf (Elt F) ((c : Thread nD τ).loc cc0_scratch1)) :
    (((c : Thread nD τ).loc cc0_scratch1) ↦{q} f : sProp 𝕄)
      ⊣⊢ bigSep Finset.univ fun j : Fin 16 =>
        ((rowM j : Memref sig .tc .vmem S1x256 .f32).view.loc (c : Thread nD τ) ↦[(rowM j : Memref sig .tc .vmem S1x256 .f32).view.set]{q} f) := by
  -- the rows' element sets, as sets of the table's indices
  let K : Fin 16 → Finset (Idx ((c : Thread nD τ).loc cc0_scratch1)) :=
    fun j => (rowM j : Memref sig .tc .vmem S1x256 .f32).view.set
  -- they are pairwise disjoint (distinct first coordinates) …
  have hdisj : ∀ t ∈ (Finset.univ : Finset (Fin 16)), ∀ t' ∈ (Finset.univ : Finset (Fin 16)), t ≠ t' →
      Disjoint (K t) (K t') := by
    intro t _ t' _ hne
    rw [Finset.disjoint_left]
    intro i hi hi'
    exact hne (Fin.ext (((mem_row t c i).mp hi).symm.trans ((mem_row t' c i).mp hi')))
  -- … and cover the table (an index is in the row its first coordinate names)
  have hcover : (Finset.univ : Finset (Idx ((c : Thread nD τ).loc cc0_scratch1))) = (Finset.univ : Finset (Fin 16)).biUnion K := by
    ext i
    simp only [Finset.mem_univ, Finset.mem_biUnion, true_and, true_iff]
    exact ⟨(i 0 : Fin 16), (mem_row (i 0 : Fin 16) c i).mpr rfl⟩
  have e := pointsTo_biUnion (ℓ := (c : Thread nD τ).loc cc0_scratch1) (Val := Elt F) (Ix := Unit) (Name := ℕ) (U := UU)
    (Lvl := ℕ) (q := q) (f := f) (Finset.univ : Finset (Fin 16)) K hdisj
  rw [← hcover] at e
  exact ⟨Entails.of_eq e, Entails.of_eq e.symm⟩

/-- Row `j`'s rectangle places its own index `(0, 0, l)` at the table's `(j, 0, l)`. -/
theorem rowR_emb (j : Fin 16) (l : Fin 256) :
    (rowR j).emb (ix3 (0 : Fin 1) (0 : Fin 1) l) = ix3 j (0 : Fin 1) l := by
  funext a
  apply Fin.ext
  rw [Rect.emb_apply]
  match a with
  | ⟨0, _⟩ => show j.val + 1 * 0 = j.val; omega
  | ⟨1, _⟩ => show 0 + 1 * 0 = 0; rfl
  | ⟨2, _⟩ => show 0 + 1 * l.val = l.val; omega

/-- The row as a 1 × 256 buffer places its index `(0, l)` at the table's `(j, 0, l)`. -/
theorem rowM_emb (j : Fin 16) (l : Fin 256) :
    (rowM j : Memref sig .tc .vmem S1x256 .f32).view.emb (ix2 (0 : Fin 1) l) = ix3 j (0 : Fin 1) l := by
  have hr : Shape.reshapeEquiv (s := (rowR j).shape) (s' := S1x256) squeezes_S1x1x256_S1x256.numel_eq
      (ix2 (0 : Fin 1) l) = ix3 (0 : Fin 1) (0 : Fin 1) l :=
    Shape.reshapeEquiv_eq_of_rowMajor _ (by
      rw [Shape.rowMajor_val_three, Shape.rowMajor_val_two]
      show (0 * 1 + 0) * 256 + l.val = 0 * 256 + l.val
      omega)
  show (rowR j).emb (Shape.reshapeEquiv (s := (rowR j).shape) (s' := S1x256) squeezes_S1x1x256_S1x256.numel_eq
      (ix2 (0 : Fin 1) l)) = _
  rw [hr]
  exact rowR_emb j l

/-- A transfer of row `j` leaves, on row `j` of the destination, row `j` of the source. -/
theorem row_landed (c c' : Dev nD) (j : Fin 16)
    (fd : Buf (Elt F) ((rowM j : Memref sig .tc .vmem S1x256 .f32).view.loc (c' : Thread nD τ)))
    (fs : Buf (Elt F) ((rowM j : Memref sig .tc .vmem S1x256 .f32).view.loc (c : Thread nD τ))) (l : Fin 256) :
    ((rowM j : Memref sig .tc .vmem S1x256 .f32).view.write (Elt F) fd ((rowM j : Memref sig .tc .vmem S1x256 .f32).view.read (Elt F) fs) Finset.univ) (ix3 j (0 : Fin 1) l)
      = fs (ix3 j (0 : Fin 1) l) := by
  have key : ∀ i, (rowM j : Memref sig .tc .vmem S1x256 .f32).view.emb (ix2 (0 : Fin 1) l) = i →
      ((rowM j : Memref sig .tc .vmem S1x256 .f32).view.write (Elt F) fd
        ((rowM j : Memref sig .tc .vmem S1x256 .f32).view.read (Elt F) fs) Finset.univ) i = fs i := by
    rintro _ rfl
    rw [View.write_emb_of_mem _ _ (Finset.mem_univ _), View.read_apply, cast_cast, cast_eq]
  exact key _ (rowM_emb j l)

/-- A store of a 1 × 1 × 256 vector at row `j` leaves the vector there. -/
theorem row_stored (c : Dev nD) (j : Fin 16) (f : Buf (Elt F) ((c : Thread nD τ).loc cc0_scratch1)) (w : Vec F S1x1x256 .f32) (l : Fin 256) :
    (((commM : Memref sig .tc .vmem S16x1x256 .f32).access (rowR j) : View sig .tc _ _ _).write (Elt F) f w Finset.univ) (ix3 j (0 : Fin 1) l)
      = w (ix3 (0 : Fin 1) (0 : Fin 1) l) := by
  have key : ∀ i, ((commM : Memref sig .tc .vmem S16x1x256 .f32).access (rowR j) : View sig .tc _ _ _).emb
        (ix3 (0 : Fin 1) (0 : Fin 1) l) = i →
      (((commM : Memref sig .tc .vmem S16x1x256 .f32).access (rowR j) : View sig .tc _ _ _).write (Elt F) f w Finset.univ) i
        = w (ix3 (0 : Fin 1) (0 : Fin 1) l) := by
    rintro _ rfl
    rw [View.write_emb_of_mem _ _ (Finset.mem_univ _), cast_eq]
  exact key _ (rowR_emb j l)

end Cert.KernelProof

end
-- ==== Proof.KernelStepsR.lean ====
import proofs.«900952_g7700000000000953_dist_mean_ax0_shard0_i_m512_n256_v7x_i16_bf16_1_alg».proof.Proof.KernelTables
import proofs.«900952_g7700000000000953_dist_mean_ax0_shard0_i_m512_n256_v7x_i16_bf16_1_alg».proof.Proof.KernelRows

/-!
The steps of a device's body that touch another device: a signal to a peer's barrier cell, the wait for the
fifteen signals, the transfer of the device's row to a peer.
-/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 34 → ℕ) (c : Dev nD)

/-- The weakest precondition of a program run by device `c`'s TensorCore. -/
abbrev WPr {α : Type} (e : Prog (TpuEff nD τ sig (Elt F) Λ₀ .tc) α) (Q : α → sProp 𝕄) : sProp 𝕄 :=
  wp frame (wpE (defs₀ (F := F)) 𝒱₀ (c : Thread nD τ) none) Set.univ e Q

/-- What the device still owes, at whatever waits it has recorded. -/
abbrev owingR (O : CellTallies nD τ sig Unit) : sProp 𝕄 := iprop(∃ W : Waits sig Unit, owes (c : Thread nD τ) O W)

/-! ## The fifteen signals -/

/-- While the signals of the offsets in `T` are still to be sent: their duty tokens, and the rows of its own table the
    device gives away with them. -/
def sigSt (T : Finset (Fin 16)) (R : sProp 𝕄) : sProp 𝕄 :=
  iprop(R ∗ records m K ∗ owingR c (owedRecv c nz + owedSig c T)
    ∗ (bigSep T fun d => dutyTok ER (barCell (pr c d)) 0 (ng d))
    ∗ (bigSep T fun d => iprop(∃ f, rowPts (F := F) c (pr c d) fullShare f)))

theorem step_signal (d : Fin 16) (hd : d ≠ 0) {n : Dev nD} (hn : n = pr c d) {a : ℕ} (ha : a = 1) {T : Finset (Fin 16)} (hdT : d ∈ T) {R : sProp 𝕄}
    {α : Type} {Q : α → sProp 𝕄} {k : PUnit → Prog (TpuEff nD τ sig (Elt F) Λ₀ .tc) α}
    (hk : sigSt m K c (T.erase d) R ⊢ WPr c (k ⟨⟩) Q) :
    sigSt m K c T R ⊢ WPr c (.op (.semSignal ((n, Proc.tc) : Thread nD τ) barS a) k) Q := by
  subst hn ha
  have hI : records (F := F) m K ⊢ cellInv ER (exRd m) (K (pr c d, 0)) (barCell (pr c d)) := by
    have h := inv_at m K (pr c d, 0); rwa [kcell_bar] at h
  have hRe : records (F := F) m K ⊢ reached ER (barCell (pr c d)) 0 := by
    have h := reached_at m K (pr c d, 0); rwa [kcell_bar] at h
  unfold sigSt owingR at hk ⊢
  iintro ⟨HR, #Hrec, ⟨%W, HO⟩, Htoks, Hrows⟩
  ihave Ht := (bigSep_pick hdT) $$ Htoks
  icases Ht with ⟨Htok, Htoks⟩
  ihave Hr := (bigSep_pick hdT) $$ Hrows
  icases Hr with ⟨⟨%f, Hrow⟩, Hrows⟩
  iapply (Rounds.wp_signal 𝒱₀ ER (exRd m) (c : Thread nD τ) none (dst := (pr c d : Thread nD τ)) (sem := barS) (r := 0) (d := ng d)
      (κ := K (pr c d, 0)) (O₀ := owedRecv c nz + owedSig c T)
      (by rw [duties_bar]; exact Finset.mem_erase.mpr ⟨ng_ne_zero hd, Finset.mem_univ _⟩) (amount_bar m (pr c d) (ng d)) ()
      (owedRecv c nz + owedSig c (T.erase d)) (by rw [owedSig_erase c hdT, add_assoc])) $$ [HO Htok Hrow]
  · isplitr; · iapply hI; iexact Hrec
    isplitl [HO]; · iexact HO
    isplitl [Htok]; · iexact Htok
    isplitl [Hrow]
    · rw [payload_bar]; unfold barPay; rw [pr_ng]
      iexists f; iexact Hrow
    · iapply hRe; iexact Hrec
  iintro HO
  iapply hk
  isplitl [HR]; · iexact HR
  isplitr; · iexact Hrec
  isplitl [HO]; · iexists W; iexact HO
  isplitl [Htoks]; · iexact Htoks
  iexact Hrows

/-! ## The wait for the fifteen signals -/

theorem step_waitBar {a : ℕ} (ha : a = 15) {R : sProp 𝕄}
    {α : Type} {Q : α → sProp 𝕄} {k : PUnit → Prog (TpuEff nD τ sig (Elt F) Λ₀ .tc) α}
    (hk : iprop(R ∗ owingR c (owedRecv c nz) ∗ atPos ER (barCell c) 1 (∅ : Finset (Fin 16)) 0
        ∗ bigSep nz (fun e => iprop(∃ f, rowPts (F := F) (pr c e) c fullShare f))) ⊢ WPr c (k ⟨⟩) Q) :
    iprop(R ∗ records m K ∗ levAts L lv ∗ cred (tallyAt (barCell c) () 15) ∗ owingR c (owedRecv c nz + owedSig c ∅)
        ∗ atPos ER (barCell c) 0 (∅ : Finset (Fin 16)) 0)
      ⊢ WPr c (.op (.semWait barS a) k) Q := by
  subst ha
  have hI : records (F := F) m K ⊢ cellInv ER (exRd m) (K (c, 0)) (barCell c) := by
    have h := inv_at m K (c, 0); rwa [kcell_bar] at h
  rw [owedSig_empty, add_zero]
  unfold owingR at hk ⊢
  iintro ⟨HR, #Hrec, #Hlev, Hc, ⟨%W, HO⟩, Hat⟩
  iapply (Rounds.wp_wait_rest_token 𝒱₀ ER (exRd m) (c : Thread nD τ) none (κ := K (c, 0)) (sm := .reg barS) (k' := 15)
      (wpE_semWait_eq 𝒱₀ (c : Thread nD τ) none Set.univ) (Set.mem_univ _) () (O := owedRecv c nz) (W := W) (R := 0) (m := 0)
      (T := (∅ : Finset (Fin 16))) (by rw [expect_bar])) $$ [Hc HO Hat]
  · isplitr; · iapply hI; iexact Hrec
    isplitl [Hc]; · iexact Hc
    isplitl [HO]; · iexact HO
    isplitr; · iapply (mayWait_bar c nz); iexact Hlev
    iexact Hat
  iintro ⟨HO, Hat, -, Hpay⟩
  ihave Hp := (Entails.of_eq (rest_bar m c)) $$ Hpay
  unfold barPay
  iapply hk
  isplitl [HR]; · iexact HR
  isplitl [HO]; · iexists (insert (SemLoc.reg barS, ()) W); iexact HO
  isplitl [Hat]; · iexact Hat
  iexact Hp

/-! ## The fifteen transfers -/

/-- While the transfers to the offsets in `S` are still to be issued: their two duty tokens each, the share of row `c`
    each reads, the peer's row `c` each writes; and the send credit of those already issued. -/
def sendSt (S : Finset (Fin 16)) (R : sProp 𝕄) : sProp 𝕄 :=
  iprop(R ∗ records m K ∗ owingR c (owedRecv c S)
    ∗ (bigSep S fun d => dutyTok ER (sendCell c d) 0 (0 : Fin 16))
    ∗ (bigSep S fun d => dutyTok ER (recvCell (pr c d) c) 0 (0 : Fin 16))
    ∗ (bigSep S fun d => rowPts c c (shareTok fullShare 16 d) (tbl m))
    ∗ (bigSep S fun d => iprop(∃ f, rowPts (F := F) (pr c d) c fullShare f))
    ∗ (bigSep (nz \ S) fun d => cred (tallyAt (sendCell c d) () N1)))

theorem step_send (d : Fin 16) (hd : d ≠ 0) {n : Dev nD} (hn : n = pr c d)
    {src : Memref sig .tc .vmem S1x256 .f32} {dst : Memref sig (Dev.tc n : Thread nD τ).2.kind .vmem S1x256 .f32}
    (hs : src = rowM c) (hdm : dst = rowM c)
    {sS sR : DmaSem sig} (hsS : sS = sendS d) (hsR : sR = recvS c) {S : Finset (Fin 16)} (hS : S ⊆ nz) (hdS : d ∈ S) {R : sProp 𝕄}
    {hsc : dst.view.ref.isScScratch = false} {h1 : src.view.WordExact} {h2 : dst.view.WordExact}
    {h3 : DmaTarget.Typed .vmem (.dma sR) (.remote (Dev.tc n : Thread nD τ) dst (.dma sS) hsc)}
    {α : Type} {Q : α → sProp 𝕄} {k : PUnit → Prog (TpuEff nD τ sig (Elt F) Λ₀ .tc) α}
    (hk : sendSt m K c (S.erase d) R ⊢ WPr c (k ⟨⟩) Q) :
    sendSt m K c S R ⊢ WPr c (.op (.enqueueDma src (.remote (Dev.tc n : Thread nD τ) dst (.dma sS) hsc) (.dma sR) h1 h2 h3) k) Q := by
  subst hn hs hdm hsS hsR
  have hI₁ : records (F := F) m K ⊢ cellInv ER (exRd m) (K (c, kSend d)) (sendCell c d) := by
    have h := inv_at m K (c, kSend d); rwa [kcell_send] at h
  have hI₂ : records (F := F) m K ⊢ cellInv ER (exRd m) (K (pr c d, kRecv c)) (recvCell (pr c d) c) := by
    have h := inv_at m K (pr c d, kRecv c); rwa [kcell_recv] at h
  have hR₁ : records (F := F) m K ⊢ reached ER (sendCell c d) 0 := by
    have h := reached_at m K (c, kSend d); rwa [kcell_send] at h
  have hR₂ : records (F := F) m K ⊢ reached ER (recvCell (pr c d) c) 0 := by
    have h := reached_at m K (pr c d, kRecv c); rwa [kcell_recv] at h
  have hset : nz \ S.erase d = insert d (nz \ S) := by
    ext x
    simp only [Finset.mem_sdiff, Finset.mem_erase, Finset.mem_insert]
    constructor
    · rintro ⟨hx, hnx⟩
      by_cases hxd : x = d
      · exact .inl hxd
      · exact .inr ⟨hx, fun h => hnx ⟨hxd, h⟩⟩
    · rintro (rfl | ⟨hx, hnx⟩)
      · exact ⟨Finset.mem_erase.mp (hS hdS), fun h => h.1 rfl⟩
      · exact ⟨hx, fun h => hnx h.2⟩
  have hnot : d ∉ nz \ S := fun h => (Finset.mem_sdiff.mp h).2 hdS
  have hcr : iprop(cred (tallyAt (sendCell c d) () N1) ∗ bigSep (nz \ S) fun e => cred (tallyAt (sendCell c e) () N1))
      ⊢ (bigSep (nz \ S.erase d) fun e => cred (tallyAt (sendCell c e) () N1) : sProp 𝕄) := by
    rw [hset, bigSep_insert hnot]; exact BI.Entails.refl _
  unfold sendSt owingR at hk ⊢
  iintro ⟨HR, #Hrec, ⟨%W, HO⟩, Hts, Htr, Hsrc, Hdst, Hcr⟩
  ihave H1 := (bigSep_pick hdS) $$ Hts
  icases H1 with ⟨Hts1, Hts⟩
  ihave H2 := (bigSep_pick hdS) $$ Htr
  icases H2 with ⟨Htr1, Htr⟩
  ihave H3 := (bigSep_pick hdS) $$ Hsrc
  icases H3 with ⟨Hsrc1, Hsrc⟩
  ihave H4 := (bigSep_pick hdS) $$ Hdst
  icases H4 with ⟨⟨%fd, Hdst1⟩, Hdst⟩
  unfold rowPts
  iapply (Rounds.wp_send_pointsTo 𝒱₀ ER (exRd m) (c : Thread nD τ) none (c' := (pr c d : Thread nD τ))
      (src := (rowM c : Memref sig .tc .vmem S1x256 .f32)) (dst := (rowM c : Memref sig .tc .vmem S1x256 .f32))
      (sS := .dma (sendS d)) (sem := .dma (recvS c)) (q := shareTok fullShare 16 d) (fs := tbl m) (fd := fd)
      (r₁ := 0) (r₂ := 0) (d₁ := (0 : Fin 16)) (d₂ := (0 : Fin 16)) (κ₁ := K (c, kSend d)) (κ₂ := K (pr c d, kRecv c))
      (by rw [duties_send m c hd]; exact Finset.mem_singleton_self _)
      (by rw [duties_recv m (pr c d) (pr_ne hd).symm]; exact Finset.mem_singleton_self _)
      () () N1 rfl (amount_send m c d 0) (amount_recv m (pr c d) c 0) (owedRecv c (S.erase d)) (owedRecv_erase c hdS) (W := W)
      (by rw [payload_send]; unfold sendPay rowPts; exact BI.Entails.refl _)
      (by
        rw [payload_recv]; unfold recvPay rowPts
        exact Entails.of_eq (row_congr (pr c d) c fullShare _ _ (fun l => row_landed c (pr c d) c fd (tbl m) l))))
    $$ [HO Hts1 Htr1 Hsrc1 Hdst1]
  · isplitr; · iapply hI₁; iexact Hrec
    isplitr; · iapply hI₂; iexact Hrec
    isplitl [Hsrc1]; · iexact Hsrc1
    isplitl [Hdst1]; · iexact Hdst1
    isplitl [HO]; · iexact HO
    isplitl [Hts1]; · iexact Hts1
    isplitr; · iapply hR₁; iexact Hrec
    isplitl [Htr1]; · iexact Htr1
    iapply hR₂; iexact Hrec
  iintro ⟨HcS, HO⟩
  iapply hk
  isplitl [HR]; · iexact HR
  isplitr; · iexact Hrec
  isplitl [HO]; · iexists W; iexact HO
  isplitl [Hts]; · iexact Hts
  isplitl [Htr]; · iexact Htr
  isplitl [Hsrc]; · iexact Hsrc
  isplitl [Hdst]; · iexact Hdst
  iapply hcr
  isplitl [HcS]; · iexact HcS
  iexact Hcr

end Cert.KernelProof

end
-- ==== Proof.KernelStepsL.lean ====
import proofs.«900952_g7700000000000953_dist_mean_ax0_shard0_i_m512_n256_v7x_i16_bf16_1_alg».proof.Proof.KernelTables
import proofs.«900952_g7700000000000953_dist_mean_ax0_shard0_i_m512_n256_v7x_i16_bf16_1_alg».proof.Proof.KernelRows

/-!
The steps of a device's body on its own buffers and cells: the load of its block, the loads and stores of its
rows, and the waits for the rows sent to it and for its own transfers.
-/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 34 → ℕ) (c : Dev nD)

/-- The weakest precondition of a program run by device `c`'s TensorCore. -/
abbrev WP {α : Type} (e : Prog (TpuEff nD τ sig (Elt F) Λ₀ .tc) α) (Q : α → sProp 𝕄) : sProp 𝕄 :=
  wp frame (wpE (defs₀ (F := F)) 𝒱₀ (c : Thread nD τ) none) Set.univ e Q

/-- What the device still owes, at whatever waits it has recorded. -/
abbrev owing (O : CellTallies nD τ sig Unit) : sProp 𝕄 := iprop(∃ W : Waits sig Unit, owes (c : Thread nD τ) O W)

abbrev xLoc : Loc nD τ sig := (c : Thread nD τ).loc main_arg0
abbrev xvLoc : Loc nD τ sig := (c : Thread nD τ).loc cc0_scratch0
abbrev commLoc : Loc nD τ sig := (c : Thread nD τ).loc cc0_scratch1
abbrev outLoc : Loc nD τ sig := (c : Thread nD τ).loc cc0_stg0_0

/-! ## The block's load into VMEM -/

theorem step_copy {R : sProp 𝕄}
    {hsrc : (xM : Memref sig .tc .hbm S512x256 .f32).view.WordExact} {hdst : (xvM : Memref sig .tc .vmem S512x256 .f32).view.WordExact}
    {hsem : DmaTarget.Typed (nD := nD) (τ := τ) (p := (c : Thread nD τ).2) .hbm (.dma loadS) (.here (xvM : Memref sig (c : Thread nD τ).2.kind .vmem S512x256 .f32))}
    {α : Type} {Q : α → sProp 𝕄} {k : PUnit → Prog (TpuEff nD τ sig (Elt F) Λ₀ .tc) α}
    (hk : iprop(R ∗ cred (tallyAt (loadCell c) () NL)) ⊢ WP c (k ⟨⟩) Q) :
    iprop(R ∗ records m K ∗ (xLoc c ↦{fullShare} xblk m c) ∗ (∃ f : Buf (Elt F) (xvLoc c), xvLoc c ↦{fullShare} f)
        ∗ dutyTok ER (loadCell c) 0 (0 : Fin 16))
      ⊢ WP c (.op (.enqueueDma (xM : Memref sig (c : Thread nD τ).2.kind .hbm S512x256 .f32) (.here (xvM : Memref sig (c : Thread nD τ).2.kind .vmem S512x256 .f32)) (.dma loadS) hsrc hdst hsem) k) Q := by
  have hI : records (F := F) m K ⊢ cellInv ER (exRd m) (K (c, kLoad)) (loadCell c) := by
    have h := inv_at m K (c, kLoad); rwa [kcell_load] at h
  have hRch : records (F := F) m K ⊢ reached ER (loadCell c) 0 := by
    have h := reached_at m K (c, kLoad); rwa [kcell_load] at h
  have hd0 : (0 : Fin 16) ∈ (exRd (F := F) m).duties (loadCell c) 0 := by
    rw [duties_load]; exact Finset.mem_singleton_self _
  -- a whole buffer's elements are all its indices
  have hx : (xLoc c ↦{fullShare} xblk m c : sProp 𝕄)
      = ((xM : Memref sig .tc .hbm S512x256 .f32).view.loc (c : Thread nD τ)
          ↦[(xM : Memref sig .tc .hbm S512x256 .f32).view.set]{fullShare} xblk m c) := by
    rw [View.set_whole]
  have hxv : ∀ g : Buf (Elt F) (xvLoc c), (xvLoc c ↦{fullShare} g : sProp 𝕄)
      = ((xvM : Memref sig .tc .vmem S512x256 .f32).view.loc (c : Thread nD τ)
          ↦[(xvM : Memref sig .tc .vmem S512x256 .f32).view.set]{fullShare} g) := by
    intro g; rw [View.set_whole]
  iintro ⟨HR, #Hrec, Hx, ⟨%fd, Hxv⟩, Htok⟩
  -- what the copy leaves in the destination: the source's contents
  have hw : (xvM : Memref sig .tc .vmem S512x256 .f32).view.write (Elt F) fd
      ((xM : Memref sig .tc .hbm S512x256 .f32).view.read (Elt F) (xblk m c)) Finset.univ = xblk m c :=
    View.write_whole_univ cc0_scratch0 fd (xblk m c)
  have hpay : iprop(((xvM : Memref sig .tc .vmem S512x256 .f32).view.loc (c : Thread nD τ)
          ↦[(xvM : Memref sig .tc .vmem S512x256 .f32).view.set]{fullShare}
            ((xvM : Memref sig .tc .vmem S512x256 .f32).view.write (Elt F) fd
              ((xM : Memref sig .tc .hbm S512x256 .f32).view.read (Elt F) (xblk m c)) Finset.univ))
        ∗ ((xM : Memref sig .tc .hbm S512x256 .f32).view.loc (c : Thread nD τ)
          ↦[(xM : Memref sig .tc .hbm S512x256 .f32).view.set]{fullShare} xblk m c))
      ⊢ (exRd (F := F) m).payload (loadCell c) 0 (0 : Fin 16) := by
    rw [payload_load, hw, ← hx, ← hxv]
    unfold loadPay
    exact .rfl
  ihave Hx' := (Entails.of_eq hx) $$ Hx
  ihave Hxv' := (Entails.of_eq (hxv fd)) $$ Hxv
  iapply (Rounds.wp_copy_pointsTo 𝒱₀ ER (exRd m) (c : Thread nD τ) none (src := xM) (dst := xvM) (sem := .dma loadS)
      (q := fullShare) (fs := xblk m c) (fd := fd) (r := 0) (d := (0 : Fin 16)) (κ := K (c, kLoad))
      hd0 () NL rfl (amount_load m c 0) hpay) $$ [Hx' Hxv' Htok]
  · isplitr; · iapply hI; iexact Hrec
    isplitl [Hx']; · iexact Hx'
    isplitl [Hxv']; · iexact Hxv'
    isplitl [Htok]; · iexact Htok
    iapply hRch; iexact Hrec
  iintro Hc
  iapply hk
  isplitl [HR]; · iexact HR
  iexact Hc

theorem step_waitLoad {S T : Finset (Fin 16)} {R : sProp 𝕄}
    {hsrc : (xM : Memref sig .tc .hbm S512x256 .f32).view.WordExact} {hdst : (xvM : Memref sig .tc .vmem S512x256 .f32).view.WordExact}
    {α : Type} {Q : α → sProp 𝕄} {k : PUnit → Prog (TpuEff nD τ sig (Elt F) Λ₀ .tc) α}
    (hk : iprop(R ∗ owing c (owedRecv c S + owedSig c T) ∗ atPos ER (loadCell c) 1 (∅ : Finset (Fin 16)) 0
        ∗ (xvLoc c ↦{fullShare} xblk m c) ∗ (xLoc c ↦{fullShare} xblk m c)) ⊢ WP c (k ⟨⟩) Q) :
    iprop(R ∗ records m K ∗ levAts L lv ∗ cred (tallyAt (loadCell c) () NL) ∗ owing c (owedRecv c S + owedSig c T)
        ∗ atPos ER (loadCell c) 0 (∅ : Finset (Fin 16)) 0)
      ⊢ WP c (.op (.waitDma2 loadS xM xvM hsrc hdst) k) Q := by
  have hI : records (F := F) m K ⊢ cellInv ER (exRd m) (K (c, kLoad)) (loadCell c) := by
    have h := inv_at m K (c, kLoad); rwa [kcell_load] at h
  iintro ⟨HR, #Hrec, Hlev, Hc, ⟨%W, HO⟩, Hat⟩
  iapply (Rounds.wp_wait_rest_token 𝒱₀ ER (exRd m) (c : Thread nD τ) none (κ := K (c, kLoad))
      (wpE_waitDma2_eq 𝒱₀ (c : Thread nD τ) none Set.univ) (Set.mem_univ _) () (O := owedRecv c S + owedSig c T) (W := W)
      (R := 0) (m := 0) (T := ∅) (by rw [Nat.zero_add, expect_load])) $$ [Hc HO Hat Hlev]
  · isplitr; · iapply hI; iexact Hrec
    isplitl [Hc]; · iexact Hc
    isplitl [HO]; · iexact HO
    isplitl [Hlev]
    · iapply (mayWait_low c loadS (fun j h => recvS_ne_loadS j h.symm) S T); iexact Hlev
    iexact Hat
  iintro ⟨HO, Hat, -, Hpay⟩
  ihave Hp := (Entails.of_eq (rest_load m c)) $$ Hpay
  unfold loadPay
  icases Hp with ⟨Hxv, Hx⟩
  iapply hk
  isplitl [HR]; · iexact HR
  isplitl [HO]; · iexists _; iexact HO
  isplitl [Hat]; · iexact Hat
  isplitl [Hxv]; · iexact Hxv
  iexact Hx

/-! ## Loads and stores -/

theorem step_loadXv {R : sProp 𝕄} {hr : ∀ a, (![0, 0] : Fin 2 → Nat) a + S512x256.size a ≤ S512x256.size a}
    {hl : (xvM : Memref sig .tc .vmem S512x256 .f32).view.LoadsAt (Rect.unit (s := S512x256) ![0, 0] S512x256.size hr).toLoadRect}
    {α : Type} {Q : α → sProp 𝕄} {k : Vec F S512x256 .f32 → Prog (TpuEff nD τ sig (Elt F) Λ₀ .tc) α}
    (hk : iprop(R ∗ (xvLoc c ↦{fullShare} xblk m c)) ⊢ WP c (k (xblk m c)) Q) :
    iprop(R ∗ (xvLoc c ↦{fullShare} xblk m c))
      ⊢ WP c (.op (.load xvM (Rect.unit (s := S512x256) ![0, 0] S512x256.size hr).toLoadRect hl) k) Q := by
  have hz : (![0, 0] : Fin 2 → Nat) = fun _ => 0 := by funext a; fin_cases a <;> rfl
  have hread : (xvM : Memref sig .tc .vmem S512x256 .f32).view.readAt (Elt F)
      (Rect.unit (s := S512x256) ![0, 0] S512x256.size hr).toLoadRect (xblk m c) = xblk m c :=
    Memref.readAt_unit_zero (Elt F) cc0_scratch0 hz hr (xblk m c)
  iintro ⟨HR, Hxv⟩
  iapply (wp_load 𝒱₀ (c : Thread nD τ) none Set.univ (m := xvM) (Finset.subset_univ _)) $$ Hxv
  iintro Hxv
  rw [hread]
  iapply hk
  isplitl [HR]; · iexact HR
  iexact Hxv

/-- The load of the device's own row before it is overwritten: whatever it reads is not used. -/
theorem step_loadRow {off : Fin 3 → Nat} (hoff : off = ![c.val, 0, 0]) {R : sProp 𝕄}
    {f : Buf (Elt F) ((rowM c : Memref sig .tc .vmem S1x256 .f32).view.loc (c : Thread nD τ))}
    {hr : ∀ a, off a + S1x1x256.size a ≤ S16x1x256.size a}
    {hl : (commM : Memref sig .tc .vmem S16x1x256 .f32).view.LoadsAt (Rect.unit (s := S16x1x256) off S1x1x256.size hr).toLoadRect}
    {α : Type} {Q : α → sProp 𝕄} {k : Vec F S1x1x256 .f32 → Prog (TpuEff nD τ sig (Elt F) Λ₀ .tc) α}
    (hk : ∀ v, iprop(R ∗ rowPts c c fullShare f) ⊢ WP c (k v) Q) :
    iprop(R ∗ rowPts c c fullShare f)
      ⊢ WP c (.op (.load commM (Rect.unit (s := S16x1x256) off S1x1x256.size hr).toLoadRect hl) k) Q := by
  subst hoff
  unfold rowPts at hk ⊢
  -- the row's elements are those of its rectangle, which are what the load reads
  have hset : (rowM c : Memref sig .tc .vmem S1x256 .f32).view.set = (rowR c).set :=
    (View.set_reshape _ _).trans (View.set_slice_whole cc0_scratch1 (rowR c))
  have hS : (commM : Memref sig .tc .vmem S16x1x256 .f32).view.setOn
      (Rect.unit (s := S16x1x256) ![c.val, 0, 0] S1x1x256.size hr).toLoadRect.set
        ⊆ (rowM c : Memref sig .tc .vmem S1x256 .f32).view.set := by
    rw [hset]
    show Finset.map (Function.Embedding.refl _) _ ⊆ _
    rw [Finset.map_refl]
  iintro ⟨HR, Hrow⟩
  iapply (wp_load 𝒱₀ (c : Thread nD τ) none Set.univ (m := commM) hS) $$ Hrow
  iintro Hrow
  iapply (hk _)
  isplitl [HR]; · iexact HR
  iexact Hrow

/-- The store of the block's row sums into the device's own row: the row then holds its row of the gathered table. -/
theorem step_storeRow {off : Fin 3 → Nat} (hoff : off = ![c.val, 0, 0]) {R : sProp 𝕄}
    {f : Buf (Elt F) ((rowM c : Memref sig .tc .vmem S1x256 .f32).view.loc (c : Thread nD τ))}
    {hr : ∀ a, off a + S1x1x256.size a ≤ S16x1x256.size a}
    {hs : ((commM : Memref sig .tc .vmem S16x1x256 .f32).access (Rect.unit (s := S16x1x256) off S1x1x256.size hr)).Stores Finset.univ}
    {hm : (Finset.univ : Finset (Rect.unit (s := S16x1x256) off S1x1x256.size hr).shape.Idx) = Finset.univ ∨ ∀ a, (Rect.unit (s := S16x1x256) off S1x1x256.size hr).stride a = 1}
    {α : Type} {Q : α → sProp 𝕄} {k : PUnit → Prog (TpuEff nD τ sig (Elt F) Λ₀ .tc) α}
    (hk : iprop(R ∗ rowPts c c fullShare (tbl m)) ⊢ WP c (k ⟨⟩) Q) :
    iprop(R ∗ rowPts c c fullShare f)
      ⊢ WP c (.op (.store commM (Rect.unit (s := S16x1x256) off S1x1x256.size hr) (Mean.rowSum (xblk m c)) Finset.univ hs hm) k) Q := by
  subst hoff
  unfold rowPts at hk ⊢
  -- the row's elements are those of its rectangle, which are what the store writes
  have hset : (rowM c : Memref sig .tc .vmem S1x256 .f32).view.set = (rowR c).set :=
    (View.set_reshape _ _).trans (View.set_slice_whole cc0_scratch1 (rowR c))
  have hS : ((commM : Memref sig .tc .vmem S16x1x256 .f32).access
      (Rect.unit (s := S16x1x256) ![c.val, 0, 0] S1x1x256.size hr)).setOn Finset.univ
        ⊆ (rowM c : Memref sig .tc .vmem S1x256 .f32).view.set := by
    rw [hset, View.setOn_univ]
    exact (View.set_slice_whole cc0_scratch1 (Rect.unit (s := S16x1x256) ![c.val, 0, 0] S1x1x256.size hr)).le
  -- after the store the row holds the block's row sums, which is its row of the gathered table
  have hcon : ((rowM c : Memref sig .tc .vmem S1x256 .f32).view.loc (c : Thread nD τ)
        ↦[(rowM c : Memref sig .tc .vmem S1x256 .f32).view.set]{fullShare}
          (((commM : Memref sig .tc .vmem S16x1x256 .f32).access
            (Rect.unit (s := S16x1x256) ![c.val, 0, 0] S1x1x256.size hr) : View sig .tc _ _ _).write (Elt F) f
              (Mean.rowSum (xblk m c)) Finset.univ) : sProp 𝕄)
      = ((rowM c : Memref sig .tc .vmem S1x256 .f32).view.loc (c : Thread nD τ)
        ↦[(rowM c : Memref sig .tc .vmem S1x256 .f32).view.set]{fullShare} tbl m) :=
    row_congr c c fullShare _ _ fun l =>
      (row_stored c c f (Mean.rowSum (xblk m c)) l).trans (by unfold tbl Mean.table; rfl)
  iintro ⟨HR, Hrow⟩
  iapply (wp_store 𝒱₀ (c : Thread nD τ) none Set.univ (m := commM)
      (r := Rect.unit (s := S16x1x256) ![c.val, 0, 0] S1x1x256.size hr) (Mk := Finset.univ) hS) $$ Hrow
  iintro Hrow
  ihave Hrow' := (Entails.of_eq hcon) $$ Hrow
  iapply hk
  isplitl [HR]; · iexact HR
  iexact Hrow'

theorem step_loadComm {q : PosShare TreeShare} {R : sProp 𝕄} {hr : ∀ a, (![0, 0, 0] : Fin 3 → Nat) a + S16x1x256.size a ≤ S16x1x256.size a}
    {hl : (commM : Memref sig .tc .vmem S16x1x256 .f32).view.LoadsAt (Rect.unit (s := S16x1x256) ![0, 0, 0] S16x1x256.size hr).toLoadRect}
    {α : Type} {Q : α → sProp 𝕄} {k : Vec F S16x1x256 .f32 → Prog (TpuEff nD τ sig (Elt F) Λ₀ .tc) α}
    (hk : iprop(R ∗ (commLoc c ↦{q} tbl m)) ⊢ WP c (k (tbl m)) Q) :
    iprop(R ∗ (commLoc c ↦{q} tbl m))
      ⊢ WP c (.op (.load commM (Rect.unit (s := S16x1x256) ![0, 0, 0] S16x1x256.size hr).toLoadRect hl) k) Q := by
  have hz : (![0, 0, 0] : Fin 3 → Nat) = fun _ => 0 := by funext a; fin_cases a <;> rfl
  have hread : (commM : Memref sig .tc .vmem S16x1x256 .f32).view.readAt (Elt F)
      (Rect.unit (s := S16x1x256) ![0, 0, 0] S16x1x256.size hr).toLoadRect (tbl m) = tbl m :=
    Memref.readAt_unit_zero (Elt F) cc0_scratch1 hz hr (tbl m)
  iintro ⟨HR, Hcomm⟩
  iapply (wp_load 𝒱₀ (c : Thread nD τ) none Set.univ (m := commM) (Finset.subset_univ _)) $$ Hcomm
  iintro Hcomm
  rw [hread]
  iapply hk
  isplitl [HR]; · iexact HR
  iexact Hcomm

theorem step_loadOut {R : sProp 𝕄} {g : Buf (Elt F) (outLoc c)} {hr : ∀ a, (![0, 0] : Fin 2 → Nat) a + S1x256.size a ≤ S1x256.size a}
    {hl : (outM : Memref sig .tc .vmem S1x256 .f32).view.LoadsAt (Rect.unit (s := S1x256) ![0, 0] S1x256.size hr).toLoadRect}
    {α : Type} {Q : α → sProp 𝕄} {k : Vec F S1x256 .f32 → Prog (TpuEff nD τ sig (Elt F) Λ₀ .tc) α}
    (hk : ∀ v, iprop(R ∗ (outLoc c ↦{fullShare} g)) ⊢ WP c (k v) Q) :
    iprop(R ∗ (outLoc c ↦{fullShare} g))
      ⊢ WP c (.op (.load outM (Rect.unit (s := S1x256) ![0, 0] S1x256.size hr).toLoadRect hl) k) Q := by
  iintro ⟨HR, Hout⟩
  iapply (wp_load 𝒱₀ (c : Thread nD τ) none Set.univ (m := outM) (Finset.subset_univ _)) $$ Hout
  iintro Hout
  iapply (hk _)
  isplitl [HR]; · iexact HR
  iexact Hout

theorem step_storeOut {R : sProp 𝕄} {g : Buf (Elt F) (outLoc c)} {hr : ∀ a, (![0, 0] : Fin 2 → Nat) a + S1x256.size a ≤ S1x256.size a}
    {hs : ((outM : Memref sig .tc .vmem S1x256 .f32).access (Rect.unit (s := S1x256) ![0, 0] S1x256.size hr)).Stores Finset.univ}
    {hm : (Finset.univ : Finset (Rect.unit (s := S1x256) ![0, 0] S1x256.size hr).shape.Idx) = Finset.univ ∨ ∀ a, (Rect.unit (s := S1x256) ![0, 0] S1x256.size hr).stride a = 1}
    {α : Type} {Q : α → sProp 𝕄} {k : PUnit → Prog (TpuEff nD τ sig (Elt F) Λ₀ .tc) α}
    (hk : iprop(R ∗ (outLoc c ↦{fullShare} outV m)) ⊢ WP c (k ⟨⟩) Q) :
    iprop(R ∗ (outLoc c ↦{fullShare} g))
      ⊢ WP c (.op (.store outM (Rect.unit (s := S1x256) ![0, 0] S1x256.size hr) (Mean.outOf (tbl m)) Finset.univ hs hm) k) Q := by
  have hz : (![0, 0] : Fin 2 → Nat) = fun _ => 0 := by funext a; fin_cases a <;> rfl
  have hwrite : ((outM : Memref sig .tc .vmem S1x256 .f32).access (Rect.unit (s := S1x256) ![0, 0] S1x256.size hr)
      : View sig .tc _ _ _).write (Elt F) g (Mean.outOf (tbl m)) Finset.univ = outV m :=
    Memref.write_access_unit_zero_univ (Elt F) cc0_stg0_0 hz hr g (Mean.outOf (tbl m))
  iintro ⟨HR, Hout⟩
  iapply (wp_store 𝒱₀ (c : Thread nD τ) none Set.univ (m := outM)
      (r := Rect.unit (s := S1x256) ![0, 0] S1x256.size hr) (Mk := Finset.univ) (Finset.subset_univ _)) $$ Hout
  iintro Hout
  rw [hwrite]
  iapply hk
  isplitl [HR]; · iexact HR
  iexact Hout

/-! ## The waits for the fifteen rows sent to the device -/

/-- While the rows of the offsets in `S` are still awaited: the credit and the position of each one's receive cell; of
    those arrived, the receive cell a round on and the row, holding its row of the gathered table. -/
def recvSt (S : Finset (Fin 16)) (R : sProp 𝕄) : sProp 𝕄 :=
  iprop(R ∗ records m K ∗ owing c 0
    ∗ (bigSep S fun d => iprop(cred (tallyAt (recvCell c (pr c d)) () N1) ∗ atPos ER (recvCell c (pr c d)) 0 (∅ : Finset (Fin 16)) 0))
    ∗ (bigSep (nz \ S) fun d => iprop(atPos ER (recvCell c (pr c d)) 1 (∅ : Finset (Fin 16)) 0 ∗ rowPts c (pr c d) fullShare (tbl m))))

theorem step_waitRecv (d : Fin 16) (hd : d ≠ 0) {sR : DmaSem sig} (hsR : sR = recvS (pr c d))
    {src dst : Memref sig .tc .vmem S1x256 .f32} (hdm : dst = rowM (pr c d))
    {S : Finset (Fin 16)} (hS : S ⊆ nz) (hdS : d ∈ S) {R : sProp 𝕄} {h1 : src.view.WordExact} {h2 : dst.view.WordExact}
    {α : Type} {Q : α → sProp 𝕄} {k : PUnit → Prog (TpuEff nD τ sig (Elt F) Λ₀ .tc) α}
    (hk : recvSt m K c (S.erase d) R ⊢ WP c (k ⟨⟩) Q) :
    recvSt m K c S R ⊢ WP c (.op (.waitDma2 sR src dst h1 h2) k) Q := by
  subst hsR hdm
  have hne : pr c d ≠ c := pr_ne hd
  have hI : records (F := F) m K ⊢ cellInv ER (exRd m) (K (c, kRecv (pr c d))) (recvCell c (pr c d)) := by
    have h := inv_at m K (c, kRecv (pr c d)); rwa [kcell_recv] at h
  have hdn : d ∉ nz \ S := fun h => (Finset.mem_sdiff.mp h).2 hdS
  have hnz : nz \ S.erase d = insert d (nz \ S) := Finset.sdiff_erase (hS hdS)
  have hins : iprop((atPos ER (recvCell c (pr c d)) 1 (∅ : Finset (Fin 16)) 0 ∗ rowPts c (pr c d) fullShare (tbl m))
        ∗ bigSep (nz \ S) fun e => iprop(atPos ER (recvCell c (pr c e)) 1 (∅ : Finset (Fin 16)) 0 ∗ rowPts c (pr c e) fullShare (tbl m)))
      ⊢ (bigSep (insert d (nz \ S)) fun e => iprop(atPos ER (recvCell c (pr c e)) 1 (∅ : Finset (Fin 16)) 0 ∗ rowPts c (pr c e) fullShare (tbl m)) : sProp 𝕄) :=
    Entails.of_eq (bigSep_insert hdn
      (Φ := fun e => (iprop(atPos ER (recvCell c (pr c e)) 1 (∅ : Finset (Fin 16)) 0 ∗ rowPts c (pr c e) fullShare (tbl m)) : sProp 𝕄))).symm
  unfold recvSt
  iintro ⟨HR, #Hrec, ⟨%W, HO⟩, Hbig, Hdone⟩
  ihave Hb := (bigSep_pick hdS) $$ Hbig
  icases Hb with ⟨⟨Hc, Hat⟩, Hrest⟩
  iapply (Rounds.wp_wait_rest_token 𝒱₀ ER (exRd m) (c : Thread nD τ) none (κ := K (c, kRecv (pr c d)))
      (wpE_waitDma2_eq 𝒱₀ (c : Thread nD τ) none Set.univ) (Set.mem_univ _) () (O := 0) (W := W) (R := 0) (m := 0) (T := ∅)
      (by rw [Nat.zero_add, expect_recv m c hne])) $$ [Hc HO Hat]
  · isplitr; · iapply hI; iexact Hrec
    isplitl [Hc]; · iexact Hc
    isplitl [HO]; · iexact HO
    isplitr; · rw [MayWait_zero]; iempintro
    iexact Hat
  iintro ⟨HO, Hat, -, Hpay⟩
  ihave Hrow := (Entails.of_eq (rest_recv m c hne)) $$ Hpay
  unfold recvPay
  iapply hk
  unfold recvSt
  rw [hnz]
  isplitl [HR]; · iexact HR
  isplitr; · iexact Hrec
  isplitl [HO]; · iexists _; iexact HO
  isplitl [Hrest]; · iexact Hrest
  iapply hins
  isplitl [Hat Hrow]
  · isplitl [Hat]; · iexact Hat
    iexact Hrow
  iexact Hdone

/-! ## The waits for the device's own fifteen transfers -/

/-- While the transfers of the offsets in `S` are still pending: the send credit and the position of each one's send
    cell; of those completed, the send cell a round on and the share of row `c` the transfer read. -/
def sentSt (S : Finset (Fin 16)) (R : sProp 𝕄) : sProp 𝕄 :=
  iprop(R ∗ records m K ∗ owing c 0
    ∗ (bigSep S fun d => iprop(cred (tallyAt (sendCell c d) () N1) ∗ atPos ER (sendCell c d) 0 (∅ : Finset (Fin 16)) 0))
    ∗ (bigSep (nz \ S) fun d => iprop(atPos ER (sendCell c d) 1 (∅ : Finset (Fin 16)) 0 ∗ rowPts c c (shareTok fullShare 16 d) (tbl m))))

theorem step_waitSend (d : Fin 16) (hd : d ≠ 0) {sS : DmaSem sig} (hsS : sS = sendS d)
    {src dst : Memref sig .tc .vmem S1x256 .f32} (hdm : dst = rowM c)
    {S : Finset (Fin 16)} (hS : S ⊆ nz) (hdS : d ∈ S) {R : sProp 𝕄} {h1 : src.view.WordExact} {h2 : dst.view.WordExact}
    {α : Type} {Q : α → sProp 𝕄} {k : PUnit → Prog (TpuEff nD τ sig (Elt F) Λ₀ .tc) α}
    (hk : sentSt m K c (S.erase d) R ⊢ WP c (k ⟨⟩) Q) :
    sentSt m K c S R ⊢ WP c (.op (.waitDma2 sS src dst h1 h2) k) Q := by
  subst hsS hdm
  have hI : records (F := F) m K ⊢ cellInv ER (exRd m) (K (c, kSend d)) (sendCell c d) := by
    have h := inv_at m K (c, kSend d); rwa [kcell_send] at h
  have hdn : d ∉ nz \ S := fun h => (Finset.mem_sdiff.mp h).2 hdS
  have hnz : nz \ S.erase d = insert d (nz \ S) := Finset.sdiff_erase (hS hdS)
  have hins : iprop((atPos ER (sendCell c d) 1 (∅ : Finset (Fin 16)) 0 ∗ rowPts c c (shareTok fullShare 16 d) (tbl m))
        ∗ bigSep (nz \ S) fun e => iprop(atPos ER (sendCell c e) 1 (∅ : Finset (Fin 16)) 0 ∗ rowPts c c (shareTok fullShare 16 e) (tbl m)))
      ⊢ (bigSep (insert d (nz \ S)) fun e => iprop(atPos ER (sendCell c e) 1 (∅ : Finset (Fin 16)) 0 ∗ rowPts c c (shareTok fullShare 16 e) (tbl m)) : sProp 𝕄) :=
    Entails.of_eq (bigSep_insert hdn
      (Φ := fun e => (iprop(atPos ER (sendCell c e) 1 (∅ : Finset (Fin 16)) 0 ∗ rowPts c c (shareTok fullShare 16 e) (tbl m)) : sProp 𝕄))).symm
  unfold sentSt
  iintro ⟨HR, #Hrec, ⟨%W, HO⟩, Hbig, Hdone⟩
  ihave Hb := (bigSep_pick hdS) $$ Hbig
  icases Hb with ⟨⟨Hc, Hat⟩, Hrest⟩
  iapply (Rounds.wp_wait_rest_token 𝒱₀ ER (exRd m) (c : Thread nD τ) none (κ := K (c, kSend d))
      (wpE_waitDma2_eq 𝒱₀ (c : Thread nD τ) none Set.univ) (Set.mem_univ _) () (O := 0) (W := W) (R := 0) (m := 0) (T := ∅)
      (by rw [Nat.zero_add, expect_send m c hd])) $$ [Hc HO Hat]
  · isplitr; · iapply hI; iexact Hrec
    isplitl [Hc]; · iexact Hc
    isplitl [HO]; · iexact HO
    isplitr; · rw [MayWait_zero]; iempintro
    iexact Hat
  iintro ⟨HO, Hat, -, Hpay⟩
  ihave Hrow := (Entails.of_eq (rest_send m c hd)) $$ Hpay
  unfold sendPay
  iapply hk
  unfold sentSt
  rw [hnz]
  isplitl [HR]; · iexact HR
  isplitr; · iexact Hrec
  isplitl [HO]; · iexists _; iexact HO
  isplitl [Hrest]; · iexact Hrest
  iapply hins
  isplitl [Hat Hrow]
  · isplitl [Hat]; · iexact Hat
    iexact Hrow
  iexact Hdone

end Cert.KernelProof

end
-- ==== Proof.KernelGlue.lean ====
import proofs.«900952_g7700000000000953_dist_mean_ax0_shard0_i_m512_n256_v7x_i16_bf16_1_alg».proof.Proof.KernelTables
import proofs.«900952_g7700000000000953_dist_mean_ax0_shard0_i_m512_n256_v7x_i16_bf16_1_alg».proof.Proof.KernelRows

/-!
Regroupings of what a device holds: the table by its rows, a row by its shares, the other devices by the offset
they are at, and a device's cells by their kind.
-/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

variable (c : Dev nD)

abbrev dropS : PosShare TreeShare := shareDrop fullShare 16
abbrev tokS (i : Fin 16) : PosShare TreeShare := shareTok fullShare 16 i

/-! ## The other devices, by the offset they are at -/

/-- A conjunction over the devices other than `c` is one over the nonzero offsets. -/
theorem bigSep_others (Φ : Fin 16 → sProp 𝕄) :
    bigSep (Finset.univ.erase c) Φ = bigSep nz (fun d => Φ (pr c d)) := by
  -- the devices other than `c` are the images of the nonzero offsets under `d ↦ c + d`
  have h : (Finset.univ.erase c : Finset (Fin 16)) = nz.map ⟨pr c, fun _ _ h => pr_inj h⟩ := by
    ext j
    rw [Finset.mem_erase, Finset.mem_map]
    constructor
    · rintro ⟨hj, -⟩
      exact ⟨off c j, Finset.mem_erase.mpr ⟨off_ne_zero hj, Finset.mem_univ _⟩, pr_off c j⟩
    · rintro ⟨d, hd, rfl⟩
      exact ⟨pr_ne (Finset.mem_erase.mp hd).1, Finset.mem_univ _⟩
  rw [h, bigSep_map]
  rfl

/-! ## The table by its rows -/

/-- The table at a share is the device's own row and the rows of the other devices, by their offset, at that share. -/
theorem rows_split (q : PosShare TreeShare) (f : Buf (Elt F) ((c : Thread nD τ).loc cc0_scratch1)) :
    ((((c : Thread nD τ).loc cc0_scratch1) ↦{q} f) : sProp 𝕄)
      ⊣⊢ iprop(rowPts c c q f ∗ bigSep nz (fun d => rowPts c (pr c d) q f)) := by
  have e : (bigSep Finset.univ (fun j : Fin 16 => rowPts c j q f) : sProp 𝕄)
      = iprop(rowPts c c q f ∗ bigSep nz (fun d => rowPts c (pr c d) q f)) := by
    rw [bigSep_univ_at _ c, bigSep_others]
  exact ⟨(comm_rows c q f).1.trans (Entails.of_eq e), (Entails.of_eq e.symm).trans (comm_rows c q f).2⟩

/-- The device's table, whole at some contents, is its own row and the rows it gives away. -/
theorem comm_give :
    iprop(∃ f : Buf (Elt F) ((c : Thread nD τ).loc cc0_scratch1), ((c : Thread nD τ).loc cc0_scratch1) ↦{fullShare} f)
      ⊢ (iprop((∃ f, rowPts (F := F) c c fullShare f) ∗ bigSep nz (fun d => iprop(∃ f, rowPts (F := F) c (pr c d) fullShare f))) : sProp 𝕄) := by
  -- each row given away, at the contents it happens to have
  have hm : ∀ f : Buf (Elt F) ((c : Thread nD τ).loc cc0_scratch1),
      (bigSep nz (fun d => rowPts c (pr c d) fullShare f) : sProp 𝕄)
        ⊢ bigSep nz (fun d => iprop(∃ f, rowPts (F := F) c (pr c d) fullShare f)) :=
    fun f => bigSep_mono fun d _ =>
      show (rowPts c (pr c d) fullShare f : sProp 𝕄) ⊢ iprop(∃ f, rowPts (F := F) c (pr c d) fullShare f) from by
        iintro H; iexists f; iexact H
  iintro ⟨%f, H⟩
  ihave H := (rows_split c fullShare f).1 $$ H
  icases H with ⟨Hc, Hr⟩
  isplitl [Hc]
  · iexists f; iexact Hc
  · iapply (hm f); iexact Hr

/-- A row held whole is held as the remainder and sixteen read shares: the first unused, the others one per transfer. -/
theorem row_tokens (j : Fin 16) (f : Buf (Elt F) ((rowM j : Memref sig .tc .vmem S1x256 .f32).view.loc (c : Thread nD τ))) :
    (rowPts c j fullShare f : sProp 𝕄)
      ⊣⊢ iprop(rowPts c j dropS f ∗ rowPts c j (tokS 0) f ∗ bigSep nz (fun d => rowPts c j (tokS d) f)) := by
  unfold rowPts
  -- the remainder and the sixteen read shares, the share of index 0 taken out of the sixteen
  have e := Idealize.ShloMosaic.Transfers.pointsTo_toks (nD := nD) (τ := τ) (sig := sig) (Ix := Unit) (Val := Elt F) (Name := ℕ)
    (U := UU) (Lvl := ℕ) (ℓ := (rowM j : Memref sig .tc .vmem S1x256 .f32).view.loc (c : Thread nD τ))
    (S := (rowM j : Memref sig .tc .vmem S1x256 .f32).view.set) (f := f) fullShare 16
  rw [bigSep_univ_at _ (0 : Fin 16)] at e
  exact e

/-- The table at the remainder share from the remainder shares of its sixteen rows: the device's own and the fifteen
    received, whose read shares are set aside. -/
theorem comm_at_drop :
    iprop(rowPts c c dropS (tbl m) ∗ bigSep nz (fun d => rowPts c (pr c d) fullShare (tbl m)))
      ⊣⊢ (iprop((((c : Thread nD τ).loc cc0_scratch1) ↦{dropS} tbl m)
          ∗ bigSep nz (fun d => iprop(rowPts c (pr c d) (tokS 0) (tbl m) ∗ bigSep nz (fun i => rowPts c (pr c d) (tokS i) (tbl m))))) : sProp 𝕄) := by
  -- every received row: its remainder, and its read shares set aside
  have hsplit : (bigSep nz (fun d => rowPts c (pr c d) fullShare (tbl m)) : sProp 𝕄)
      ⊣⊢ iprop(bigSep nz (fun d => rowPts c (pr c d) dropS (tbl m))
          ∗ bigSep nz (fun d => iprop(rowPts c (pr c d) (tokS 0) (tbl m) ∗ bigSep nz (fun i => rowPts c (pr c d) (tokS i) (tbl m))))) := by
    rw [← bigSep_sep']
    exact ⟨bigSep_mono fun d _ => (row_tokens c (pr c d) (tbl m)).1, bigSep_mono fun d _ => (row_tokens c (pr c d) (tbl m)).2⟩
  -- the sixteen remainders are the table at the remainder share
  have hr := rows_split c dropS (tbl m)
  constructor
  · iintro ⟨Hc, Hr⟩
    ihave Hr := hsplit.1 $$ Hr
    icases Hr with ⟨Hd, Ht⟩
    isplitl [Hc Hd]
    · iapply hr.2; isplitl [Hc] <;> iassumption
    · iexact Ht
  · iintro ⟨Hw, Ht⟩
    ihave Hw := hr.1 $$ Hw
    icases Hw with ⟨Hc, Hd⟩
    isplitl [Hc]; · iexact Hc
    iapply hsplit.2
    isplitl [Hd] <;> iassumption

/-- Every share of every row back: the table whole again. -/
theorem comm_whole :
    iprop(rowPts c c dropS (tbl m) ∗ rowPts c c (tokS 0) (tbl m) ∗ bigSep nz (fun d => rowPts c c (tokS d) (tbl m))
        ∗ bigSep nz (fun d => rowPts c (pr c d) fullShare (tbl m)))
      ⊢ ((((c : Thread nD τ).loc cc0_scratch1) ↦{fullShare} tbl m) : sProp 𝕄) := by
  iintro ⟨Hd, H0, Ht, Hr⟩
  iapply (rows_split c fullShare (tbl m)).2
  isplitl [Hd H0 Ht]
  · iapply (row_tokens c c (tbl m)).2
    isplitl [Hd]; · iexact Hd
    isplitl [H0] <;> iassumption
  · iexact Hr

/-! ## A device's cells by their kind -/

/-- The own semaphores by their number: semaphore `d` sends to offset `d`, semaphore `16 + j` receives from device `j`,
    semaphore 32 is the load's. -/
def oSend : Fin 16 ↪ Fin 33 := ⟨fun d => ⟨d.val, by omega⟩, fun a b h => Fin.ext (show a.val = b.val from congrArg (fun x : Fin 33 => x.val) h)⟩
def oRecv : Fin 16 ↪ Fin 33 :=
  ⟨fun j => ⟨16 + j.val, by omega⟩, fun a b h => Fin.ext (by have h' : 16 + a.val = 16 + b.val := congrArg (fun x : Fin 33 => x.val) h; omega)⟩
def oLoad : Fin 33 := ⟨32, by omega⟩
/-- Cell `k + 1` is own semaphore `k`. -/
def oSucc : Fin 33 ↪ Fin 34 :=
  ⟨fun k => ⟨k.val + 1, by omega⟩, fun a b h => Fin.ext (by have h' : a.val + 1 = b.val + 1 := congrArg (fun x : Fin 34 => x.val) h; omega)⟩

theorem osem_send (d : Fin 16) : ((c : Thread nD τ), osem (oSend d)) = sendCell c d :=
  (osem_eq c (oSend d)).trans
    ((congrArg (fun k : Fin 34 => kcell (c, k)) (Fin.ext (by show d.val + 1 = 1 + d.val; omega))).trans (kcell_send c d))
theorem osem_recv (j : Fin 16) : ((c : Thread nD τ), osem (oRecv j)) = recvCell c j :=
  (osem_eq c (oRecv j)).trans
    ((congrArg (fun k : Fin 34 => kcell (c, k)) (Fin.ext (by show 16 + j.val + 1 = 17 + j.val; omega))).trans (kcell_recv c j))
theorem osem_load : ((c : Thread nD τ), osem oLoad) = loadCell c :=
  (osem_eq c oLoad).trans
    ((congrArg (fun k : Fin 34 => kcell (c, k)) (Fin.ext (by show 32 + 1 = 33; rfl))).trans (kcell_load c))

/-- The thirty-three own semaphores are the load's, the sixteen send and the sixteen receive semaphores. -/
theorem fin33_cover : (Finset.univ : Finset (Fin 33)) = insert oLoad (Finset.univ.map oSend ∪ Finset.univ.map oRecv) := by
  ext k
  simp only [Finset.mem_univ, true_iff, Finset.mem_insert, Finset.mem_union, Finset.mem_map, true_and]
  by_cases h32 : k.val = 32
  · exact .inl (Fin.ext h32)
  by_cases h16 : k.val < 16
  · exact .inr (.inl ⟨⟨k.val, h16⟩, Fin.ext rfl⟩)
  · exact .inr (.inr ⟨⟨k.val - 16, by omega⟩, Fin.ext (by show 16 + (k.val - 16) = k.val; omega)⟩)

theorem oLoad_notMem : oLoad ∉ Finset.univ.map oSend ∪ Finset.univ.map oRecv := by
  simp only [Finset.mem_union, Finset.mem_map, Finset.mem_univ, true_and, not_or, not_exists]
  refine ⟨fun d h => ?_, fun j h => ?_⟩
  · have h' : d.val = 32 := Fin.ext_iff.mp h
    omega
  · have h' : 16 + j.val = 32 := Fin.ext_iff.mp h
    omega

theorem oSend_oRecv_disjoint : Disjoint ((Finset.univ : Finset (Fin 16)).map oSend) ((Finset.univ : Finset (Fin 16)).map oRecv) := by
  rw [Finset.disjoint_left]
  intro k hs hr
  obtain ⟨d, -, hd⟩ := Finset.mem_map.mp hs
  obtain ⟨j, -, hj⟩ := Finset.mem_map.mp hr
  have h' : d.val = 16 + j.val := Fin.ext_iff.mp (hd.trans hj.symm)
  omega

/-- A conjunction over the own semaphores, by their kind. -/
theorem own_eq (Φ : GSem nD τ sig → sProp 𝕄) :
    bigSep Finset.univ (fun k : Fin 33 => Φ ((c : Thread nD τ), osem k))
      = iprop(Φ (loadCell c) ∗ (Φ (sendCell c 0) ∗ bigSep nz (fun d => Φ (sendCell c d)))
          ∗ (Φ (recvCell c c) ∗ bigSep nz (fun d => Φ (recvCell c (pr c d))))) := by
  have hS : bigSep (Finset.univ : Finset (Fin 16)) (fun d => Φ ((c : Thread nD τ), osem (oSend d)))
      = iprop(Φ (sendCell c 0) ∗ bigSep nz (fun d => Φ (sendCell c d))) := by
    rw [bigSep_congr (Ψ := fun d => Φ (sendCell c d)) fun d _ => congrArg Φ (osem_send c d)]
    exact bigSep_univ_at _ 0
  have hR : bigSep (Finset.univ : Finset (Fin 16)) (fun j => Φ ((c : Thread nD τ), osem (oRecv j)))
      = iprop(Φ (recvCell c c) ∗ bigSep nz (fun d => Φ (recvCell c (pr c d)))) := by
    rw [bigSep_congr (Ψ := fun j => Φ (recvCell c j)) fun j _ => congrArg Φ (osem_recv c j), bigSep_univ_at _ c, bigSep_others]
  rw [fin33_cover, bigSep_insert oLoad_notMem, bigSep_union oSend_oRecv_disjoint, bigSep_map, bigSep_map, hS, hR, osem_load]
  rfl

/-- A conjunction over a device's thirty-four cells: the barrier cell, the load cell, the send cell of offset 0 and of
    the nonzero offsets, the receive cell of the device itself and of the other devices by their offset. -/
theorem cells_split (Φ : GSem nD τ sig → sProp 𝕄) :
    bigSep Finset.univ (fun k : Fin 34 => Φ (kcell (c, k)))
      ⊣⊢ iprop(Φ (barCell c) ∗ Φ (loadCell c) ∗ Φ (sendCell c 0) ∗ bigSep nz (fun d => Φ (sendCell c d))
          ∗ Φ (recvCell c c) ∗ bigSep nz (fun d => Φ (recvCell c (pr c d)))) := by
  -- cell 0 is the barrier cell, cell `k + 1` the own semaphore `k`
  have hU : (Finset.univ : Finset (Fin 34)) = insert 0 (Finset.univ.map oSucc) := by
    ext k
    simp only [Finset.mem_univ, true_iff, Finset.mem_insert, Finset.mem_map, true_and]
    by_cases h0 : k.val = 0
    · exact .inl (Fin.ext h0)
    · exact .inr ⟨⟨k.val - 1, by omega⟩, Fin.ext (by show k.val - 1 + 1 = k.val; omega)⟩
  have n0 : (0 : Fin 34) ∉ (Finset.univ : Finset (Fin 33)).map oSucc := by
    simp only [Finset.mem_map, Finset.mem_univ, true_and, not_exists]
    intro k h
    have h' : k.val + 1 = 0 := Fin.ext_iff.mp h
    omega
  have e : bigSep Finset.univ (fun k : Fin 34 => Φ (kcell (c, k)))
      = iprop(Φ (barCell c) ∗ bigSep Finset.univ (fun k : Fin 33 => Φ ((c : Thread nD τ), osem k))) := by
    rw [hU, bigSep_insert n0, bigSep_map, kcell_bar]
    exact congrArg (BI.sep (Φ (barCell c))) (bigSep_congr fun k _ => (congrArg Φ (osem_eq c k)).symm)
  rw [e, own_eq]
  constructor
  · iintro ⟨HB, HL, ⟨HS0, HS⟩, HR0, HR⟩
    isplitl [HB]; · iexact HB
    isplitl [HL]; · iexact HL
    isplitl [HS0]; · iexact HS0
    isplitl [HS]; · iexact HS
    isplitl [HR0] <;> iassumption
  · iintro ⟨HB, HL, HS0, HS, HR0, HR⟩
    isplitl [HB]; · iexact HB
    isplitl [HL]; · iexact HL
    isplitl [HS0 HS]
    · isplitl [HS0] <;> iassumption
    · isplitl [HR0] <;> iassumption

/-- The same over its thirty-three own semaphores. -/
theorem own_split (Φ : GSem nD τ sig → sProp 𝕄) :
    bigSep Finset.univ (fun k : Fin 33 => Φ ((c : Thread nD τ), osem k))
      ⊣⊢ iprop(Φ (loadCell c) ∗ Φ (sendCell c 0) ∗ bigSep nz (fun d => Φ (sendCell c d))
          ∗ Φ (recvCell c c) ∗ bigSep nz (fun d => Φ (recvCell c (pr c d)))) := by
  rw [own_eq]
  constructor
  · iintro ⟨HL, ⟨HS0, HS⟩, HR0, HR⟩
    isplitl [HL]; · iexact HL
    isplitl [HS0]; · iexact HS0
    isplitl [HS]; · iexact HS
    isplitl [HR0] <;> iassumption
  · iintro ⟨HL, HS0, HS, HR0, HR⟩
    isplitl [HL]; · iexact HL
    isplitl [HS0 HS]
    · isplitl [HS0] <;> iassumption
    · isplitl [HR0] <;> iassumption

/-! ## Closing the device's own cells -/

variable (K : Dev nD × Fin 34 → ℕ)

/-- A cell of the device, at a round from which on it has no duty and with nothing of that round taken, is closed
    by its owner, who keeps the counter at zero. -/
theorem close_at (k : Fin 34) (g : GSem nD τ sig) (hg : kcell (c, k) = g) {R : ℕ}
    (hR : ∀ r, R ≤ r → (exRd (F := F) m).duties g r = ∅) :
    iprop(records m K ∗ atPos ER g R (∅ : Finset (Fin 16)) 0) ⊢ (|={Set.univ}=> semVal g 0 : sProp 𝕄) := by
  subst hg
  iintro ⟨#HR, Hat⟩
  iapply (cell_close ER (exRd m) (κ := K (c, k)) (Set.mem_univ _) (fun h => h) hR)
  isplitr
  · iapply (inv_at m K (c, k)); iexact HR
  · iexact Hat

/-- At the end every own cell is closed: the load cell, the fifteen send cells and the fifteen receive cells a round on,
    the two cells that saw no transfer where they started; their counters, at zero, are the device's again. -/
theorem close_own :
    iprop(records m K ∗ atPos ER (loadCell c) 1 (∅ : Finset (Fin 16)) 0 ∗ atPos ER (sendCell c 0) 0 (∅ : Finset (Fin 16)) 0
        ∗ bigSep nz (fun d => atPos ER (sendCell c d) 1 (∅ : Finset (Fin 16)) 0)
        ∗ atPos ER (recvCell c c) 0 (∅ : Finset (Fin 16)) 0
        ∗ bigSep nz (fun d => atPos ER (recvCell c (pr c d)) 1 (∅ : Finset (Fin 16)) 0))
      ⊢ (|={Set.univ}=> bigSep Finset.univ fun k : Fin 33 => semVal ((c : Thread nD τ), osem k) 0 : sProp 𝕄) := by
  have e := own_eq c (fun g : GSem nD τ sig => (semVal g 0 : sProp 𝕄))
  -- the cells that saw a transfer are a round on, where no round has a duty; the two others never had one
  have hL := close_at m c K kLoad (loadCell c) (kcell_load c) (R := 1) (fun r hr => duties_later m _ r hr)
  have hS0 := close_at m c K (kSend 0) (sendCell c 0) (kcell_send c 0) (R := 0) (fun r _ => duties_send0 m c r)
  have hR0 := close_at m c K (kRecv c) (recvCell c c) (kcell_recv c c) (R := 0) (fun r _ => duties_recvSelf m c r)
  have hS : iprop(records m K ∗ bigSep nz (fun d => atPos ER (sendCell c d) 1 (∅ : Finset (Fin 16)) 0))
      ⊢ (|={Set.univ}=> bigSep nz (fun d => semVal (sendCell c d) 0) : sProp 𝕄) :=
    (bigSep_with_persistent fun d _ =>
      close_at m c K (kSend d) (sendCell c d) (kcell_send c d) (R := 1) (fun r hr => duties_later m _ r hr)).trans (bigSep_fupd _ _)
  have hR : iprop(records m K ∗ bigSep nz (fun d => atPos ER (recvCell c (pr c d)) 1 (∅ : Finset (Fin 16)) 0))
      ⊢ (|={Set.univ}=> bigSep nz (fun d => semVal (recvCell c (pr c d)) 0) : sProp 𝕄) :=
    (bigSep_with_persistent fun d _ =>
      close_at m c K (kRecv (pr c d)) (recvCell c (pr c d)) (kcell_recv c (pr c d)) (R := 1) (fun r hr => duties_later m _ r hr)).trans
      (bigSep_fupd _ _)
  refine BIBase.Entails.trans ?_ (BI.fupd_mono (Entails.of_eq e.symm))
  iintro ⟨#HR, HL, HS0, HS, HR0, HRr⟩
  imod hL $$ [HL] with HL
  · isplitr; · iexact HR
    iexact HL
  imod hS0 $$ [HS0] with HS0
  · isplitr; · iexact HR
    iexact HS0
  imod hS $$ [HS] with HS
  · isplitr; · iexact HR
    iexact HS
  imod hR0 $$ [HR0] with HR0
  · isplitr; · iexact HR
    iexact HR0
  imod hR $$ [HRr] with HRr
  · isplitr; · iexact HR
    iexact HRr
  imodintro
  isplitl [HL]; · iexact HL
  isplitl [HS0 HS]
  · isplitl [HS0] <;> iassumption
  · isplitl [HR0] <;> iassumption

end Cert.KernelProof

end
-- ==== Proof.KernelEnds.lean ====
import proofs.«900952_g7700000000000953_dist_mean_ax0_shard0_i_m512_n256_v7x_i16_bf16_1_alg».proof.Proof.KernelGlue
import proofs.«900952_g7700000000000953_dist_mean_ax0_shard0_i_m512_n256_v7x_i16_bf16_1_alg».proof.Proof.Gen.Kernel.Skeleton
import proofs.«900952_g7700000000000953_dist_mean_ax0_shard0_i_m512_n256_v7x_i16_bf16_1_alg».proof.Proof.Gen.Kernel.Points

/-!
The two ends of a device's body: what the pipeline hands it, sorted into the pieces the steps take; and the
pieces the last step leaves, put back into what the pipeline takes.
-/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 34 → ℕ) (c : Dev nD)

/-- A whole buffer of device `c` holding exactly `X`. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The point of the (gridless) call. -/
abbrev t0 : Fin cfg0.N := Gen.t0_0

/-- What the device holds when its body starts, piece by piece. -/
def S0 : sProp 𝕄 :=
  iprop(records m K ∗ levAts L lv
    ∗ atPos ER (barCell c) 0 (∅ : Finset (Fin 16)) 0 ∗ atPos ER (loadCell c) 0 (∅ : Finset (Fin 16)) 0
    ∗ atPos ER (sendCell c 0) 0 (∅ : Finset (Fin 16)) 0 ∗ (bigSep nz fun d => atPos ER (sendCell c d) 0 (∅ : Finset (Fin 16)) 0)
    ∗ atPos ER (recvCell c c) 0 (∅ : Finset (Fin 16)) 0 ∗ (bigSep nz fun d => atPos ER (recvCell c (pr c d)) 0 (∅ : Finset (Fin 16)) 0)
    ∗ (bigSep nz fun d => dutyTok ER (barCell (pr c d)) 0 (ng d))
    ∗ (bigSep nz fun d => dutyTok ER (recvCell (pr c d) c) 0 (0 : Fin 16))
    ∗ (bigSep nz fun d => dutyTok ER (sendCell c d) 0 (0 : Fin 16))
    ∗ dutyTok ER (loadCell c) 0 (0 : Fin 16)
    ∗ cred (tallyAt (barCell c) () 15) ∗ (bigSep nz fun d => cred (tallyAt (recvCell c (pr c d)) () N1))
    ∗ (((c : Thread nD τ).loc main_arg0) ↦{fullShare} xblk m c)
    ∗ (∃ f : Buf (Elt F) ((c : Thread nD τ).loc cc0_scratch0), ((c : Thread nD τ).loc cc0_scratch0) ↦{fullShare} f)
    ∗ (∃ f, rowPts (F := F) c c fullShare f) ∗ (bigSep nz fun d => iprop(∃ f, rowPts (F := F) c (pr c d) fullShare f))
    ∗ (∃ W : Waits sig Unit, owes (c : Thread nD τ) (owedRecv c nz + owedSig c nz) W)
    ∗ (∃ g : Buf (Elt F) ((c : Thread nD τ).loc cc0_stg0_0), ((c : Thread nD τ).loc cc0_stg0_0) ↦{fullShare} g))

/-- What it holds after its last step. -/
def Sfin : sProp 𝕄 :=
  iprop(records m K ∗ atPos ER (loadCell c) 1 (∅ : Finset (Fin 16)) 0
    ∗ atPos ER (sendCell c 0) 0 (∅ : Finset (Fin 16)) 0 ∗ (bigSep nz fun d => atPos ER (sendCell c d) 1 (∅ : Finset (Fin 16)) 0)
    ∗ atPos ER (recvCell c c) 0 (∅ : Finset (Fin 16)) 0 ∗ (bigSep nz fun d => atPos ER (recvCell c (pr c d)) 1 (∅ : Finset (Fin 16)) 0)
    ∗ (((c : Thread nD τ).loc main_arg0) ↦{fullShare} xblk m c)
    ∗ (((c : Thread nD τ).loc cc0_scratch0) ↦{fullShare} xblk m c)
    ∗ rowPts c c dropS (tbl m) ∗ rowPts c c (tokS 0) (tbl m) ∗ (bigSep nz fun d => rowPts c c (tokS d) (tbl m))
    ∗ (bigSep nz fun d => rowPts c (pr c d) fullShare (tbl m))
    ∗ (∃ W : Waits sig Unit, owes (c : Thread nD τ) 0 W)
    ∗ (((c : Thread nD τ).loc cc0_stg0_0) ↦{fullShare} outV m))

/-- What the pipeline takes back after the point. -/
def bodyPost : sProp 𝕄 :=
  iprop(Φ₁ m c ∗ (dats m ρ 0 c).owesAt () t0.succ ∗ stg c cc0_stg0_0 (outV m))

/-- What the pipeline hands the body at the point. -/
def bodyPre : sProp 𝕄 :=
  iprop(Φ₀ m c ∗ (dats m ρ 0 c).owesAt () t0.castSucc
    ∗ (∃ d, stg c cc0_stg0_0 ((dats m ρ 0 c).before (0 : Fin 1) t0 d)))

theorem prep : bodyPre m ρ c ⊢ (iprop(∃ K, S0 m K c) : sProp 𝕄) := by
  unfold bodyPre Φ₀ start ghost linear payToks creds Dat.owesAt Pipeline.owesWithin
  rw [show (dats m ρ 0 c).owed t0.castSucc = owedRecv c nz + owedSig c nz from rfl]
  iintro ⟨⟨⟨⟨%K, #Hrec, Hpos, Htb, Htr, Hts, Htl⟩, ⟨Hcb, Hcr⟩, #Hlev, Hx⟩, Hxv, Hcomm⟩, ⟨%W, %hW, HO⟩, ⟨%d, %g, %hg, Hout⟩⟩
  ihave Hpos' := (cells_split (F := F) c (fun g => atPos ER g 0 (∅ : Finset (Fin 16)) 0)).1 $$ Hpos
  icases Hpos' with ⟨Hp1, Hp2, Hp3, Hp4, Hp5, Hp6⟩
  ihave Hcr' := (Entails.of_eq (bigSep_others (F := F) c (fun j => cred (tallyAt (recvCell c j) () N1)))) $$ Hcr
  ihave Hc := (comm_give (F := F) c) $$ Hcomm
  icases Hc with ⟨Hrow, Hrows⟩
  iexists K
  unfold S0
  isplitr; · iexact Hrec
  isplitr; · iexact Hlev
  isplitl [Hp1]; · iexact Hp1
  isplitl [Hp2]; · iexact Hp2
  isplitl [Hp3]; · iexact Hp3
  isplitl [Hp4]; · iexact Hp4
  isplitl [Hp5]; · iexact Hp5
  isplitl [Hp6]; · iexact Hp6
  isplitl [Htb]; · iexact Htb
  isplitl [Htr]; · iexact Htr
  isplitl [Hts]; · iexact Hts
  isplitl [Htl]; · iexact Htl
  isplitl [Hcb]; · iexact Hcb
  isplitl [Hcr']; · iexact Hcr'
  isplitl [Hx]; · iexact Hx
  isplitl [Hxv]; · iexact Hxv
  isplitl [Hrow]; · iexact Hrow
  isplitl [Hrows]; · iexact Hrows
  isplitl [HO]; · iexists W; iexact HO
  iexists g; iexact Hout

theorem finish : Sfin m K c ⊢ (|={Set.univ}=> bodyPost m ρ c : sProp 𝕄) := by
  unfold Sfin
  iintro ⟨#Hrec, Hl, Hs0, Hs, Hr0, Hr, Hx, Hxv, Hd, Ht0, Hts, Hrows, ⟨%W, HO⟩, Hout⟩
  imod (close_own m c K) $$ [Hl Hs0 Hs Hr0 Hr] with Hsem
  · isplitr; · iexact Hrec
    isplitl [Hl]; · iexact Hl
    isplitl [Hs0]; · iexact Hs0
    isplitl [Hs]; · iexact Hs
    isplitl [Hr0]; · iexact Hr0
    iexact Hr
  ihave Hcomm := (comm_whole m c) $$ [Hd Ht0 Hts Hrows]
  · isplitl [Hd]; · iexact Hd
    isplitl [Ht0]; · iexact Ht0
    isplitl [Hts]; · iexact Hts
    iexact Hrows
  imodintro
  unfold bodyPost Φ₁ Dat.owesAt Pipeline.owesWithin
  rw [show (dats m ρ 0 c).owed t0.succ = 0 from rfl]
  isplitl [Hx Hxv Hcomm Hsem]
  · isplitl [Hx]; · iexact Hx
    isplitl [Hxv]; · iexists (xblk m c); iexact Hxv
    isplitl [Hcomm]; · iexists (tbl m); iexact Hcomm
    iexact Hsem
  isplitl [HO]
  · iexists W; isplitr; · ipureintro; exact fun _ _ => Or.inl trivial
    iexact HO
  iexists (outV m); isplitr; · ipureintro; rfl
  iexact Hout

/-- The library's body obligation from the body stepped between the two ends. -/
theorem body_obligation_of
    (h : ∀ (K : Dev nD × Fin 34 → ℕ) (Kt : PUnit → sProp 𝕄),
      iprop(S0 m K c ∗ (bodyPost m ρ c -∗ Kt ⟨⟩))
        ⊢ wp frame (wpE (defs₀ (F := F)) 𝒱₀ (c : Thread nD τ) none) Set.univ
            (cc0_body (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4) Kt) :
    BodyObligation (dats (F := F) m ρ 0 c) (defs₀ (F := F)) 𝒱₀ () Set.univ := by
  intro t
  rw [Gen.fin_N0 t]
  rw [Gen.bigSep_W0, Gen.bigSep_W0]
  simp only [owns_whole_eq]
  show bodyPre m ρ c ⊢ wp frame (wpE (defs₀ (F := F)) 𝒱₀ (c : Thread nD τ) none) Set.univ
    (cc0_body (Memref.whole main_arg0) (Memref.isWhole_whole _) (Memref.whole cc0_stg0_0) (Memref.isWhole_whole _)
      (Memref.whole cc0_scratch0) (Memref.isWhole_whole _) (Memref.whole cc0_scratch1) (Memref.isWhole_whole _)
      cc0_scratch2 cc0_scratch3 cc0_scratch4) (fun _ => bodyPost m ρ c)
  refine (prep m ρ c).trans ?_
  iintro ⟨%K, HS⟩
  iapply (h K (fun _ => bodyPost m ρ c))
  isplitl [HS]; · iexact HS
  iintro H; iexact H

end Cert.KernelProof

end
-- ==== Proof.KernelBody.lean ====
import proofs.«900952_g7700000000000953_dist_mean_ax0_shard0_i_m512_n256_v7x_i16_bf16_1_alg».proof.Proof.KernelArith
import proofs.«900952_g7700000000000953_dist_mean_ax0_shard0_i_m512_n256_v7x_i16_bf16_1_alg».proof.Proof.KernelStepsR
import proofs.«900952_g7700000000000953_dist_mean_ax0_shard0_i_m512_n256_v7x_i16_bf16_1_alg».proof.Proof.KernelStepsL
import proofs.«900952_g7700000000000953_dist_mean_ax0_shard0_i_m512_n256_v7x_i16_bf16_1_alg».proof.Proof.KernelEnds

/-!
One device's kernel body, stepped from the pieces it starts with to the pieces it hands back: the block's load, the
fifteen signals, the row sums stored in its own row, the wait for the fifteen signals, the fifteen transfers of its
row, the waits for the fifteen rows sent to it, the table summed and scaled, the waits for its own transfers.
-/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 34 → ℕ) (c : Dev nD)

/-- A step proved under any frame is a step in wand form: what it takes, and what its continuation is given. -/
theorem to_wand {P P' G G' : sProp 𝕄} (h : ∀ R : sProp 𝕄, (iprop(R ∗ P') ⊢ G') → (iprop(R ∗ P) ⊢ G)) :
    P ⊢ iprop((P' -∗ G') -∗ G) := by
  iintro HP Hw
  iapply (h iprop(P' -∗ G') (by iintro ⟨Hw, HP'⟩; iapply Hw $$ HP'))
  isplitl [Hw]
  · iexact Hw
  · iexact HP

/-- The same for a step whose continuation must hold for every value read. -/
theorem to_wand_all {β : Type} {P P' G : sProp 𝕄} {G' : β → sProp 𝕄} (h : ∀ R : sProp 𝕄, (∀ v, iprop(R ∗ P') ⊢ G' v) → (iprop(R ∗ P) ⊢ G)) :
    P ⊢ iprop((∀ v, P' -∗ G' v) -∗ G) := by
  have h' : ∀ v, iprop(iprop(∀ v, P' -∗ G' v) ∗ P') ⊢ G' v := fun v => by
    iintro ⟨Hw, HP'⟩
    iapply Hw $$ %v HP'
  iintro HP Hw
  iapply (h _ h')
  isplitl [Hw]
  · iexact Hw
  · iexact HP

/-! ## The steps in wand form -/

def sigBody (T : Finset (Fin 16)) : sProp 𝕄 :=
  iprop(records m K ∗ owingR c (owedRecv c nz + owedSig c T)
    ∗ (bigSep T fun d => dutyTok ER (barCell (pr c d)) 0 (ng d))
    ∗ (bigSep T fun d => iprop(∃ f, rowPts (F := F) c (pr c d) fullShare f)))

theorem w_signal (d : Fin 16) (hd : d ≠ 0) {n : Dev nD} (hn : n = pr c d) {a : ℕ} (ha : a = 1) {T : Finset (Fin 16)} (hdT : d ∈ T)
    {α : Type} {Q : α → sProp 𝕄} {k : PUnit → Prog (TpuEff nD τ sig (Elt F) Λ₀ .tc) α} :
    sigBody m K c T ⊢ iprop((sigBody m K c (T.erase d) -∗ WP c (k ⟨⟩) Q) -∗ WP c (.op (.semSignal ((n, Proc.tc) : Thread nD τ) barS a) k) Q) :=
  to_wand fun R hk => step_signal m K c d hd hn ha hdT hk

def sendBody (S : Finset (Fin 16)) : sProp 𝕄 :=
  iprop(records m K ∗ owingR c (owedRecv c S)
    ∗ (bigSep S fun d => dutyTok ER (sendCell c d) 0 (0 : Fin 16))
    ∗ (bigSep S fun d => dutyTok ER (recvCell (pr c d) c) 0 (0 : Fin 16))
    ∗ (bigSep S fun d => rowPts c c (shareTok fullShare 16 d) (tbl m))
    ∗ (bigSep S fun d => iprop(∃ f, rowPts (F := F) (pr c d) c fullShare f))
    ∗ (bigSep (nz \ S) fun d => cred (tallyAt (sendCell c d) () N1)))

theorem w_send (d : Fin 16) (hd : d ≠ 0) {n : Dev nD} (hn : n = pr c d)
    {src : Memref sig .tc .vmem S1x256 .f32} {dst : Memref sig (Dev.tc n : Thread nD τ).2.kind .vmem S1x256 .f32}
    (hs : src = rowM c) (hdm : dst = rowM c)
    {sS sR : DmaSem sig} (hsS : sS = sendS d) (hsR : sR = recvS c) {S : Finset (Fin 16)} (hS : S ⊆ nz) (hdS : d ∈ S)
    {hsc : dst.view.ref.isScScratch = false} {h1 : src.view.WordExact} {h2 : dst.view.WordExact}
    {h3 : DmaTarget.Typed .vmem (.dma sR) (.remote (Dev.tc n : Thread nD τ) dst (.dma sS) hsc)}
    {α : Type} {Q : α → sProp 𝕄} {k : PUnit → Prog (TpuEff nD τ sig (Elt F) Λ₀ .tc) α} :
    sendBody m K c S ⊢ iprop((sendBody m K c (S.erase d) -∗ WP c (k ⟨⟩) Q)
      -∗ WP c (.op (.enqueueDma src (.remote (Dev.tc n : Thread nD τ) dst (.dma sS) hsc) (.dma sR) h1 h2 h3) k) Q) :=
  to_wand fun R hk => step_send m K c d hd hn hs hdm hsS hsR hS hdS hk

def recvBody (S : Finset (Fin 16)) : sProp 𝕄 :=
  iprop(records m K ∗ owing c 0
    ∗ (bigSep S fun d => iprop(cred (tallyAt (recvCell c (pr c d)) () N1) ∗ atPos ER (recvCell c (pr c d)) 0 (∅ : Finset (Fin 16)) 0))
    ∗ (bigSep (nz \ S) fun d => iprop(atPos ER (recvCell c (pr c d)) 1 (∅ : Finset (Fin 16)) 0 ∗ rowPts c (pr c d) fullShare (tbl m))))

theorem w_waitRecv (d : Fin 16) (hd : d ≠ 0) {sR : DmaSem sig} (hsR : sR = recvS (pr c d))
    {src dst : Memref sig .tc .vmem S1x256 .f32} (hdm : dst = rowM (pr c d))
    {S : Finset (Fin 16)} (hS : S ⊆ nz) (hdS : d ∈ S) {h1 : src.view.WordExact} {h2 : dst.view.WordExact}
    {α : Type} {Q : α → sProp 𝕄} {k : PUnit → Prog (TpuEff nD τ sig (Elt F) Λ₀ .tc) α} :
    recvBody m K c S ⊢ iprop((recvBody m K c (S.erase d) -∗ WP c (k ⟨⟩) Q) -∗ WP c (.op (.waitDma2 sR src dst h1 h2) k) Q) :=
  to_wand fun R hk => step_waitRecv m K c d hd hsR hdm hS hdS hk

def sentBody (S : Finset (Fin 16)) : sProp 𝕄 :=
  iprop(records m K ∗ owing c 0
    ∗ (bigSep S fun d => iprop(cred (tallyAt (sendCell c d) () N1) ∗ atPos ER (sendCell c d) 0 (∅ : Finset (Fin 16)) 0))
    ∗ (bigSep (nz \ S) fun d => iprop(atPos ER (sendCell c d) 1 (∅ : Finset (Fin 16)) 0 ∗ rowPts c c (shareTok fullShare 16 d) (tbl m))))

theorem w_waitSend (d : Fin 16) (hd : d ≠ 0) {sS : DmaSem sig} (hsS : sS = sendS d)
    {src dst : Memref sig .tc .vmem S1x256 .f32} (hdm : dst = rowM c)
    {S : Finset (Fin 16)} (hS : S ⊆ nz) (hdS : d ∈ S) {h1 : src.view.WordExact} {h2 : dst.view.WordExact}
    {α : Type} {Q : α → sProp 𝕄} {k : PUnit → Prog (TpuEff nD τ sig (Elt F) Λ₀ .tc) α} :
    sentBody m K c S ⊢ iprop((sentBody m K c (S.erase d) -∗ WP c (k ⟨⟩) Q) -∗ WP c (.op (.waitDma2 sS src dst h1 h2) k) Q) :=
  to_wand fun R hk => step_waitSend m K c d hd hsS hdm hS hdS hk

/-- Once every nonzero offset has been taken out, none is left. -/
theorem E15_eq : ((((((((((((((((nz).erase 1).erase 2).erase 3).erase 4).erase 5).erase 6).erase 7).erase 8).erase 9).erase 10).erase 11).erase 12).erase 13).erase 14).erase 15 : Finset (Fin 16)) = ∅ := by decide

/-! ## Between the runs of steps: the pieces regrouped -/

theorem sig_start : iprop(records m K ∗ owingR c (owedRecv c nz + owedSig c nz)
      ∗ (bigSep nz fun d => dutyTok ER (barCell (pr c d)) 0 (ng d))
      ∗ (bigSep nz fun d => iprop(∃ f, rowPts (F := F) c (pr c d) fullShare f))) ⊢ sigBody m K c nz := by
  unfold sigBody; exact .rfl

theorem sig_done : sigBody m K c ((((((((((((((((nz).erase 1).erase 2).erase 3).erase 4).erase 5).erase 6).erase 7).erase 8).erase 9).erase 10).erase 11).erase 12).erase 13).erase 14).erase 15) ⊢ owing c (owedRecv c nz + owedSig c ∅) := by
  rw [E15_eq]; unfold sigBody
  iintro ⟨-, HOw, -, -⟩
  iexact HOw

theorem send_start : iprop(records m K ∗ owingR c (owedRecv c nz)
      ∗ (bigSep nz fun d => dutyTok ER (sendCell c d) 0 (0 : Fin 16))
      ∗ (bigSep nz fun d => dutyTok ER (recvCell (pr c d) c) 0 (0 : Fin 16))
      ∗ (bigSep nz fun d => rowPts c c (shareTok fullShare 16 d) (tbl m))
      ∗ (bigSep nz fun d => iprop(∃ f, rowPts (F := F) (pr c d) c fullShare f))) ⊢ sendBody m K c nz := by
  unfold sendBody; rw [Finset.sdiff_self, bigSep_empty]
  iintro ⟨#HI, H1, H2, H3, H4, H5⟩
  iframe
  isplitl []
  · iexact HI
  · iempintro

theorem send_done : sendBody m K c ((((((((((((((((nz).erase 1).erase 2).erase 3).erase 4).erase 5).erase 6).erase 7).erase 8).erase 9).erase 10).erase 11).erase 12).erase 13).erase 14).erase 15)
    ⊢ iprop(owing c 0 ∗ bigSep nz fun d => cred (tallyAt (sendCell c d) () N1)) := by
  rw [E15_eq]; unfold sendBody; rw [Finset.sdiff_empty, owedRecv_empty]
  iintro ⟨-, HOw, -, -, -, -, HCr⟩
  iframe

theorem recv_start : iprop(records m K ∗ owing c 0
      ∗ (bigSep nz fun d => cred (tallyAt (recvCell c (pr c d)) () N1))
      ∗ (bigSep nz fun d => atPos ER (recvCell c (pr c d)) 0 (∅ : Finset (Fin 16)) 0)) ⊢ recvBody m K c nz := by
  unfold recvBody; rw [Finset.sdiff_self, bigSep_empty, bigSep_sep']
  iintro ⟨#HI, H1, H2, H3⟩
  iframe
  isplitl []
  · iexact HI
  · iempintro

theorem recv_done : recvBody m K c ((((((((((((((((nz).erase 1).erase 2).erase 3).erase 4).erase 5).erase 6).erase 7).erase 8).erase 9).erase 10).erase 11).erase 12).erase 13).erase 14).erase 15)
    ⊢ iprop(owing c 0 ∗ (bigSep nz fun d => atPos ER (recvCell c (pr c d)) 1 (∅ : Finset (Fin 16)) 0)
        ∗ bigSep nz fun d => rowPts c (pr c d) fullShare (tbl m)) := by
  rw [E15_eq]; unfold recvBody; rw [bigSep_empty, Finset.sdiff_empty, bigSep_sep']
  iintro ⟨-, HOw, -, H1, H2⟩
  iframe

theorem sent_start : iprop(records m K ∗ owing c 0
      ∗ (bigSep nz fun d => cred (tallyAt (sendCell c d) () N1))
      ∗ (bigSep nz fun d => atPos ER (sendCell c d) 0 (∅ : Finset (Fin 16)) 0)) ⊢ sentBody m K c nz := by
  unfold sentBody; rw [Finset.sdiff_self, bigSep_empty, bigSep_sep']
  iintro ⟨#HI, H1, H2, H3⟩
  iframe
  isplitl []
  · iexact HI
  · iempintro

theorem sent_done : sentBody m K c ((((((((((((((((nz).erase 1).erase 2).erase 3).erase 4).erase 5).erase 6).erase 7).erase 8).erase 9).erase 10).erase 11).erase 12).erase 13).erase 14).erase 15)
    ⊢ iprop(owing c 0 ∗ (bigSep nz fun d => atPos ER (sendCell c d) 1 (∅ : Finset (Fin 16)) 0)
        ∗ bigSep nz fun d => rowPts c c (shareTok fullShare 16 d) (tbl m)) := by
  rw [E15_eq]; unfold sentBody; rw [bigSep_empty, Finset.sdiff_empty, bigSep_sep']
  iintro ⟨-, HOw, -, H1, H2⟩
  iframe

set_option maxHeartbeats 16000000 in
set_option maxRecDepth 100000 in
theorem sound_body (Kt : PUnit → sProp 𝕄) :
    iprop(S0 m K c ∗ (bodyPost m ρ c -∗ Kt ⟨⟩))
      ⊢ wp frame (wpE (defs₀ (F := F)) 𝒱₀ (c : Thread nD τ) none) Set.univ
          (cc0_body (Memref.whole main_arg0) (Memref.isWhole_whole _) (Memref.whole cc0_stg0_0) (Memref.isWhole_whole _)
            (Memref.whole cc0_scratch0) (Memref.isWhole_whole _) (Memref.whole cc0_scratch1) (Memref.isWhole_whole _)
            cc0_scratch2 cc0_scratch3 cc0_scratch4) Kt := by
  unfold cc0_body k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27
  simp only [semSignalWord, semWaitWord, Prog.lift, Prog.bind_op, Prog.bind_ret, Prog.pure_eq_ret, wp_deviceId]
  unfold S0
  iintro ⟨⟨#HI, #HLv, HPbar, HPload, HPs0, HPsN, HPrc, HPrN, HTSig, HTRecv, HTSend, HTLoad, HCrBar, HCrRecv, HX, HXV, HRowc, HRows, HOw, HOut⟩, HK⟩
  -- the block's load is started
  iapply (to_wand fun R hk => step_copy m K c hk) $$ [HX HXV HTLoad]
  · iframe; iexact HI
  iintro HCrLoad
  -- the fifteen signals
  ihave Hsig := (sig_start m K c) $$ [HOw HTSig HRows]
  · iframe; iexact HI
  iapply (w_signal m K c 1 (by decide) (dev1_eq c) rfl (by decide)) $$ Hsig; iintro Hsig
  iapply (w_signal m K c 2 (by decide) (dev2_eq c) rfl (by decide)) $$ Hsig; iintro Hsig
  iapply (w_signal m K c 3 (by decide) (dev3_eq c) rfl (by decide)) $$ Hsig; iintro Hsig
  iapply (w_signal m K c 4 (by decide) (dev4_eq c) rfl (by decide)) $$ Hsig; iintro Hsig
  iapply (w_signal m K c 5 (by decide) (dev5_eq c) rfl (by decide)) $$ Hsig; iintro Hsig
  iapply (w_signal m K c 6 (by decide) (dev6_eq c) rfl (by decide)) $$ Hsig; iintro Hsig
  iapply (w_signal m K c 7 (by decide) (dev7_eq c) rfl (by decide)) $$ Hsig; iintro Hsig
  iapply (w_signal m K c 8 (by decide) (dev8_eq c) rfl (by decide)) $$ Hsig; iintro Hsig
  iapply (w_signal m K c 9 (by decide) (dev9_eq c) rfl (by decide)) $$ Hsig; iintro Hsig
  iapply (w_signal m K c 10 (by decide) (dev10_eq c) rfl (by decide)) $$ Hsig; iintro Hsig
  iapply (w_signal m K c 11 (by decide) (dev11_eq c) rfl (by decide)) $$ Hsig; iintro Hsig
  iapply (w_signal m K c 12 (by decide) (dev12_eq c) rfl (by decide)) $$ Hsig; iintro Hsig
  iapply (w_signal m K c 13 (by decide) (dev13_eq c) rfl (by decide)) $$ Hsig; iintro Hsig
  iapply (w_signal m K c 14 (by decide) (dev14_eq c) rfl (by decide)) $$ Hsig; iintro Hsig
  iapply (w_signal m K c 15 (by decide) (dev15_eq c) rfl (by decide)) $$ Hsig; iintro Hsig
  ihave HOw := (sig_done m K c) $$ Hsig
  -- the block has arrived
  iapply (to_wand fun R hk => step_waitLoad m K c hk) $$ [HCrLoad HOw HPload]
  · iframe; isplitl []
    · iexact HI
    · iexact HLv
  iintro ⟨HOw, HPload, HXV, HX⟩
  -- the block is read and its row sums stored in the device's own row
  iapply (to_wand fun R hk => step_loadXv m c hk) $$ HXV
  iintro HXV
  icases HRowc with ⟨%f0, HRowc⟩
  iapply (to_wand_all fun R hk => step_loadRow c (k0_off1_eq c) hk) $$ HRowc
  iintro %v0 HRowc
  iapply (to_wand fun R hk => step_storeRow m c (k0_off1_eq c) hk) $$ HRowc
  iintro HRowc
  -- the fifteen signals have arrived: every other device's row `c` is the device's to write
  iapply (to_wand fun R hk => step_waitBar m K c rfl hk) $$ [HCrBar HOw HPbar]
  · iframe; isplitl []
    · iexact HI
    · iexact HLv
  iintro ⟨HOw, HPbar, HRowsIn⟩
  -- the device's row, by shares: one for each transfer to read
  ihave Hr := (row_tokens c c (tbl m)).1 $$ HRowc
  icases Hr with ⟨HRdrop, HRtok0, HRtoks⟩
  -- the fifteen transfers of its row
  ihave Hsend := (send_start m K c) $$ [HOw HTSend HTRecv HRtoks HRowsIn]
  · iframe; iexact HI
  iapply (w_send m K c 1 (by decide) (dev16_eq c) (rowM_of_off c _ _ (k0_off3_eq c)) (rowM_of_off c _ _ (k0_off3_eq c)) rfl (recvS_of_off c _ _ (k0_off2_eq c)) (by decide) (by decide)) $$ Hsend; iintro Hsend
  iapply (w_send m K c 2 (by decide) (dev17_eq c) (rowM_of_off c _ _ (k0_off3_eq c)) (rowM_of_off c _ _ (k0_off3_eq c)) rfl (recvS_of_off c _ _ (k0_off2_eq c)) (by decide) (by decide)) $$ Hsend; iintro Hsend
  iapply (w_send m K c 3 (by decide) (dev18_eq c) (rowM_of_off c _ _ (k0_off3_eq c)) (rowM_of_off c _ _ (k0_off3_eq c)) rfl (recvS_of_off c _ _ (k0_off2_eq c)) (by decide) (by decide)) $$ Hsend; iintro Hsend
  iapply (w_send m K c 4 (by decide) (dev19_eq c) (rowM_of_off c _ _ (k0_off3_eq c)) (rowM_of_off c _ _ (k0_off3_eq c)) rfl (recvS_of_off c _ _ (k0_off2_eq c)) (by decide) (by decide)) $$ Hsend; iintro Hsend
  iapply (w_send m K c 5 (by decide) (dev20_eq c) (rowM_of_off c _ _ (k0_off3_eq c)) (rowM_of_off c _ _ (k0_off3_eq c)) rfl (recvS_of_off c _ _ (k0_off2_eq c)) (by decide) (by decide)) $$ Hsend; iintro Hsend
  iapply (w_send m K c 6 (by decide) (dev21_eq c) (rowM_of_off c _ _ (k0_off3_eq c)) (rowM_of_off c _ _ (k0_off3_eq c)) rfl (recvS_of_off c _ _ (k0_off2_eq c)) (by decide) (by decide)) $$ Hsend; iintro Hsend
  iapply (w_send m K c 7 (by decide) (dev22_eq c) (rowM_of_off c _ _ (k0_off3_eq c)) (rowM_of_off c _ _ (k0_off3_eq c)) rfl (recvS_of_off c _ _ (k0_off2_eq c)) (by decide) (by decide)) $$ Hsend; iintro Hsend
  iapply (w_send m K c 8 (by decide) (dev23_eq c) (rowM_of_off c _ _ (k0_off3_eq c)) (rowM_of_off c _ _ (k0_off3_eq c)) rfl (recvS_of_off c _ _ (k0_off2_eq c)) (by decide) (by decide)) $$ Hsend; iintro Hsend
  iapply (w_send m K c 9 (by decide) (dev24_eq c) (rowM_of_off c _ _ (k0_off3_eq c)) (rowM_of_off c _ _ (k0_off3_eq c)) rfl (recvS_of_off c _ _ (k0_off2_eq c)) (by decide) (by decide)) $$ Hsend; iintro Hsend
  iapply (w_send m K c 10 (by decide) (dev25_eq c) (rowM_of_off c _ _ (k0_off3_eq c)) (rowM_of_off c _ _ (k0_off3_eq c)) rfl (recvS_of_off c _ _ (k0_off2_eq c)) (by decide) (by decide)) $$ Hsend; iintro Hsend
  iapply (w_send m K c 11 (by decide) (dev26_eq c) (rowM_of_off c _ _ (k0_off3_eq c)) (rowM_of_off c _ _ (k0_off3_eq c)) rfl (recvS_of_off c _ _ (k0_off2_eq c)) (by decide) (by decide)) $$ Hsend; iintro Hsend
  iapply (w_send m K c 12 (by decide) (dev27_eq c) (rowM_of_off c _ _ (k0_off3_eq c)) (rowM_of_off c _ _ (k0_off3_eq c)) rfl (recvS_of_off c _ _ (k0_off2_eq c)) (by decide) (by decide)) $$ Hsend; iintro Hsend
  iapply (w_send m K c 13 (by decide) (dev28_eq c) (rowM_of_off c _ _ (k0_off3_eq c)) (rowM_of_off c _ _ (k0_off3_eq c)) rfl (recvS_of_off c _ _ (k0_off2_eq c)) (by decide) (by decide)) $$ Hsend; iintro Hsend
  iapply (w_send m K c 14 (by decide) (dev29_eq c) (rowM_of_off c _ _ (k0_off3_eq c)) (rowM_of_off c _ _ (k0_off3_eq c)) rfl (recvS_of_off c _ _ (k0_off2_eq c)) (by decide) (by decide)) $$ Hsend; iintro Hsend
  iapply (w_send m K c 15 (by decide) (dev30_eq c) (rowM_of_off c _ _ (k0_off3_eq c)) (rowM_of_off c _ _ (k0_off3_eq c)) rfl (recvS_of_off c _ _ (k0_off2_eq c)) (by decide) (by decide)) $$ Hsend; iintro Hsend
  ihave Hs := (send_done m K c) $$ Hsend
  icases Hs with ⟨HOw, HCrSend⟩
  -- the fifteen rows sent to it
  ihave Hrecv := (recv_start m K c) $$ [HOw HCrRecv HPrN]
  · iframe; iexact HI
  iapply (w_waitRecv m K c 1 (by decide) (recvS_of_off (pr c 1) _ _ (off4_eq c 0)) (rowM_of_off (pr c 1) _ _ (off5_eq c 0)) (by decide) (by decide)) $$ Hrecv; iintro Hrecv
  iapply (w_waitRecv m K c 2 (by decide) (recvS_of_off (pr c 2) _ _ (off4_eq c 1)) (rowM_of_off (pr c 2) _ _ (off5_eq c 1)) (by decide) (by decide)) $$ Hrecv; iintro Hrecv
  iapply (w_waitRecv m K c 3 (by decide) (recvS_of_off (pr c 3) _ _ (off4_eq c 2)) (rowM_of_off (pr c 3) _ _ (off5_eq c 2)) (by decide) (by decide)) $$ Hrecv; iintro Hrecv
  iapply (w_waitRecv m K c 4 (by decide) (recvS_of_off (pr c 4) _ _ (off4_eq c 3)) (rowM_of_off (pr c 4) _ _ (off5_eq c 3)) (by decide) (by decide)) $$ Hrecv; iintro Hrecv
  iapply (w_waitRecv m K c 5 (by decide) (recvS_of_off (pr c 5) _ _ (off4_eq c 4)) (rowM_of_off (pr c 5) _ _ (off5_eq c 4)) (by decide) (by decide)) $$ Hrecv; iintro Hrecv
  iapply (w_waitRecv m K c 6 (by decide) (recvS_of_off (pr c 6) _ _ (off4_eq c 5)) (rowM_of_off (pr c 6) _ _ (off5_eq c 5)) (by decide) (by decide)) $$ Hrecv; iintro Hrecv
  iapply (w_waitRecv m K c 7 (by decide) (recvS_of_off (pr c 7) _ _ (off4_eq c 6)) (rowM_of_off (pr c 7) _ _ (off5_eq c 6)) (by decide) (by decide)) $$ Hrecv; iintro Hrecv
  iapply (w_waitRecv m K c 8 (by decide) (recvS_of_off (pr c 8) _ _ (off4_eq c 7)) (rowM_of_off (pr c 8) _ _ (off5_eq c 7)) (by decide) (by decide)) $$ Hrecv; iintro Hrecv
  iapply (w_waitRecv m K c 9 (by decide) (recvS_of_off (pr c 9) _ _ (off4_eq c 8)) (rowM_of_off (pr c 9) _ _ (off5_eq c 8)) (by decide) (by decide)) $$ Hrecv; iintro Hrecv
  iapply (w_waitRecv m K c 10 (by decide) (recvS_of_off (pr c 10) _ _ (off4_eq c 9)) (rowM_of_off (pr c 10) _ _ (off5_eq c 9)) (by decide) (by decide)) $$ Hrecv; iintro Hrecv
  iapply (w_waitRecv m K c 11 (by decide) (recvS_of_off (pr c 11) _ _ (off4_eq c 10)) (rowM_of_off (pr c 11) _ _ (off5_eq c 10)) (by decide) (by decide)) $$ Hrecv; iintro Hrecv
  iapply (w_waitRecv m K c 12 (by decide) (recvS_of_off (pr c 12) _ _ (off4_eq c 11)) (rowM_of_off (pr c 12) _ _ (off5_eq c 11)) (by decide) (by decide)) $$ Hrecv; iintro Hrecv
  iapply (w_waitRecv m K c 13 (by decide) (recvS_of_off (pr c 13) _ _ (off4_eq c 12)) (rowM_of_off (pr c 13) _ _ (off5_eq c 12)) (by decide) (by decide)) $$ Hrecv; iintro Hrecv
  iapply (w_waitRecv m K c 14 (by decide) (recvS_of_off (pr c 14) _ _ (off4_eq c 13)) (rowM_of_off (pr c 14) _ _ (off5_eq c 13)) (by decide) (by decide)) $$ Hrecv; iintro Hrecv
  iapply (w_waitRecv m K c 15 (by decide) (recvS_of_off (pr c 15) _ _ (off4_eq c 14)) (rowM_of_off (pr c 15) _ _ (off5_eq c 14)) (by decide) (by decide)) $$ Hrecv; iintro Hrecv
  ihave Hs := (recv_done m K c) $$ Hrecv
  icases Hs with ⟨HOw, HPrN1, HRowsFull⟩
  -- the table is read whole, at the share no transfer holds, summed and scaled into the result
  ihave Hc := (comm_at_drop m c).1 $$ [HRdrop HRowsFull]
  · iframe
  icases Hc with ⟨HComm, HLeft⟩
  iapply (to_wand fun R hk => step_loadComm m c hk) $$ HComm
  iintro HComm
  icases HOut with ⟨%g0, HOut⟩
  iapply (to_wand_all fun R hk => step_loadOut c hk) $$ HOut
  iintro %v1 HOut
  iapply (to_wand fun R hk => step_storeOut m c hk) $$ HOut
  iintro HOut
  ihave Hc := (comm_at_drop m c).2 $$ [HComm HLeft]
  · iframe
  icases Hc with ⟨HRdrop, HRowsFull⟩
  -- its own fifteen transfers have completed
  ihave Hsent := (sent_start m K c) $$ [HOw HCrSend HPsN]
  · iframe; iexact HI
  iapply (w_waitSend m K c 1 (by decide) rfl (rowM_of_off c _ _ (k0_off3_eq c)) (by decide) (by decide)) $$ Hsent; iintro Hsent
  iapply (w_waitSend m K c 2 (by decide) rfl (rowM_of_off c _ _ (k0_off3_eq c)) (by decide) (by decide)) $$ Hsent; iintro Hsent
  iapply (w_waitSend m K c 3 (by decide) rfl (rowM_of_off c _ _ (k0_off3_eq c)) (by decide) (by decide)) $$ Hsent; iintro Hsent
  iapply (w_waitSend m K c 4 (by decide) rfl (rowM_of_off c _ _ (k0_off3_eq c)) (by decide) (by decide)) $$ Hsent; iintro Hsent
  iapply (w_waitSend m K c 5 (by decide) rfl (rowM_of_off c _ _ (k0_off3_eq c)) (by decide) (by decide)) $$ Hsent; iintro Hsent
  iapply (w_waitSend m K c 6 (by decide) rfl (rowM_of_off c _ _ (k0_off3_eq c)) (by decide) (by decide)) $$ Hsent; iintro Hsent
  iapply (w_waitSend m K c 7 (by decide) rfl (rowM_of_off c _ _ (k0_off3_eq c)) (by decide) (by decide)) $$ Hsent; iintro Hsent
  iapply (w_waitSend m K c 8 (by decide) rfl (rowM_of_off c _ _ (k0_off3_eq c)) (by decide) (by decide)) $$ Hsent; iintro Hsent
  iapply (w_waitSend m K c 9 (by decide) rfl (rowM_of_off c _ _ (k0_off3_eq c)) (by decide) (by decide)) $$ Hsent; iintro Hsent
  iapply (w_waitSend m K c 10 (by decide) rfl (rowM_of_off c _ _ (k0_off3_eq c)) (by decide) (by decide)) $$ Hsent; iintro Hsent
  iapply (w_waitSend m K c 11 (by decide) rfl (rowM_of_off c _ _ (k0_off3_eq c)) (by decide) (by decide)) $$ Hsent; iintro Hsent
  iapply (w_waitSend m K c 12 (by decide) rfl (rowM_of_off c _ _ (k0_off3_eq c)) (by decide) (by decide)) $$ Hsent; iintro Hsent
  iapply (w_waitSend m K c 13 (by decide) rfl (rowM_of_off c _ _ (k0_off3_eq c)) (by decide) (by decide)) $$ Hsent; iintro Hsent
  iapply (w_waitSend m K c 14 (by decide) rfl (rowM_of_off c _ _ (k0_off3_eq c)) (by decide) (by decide)) $$ Hsent; iintro Hsent
  iapply (w_waitSend m K c 15 (by decide) rfl (rowM_of_off c _ _ (k0_off3_eq c)) (by decide) (by decide)) $$ Hsent; iintro Hsent
  ihave Hs := (sent_done m K c) $$ Hsent
  icases Hs with ⟨HOw, HPsN1, HRtoks⟩
  -- everything is handed back
  unfold WP
  rw [wp_ret]
  imod (finish m ρ K c) $$ [HPload HPs0 HPsN1 HPrc HPrN1 HX HXV HRdrop HRtok0 HRtoks HRowsFull HOw HOut] with Hpost
  · unfold Sfin; iframe; iexact HI
  imodintro
  iapply HK
  iexact Hpost

/-- The library's body obligation on device `c`. -/
theorem body_obligation (c : Dev nD) : BodyObligation (dats (F := F) m ρ 0 c) (defs₀ (F := F)) 𝒱₀ () Set.univ :=
  body_obligation_of m ρ c fun K Kt => sound_body m ρ K c Kt

end Cert.KernelProof

end
-- ==== Proof.KernelLaunch.lean ====
import proofs.«900952_g7700000000000953_dist_mean_ax0_shard0_i_m512_n256_v7x_i16_bf16_1_alg».proof.Proof.KernelBody
import proofs.«900952_g7700000000000953_dist_mean_ax0_shard0_i_m512_n256_v7x_i16_bf16_1_alg».proof.Proof.Gen.Kernel.Launch

/-!
The launch: every device's cells funded and their invariants allocated under one update, the duty tokens dealt
to the devices that pay them, and the run of @main on the sixteen devices from the body obligation.
-/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-- What every final state satisfies: each device's result array holds the mean's row, and its block of `x` is unchanged. -/
def QC : PUnit × MemSt nD τ sig (Elt F) → Prop := fun r =>
  ∀ c : Dev nD, r.2.mem ((c : Thread nD τ).loc main_v1) = outV m
    ∧ r.2.mem ((c : Thread nD τ).loc main_arg0) = m ((c : Thread nD τ).loc main_arg0)

namespace Launch

/-! ## The cells and the tokens minted at launch -/

theorem ownSemFacts : Pipeline.OwnSemFacts cfg0.spec osem := by decide

theorem share_eq (c : Dev nD) (w : Fin cfg0.W) : (dats m ρ 0 c).share w = fullShare := by unfold Dat.share; split <;> rfl

/-- All the cells of the exchange: thirty-four a device. -/
def exCells : Finset (GSem nD τ sig) := Finset.univ.map ⟨kcell, kcell_injective⟩

/-- The tokens minted: for every device and every `e`, duty `e` of its barrier cell, duty 0 of its send cell `e` and of
    its receive cell `e`, and duty `e` of its load cell. (Those that are no duty of the schedule are never used.) -/
abbrev tokOf (x : Dev nD × Fin 16 × Fin 4) : GSem nD τ sig × ℕ × Fin 16 := match x.2.2 with
  | 0 => (barCell x.1, 0, x.2.1) | 1 => (sendCell x.1 x.2.1, 0, 0) | 2 => (recvCell x.1 x.2.1, 0, 0) | 3 => (loadCell x.1, 0, x.2.1)
/-- The semaphore and the duty of a minted token, which do not depend on the device. -/
abbrev tokPart (x : Fin 16 × Fin 4) : SemLoc sig × Fin 16 := match x.2 with
  | 0 => (.reg barS, x.1) | 1 => (.dma (sendS x.1), 0) | 2 => (.dma (recvS x.1), 0) | 3 => (.dma loadS, x.1)
theorem tokPart_injective : Function.Injective tokPart := by decide +kernel
theorem tokOf_injective : Function.Injective (tokOf : Dev nD × Fin 16 × Fin 4 → GSem nD τ sig × ℕ × Fin 16) := by
  rintro ⟨c, e, i⟩ ⟨c', e', i'⟩ h
  have h1 : c = c' := by
    have := congrArg (fun x : GSem nD τ sig × ℕ × Fin 16 => x.1.1.1) h
    fin_cases i <;> fin_cases i' <;> exact this
  subst h1
  have h2 : tokPart (e, i) = tokPart (e', i') := by
    have := congrArg (fun x : GSem nD τ sig × ℕ × Fin 16 => (x.1.2, x.2.2)) h
    fin_cases i <;> fin_cases i' <;> exact this
  have h3 := tokPart_injective h2
  cases h3; rfl
def exToks : Finset (GSem nD τ sig × ℕ × Fin 16) := Finset.univ.map ⟨tokOf, tokOf_injective⟩

def u₀ : UU :=
  (initOf (Pipeline.cells cfgs cellOf_inj) (Pipeline.launchToks cfgs cellOf_inj), initOf exCells exToks)

/-- The tokens minted for device `c`'s own cells. -/
def toks (c : Dev nD) : sProp 𝕄 :=
  iprop((bigSep Finset.univ fun e : Fin 16 => dutyTok ER (barCell c) 0 e)
    ∗ (bigSep Finset.univ fun d : Fin 16 => dutyTok ER (sendCell c d) 0 (0 : Fin 16))
    ∗ (bigSep Finset.univ fun j : Fin 16 => dutyTok ER (recvCell c j) 0 (0 : Fin 16))
    ∗ (bigSep Finset.univ fun e : Fin 16 => dutyTok ER (loadCell c) 0 e))

/-- What the launch element deals device `c`. -/
def G (c : Dev nD) : sProp 𝕄 :=
  iprop((bigSep Finset.univ fun k : Fin 34 => roundState ER (exRd m) (kcell (c, k)) 0)
    ∗ (bigSep Finset.univ fun k : Fin 34 => iprop(atPos ER (kcell (c, k)) 0 (∅ : Finset (Fin 16)) 0 ∗ reached ER (kcell (c, k)) 0)) ∗ toks c)

/-- What the global step makes of it. -/
def G' (c : Dev nD) : sProp 𝕄 := iprop(∃ K, ghost m K c)

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 34 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    refine bigSep_congr fun c _ => ?_
    rw [bigSep_univ_prod]
    simp only [bigSep_fin4]
    rw [bigSep_sep', bigSep_sep', bigSep_sep']
    rfl
  iintro HX
  imod (Rounds.fund ER (exRd m) exCells exToks) $$ HX with ⟨Hst, Hr, Hat, Htok⟩
  imodintro
  ihave Hst' := (Entails.of_eq (hX fun g => roundState ER (exRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Cell `k + 1` of a device, `k` one of its own thirty-three semaphores. -/
abbrev ksucc : Fin 33 ↪ Fin 34 := ⟨fun k => ⟨k.val + 1, by omega⟩, fun a b h => Fin.ext (by have := congrArg Fin.val h; simp only at this; omega)⟩
theorem erase_zero_eq : (Finset.univ : Finset (Fin 34)).erase 0 = Finset.univ.map ksucc := by decide
/-- A device's thirty-four cells: the barrier cell and its own thirty-three. -/
theorem bigSep_fin34 (Φ : Fin 34 → sProp 𝕄) : bigSep Finset.univ Φ = iprop(Φ 0 ∗ bigSep Finset.univ fun k : Fin 33 => Φ (ksucc k)) := by
  rw [bigSep_univ_at Φ 0, erase_zero_eq, bigSep_map]

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 34 => semVal (kcell (c, k)) 0 : sProp 𝕄) := by
  rw [unscopedSems0_eq, bigSep_fin34, kcell_bar]
  unfold Pipeline.ownSems0
  rw [bigSep_congr (s := Finset.univ) (fun (k : Fin 33) _ => congrArg (fun g => (semVal g 0 : sProp 𝕄)) (osem_eq c k))]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (exRd m) κ (kcell (c, k))))
          ∗ (bigSep Finset.univ fun k : Fin 34 => iprop(atPos ER (kcell (c, k)) 0 (∅ : Finset (Fin 16)) 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 34 => semVal (kcell (c, k)) 0) ∗ bigSep Finset.univ fun k : Fin 34 => roundState ER (exRd m) (kcell (c, k)) 0)
      ⊢ (|={Set.univ}=> bigSep Finset.univ fun k => iprop(∃ κ : ℕ, cellInv ER (exRd m) κ (kcell (c, k))) : sProp 𝕄) from by
        rw [← bigSep_sep']
        exact (bigSep_mono fun k _ => (Rounds.body_intro ER (exRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Undoing an offset is a permutation of the offsets; -/
def ngE : Fin 16 ≃ Fin 16 := ⟨ng, ng, ng_ng, ng_ng⟩
/-- the devices as the offsets from a device `c`. -/
def prE (c : Dev nD) : Fin 16 ≃ Dev nD := ⟨fun d => pr c d, fun q => off c q, fun d => off_pr c d, fun q => pr_off c q⟩

/-- The barrier tokens: duty `e` of device `q`'s barrier cell goes to the device `e` places after `q`; so device `c` gets,
    for each offset `d`, duty `ng d` of the barrier cell of the device `d` places after it. -/
theorem deal_bar : (bigSep Finset.univ fun q : Dev nD => bigSep Finset.univ fun e : Fin 16 => (dutyTok ER (barCell q) 0 e : sProp 𝕄))
    ⊢ bigSep Finset.univ fun c : Dev nD => bigSep nz fun d => dutyTok ER (barCell (pr c d)) 0 (ng d) := by
  have e1 : (bigSep Finset.univ fun q : Dev nD => bigSep Finset.univ fun e : Fin 16 => (dutyTok ER (barCell q) 0 e : sProp 𝕄))
      = bigSep Finset.univ fun c : Dev nD => bigSep Finset.univ fun d : Fin 16 => dutyTok ER (barCell (pr c d)) 0 (ng d) :=
    calc (bigSep Finset.univ fun q : Dev nD => bigSep Finset.univ fun e : Fin 16 => (dutyTok ER (barCell q) 0 e : sProp 𝕄))
        = bigSep Finset.univ fun q : Dev nD => bigSep Finset.univ fun d : Fin 16 => (dutyTok ER (barCell q) 0 (ng d) : sProp 𝕄) :=
          bigSep_congr fun q _ => bigSep_univ_equiv ngE (fun e => (dutyTok ER (barCell q) 0 e : sProp 𝕄))
      _ = bigSep Finset.univ fun d : Fin 16 => bigSep Finset.univ fun q : Dev nD => (dutyTok ER (barCell q) 0 (ng d) : sProp 𝕄) :=
          bigSep_univ_comm (fun (q : Dev nD) (d : Fin 16) => (dutyTok ER (barCell q) 0 (ng d) : sProp 𝕄))
      _ = bigSep Finset.univ fun d : Fin 16 => bigSep Finset.univ fun c : Dev nD => (dutyTok ER (barCell (pr c d)) 0 (ng d) : sProp 𝕄) :=
          bigSep_congr fun d _ => bigSep_univ_equiv (shift d) (fun q => (dutyTok ER (barCell q) 0 (ng d) : sProp 𝕄))
      _ = bigSep Finset.univ fun c : Dev nD => bigSep Finset.univ fun d : Fin 16 => (dutyTok ER (barCell (pr c d)) 0 (ng d) : sProp 𝕄) :=
          bigSep_univ_comm (fun (d : Fin 16) (c : Dev nD) => (dutyTok ER (barCell (pr c d)) 0 (ng d) : sProp 𝕄))
  rw [e1]
  exact bigSep_mono fun c _ => bigSep_subset (Finset.subset_univ _)

/-- The receive tokens: duty 0 of device `q`'s receive cell `j` goes to device `j`, from which `q` is some offset away. -/
theorem deal_recv : (bigSep Finset.univ fun q : Dev nD => bigSep Finset.univ fun j : Fin 16 => (dutyTok ER (recvCell q j) 0 (0 : Fin 16) : sProp 𝕄))
    ⊢ bigSep Finset.univ fun c : Dev nD => bigSep nz fun d => dutyTok ER (recvCell (pr c d) c) 0 (0 : Fin 16) := by
  have e1 : (bigSep Finset.univ fun q : Dev nD => bigSep Finset.univ fun j : Fin 16 => (dutyTok ER (recvCell q j) 0 (0 : Fin 16) : sProp 𝕄))
      = bigSep Finset.univ fun c : Dev nD => bigSep Finset.univ fun d : Fin 16 => dutyTok ER (recvCell (pr c d) c) 0 (0 : Fin 16) :=
    calc (bigSep Finset.univ fun q : Dev nD => bigSep Finset.univ fun j : Fin 16 => (dutyTok ER (recvCell q j) 0 (0 : Fin 16) : sProp 𝕄))
        = bigSep Finset.univ fun c : Dev nD => bigSep Finset.univ fun q : Dev nD => (dutyTok ER (recvCell q c) 0 (0 : Fin 16) : sProp 𝕄) :=
          bigSep_univ_comm (fun (q : Dev nD) (j : Dev nD) => (dutyTok ER (recvCell q j) 0 (0 : Fin 16) : sProp 𝕄))
      _ = bigSep Finset.univ fun c : Dev nD => bigSep Finset.univ fun d : Fin 16 => (dutyTok ER (recvCell (pr c d) c) 0 (0 : Fin 16) : sProp 𝕄) :=
          bigSep_congr fun c _ => bigSep_univ_equiv (prE c) (fun q => (dutyTok ER (recvCell q c) 0 (0 : Fin 16) : sProp 𝕄))
  rw [e1]
  exact bigSep_mono fun c _ => bigSep_subset (Finset.subset_univ _)

/-- The tokens dealt to the devices that pay them. -/
theorem toks_dealt : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep']
  iintro ⟨HB, HS, HR, HL⟩
  isplitl [HB]; · iapply (deal_bar (F := F)); iexact HB
  isplitl [HR]; · iapply (deal_recv (F := F)); iexact HR
  isplitl [HS]
  · iapply (show (bigSep Finset.univ fun c : Dev nD => bigSep Finset.univ fun d : Fin 16 => (dutyTok ER (sendCell c d) 0 (0 : Fin 16) : sProp 𝕄))
        ⊢ bigSep Finset.univ fun c : Dev nD => bigSep nz fun d : Fin 16 => (dutyTok ER (sendCell c d) 0 (0 : Fin 16) : sProp 𝕄) from
      bigSep_mono fun c _ => bigSep_subset (Finset.subset_univ nz))
    iexact HS
  · iapply (show (bigSep Finset.univ fun c : Dev nD => bigSep Finset.univ fun e : Fin 16 => (dutyTok ER (loadCell c) 0 e : sProp 𝕄))
        ⊢ bigSep Finset.univ fun c : Dev nD => (dutyTok ER (loadCell c) 0 (0 : Fin 16) : sProp 𝕄) from
      bigSep_mono fun c _ => bigSep_elim (Finset.mem_univ (0 : Fin 16)))
    iexact HL

theorem regroup :
    (bigSep Finset.univ fun c : Dev nD => iprop((bigSep Finset.univ fun k => iprop(∃ κ : ℕ, cellInv ER (exRd m) κ (kcell (c, k))))
          ∗ (bigSep Finset.univ fun k : Fin 34 => iprop(atPos ER (kcell (c, k)) 0 (∅ : Finset (Fin 16)) 0 ∗ reached ER (kcell (c, k)) 0)) ∗ toks c) : sProp 𝕄)
      ⊢ bigSep Finset.univ (G' m) := by
  rw [bigSep_sep', bigSep_sep', ← bigSep_univ_prod (fun ck : Dev nD × Fin 34 => iprop(∃ κ : ℕ, cellInv ER (exRd m) κ (kcell ck))),
    bigSep_congr (s := Finset.univ) (fun (c : Dev nD) _ => bigSep_sep' Finset.univ (fun k : Fin 34 => (atPos ER (kcell (c, k)) 0 (∅ : Finset (Fin 16)) 0 : sProp 𝕄)) (fun k => reached ER (kcell (c, k)) 0)),
    bigSep_sep', ← bigSep_univ_prod (fun ck : Dev nD × Fin 34 => (reached ER (kcell ck) 0 : sProp 𝕄))]
  iintro ⟨HI, ⟨Hat, #HR⟩, Htok⟩
  ihave HK := (BI.bigSep_exists_pi Finset.univ (fun (ck : Dev nD × Fin 34) (κ : ℕ) => (cellInv ER (exRd m) κ (kcell ck) : sProp 𝕄))) $$ HI
  icases HK with ⟨%K, #HI⟩
  ihave Htk := (toks_dealt (F := F)) $$ Htok
  iapply (bigSep_with_persistent (R := records m K) fun c _ => show iprop(records m K ∗ linear c) ⊢ G' m c from by
    unfold G' ghost; iintro H; iexists K; iexact H)
  isplitr
  · unfold records; isplitl; · iexact HI
    iexact HR
  · iapply (Entails.of_eq (bigSep_sep' Finset.univ (fun c : Dev nD => bigSep Finset.univ fun k : Fin 34 => (atPos ER (kcell (c, k)) 0 (∅ : Finset (Fin 16)) 0 : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem recv_ne_bar (j : Fin 16) : (SemLoc.dma (recvS j) : SemLoc sig) ≠ .reg barS := fun h => by cases h
theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {j j' : Fin 16} : Iff (recvCell a j = recvCell b j') (a = b ∧ j = j') :=
  ⟨fun h => ⟨Fin.ext (congrArg (fun g : GSem nD τ sig => g.1.1.val) h), recvS_inj (SemLoc.dma.inj (congrArg Prod.snd h))⟩, fun h => by rw [h.1, h.2]⟩

/-- What device `d` owes device `c`'s barrier cell: one unit unless it is `c` itself. -/
theorem owed_bar (d c : Dev nD) : O₀ d (barCell c) () = if d = c then 0 else 1 := by
  unfold O₀ owedRecv owedSig
  rw [Pi.add_apply, Finsupp.add_apply, Finset.sum_apply, Finsupp.finsetSum_apply, Finset.sum_apply, Finsupp.finsetSum_apply,
    Finset.sum_eq_zero (fun e _ => by rw [tallyAt_ne_cell (fun h => recv_ne_bar _ (congrArg Prod.snd h).symm)]; rfl), Nat.zero_add,
    Finset.sum_congr rfl (fun e _ => tallyAt_apply _ _ _ _ _)]
  by_cases h : d = c
  · subst h; rw [if_pos rfl]
    exact Finset.sum_eq_zero fun e he => if_neg fun h' => (pr_ne (Finset.ne_of_mem_erase he)) (bar_eq_iff.mp h'.1).symm
  · rw [if_neg h, Finset.sum_eq_single (off d c) (fun e _ hne => if_neg fun h' => hne (by rw [← off_pr d e, ← bar_eq_iff.mp h'.1]))
      (fun hn => absurd (Finset.mem_erase.mpr ⟨off_ne_zero (Ne.symm h), Finset.mem_univ _⟩) hn), pr_off, if_pos ⟨rfl, rfl⟩]

/-- What device `d` owes device `c`'s receive cell `j`, another device's: a row's credit if it is `j`. -/
theorem owed_recv (d c : Dev nD) {j : Fin 16} (hj : j ≠ c) : O₀ d (recvCell c j) () = if d = j then N1 else 0 := by
  unfold O₀ owedRecv owedSig
  rw [Pi.add_apply, Finsupp.add_apply, Finset.sum_apply, Finsupp.finsetSum_apply, Finset.sum_apply, Finsupp.finsetSum_apply,
    Finset.sum_eq_zero (s := nz) (f := fun e => (tallyAt (barCell (pr d e)) () 1 : CellTallies nD τ sig Unit) (recvCell c j) ())
      (fun e _ => by rw [tallyAt_ne_cell (fun h => recv_ne_bar _ (congrArg Prod.snd h))]; rfl), Nat.add_zero,
    Finset.sum_congr rfl (fun e _ => tallyAt_apply _ _ _ _ _)]
  by_cases h : d = j
  · subst h; rw [if_pos rfl, Finset.sum_eq_single (off d c) (fun e _ hne => if_neg fun h' => hne (by rw [← off_pr d e, ← (recv_eq_iff.mp h'.1).1]))
      (fun hn => absurd (Finset.mem_erase.mpr ⟨off_ne_zero (Ne.symm hj), Finset.mem_univ _⟩) hn), pr_off, if_pos ⟨rfl, rfl⟩]
  · rw [if_neg h]
    exact Finset.sum_eq_zero fun e _ => if_neg fun h' => h (recv_eq_iff.mp h'.1).2.symm

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) {j : Fin 16} (hj : j ≠ c) :
    tallyOn (recvCell c j) (launchCredit (Pipeline.owing O₀) 0 (recvCell c j)) = (tallyAt (recvCell c j) () N1 : CellTallies nD τ sig Unit) := by
  unfold tallyAt; refine congrArg _ (Finsupp.ext fun u => ?_); cases u
  rw [Pipeline.launchCredit_owing, Finsupp.single_eq_same, Finset.sum_congr rfl fun d _ => owed_recv d c hj,
    Finset.sum_ite_eq' Finset.univ j fun _ => N1, if_pos (Finset.mem_univ _)]

theorem creds_intro (c : Dev nD) : (Pipeline.launchCred O₀ c : sProp 𝕄) ⊢ creds c := by
  unfold Pipeline.launchCred creds
  rw [bigSep_univ_at _ (SemLoc.reg barS), launch_bar]
  refine sep_mono_right ?_
  have hsub : (Finset.univ.erase c).map ⟨fun j : Fin 16 => (SemLoc.dma (recvS j) : SemLoc sig), fun a b h => recvS_inj (SemLoc.dma.inj h)⟩
      ⊆ Finset.univ.erase (SemLoc.reg barS : SemLoc sig) := fun sm h => by
    obtain ⟨j, -, rfl⟩ := Finset.mem_map.mp h
    exact Finset.mem_erase.mpr ⟨recv_ne_bar j, Finset.mem_univ _⟩
  refine (bigSep_subset hsub).trans ?_
  rw [bigSep_map]
  exact Entails.of_eq (bigSep_congr fun j hj => by
    show cred (tallyOn (recvCell c j) (launchCredit (Pipeline.owing O₀) 0 (recvCell c j))) = _
    rw [launch_recv c (Finset.ne_of_mem_erase hj)])

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H0, H1⟩
  isplitl [Hs]; · iexact Hs
  isplitl [H0]; · iexact H0
  iexact H1

theorem phi1_exit (c : Dev nD) :
    (dats m ρ 0 c).Φ (Fin.last cfg0.N) ⊢ iprop((((c : Thread nD τ).loc main_arg0) ↦{fullShare} xblk m c) ∗ Pipeline.ownSems0 osem c ∗ Pipeline.scopedRest cfg0.spec c) := by
  rw [show (dats m ρ 0 c).Φ (Fin.last cfg0.N) = Φ₁ m c from rfl, scopedRest0_eq]
  unfold Φ₁ Pipeline.ownSems0
  iintro ⟨Hx, H0, H1, Hs⟩
  isplitl [Hx]; · iexact Hx
  isplitl [Hs]; · iexact Hs
  isplitl [H0]; · iexact H0
  iexact H1

theorem stageSem_val : ∀ (w : Fin cfg0.W) (s : Fin ((cfg0.win w).nbuf)), ((cfg0.win w).sem s : DmaSem sig).val = 0 := by decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (fun j h => by
        have h1 := congrArg Fin.val h
        have h0 : (((cfgs 0).win w).sem s).val = 0 := stageSem_val w s
        rw [recvS_val, h0] at h1; omega) nz nz
    · show _ ⊢ MayWait (c : Thread nD τ) _ () 0
      rw [MayWait_zero]; iintro -; iempintro

/-- The result array after the one point's write-back is the result. -/
theorem final_out (c : Dev nD) : (dats m ρ 0 c).arrAt (0 : Fin 1) cfg0.N = outV m := by
  have h := (dats m ρ 0 c).arrAt_succ (0 : Fin 1) t0_0
  rw [flush0_0 t0_0, if_pos rfl] at h
  refine h.trans ?_
  exact Memref.write_access_unit_zero_univ (Elt F) main_v1 (funext fun a => Nat.zero_mul _) _ _ _

end Launch

open Launch

set_option maxRecDepth 8000 in
/-- At the compiled mesh of sixteen devices, for any float values, from any memory with zero counters: every weakly fair
    execution of @main terminates, nothing faulting, and every final state has each device's result at `outV` and its
    block of `x` unchanged. -/
theorem run_main : θ_run defs (onTc (τ := τ) (main (F := F))) (s₀ m ρ) (QC m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => iprop(((c : Thread nD τ).loc main_arg0) ↦{fullShare} xblk m c)) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := fun c s' => by
      iintro ⟨Hx, -, HSI⟩
      icombine HSI Hx gives %hx
      imodintro
      isplitr; · ipureintro; exact Buf.eq_of_forall_mem_univ hx
      iexact HSI)
    (hQ := fun s h c => ⟨((h c).1 0).trans (final_out m ρ c), (h c).2.2⟩)

end Cert.KernelProof

end
-- ==== Proof.MeanValue.lean ====
import proofs.«900952_g7700000000000953_dist_mean_ax0_shard0_i_m512_n256_v7x_i16_bf16_1_alg».proof.Proof.KernelIdealMean
import proofs.«900952_g7700000000000953_dist_mean_ax0_shard0_i_m512_n256_v7x_i16_bf16_1_alg».proof.Proof.Gen.ReferenceIdeal.Read
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws

noncomputable section

namespace Cert.MeanValue

open Idealize.ShloMosaic Idealize.ShloMosaic.ValueIdx
open scoped BigOperators

/-! ## The two float literals as extended reals -/

/-- The pattern `0x46000000` denotes the real `8192 = 2¹³`. -/
theorem ofBits_8192 : Ideal.ofBits .f32 0x46000000#32 = ((8192 : ℝ) : EReal) := by
  simp [Ideal.ofBits, Ideal.ieee, -EReal.coe_mul]; norm_num

/-- The pattern `0x39000000` denotes the real `1 / 8192 = 2⁻¹³`. -/
theorem ofBits_inv8192 : Ideal.ofBits .f32 0x39000000#32 = ((1 / 8192 : ℝ) : EReal) := by
  simp [Ideal.ofBits, Ideal.ieee, -EReal.coe_mul]; norm_num

/-! ## Rows of the whole array as (block, row in block) -/

/-- Row `512 · j + r` of the whole array is row `r` of block `j`: the sixteen blocks of 512 rows are the 8192 rows. -/
def rowEquiv : Fin 16 × Fin 512 ≃ Fin 8192 where
  toFun p := ⟨p.1.val * 512 + p.2.val, by omega⟩
  invFun k := (⟨k.val / 512, by omega⟩, ⟨k.val % 512, by omega⟩)
  left_inv p := by
    apply Prod.ext <;> apply Fin.ext <;> simp only <;> omega
  right_inv k := by
    apply Fin.ext; simp only; omega

/-- A sum over the 8192 rows is the sum over the sixteen blocks of the sums over each block's 512 rows (addition of
    extended reals is commutative and associative, so no finiteness is asked). -/
theorem sum_rows (f : Fin 8192 → EReal) :
    ∑ k : Fin 8192, f k = ∑ j : Fin 16, ∑ r : Fin 512, f ⟨j.val * 512 + r.val, by omega⟩ := by
  rw [← Equiv.sum_comp rowEquiv f, Fintype.sum_prod_type]
  rfl

/-! ## The kernel's stages read at an index -/

/-- A block's row sums, laid out as a `1 × 1 × 256` row, read at lane `l`: the sum of the block's column `l`. -/
theorem rowSum_apply (x : FVec Ideal Cert.KernelIdeal.S512x256 .f32) (l : Fin 256) :
    Cert.KernelIdeal.Mean.rowSum (F := Ideal) x (ix3 (0 : Fin 1) (0 : Fin 1) l) = ∑ r : Fin 512, x (ix2 r l) := by
  unfold Cert.KernelIdeal.Mean.rowSum
  refine (shapeCast_ab_1ab_apply _ _ (0 : Fin 1) (0 : Fin 1) l).trans ?_
  refine (shapeCast_a_1a_apply _ _ (0 : Fin 1) l).trans ?_
  refine (Ideal.multiReduction_add_single x 0x00000000#32 Cert.KernelIdeal.Gen.reduces_S512x256_S256 (.inl rfl) rfl
    (ix1 l)).trans ?_
  refine Finset.sum_congr rfl fun r _ => congrArg x ?_
  funext a
  match a with
  | ⟨0, _⟩ => rfl
  | ⟨1, _⟩ => rfl

/-- The result from a table, read at `(p, l)`: the sum of the table's sixteen entries at lane `l`, times `2⁻¹³`. -/
theorem outOf_apply (t : FVec Ideal Cert.KernelIdeal.S16x1x256 .f32) (p : Fin 1) (l : Fin 256) :
    Cert.KernelIdeal.Mean.outOf (F := Ideal) t (ix2 p l)
      = (∑ j : Fin 16, t (ix3 j p l)) * Ideal.ofBits .f32 0x39000000#32 := by
  unfold Cert.KernelIdeal.Mean.outOf
  refine (mulf_apply _ _ (ix2 p l)).trans ?_
  refine congrArg (· * Ideal.ofBits .f32 0x39000000#32) ?_
  refine (Ideal.multiReduction_add_single t 0x00000000#32 Cert.KernelIdeal.Gen.reduces_S16x1x256_S1x256 (.inl rfl) rfl
    (ix2 p l)).trans ?_
  refine Finset.sum_congr rfl fun j _ => congrArg t ?_
  funext a
  match a with
  | ⟨0, _⟩ => rfl
  | ⟨1, _⟩ => rfl
  | ⟨2, _⟩ => rfl

/-- Over the extended reals the kernel's result from the gathered table of the sixteen blocks' row sums is the
    reference's mean of the whole array. -/
theorem outOf_table_eq (X : (⟨Cert.ReferenceIdeal.S8192x256, .f32⟩ : BufTy).Contents (Elt Ideal)) :
    Cert.KernelIdeal.Mean.outOf (F := Ideal) (Cert.KernelIdeal.Mean.table (F := Ideal)
      (fun j => Layout.block ⟨2, ![512, 256]⟩ ⟨2, ![8192, 256]⟩ 0 16 j X))
    = Cert.ReferenceIdeal.Read.val_main_v3 (F := Ideal) X := by
  funext i
  obtain ⟨p, l, rfl⟩ : ∃ (p : Fin 1) (l : Fin 256), i = ix2 p l := ⟨i 0, i 1, eq_ix2 i⟩
  rw [Cert.ReferenceIdeal.Read.val_main_v3_apply, Cert.ReferenceIdeal.Read.val_main_v1_apply,
    Cert.ReferenceIdeal.Read.val_main_v0_apply, Cert.ReferenceIdeal.Read.val_main_v2_apply,
    Cert.ReferenceIdeal.Read.val_main_cst_0_apply, Cert.ReferenceIdeal.Read.val_main_cst_apply]
  rw [outOf_apply]
  rw [Ideal.hostDivf_def, Ideal.ofBits_def, Ideal.ofBits_def, Ideal.ofBits_zero_f32, zero_add, ofBits_8192,
    Ideal.div_coe (by norm_num : (8192 : ℝ) ≠ 0), ofBits_inv8192]
  refine congrArg (· * (((1 / 8192 : ℝ)) : EReal)) ?_
  rw [sum_rows]
  refine Finset.sum_congr rfl fun j _ => ?_
  show Cert.KernelIdeal.Mean.rowSum (F := Ideal) (Layout.block ⟨2, ![512, 256]⟩ ⟨2, ![8192, 256]⟩ 0 16 j X)
      (ix3 (0 : Fin 1) (0 : Fin 1) l) = _
  rw [rowSum_apply]
  refine Finset.sum_congr rfl fun r _ => ?_
  refine congrArg X ?_
  funext a
  match a with
  | ⟨0, _⟩ => rfl
  | ⟨1, _⟩ => rfl

end Cert.MeanValue

end
-- ==== Proof.lean ====
/-
The mean over the rows of an 8192 × 256 array, computed on sixteen devices, against the same mean on one device.

Each device holds one block of 512 consecutive rows. It sums its block's rows into one row of 256 numbers; the
sixteen devices exchange these rows, so that every device ends with the table of all sixteen; every device then
sums the table's sixteen rows and scales the sum by 2⁻¹³ = 1/8192. The reference sums the 8192 rows of the whole
array and divides by 8192.

Over the extended reals addition is commutative and associative, so the sum of the 8192 rows is the sum over the
sixteen blocks of the sums of each block's 512 rows, and dividing by the real number 8192 is multiplying by
1/8192: every device's result is the reference's. No program writes its argument, so each run leaves the
arguments as they were; and the kernel over the extended reals is the kernel's own text, read there, so that
there is nothing to preserve.
-/
import proofs.«900952_g7700000000000953_dist_mean_ax0_shard0_i_m512_n256_v7x_i16_bf16_1_alg».proof.Defs
import proofs.«900952_g7700000000000953_dist_mean_ax0_shard0_i_m512_n256_v7x_i16_bf16_1_alg».proof.Proof.Gen.Kernel
import proofs.«900952_g7700000000000953_dist_mean_ax0_shard0_i_m512_n256_v7x_i16_bf16_1_alg».proof.Proof.Gen.Kernel.Skeleton
import proofs.«900952_g7700000000000953_dist_mean_ax0_shard0_i_m512_n256_v7x_i16_bf16_1_alg».proof.Proof.Gen.Kernel.Launch
import proofs.«900952_g7700000000000953_dist_mean_ax0_shard0_i_m512_n256_v7x_i16_bf16_1_alg».proof.Proof.Gen.Kernel.Points
import proofs.«900952_g7700000000000953_dist_mean_ax0_shard0_i_m512_n256_v7x_i16_bf16_1_alg».proof.Proof.Gen.Kernel.Frame
import proofs.«900952_g7700000000000953_dist_mean_ax0_shard0_i_m512_n256_v7x_i16_bf16_1_alg».proof.Proof.Gen.KernelIdeal
import proofs.«900952_g7700000000000953_dist_mean_ax0_shard0_i_m512_n256_v7x_i16_bf16_1_alg».proof.Proof.Gen.KernelIdeal.Skeleton
import proofs.«900952_g7700000000000953_dist_mean_ax0_shard0_i_m512_n256_v7x_i16_bf16_1_alg».proof.Proof.Gen.KernelIdeal.Launch
import proofs.«900952_g7700000000000953_dist_mean_ax0_shard0_i_m512_n256_v7x_i16_bf16_1_alg».proof.Proof.Gen.KernelIdeal.Points
import proofs.«900952_g7700000000000953_dist_mean_ax0_shard0_i_m512_n256_v7x_i16_bf16_1_alg».proof.Proof.Gen.KernelIdeal.Frame
import proofs.«900952_g7700000000000953_dist_mean_ax0_shard0_i_m512_n256_v7x_i16_bf16_1_alg».proof.Proof.Gen.ReferenceIdeal
import proofs.«900952_g7700000000000953_dist_mean_ax0_shard0_i_m512_n256_v7x_i16_bf16_1_alg».proof.Proof.Gen.Pre_finite_inputs_Kernel
import proofs.«900952_g7700000000000953_dist_mean_ax0_shard0_i_m512_n256_v7x_i16_bf16_1_alg».proof.Proof.Gen.Pre_finite_inputs_ReferenceIdeal
import Idealize.ShloMosaic.Adequacy
import Idealize.ShloMosaic.Init
import proofs.«900952_g7700000000000953_dist_mean_ax0_shard0_i_m512_n256_v7x_i16_bf16_1_alg».proof.Proof.KernelIdealLaunch
import proofs.«900952_g7700000000000953_dist_mean_ax0_shard0_i_m512_n256_v7x_i16_bf16_1_alg».proof.Proof.KernelLaunch
import proofs.«900952_g7700000000000953_dist_mean_ax0_shard0_i_m512_n256_v7x_i16_bf16_1_alg».proof.Proof.Gen.ReferenceIdeal.Run
import proofs.«900952_g7700000000000953_dist_mean_ax0_shard0_i_m512_n256_v7x_i16_bf16_1_alg».proof.Proof.Gen.ReferenceIdeal.Read
import proofs.«900952_g7700000000000953_dist_mean_ax0_shard0_i_m512_n256_v7x_i16_bf16_1_alg».proof.Proof.MeanValue

noncomputable section

namespace Cert.Proof

open Idealize.ShloMosaic Idealize.ShloMosaic.TcCoe Idealize.SL.Sem

/-- From blocks that are the sixteen parts of one whole array, every device's result is the reference's mean of the
    whole array: the table's row `j` is the row sums of block `j`. -/
theorem kernel_value (m : (ℓ : Loc Cert.KernelIdeal.nD Cert.KernelIdeal.τ Cert.KernelIdeal.sig) → Buf (Elt Ideal) ℓ)
    (X : (⟨Cert.ReferenceIdeal.S8192x256, .f32⟩ : BufTy).Contents (Elt Ideal))
    (hagree : ∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c X) :
    Cert.KernelIdealProof.outV (F := Ideal) m = Cert.ReferenceIdeal.Read.val_main_v3 (F := Ideal) X := by
  have hx : (fun j : Fin 16 => Cert.KernelIdealProof.xblk (F := Ideal) m j) = fun j => Layout.block ⟨2, ![512, 256]⟩ ⟨2, ![8192, 256]⟩ 0 16 j X :=
    funext fun j => hagree j
  unfold Cert.KernelIdealProof.outV Cert.KernelIdealProof.tbl
  rw [hx]
  exact Cert.MeanValue.outOf_table_eq X

/-- The word-level kernel runs and leaves its argument as it was. -/
theorem frame_k : Cert.frame_Kernel := fun m g _ =>
  (θ_run _ _ _).mono (fun r h c => (h c).2) (Cert.KernelProof.run_main (F := Bits) m g)

/-- So does the kernel over the extended reals, -/
theorem frame_ki : Cert.frame_KernelIdeal := fun m g _ =>
  (θ_run _ _ _).mono (fun r h c => (h c).2) (Cert.KernelIdealProof.run_main (F := Ideal) m g)

/-- and the reference. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals, from blocks that are the sixteen parts of the reference's array, every device's result
    ends at the reference's result: the mean of the whole array over its rows. -/
theorem algebraic : Cert.algebraic_KernelIdeal_ReferenceIdeal := by
  intro m g m' g' _ hagree
  refine ⟨Cert.ReferenceIdeal.Read.val_main_v3 (F := Ideal) (m' (((0 : Dev Cert.ReferenceIdeal.nD).tc : Thread Cert.ReferenceIdeal.nD Cert.ReferenceIdeal.τ).loc Cert.ReferenceIdeal.main_arg0)), ?_, ?_⟩
  · exact (θ_run _ _ _).mono (fun r h c => ⟨((h c).1).trans (kernel_value m _ hagree), (h c).2⟩)
      (Cert.KernelIdealProof.run_main (F := Ideal) m g)
  · exact (θ_run Cert.ReferenceIdeal.defs _ _).mono (fun r h => ⟨((h 0).1).trans (Cert.ReferenceIdeal.Read.val_main_v3_eq _), (h 0).2⟩)
      (Cert.ReferenceIdeal.Value.run (F := Ideal) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

/-- info: 'Cert.Proof.claim' depends on axioms: [propext, Classical.choice, Quot.sound] -/
#guard_msgs in #print axioms claim

end Cert.Proof

end
